-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000x96 : Shape := ⟨2, ![800000, 96]⟩
abbrev S800000 : Shape := ⟨1, ![800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x96 : S_.BroadcastsInDim S800000x96 (![] : Fin 0 → Fin S800000x96.rank)
  reducesTo_S800000x96_S_d0_1 : S800000x96.ReducesTo [0, 1] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S800000 : S_.BroadcastsInDim S800000 (![] : Fin 0 → Fin S800000.rank)
  reducesTo_S800000_S_d0 : S800000.ReducesTo [0] S_

variable [Facts]

def fn_part5 {F : FTy → Type} [FloatOps F] (main_arg3 : IVec S800000 32) (main_v78 : IVec S_ 1) (main_v84 : IVec S_ 1) : IVec S_ 1 :=
  let main_v85 : IVec S_ 1 := andi main_v78 main_v84
  let main_c_33 : IVec S_ 32 := constantI S_ 32 0#32
  let main_v86 : IVec S800000 32 := broadcastInDim S800000 ![] bcast_S_S800000 main_c_33
  let main_v87 : IVec S800000 1 := cmpi .sge main_arg3 main_v86
  let main_c_34 : IVec S_ 32 := constantI S_ 32 50000#32
  let main_v88 : IVec S800000 32 := broadcastInDim S800000 ![] bcast_S_S800000 main_c_34
  let main_v89 : IVec S800000 1 := cmpi .slt main_arg3 main_v88
  let main_v90 : IVec S800000 1 := andi main_v87 main_v89
  let main_c_35 : IVec S_ 1 := constantI S_ 1 1#1
  let main_v91 : IVec S_ 1 := (fun x v => Host.reduce IntOp.andi x v reducesTo_S800000_S_d0 h_S_) main_v90 main_c_35
  let main_v92 : IVec S_ 1 := andi main_v85 main_v91
  main_v92

def fn_part4 {F : FTy → Type} [FloatOps F] (main_arg2 : IVec S800000 32) (main_arg3 : IVec S800000 32) (main_arg16 : FVec F S96 .f32) (main_arg17 : FVec F S96 .f32) (main_v63 : IVec S_ 1) (main_v67 : IVec S_ 1) : IVec S_ 1 :=
  let main_v68 : IVec S_ 1 := andi main_v63 main_v67
  let main_v69 : FVec F S96 .f32 := Host.absf main_arg16
  let main_cst_26 : FVec F S_ .f32 := constant S_ .f32 0x7F800000#32
  let main_v70 : FVec F S96 .f32 := broadcastInDim S96 ![] bcast_S_S96 main_cst_26
  let main_v71 : IVec S96 1 := cmpf .olt main_v69 main_v70
  let main_c_27 : IVec S_ 1 := constantI S_ 1 1#1
  let main_v72 : IVec S_ 1 := (fun x v => Host.reduce IntOp.andi x v reducesTo_S96_S_d0 h_S_) main_v71 main_c_27
  let main_v73 : IVec S_ 1 := andi main_v68 main_v72
  let main_v74 : FVec F S96 .f32 := Host.absf main_arg17
  let main_cst_28 : FVec F S_ .f32 := constant S_ .f32 0x7F800000#32
  let main_v75 : FVec F S96 .f32 := broadcastInDim S96 ![] bcast_S_S96 main_cst_28
  let main_v76 : IVec S96 1 := cmpf .olt main_v74 main_v75
  let main_c_29 : IVec S_ 1 := constantI S_ 1 1#1
  let main_v77 : IVec S_ 1 := (fun x v => Host.reduce IntOp.andi x v reducesTo_S96_S_d0 h_S_) main_v76 main_c_29
  let main_v78 : IVec S_ 1 := andi main_v73 main_v77
  let main_c_30 : IVec S_ 32 := constantI S_ 32 0#32
  let main_v79 : IVec S800000 32 := broadcastInDim S800000 ![] bcast_S_S800000 main_c_30
  let main_v80 : IVec S800000 1 := cmpi .sge main_arg2 main_v79
  let main_c_31 : IVec S_ 32 := constantI S_ 32 50000#32
  let main_v81 : IVec S800000 32 := broadcastInDim S800000 ![] bcast_S_S800000 main_c_31
  let main_v82 : IVec S800000 1 := cmpi .slt main_arg2 main_v81
  let main_v83 : IVec S800000 1 := andi main_v80 main_v82
  let main_c_32 : IVec S_ 1 := constantI S_ 1 1#1
  let main_v84 : IVec S_ 1 := (fun x v => Host.reduce IntOp.andi x v reducesTo_S800000_S_d0 h_S_) main_v83 main_c_32
  fn_part5 (F := F) main_arg3 main_v78 main_v84

def fn_part3 {F : FTy → Type} [FloatOps F] (main_arg2 : IVec S800000 32) (main_arg3 : IVec S800000 32) (main_arg13 : FVec F S96 .f32) (main_arg14 : FVec F S96 .f32) (main_arg15 : FVec F S96 .f32) (main_arg16 : FVec F S96 .f32) (main_arg17 : FVec F S96 .f32) (main_v48 : IVec S_ 1) (main_v49 : FVec F S96x96 .f32) (main_v50 : FVec F S96x96 .f32) : IVec S_ 1 :=
  let main_v51 : IVec S96x96 1 := cmpf .olt main_v49 main_v50
  let main_c_19 : IVec S_ 1 := constantI S_ 1 1#1
  let main_v52 : IVec S_ 1 := (fun x v => Host.reduce IntOp.andi x v reducesTo_S96x96_S_d0_1 h_S_) main_v51 main_c_19
  let main_v53 : IVec S_ 1 := andi main_v48 main_v52
  let main_v54 : FVec F S96 .f32 := Host.absf main_arg13
  let main_cst_20 : FVec F S_ .f32 := constant S_ .f32 0x7F800000#32
  let main_v55 : FVec F S96 .f32 := broadcastInDim S96 ![] bcast_S_S96 main_cst_20
  let main_v56 : IVec S96 1 := cmpf .olt main_v54 main_v55
  let main_c_21 : IVec S_ 1 := constantI S_ 1 1#1
  let main_v57 : IVec S_ 1 := (fun x v => Host.reduce IntOp.andi x v reducesTo_S96_S_d0 h_S_) main_v56 main_c_21
  let main_v58 : IVec S_ 1 := andi main_v53 main_v57
  let main_v59 : FVec F S96 .f32 := Host.absf main_arg14
  let main_cst_22 : FVec F S_ .f32 := constant S_ .f32 0x7F800000#32
  let main_v60 : FVec F S96 .f32 := broadcastInDim S96 ![] bcast_S_S96 main_cst_22
  let main_v61 : IVec S96 1 := cmpf .olt main_v59 main_v60
  let main_c_23 : IVec S_ 1 := constantI S_ 1 1#1
  let main_v62 : IVec S_ 1 := (fun x v => Host.reduce IntOp.andi x v reducesTo_S96_S_d0 h_S_) main_v61 main_c_23
  let main_v63 : IVec S_ 1 := andi main_v58 main_v62
  let main_v64 : FVec F S96 .f32 := Host.absf main_arg15
  let main_cst_24 : FVec F S_ .f32 := constant S_ .f32 0x7F800000#32
  let main_v65 : FVec F S96 .f32 := broadcastInDim S96 ![] bcast_S_S96 main_cst_24
  let main_v66 : IVec S96 1 := cmpf .olt main_v64 main_v65
  let main_c_25 : IVec S_ 1 := constantI S_ 1 1#1
  let main_v67 : IVec S_ 1 := (fun x v => Host.reduce IntOp.andi x v reducesTo_S96_S_d0 h_S_) main_v66 main_c_25
  fn_part4 (F := F) main_arg2 main_arg3 main_arg16 main_arg17 main_v63 main_v67

def fn_part2 {F : FTy → Type} [FloatOps F] (main_arg2 : IVec S800000 32) (main_arg3 : IVec S800000 32) (main_arg9 : FVec F S96 .f32) (main_arg10 : FVec F S96x96 .f32) (main_arg11 : FVec F S96 .f32) (main_arg12 : FVec F S96x96 .f32) (main_arg13 : FVec F S96 .f32) (main_arg14 : FVec F S96 .f32) (main_arg15 : FVec F S96 .f32) (main_arg16 : FVec F S96 .f32) (main_arg17 : FVec F S96 .f32) (main_v33 : IVec S_ 1) : IVec S_ 1 :=
  let main_v34 : FVec F S96 .f32 := Host.absf main_arg9
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96x96 .f32 := Host.absf main_arg10
  let main_cst_14 : FVec F S_ .f32 := constant S_ .f32 0x7F800000#32
  let main_v40 : FVec F S96x96 .f32 := broadcastInDim S96x96 ![] bcast_S_S96x96 main_cst_14
  let main_v41 : IVec S96x96 1 := cmpf .olt main_v39 main_v40
  let main_c_15 : IVec S_ 1 := constantI S_ 1 1#1
  let main_v42 : IVec S_ 1 := (fun x v => Host.reduce IntOp.andi x v reducesTo_S96x96_S_d0_1 h_S_) main_v41 main_c_15
  let main_v43 : IVec S_ 1 := andi main_v38 main_v42
  let main_v44 : FVec F S96 .f32 := Host.absf main_arg11
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S96x96 .f32 := Host.absf main_arg12
  let main_cst_18 : FVec F S_ .f32 := constant S_ .f32 0x7F800000#32
  let main_v50 : FVec F S96x96 .f32 := broadcastInDim S96x96 ![] bcast_S_S96x96 main_cst_18
  fn_part3 (F := F) main_arg2 main_arg3 main_arg13 main_arg14 main_arg15 main_arg16 main_arg17 main_v48 main_v49 main_v50

def fn_part1 {F : FTy → Type} [FloatOps F] (main_arg2 : IVec S800000 32) (main_arg3 : IVec S800000 32) (main_arg6 : FVec F S96x96 .f32) (main_arg7 : FVec F S96 .f32) (main_arg8 : FVec F S96x96 .f32) (main_arg9 : FVec F S96 .f32) (main_arg10 : FVec F S96x96 .f32) (main_arg11 : FVec F S96 .f32) (main_arg12 : FVec F S96x96 .f32) (main_arg13 : FVec F S96 .f32) (main_arg14 : FVec F S96 .f32) (main_arg15 : FVec F S96 .f32) (main_arg16 : FVec F S96 .f32) (main_arg17 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg6
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg7
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg8
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_v33

def fn {F : FTy → Type} [FloatOps F] (main_arg0 : FVec F S50000x96 .f32) (main_arg1 : FVec F S800000x96 .f32) (main_arg2 : IVec S800000 32) (main_arg3 : IVec S800000 32) (main_arg4 : FVec F S96x96 .f32) (main_arg5 : FVec F S96 .f32) (main_arg6 : FVec F S96x96 .f32) (main_arg7 : FVec F S96 .f32) (main_arg8 : FVec F S96x96 .f32) (main_arg9 : FVec F S96 .f32) (main_arg10 : FVec F S96x96 .f32) (main_arg11 : FVec F S96 .f32) (main_arg12 : FVec F S96x96 .f32) (main_arg13 : FVec F S96 .f32) (main_arg14 : FVec F S96 .f32) (main_arg15 : FVec F S96 .f32) (main_arg16 : FVec F S96 .f32) (main_arg17 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x96 .f32 := Host.absf main_arg1
  let main_cst_0 : FVec F S_ .f32 := constant S_ .f32 0x7F800000#32
  let main_v5 : FVec F S800000x96 .f32 := broadcastInDim S800000x96 ![] bcast_S_S800000x96 main_cst_0
  let main_v6 : IVec S800000x96 1 := cmpf .olt main_v4 main_v5
  let main_c_1 : IVec S_ 1 := constantI S_ 1 1#1
  let main_v7 : IVec S_ 1 := (fun x v => Host.reduce IntOp.andi x v reducesTo_S800000x96_S_d0_1 h_S_) main_v6 main_c_1
  let main_v8 : IVec S_ 1 := andi main_v3 main_v7
  let main_v9 : FVec F S96x96 .f32 := Host.absf main_arg4
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg2 main_arg3 main_arg6 main_arg7 main_arg8 main_arg9 main_arg10 main_arg11 main_arg12 main_arg13 main_arg14 main_arg15 main_arg16 main_arg17 main_v13 main_v16
-- ==== Kernel.lean ====
abbrev S50000x96 : Shape := ⟨2, ![50000, 96]⟩
abbrev S800000x96 : Shape := ⟨2, ![800000, 96]⟩
abbrev S800000 : Shape := ⟨1, ![800000]⟩
abbrev S96x96 : Shape := ⟨2, ![96, 96]⟩
abbrev S96 : Shape := ⟨1, ![96]⟩
abbrev S1x96 : Shape := ⟨2, ![1, 96]⟩
abbrev S5000x96 : Shape := ⟨2, ![5000, 96]⟩
abbrev S50000x192 : Shape := ⟨2, ![50000, 192]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x192 : Shape := ⟨2, ![800000, 192]⟩
abbrev S2x1x96 : Shape := ⟨3, ![2, 1, 96]⟩
abbrev S8000x96 : Shape := ⟨2, ![8000, 96]⟩
abbrev S8000x192 : Shape := ⟨2, ![8000, 192]⟩
abbrev S1x1x96 : Shape := ⟨3, ![1, 1, 96]⟩
abbrev S1000x96 : Shape := ⟨2, ![1000, 96]⟩
abbrev S10000x96 : Shape := ⟨2, ![10000, 96]⟩

abbrev nBuf : Space → Nat
  | .hbm => 128
  | .vmem => 66
  | .smem => 0
  | _ => 0

abbrev bufTy : (tb : Table) → Fin (tcTables nBuf tb) → BufTy
  | .hbm, ⟨0, _⟩ => ⟨S50000x96, .f32⟩
  | .hbm, ⟨1, _⟩ => ⟨S800000x96, .f32⟩
  | .hbm, ⟨2, _⟩ => ⟨S800000, .i32⟩
  | .hbm, ⟨3, _⟩ => ⟨S800000, .i32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96x96, .f32⟩
  | .hbm, ⟨9, _⟩ => ⟨S96, .f32⟩
  | .hbm, ⟨10, _⟩ => ⟨S96x96, .f32⟩
  | .hbm, ⟨11, _⟩ => ⟨S96, .f32⟩
  | .hbm, ⟨12, _⟩ => ⟨S96x96, .f32⟩
  | .hbm, ⟨13, _⟩ => ⟨S96, .f32⟩
  | .hbm, ⟨14, _⟩ => ⟨S96, .f32⟩
  | .hbm, ⟨15, _⟩ => ⟨S96, .f32⟩
  | .hbm, ⟨16, _⟩ => ⟨S96, .f32⟩
  | .hbm, ⟨17, _⟩ => ⟨S96, .f32⟩
  | .hbm, ⟨18, _⟩ => ⟨S1x96, .f32⟩
  | .hbm, ⟨19, _⟩ => ⟨S1x96, .f32⟩
  | .hbm, ⟨20, _⟩ => ⟨S1x96, .f32⟩
  | .hbm, ⟨21, _⟩ => ⟨S1x96, .f32⟩
  | .hbm, ⟨22, _⟩ => ⟨S1x96, .f32⟩
  | .hbm, ⟨23, _⟩ => ⟨S1x96, .f32⟩
  | .hbm, ⟨24, _⟩ => ⟨S1x96, .f32⟩
  | .hbm, ⟨25, _⟩ => ⟨S1x96, .f32⟩
  | .hbm, ⟨26, _⟩ => ⟨S1x96, .f32⟩
  | .hbm, ⟨27, _⟩ => ⟨S96x96, .f32⟩
  | .hbm, ⟨28, _⟩ => ⟨S96x96, .f32⟩
  | .hbm, ⟨29, _⟩ => ⟨S96x96, .f32⟩
  | .hbm, ⟨30, _⟩ => ⟨S96x96, .f32⟩
  | .hbm, ⟨31, _⟩ => ⟨S96x96, .f32⟩
  | .hbm, ⟨32, _⟩ => ⟨S50000x96, .f32⟩
  | .hbm, ⟨33, _⟩ => ⟨S50000x96, .f32⟩
  | .hbm, ⟨34, _⟩ => ⟨S50000x96, .f32⟩
  | .hbm, ⟨35, _⟩ => ⟨S50000x96, .f32⟩
  | .hbm, ⟨36, _⟩ => ⟨S50000x192, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S1, .i32⟩
  | .hbm, ⟨46, _⟩ => ⟨S_, .i32⟩
  | .hbm, ⟨47, _⟩ => ⟨S800000x1, .i32⟩
  | .hbm, ⟨48, _⟩ => ⟨S800000x1, .i1⟩
  | .hbm, ⟨49, _⟩ => ⟨S1x1, .i32⟩
  | .hbm, ⟨50, _⟩ => ⟨S800000x1, .i32⟩
  | .hbm, ⟨51, _⟩ => ⟨S800000x1, .i1⟩
  | .hbm, ⟨52, _⟩ => ⟨S800000x1, .i1⟩
  | .hbm, ⟨53, _⟩ => ⟨S_, .i1⟩
  | .hbm, ⟨54, _⟩ => ⟨S800000, .i1⟩
  | .hbm, ⟨55, _⟩ => ⟨S800000x192, .f32⟩
  | .hbm, ⟨56, _⟩ => ⟨S800000x192, .i1⟩
  | .hbm, ⟨57, _⟩ => ⟨S_, .f32⟩
  | .hbm, ⟨58, _⟩ => ⟨S800000x192, .f32⟩
  | .hbm, ⟨59, _⟩ => ⟨S800000x192, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S1, .i32⟩
  | .hbm, ⟨69, _⟩ => ⟨S_, .i32⟩
  | .hbm, ⟨70, _⟩ => ⟨S800000x1, .i32⟩
  | .hbm, ⟨71, _⟩ => ⟨S800000x1, .i1⟩
  | .hbm, ⟨72, _⟩ => ⟨S1x1, .i32⟩
  | .hbm, ⟨73, _⟩ => ⟨S800000x1, .i32⟩
  | .hbm, ⟨74, _⟩ => ⟨S800000x1, .i1⟩
  | .hbm, ⟨75, _⟩ => ⟨S800000x1, .i1⟩
  | .hbm, ⟨76, _⟩ => ⟨S_, .i1⟩
  | .hbm, ⟨77, _⟩ => ⟨S800000, .i1⟩
  | .hbm, ⟨78, _⟩ => ⟨S800000x96, .f32⟩
  | .hbm, ⟨79, _⟩ => ⟨S800000x96, .i1⟩
  | .hbm, ⟨80, _⟩ => ⟨S_, .f32⟩
  | .hbm, ⟨81, _⟩ => ⟨S800000x96, .f32⟩
  | .hbm, ⟨82, _⟩ => ⟨S800000x96, .f32⟩
  | .hbm, ⟨83, _⟩ => ⟨S800000x96, .f32⟩
  | .hbm, ⟨84, _⟩ => ⟨S800000x192, .f32⟩
  | .hbm, ⟨85, _⟩ => ⟨S2x1x96, .f32⟩
  | .hbm, ⟨86, _⟩ => ⟨S2x1x96, .f32⟩
  | .hbm, ⟨87, _⟩ => ⟨S_, .f32⟩
  | .hbm, ⟨88, _⟩ => ⟨S1x96, .f32⟩
  | .hbm, ⟨89, _⟩ => ⟨S_, .f32⟩
  | .hbm, ⟨90, _⟩ => ⟨S1x96, .f32⟩
  | .hbm, ⟨91, _⟩ => ⟨S_, .f32⟩
  | .hbm, ⟨92, _⟩ => ⟨S1x96, .f32⟩
  | .hbm, ⟨93, _⟩ => ⟨S1x96, .f32⟩
  | .hbm, ⟨94, _⟩ => ⟨S_, .f32⟩
  | .hbm, ⟨95, _⟩ => ⟨S1x96, .f32⟩
  | .hbm, ⟨96, _⟩ => ⟨S1x96, .f32⟩
  | .hbm, ⟨97, _⟩ => ⟨S1x96, .f32⟩
  | .hbm, ⟨98, _⟩ => ⟨S1x96, .f32⟩
  | .hbm, ⟨99, _⟩ => ⟨S_, .f32⟩
  | .hbm, ⟨100, _⟩ => ⟨S1x96, .f32⟩
  | .hbm, ⟨101, _⟩ => ⟨S1x96, .f32⟩
  | .hbm, ⟨102, _⟩ => ⟨S_, .f32⟩
  | .hbm, ⟨103, _⟩ => ⟨S50000x192, .f32⟩
  | .hbm, ⟨104, _⟩ => ⟨S800000x1, .i32⟩
  | .hbm, ⟨105, _⟩ => ⟨S50000x192, .f32⟩
  | .hbm, ⟨106, _⟩ => ⟨S50000x96, .f32⟩
  | .hbm, ⟨107, _⟩ => ⟨S50000x96, .f32⟩
  | .hbm, ⟨108, _⟩ => ⟨S50000x96, .f32⟩
  | .hbm, ⟨109, _⟩ => ⟨S2x1x96, .f32⟩
  | .hbm, ⟨110, _⟩ => ⟨S2x1x96, .f32⟩
  | .hbm, ⟨111, _⟩ => ⟨S_, .f32⟩
  | .hbm, ⟨112, _⟩ => ⟨S1x96, .f32⟩
  | .hbm, ⟨113, _⟩ => ⟨S_, .f32⟩
  | .hbm, ⟨114, _⟩ => ⟨S1x96, .f32⟩
  | .hbm, ⟨115, _⟩ => ⟨S_, .f32⟩
  | .hbm, ⟨116, _⟩ => ⟨S1x96, .f32⟩
  | .hbm, ⟨117, _⟩ => ⟨S1x96, .f32⟩
  | .hbm, ⟨118, _⟩ => ⟨S_, .f32⟩
  | .hbm, ⟨119, _⟩ => ⟨S1x96, .f32⟩
  | .hbm, ⟨120, _⟩ => ⟨S1x96, .f32⟩
  | .hbm, ⟨121, _⟩ => ⟨S1x96, .f32⟩
  | .hbm, ⟨122, _⟩ => ⟨S1x96, .f32⟩
  | .hbm, ⟨123, _⟩ => ⟨S_, .f32⟩
  | .hbm, ⟨124, _⟩ => ⟨S1x96, .f32⟩
  | .hbm, ⟨125, _⟩ => ⟨S1x96, .f32⟩
  | .hbm, ⟨126, _⟩ => ⟨S50000x96, .f32⟩
  | .hbm, ⟨127, _⟩ => ⟨S800000x96, .f32⟩
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S1x96, .f32⟩
  | .local _ .vmem, ⟨4, _⟩ => ⟨S96x96, .f32⟩
  | .local _ .vmem, ⟨5, _⟩ => ⟨S1x96, .f32⟩
  | .local _ .vmem, ⟨6, _⟩ => ⟨S96x96, .f32⟩
  | .local _ .vmem, ⟨7, _⟩ => ⟨S1x96, .f32⟩
  | .local _ .vmem, ⟨8, _⟩ => ⟨S96x96, .f32⟩
  | .local _ .vmem, ⟨9, _⟩ => ⟨S1x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S5000x96, .f32⟩
  | .local _ .vmem, ⟨17, _⟩ => ⟨S5000x96, .f32⟩
  | .local _ .vmem, ⟨18, _⟩ => ⟨S8000x96, .f32⟩
  | .local _ .vmem, ⟨19, _⟩ => ⟨S8000x96, .f32⟩
  | .local _ .vmem, ⟨20, _⟩ => ⟨S96x96, .f32⟩
  | .local _ .vmem, ⟨21, _⟩ => ⟨S1x96, .f32⟩
  | .local _ .vmem, ⟨22, _⟩ => ⟨S8000x192, .f32⟩
  | .local _ .vmem, ⟨23, _⟩ => ⟨S8000x192, .f32⟩
  | .local _ .vmem, ⟨24, _⟩ => ⟨S8000x96, .f32⟩
  | .local _ .vmem, ⟨25, _⟩ => ⟨S8000x96, .f32⟩
  | .local _ .vmem, ⟨26, _⟩ => ⟨S8000x96, .f32⟩
  | .local _ .vmem, ⟨27, _⟩ => ⟨S8000x96, .f32⟩
  | .local _ .vmem, ⟨28, _⟩ => ⟨S8000x192, .f32⟩
  | .local _ .vmem, ⟨29, _⟩ => ⟨S8000x192, .f32⟩
  | .local _ .vmem, ⟨30, _⟩ => ⟨S1x1x96, .f32⟩
  | .local _ .vmem, ⟨31, _⟩ => ⟨S1x1x96, .f32⟩
  | .local _ .vmem, ⟨32, _⟩ => ⟨S1x1x96, .f32⟩
  | .local _ .vmem, ⟨33, _⟩ => ⟨S1x1x96, .f32⟩
  | .local _ .vmem, ⟨34, _⟩ => ⟨S1000x96, .f32⟩
  | .local _ .vmem, ⟨35, _⟩ => ⟨S1000x96, .f32⟩
  | .local _ .vmem, ⟨36, _⟩ => ⟨S1000x96, .f32⟩
  | .local _ .vmem, ⟨37, _⟩ => ⟨S1000x96, .f32⟩
  | .local _ .vmem, ⟨38, _⟩ => ⟨S1000x96, .f32⟩
  | .local _ .vmem, ⟨39, _⟩ => ⟨S1000x96, .f32⟩
  | .local _ .vmem, ⟨40, _⟩ => ⟨S1000x96, .f32⟩
  | .local _ .vmem, ⟨41, _⟩ => ⟨S1000x96, .f32⟩
  | .local _ .vmem, ⟨42, _⟩ => ⟨S1x1x96, .f32⟩
  | .local _ .vmem, ⟨43, _⟩ => ⟨S1x1x96, .f32⟩
  | .local _ .vmem, ⟨44, _⟩ => ⟨S1x1x96, .f32⟩
  | .local _ .vmem, ⟨45, _⟩ => ⟨S1x1x96, .f32⟩
  | .local _ .vmem, ⟨46, _⟩ => ⟨S5000x96, .f32⟩
  | .local _ .vmem, ⟨47, _⟩ => ⟨S5000x96, .f32⟩
  | .local _ .vmem, ⟨48, _⟩ => ⟨S5000x96, .f32⟩
  | .local _ .vmem, ⟨49, _⟩ => ⟨S5000x96, .f32⟩
  | .local _ .vmem, ⟨50, _⟩ => ⟨S1x96, .f32⟩
  | .local _ .vmem, ⟨51, _⟩ => ⟨S1x96, .f32⟩
  | .local _ .vmem, ⟨52, _⟩ => ⟨S1x96, .f32⟩
  | .local _ .vmem, ⟨53, _⟩ => ⟨S1x96, .f32⟩
  | .local _ .vmem, ⟨54, _⟩ => ⟨S5000x96, .f32⟩
  | .local _ .vmem, ⟨55, _⟩ => ⟨S5000x96, .f32⟩
  | .local _ .vmem, ⟨56, _⟩ => ⟨S10000x96, .f32⟩
  | .local _ .vmem, ⟨57, _⟩ => ⟨S10000x96, .f32⟩
  | .local _ .vmem, ⟨58, _⟩ => ⟨S10000x96, .f32⟩
  | .local _ .vmem, ⟨59, _⟩ => ⟨S10000x96, .f32⟩
  | .local _ .vmem, ⟨60, _⟩ => ⟨S1x96, .f32⟩
  | .local _ .vmem, ⟨61, _⟩ => ⟨S1x96, .f32⟩
  | .local _ .vmem, ⟨62, _⟩ => ⟨S1x96, .f32⟩
  | .local _ .vmem, ⟨63, _⟩ => ⟨S1x96, .f32⟩
  | .local _ .vmem, ⟨64, _⟩ => ⟨S10000x96, .f32⟩
  | .local _ .vmem, ⟨65, _⟩ => ⟨S10000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v14_2 : Ref sig .tc := ⟨.hbm, 34, rfl⟩
abbrev main_v14_3 : Ref sig .tc := ⟨.hbm, 35, rfl⟩
abbrev main_v15 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v16 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v17 : Ref sig .tc := ⟨.hbm, 82, rfl⟩
abbrev main_v18_0 : Ref sig .tc := ⟨.hbm, 83, rfl⟩
abbrev main_v18_1 : Ref sig .tc := ⟨.hbm, 84, rfl⟩
abbrev main_v18_2 : Ref sig .tc := ⟨.hbm, 85, rfl⟩
abbrev main_v18_3 : Ref sig .tc := ⟨.hbm, 86, rfl⟩
abbrev main_cst : Ref sig .tc := ⟨.hbm, 87, rfl⟩
abbrev main_v19 : Ref sig .tc := ⟨.hbm, 88, rfl⟩
abbrev main_cst_0 : Ref sig .tc := ⟨.hbm, 89, rfl⟩
abbrev main_v20 : Ref sig .tc := ⟨.hbm, 90, rfl⟩
abbrev main_cst_1 : Ref sig .tc := ⟨.hbm, 91, rfl⟩
abbrev main_v21 : Ref sig .tc := ⟨.hbm, 92, rfl⟩
abbrev main_v22 : Ref sig .tc := ⟨.hbm, 93, rfl⟩
abbrev main_cst_2 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_cst_3 : Ref sig .tc := ⟨.hbm, 99, rfl⟩
abbrev main_v27 : Ref sig .tc := ⟨.hbm, 100, rfl⟩
abbrev main_v28 : Ref sig .tc := ⟨.hbm, 101, rfl⟩
abbrev main_cst_4 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34_0 : Ref sig .tc := ⟨.hbm, 108, rfl⟩
abbrev main_v34_1 : Ref sig .tc := ⟨.hbm, 109, rfl⟩
abbrev main_v34_2 : Ref sig .tc := ⟨.hbm, 110, rfl⟩
abbrev main_cst_5 : Ref sig .tc := ⟨.hbm, 111, rfl⟩
abbrev main_v35 : Ref sig .tc := ⟨.hbm, 112, rfl⟩
abbrev main_cst_6 : Ref sig .tc := ⟨.hbm, 113, rfl⟩
abbrev main_v36 : Ref sig .tc := ⟨.hbm, 114, rfl⟩
abbrev main_cst_7 : Ref sig .tc := ⟨.hbm, 115, rfl⟩
abbrev main_v37 : Ref sig .tc := ⟨.hbm, 116, rfl⟩
abbrev main_v38 : Ref sig .tc := ⟨.hbm, 117, rfl⟩
abbrev main_cst_8 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_cst_9 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc2_stg4_0 : Ref sig .tc := ⟨.vmem, 42, rfl⟩
abbrev cc2_stg4_1 : Ref sig .tc := ⟨.vmem, 43, rfl⟩
abbrev cc2_stg5_0 : Ref sig .tc := ⟨.vmem, 44, rfl⟩
abbrev cc2_stg5_1 : Ref sig .tc := ⟨.vmem, 45, rfl⟩
abbrev cc3_stg0_0 : Ref sig .tc := ⟨.vmem, 46, rfl⟩
abbrev cc3_stg0_1 : Ref sig .tc := ⟨.vmem, 47, rfl⟩
abbrev cc3_stg1_0 : Ref sig .tc := ⟨.vmem, 48, rfl⟩
abbrev cc3_stg1_1 : Ref sig .tc := ⟨.vmem, 49, rfl⟩
abbrev cc3_stg2_0 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg6_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg3_0 : Ref sig .tc := ⟨.vmem, 61, rfl⟩
abbrev cc4_stg4_0 : Ref sig .tc := ⟨.vmem, 62, rfl⟩
abbrev cc4_stg5_0 : Ref sig .tc := ⟨.vmem, 63, rfl⟩
abbrev cc4_stg6_0 : Ref sig .tc := ⟨.vmem, 64, rfl⟩
abbrev cc4_stg6_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem3_1 : DmaSem sig := 41
abbrev cc2_sem4_0 : DmaSem sig := 42
abbrev cc2_sem4_1 : DmaSem sig := 43
abbrev cc2_sem5_0 : DmaSem sig := 44
abbrev cc2_sem5_1 : DmaSem sig := 45
abbrev cc3_sem0_0 : DmaSem sig := 46
abbrev cc3_sem0_1 : DmaSem sig := 47
abbrev cc3_sem1_0 : DmaSem sig := 48
abbrev cc3_sem1_1 : DmaSem sig := 49
abbrev cc3_sem2_0 : DmaSem sig := 50
abbrev cc3_sem3_0 : DmaSem sig := 51
abbrev cc3_sem4_0 : DmaSem sig := 52
abbrev cc3_sem5_0 : DmaSem sig := 53
abbrev cc3_sem6_0 : DmaSem sig := 54
abbrev cc3_sem6_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem3_0 : DmaSem sig := 61
abbrev cc4_sem4_0 : DmaSem sig := 62
abbrev cc4_sem5_0 : DmaSem sig := 63
abbrev cc4_sem6_0 : DmaSem sig := 64
abbrev cc4_sem6_1 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x96 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5000x96 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5000x96 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨2, ![2, 50], ![false, false]⟩

def cc1_transform_0 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S8000x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8000x192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x96 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x1x96 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨2, ![2, 25], ![false, false]⟩

def cc2_transform_0 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1x96 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x1x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x96 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x96 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x96 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x96 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x96 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S10000x96 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  shapeCasts_S96_S1x96 : S96.ShapeCasts S1x96
  transposes_S96x96_S96x96_1_0 : S96x96.Transposes [1, 0] S96x96
  inb_S5000x96_S5000x96_0_0 : ∀ a, (![0, 0] : Fin 2 → Nat) a + S5000x96.size a ≤ S5000x96.size a
  h_S5000x96 : 0 < S5000x96.numel
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  concatenates_S50000x96_S50000x96_S50000x192_d1 : Shape.Concatenates [S50000x96, S50000x96] S50000x192 1
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x192_0 : S800000.BroadcastsInDim S800000x192 (![0] : Fin 1 → Fin S800000x192.rank)
  bcast_S_S800000x192 : S_.BroadcastsInDim S800000x192 (![] : Fin 0 → Fin S800000x192.rank)
  bcast_S800000_S800000x96_0 : S800000.BroadcastsInDim S800000x96 (![0] : Fin 1 → Fin S800000x96.rank)
  bcast_S_S800000x96 : S_.BroadcastsInDim S800000x96 (![] : Fin 0 → Fin S800000x96.rank)
  inb_S1x1x96_S1x1x96_0_0_0 : ∀ a, (![0, 0, 0] : Fin 3 → Nat) a + S1x1x96.size a ≤ S1x1x96.size a
  h_S1x1x96 : 0 < S1x1x96.numel
  inb_S8000x96_S8000x96_0_0 : ∀ a, (![0, 0] : Fin 2 → Nat) a + S8000x96.size a ≤ S8000x96.size a
  h_S8000x96 : 0 < S8000x96.numel
  broadcasts_S1x96_S8000x96 : S1x96.Broadcasts S8000x96
  inb_S8000x192_S8000x192_0_0 : ∀ a, (![0, 0] : Fin 2 → Nat) a + S8000x192.size a ≤ S8000x192.size a
  h_S8000x192 : 0 < S8000x192.numel
  shapeCasts_S8000x192_S8000x192 : S8000x192.ShapeCasts S8000x192
  slices_S8000x192_o0_0_S8000x96 : S8000x192.Slices ![0, 0] S8000x96
  slices_S8000x192_o0_96_S8000x96 : S8000x192.Slices ![0, 96] S8000x96
  shapeCasts_S8000x96_S8000x96 : S8000x96.ShapeCasts S8000x96
  concatenates_S8000x96_S8000x96_S8000x192_d1 : Shape.Concatenates [S8000x96, S8000x96] S8000x192 1
  shapeCasts_S1x1x96_S1x1x96 : S1x1x96.ShapeCasts S1x1x96
  reduces_S8000x96_S96 : S8000x96.Reduces [0] S96
  shapeCasts_S1x96_S1x1x96 : S1x96.ShapeCasts S1x1x96
  reducesTo_S2x1x96_S1x96_d0 : S2x1x96.ReducesTo [0] S1x96
  bcast_S_S1x96 : S_.BroadcastsInDim S1x96 (![] : Fin 0 → Fin S1x96.rank)
  bcast_S_S50000x192 : S_.BroadcastsInDim S50000x192 (![] : Fin 0 → Fin S50000x192.rank)
  slices_S50000x192_S50000x96_0_0 : S50000x192.Slices ![0, 0] S50000x96
  slices_S50000x192_S50000x96_0_96 : S50000x192.Slices ![0, 96] S50000x96
  inb_S1000x96_S1000x96_0_0 : ∀ a, (![0, 0] : Fin 2 → Nat) a + S1000x96.size a ≤ S1000x96.size a
  h_S1000x96 : 0 < S1000x96.numel
  shapeCasts_S1000x96_S1000x96 : S1000x96.ShapeCasts S1000x96
  reduces_S1000x96_S96 : S1000x96.Reduces [0] S96
  shapeCasts_S5000x96_S5000x96 : S5000x96.ShapeCasts S5000x96
  inb_S10000x96_S10000x96_0_0 : ∀ a, (![0, 0] : Fin 2 → Nat) a + S10000x96.size a ≤ S10000x96.size a
  h_S10000x96 : 0 < S10000x96.numel
  shapeCasts_S10000x96_S10000x96 : S10000x96.ShapeCasts S10000x96
  broadcasts_S1x96_S10000x96 : S1x96.Broadcasts S10000x96
  dot_S5000x96_S96x96_S5000x96_1_0_0_1_n_n_wf : DotDims.WF S5000x96 S96x96 S5000x96 [1] [0] [0] [1] [] []
  gather_S50000x192_S800000x1_S800000x192_1_0_n_n_0_1_1192_wf : GatherDims.WF S50000x192 S800000x1 S800000x192 [1] [0] [] [0] [] 1 ![1, 192]
  gather_S50000x96_S800000x1_S800000x96_1_0_n_n_0_1_196_wf : GatherDims.WF S50000x96 S800000x1 S800000x96 [1] [0] [] [0] [] 1 ![1, 96]
  dot_S8000x96_S96x96_S8000x96_1_0_0_1_n_n_wf : DotDims.WF S8000x96 S96x96 S8000x96 [1] [0] [0] [1] [] []
  scatter_S50000x192_S800000x1_S800000x192_1_0_0_1_wf : ScatterDims.WF S50000x192 S800000x1 S800000x192 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S96x96.size a ≤ S96x96.size a
  hwx0_5 : ∀ i : grid0.Coords, EltTy.bits .f32 = 32 ∨ (Rect.block (s := S96x96) S96x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x96.size a ≤ S1x96.size a
  hwx0_6 : ∀ i : grid0.Coords, EltTy.bits .f32 = 32 ∨ (Rect.block (s := S1x96) S1x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S96x96.size a ≤ S96x96.size a
  hwx0_7 : ∀ i : grid0.Coords, EltTy.bits .f32 = 32 ∨ (Rect.block (s := S96x96) S96x96.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x96.size a ≤ S1x96.size a
  hwx0_8 : ∀ i : grid0.Coords, EltTy.bits .f32 = 32 ∨ (Rect.block (s := S1x96) S1x96.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x96.size a ≤ S50000x96.size a
  hwx0_9 : ∀ i : grid0.Coords, EltTy.bits .f32 = 32 ∨ (Rect.block (s := S50000x96) S5000x96.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x96.size a ≤ S50000x96.size a
  hwx0_10 : ∀ i : grid0.Coords, EltTy.bits .f32 = 32 ∨ (Rect.block (s := S50000x96) S5000x96.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x96.size a ≤ S50000x96.size a
  hwx0_11 : ∀ i : grid0.Coords, EltTy.bits .f32 = 32 ∨ (Rect.block (s := S50000x96) S5000x96.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x96.size a ≤ S50000x96.size a
  hwx0_12 : ∀ i : grid0.Coords, EltTy.bits .f32 = 32 ∨ (Rect.block (s := S50000x96) S5000x96.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x96.size a ≤ S800000x96.size a
  hwx1_0 : ∀ i : grid1.Coords, EltTy.bits .f32 = 32 ∨ (Rect.block (s := S800000x96) S8000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x192.size a ≤ S800000x192.size a
  hwx1_3 : ∀ i : grid1.Coords, EltTy.bits .f32 = 32 ∨ (Rect.block (s := S800000x192) S8000x192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x96.size a ≤ S800000x96.size a
  hwx1_4 : ∀ i : grid1.Coords, EltTy.bits .f32 = 32 ∨ (Rect.block (s := S800000x96) S8000x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x96.size a ≤ S800000x96.size a
  hwx1_5 : ∀ i : grid1.Coords, EltTy.bits .f32 = 32 ∨ (Rect.block (s := S800000x96) S8000x96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x192.size a ≤ S800000x192.size a
  hwx1_6 : ∀ i : grid1.Coords, EltTy.bits .f32 = 32 ∨ (Rect.block (s := S800000x192) S8000x192.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x96.size a ≤ S2x1x96.size a
  hwx1_7 : ∀ i : grid1.Coords, EltTy.bits .f32 = 32 ∨ (Rect.block (s := S2x1x96) S1x1x96.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x96.size a ≤ S2x1x96.size a
  hwx1_8 : ∀ i : grid1.Coords, EltTy.bits .f32 = 32 ∨ (Rect.block (s := S2x1x96) S1x1x96.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x96.size a ≤ S50000x96.size a
  hwx2_0 : ∀ i : grid2.Coords, EltTy.bits .f32 = 32 ∨ (Rect.block (s := S50000x96) S1000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x96.size a ≤ S50000x96.size a
  hwx2_1 : ∀ i : grid2.Coords, EltTy.bits .f32 = 32 ∨ (Rect.block (s := S50000x96) S1000x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x96.size a ≤ S50000x96.size a
  hwx2_2 : ∀ i : grid2.Coords, EltTy.bits .f32 = 32 ∨ (Rect.block (s := S50000x96) S1000x96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x96.size a ≤ S50000x96.size a
  hwx2_3 : ∀ i : grid2.Coords, EltTy.bits .f32 = 32 ∨ (Rect.block (s := S50000x96) S1000x96.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x96.size a ≤ S2x1x96.size a
  hwx2_4 : ∀ i : grid2.Coords, EltTy.bits .f32 = 32 ∨ (Rect.block (s := S2x1x96) S1x1x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x96.size a ≤ S2x1x96.size a
  hwx2_5 : ∀ i : grid2.Coords, EltTy.bits .f32 = 32 ∨ (Rect.block (s := S2x1x96) S1x1x96.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S50000x96.size a
  hwx3_1 : ∀ i : grid3.Coords, EltTy.bits .f32 = 32 ∨ (Rect.block (s := S50000x96) S5000x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x96.size a ≤ S1x96.size a
  hwx3_2 : ∀ i : grid3.Coords, EltTy.bits .f32 = 32 ∨ (Rect.block (s := S1x96) S1x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x96.size a ≤ S1x96.size a
  hwx3_4 : ∀ i : grid3.Coords, EltTy.bits .f32 = 32 ∨ (Rect.block (s := S1x96) S1x96.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x96.size a ≤ S1x96.size a
  hwx3_5 : ∀ i : grid3.Coords, EltTy.bits .f32 = 32 ∨ (Rect.block (s := S1x96) S1x96.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x96.size a ≤ S50000x96.size a
  hwx3_6 : ∀ i : grid3.Coords, EltTy.bits .f32 = 32 ∨ (Rect.block (s := S50000x96) S5000x96.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x96.size a ≤ S800000x96.size a
  hwx4_0 : ∀ i : grid4.Coords, EltTy.bits .f32 = 32 ∨ (Rect.block (s := S800000x96) S10000x96.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x96.size a ≤ S800000x96.size a
  hwx4_1 : ∀ i : grid4.Coords, EltTy.bits .f32 = 32 ∨ (Rect.block (s := S800000x96) S10000x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x96.size a ≤ S1x96.size a
  hwx4_2 : ∀ i : grid4.Coords, EltTy.bits .f32 = 32 ∨ (Rect.block (s := S1x96) S1x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x96.size a ≤ S1x96.size a
  hwx4_3 : ∀ i : grid4.Coords, EltTy.bits .f32 = 32 ∨ (Rect.block (s := S1x96) S1x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x96.size a ≤ S1x96.size a
  hwx4_4 : ∀ i : grid4.Coords, EltTy.bits .f32 = 32 ∨ (Rect.block (s := S1x96) S1x96.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x96.size a ≤ S1x96.size a
  hwx4_5 : ∀ i : grid4.Coords, EltTy.bits .f32 = 32 ∨ (Rect.block (s := S1x96) S1x96.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S10000x96.size a ≤ S800000x96.size a
  hwx4_6 : ∀ i : grid4.Coords, EltTy.bits .f32 = 32 ∨ (Rect.block (s := S800000x96) S10000x96.size (cc4_transform_6 i) (hinb4_6 i)).WholeWords (EltTy.packing .f32)

variable [Facts₀]

def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S8000x96_S96x96_S8000x96_1_0_0_1_n_n : DotDims S8000x96 S96x96 S8000x96 where
  lhsContracting := [1]
  rhsContracting := [0]
  lhsNonContracting := [0]
  rhsNonContracting := [1]
  lhsBatch := []
  rhsBatch := []
  wf := dot_S8000x96_S96x96_S8000x96_1_0_0_1_n_n_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S96x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S96x96.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x96.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14_0) S5000x96.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v14_1) S5000x96.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v14_2) S5000x96.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v14_3) S5000x96.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg1) S8000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S8000x192.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v17) S8000x96.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v18_0) S8000x96.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v18_1) S8000x192.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v18_2) S1x1x96.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v18_3) S1x1x96.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v14_0) S1000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1000x96.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34_0) S1000x96.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v34_1) S1x1x96.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v34_2) S1x1x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v34_0) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S1x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v5) S1x96.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v6) S1x96.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S5000x96.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v18_0) S10000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S10000x96.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v22) S1x96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v28) S1x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v7) S1x96.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v8) S1x96.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v46) S10000x96.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x96 : Shape := ⟨2, ![50000, 96]⟩
abbrev S800000x96 : Shape := ⟨2, ![800000, 96]⟩
abbrev S800000 : Shape := ⟨1, ![800000]⟩
abbrev S96x96 : Shape := ⟨2, ![96, 96]⟩
abbrev S96 : Shape := ⟨1, ![96]⟩
abbrev S1x96 : Shape := ⟨2, ![1, 96]⟩
abbrev S_ : Shape := ⟨0, ![]⟩
abbrev S800000x1 : Shape := ⟨2, ![800000, 1]⟩

abbrev nBuf : Space → Nat
  | .hbm => 190
  | .vmem => 0
  | .smem => 0
  | _ => 0

abbrev hbmTy0_0 (i : Nat) : BufTy := match i % 128 with
  | 0 => ⟨S50000x96, .f32⟩
  | 1 => ⟨S800000x96, .f32⟩
  | 2 => ⟨S800000, .i32⟩
  | 3 => ⟨S800000, .i32⟩
  | 4 => ⟨S96x96, .f32⟩
  | 5 => ⟨S96, .f32⟩
  | 6 => ⟨S96x96, .f32⟩
  | 7 => ⟨S96, .f32⟩
  | 8 => ⟨S96x96, .f32⟩
  | 9 => ⟨S96, .f32⟩
  | 10 => ⟨S96x96, .f32⟩
  | 11 => ⟨S96, .f32⟩
  | 12 => ⟨S96x96, .f32⟩
  | 13 => ⟨S96, .f32⟩
  | 14 => ⟨S96, .f32⟩
  | 15 => ⟨S96, .f32⟩
  | 16 => ⟨S96, .f32⟩
  | 17 => ⟨S96, .f32⟩
  | 18 => ⟨S96x96, .f32⟩
  | 19 => ⟨S50000x96, .f32⟩
  | 20 => ⟨S1x96, .f32⟩
  | 21 => ⟨S50000x96, .f32⟩
  | 22 => ⟨S50000x96, .f32⟩
  | 23 => ⟨S96x96, .f32⟩
  | 24 => ⟨S50000x96, .f32⟩
  | 25 => ⟨S1x96, .f32⟩
  | 26 => ⟨S50000x96, .f32⟩
  | 27 => ⟨S50000x96, .f32⟩
  | 28 => ⟨S96x96, .f32⟩
  | 29 => ⟨S50000x96, .f32⟩
  | 30 => ⟨S1x96, .f32⟩
  | 31 => ⟨S50000x96, .f32⟩
  | 32 => ⟨S50000x96, .f32⟩
  | 33 => ⟨S96x96, .f32⟩
  | 34 => ⟨S50000x96, .f32⟩
  | 35 => ⟨S1x96, .f32⟩
  | 36 => ⟨S50000x96, .f32⟩
  | 37 => ⟨S50000x96, .f32⟩
  | 38 => ⟨S96x96, .f32⟩
  | 39 => ⟨S800000x96, .f32⟩
  | 40 => ⟨S1x96, .f32⟩
  | 41 => ⟨S800000x96, .f32⟩
  | 42 => ⟨S800000x96, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x96, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x96, .f32⟩
  | 61 => ⟨S800000x96, .f32⟩
  | 62 => ⟨S800000x96, .f32⟩
  | 63 => ⟨S800000x96, .f32⟩
  | 64 => ⟨S800000x96, .f32⟩
  | 65 => ⟨S_, .f32⟩
  | 66 => ⟨S800000x96, .f32⟩
  | 67 => ⟨S800000x96, .f32⟩
  | 68 => ⟨S_, .f32⟩
  | 69 => ⟨S800000x96, .f32⟩
  | 70 => ⟨S800000x96, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x96, .f32⟩
  | 80 => ⟨S800000x96, .f32⟩
  | 81 => ⟨S_, .f32⟩
  | 82 => ⟨S50000x96, .f32⟩
  | 83 => ⟨S800000x1, .i32⟩
  | 84 => ⟨S50000x96, .f32⟩
  | 85 => ⟨S_, .f32⟩
  | 86 => ⟨S50000x96, .f32⟩
  | 87 => ⟨S800000x1, .i32⟩
  | 88 => ⟨S50000x96, .f32⟩
  | 89 => ⟨S_, .f32⟩
  | 90 => ⟨S50000x96, .f32⟩
  | 91 => ⟨S50000x96, .f32⟩
  | 92 => ⟨S50000x96, .f32⟩
  | 93 => ⟨S50000x96, .f32⟩
  | 94 => ⟨S_, .f32⟩
  | 95 => ⟨S96, .f32⟩
  | 96 => ⟨S_, .f32⟩
  | 97 => ⟨S96, .f32⟩
  | 98 => ⟨S96, .f32⟩
  | 99 => ⟨S_, .i32⟩
  | 100 => ⟨S_, .f32⟩
  | 101 => ⟨S96, .f32⟩
  | 102 => ⟨S1x96, .f32⟩
  | 103 => ⟨S_, .f32⟩
  | 104 => ⟨S1x96, .f32⟩
  | 105 => ⟨S1x96, .f32⟩
  | 106 => ⟨S50000x96, .f32⟩
  | 107 => ⟨S50000x96, .f32⟩
  | 108 => ⟨S50000x96, .f32⟩
  | 109 => ⟨S_, .f32⟩
  | 110 => ⟨S_, .f32⟩
  | 111 => ⟨S_, .f32⟩
  | 112 => ⟨S_, .f32⟩
  | 113 => ⟨S96, .f32⟩
  | 114 => ⟨S96, .f32⟩
  | 115 => ⟨S96, .f32⟩
  | 116 => ⟨S_, .f32⟩
  | 117 => ⟨S_, .i1⟩
  | 118 => ⟨S_, .f32⟩
  | 119 => ⟨S_, .f32⟩
  | 120 => ⟨S96, .f32⟩
  | 121 => ⟨S96, .f32⟩
  | 122 => ⟨S1x96, .f32⟩
  | 123 => ⟨S50000x96, .f32⟩
  | 124 => ⟨S50000x96, .f32⟩
  | 125 => ⟨S1x96, .f32⟩
  | 126 => ⟨S50000x96, .f32⟩
  | 127 => ⟨S50000x96, .f32⟩
  | _ => ⟨S50000x96, .f32⟩

abbrev hbmTy0_1 (i : Nat) : BufTy := match i % 128 with
  | 0 => ⟨S_, .f32⟩
  | 1 => ⟨S96, .f32⟩
  | 2 => ⟨S96, .f32⟩
  | 3 => ⟨S96, .f32⟩
  | 4 => ⟨S1x96, .f32⟩
  | 5 => ⟨S50000x96, .f32⟩
  | 6 => ⟨S50000x96, .f32⟩
  | 7 => ⟨S1x96, .f32⟩
  | 8 => ⟨S50000x96, .f32⟩
  | 9 => ⟨S50000x96, .f32⟩
  | 10 => ⟨S_, .f32⟩
  | 11 => ⟨S50000x96, .f32⟩
  | 12 => ⟨S50000x96, .f32⟩
  | 13 => ⟨S_, .f32⟩
  | 14 => ⟨S96, .f32⟩
  | 15 => ⟨S_, .f32⟩
  | 16 => ⟨S96, .f32⟩
  | 17 => ⟨S96, .f32⟩
  | 18 => ⟨S_, .i32⟩
  | 19 => ⟨S_, .f32⟩
  | 20 => ⟨S96, .f32⟩
  | 21 => ⟨S1x96, .f32⟩
  | 22 => ⟨S_, .f32⟩
  | 23 => ⟨S1x96, .f32⟩
  | 24 => ⟨S1x96, .f32⟩
  | 25 => ⟨S800000x96, .f32⟩
  | 26 => ⟨S800000x96, .f32⟩
  | 27 => ⟨S800000x96, .f32⟩
  | 28 => ⟨S_, .f32⟩
  | 29 => ⟨S_, .f32⟩
  | 30 => ⟨S_, .f32⟩
  | 31 => ⟨S_, .f32⟩
  | 32 => ⟨S96, .f32⟩
  | 33 => ⟨S96, .f32⟩
  | 34 => ⟨S96, .f32⟩
  | 35 => ⟨S_, .f32⟩
  | 36 => ⟨S_, .i1⟩
  | 37 => ⟨S_, .f32⟩
  | 38 => ⟨S_, .f32⟩
  | 39 => ⟨S96, .f32⟩
  | 40 => ⟨S96, .f32⟩
  | 41 => ⟨S1x96, .f32⟩
  | 42 => ⟨S800000x96, .f32⟩
  | 43 => ⟨S800000x96, .f32⟩
  | 44 => ⟨S1x96, .f32⟩
  | 45 => ⟨S800000x96, .f32⟩
  | 46 => ⟨S800000x96, .f32⟩
  | 47 => ⟨S_, .f32⟩
  | 48 => ⟨S96, .f32⟩
  | 49 => ⟨S96, .f32⟩
  | 50 => ⟨S96, .f32⟩
  | 51 => ⟨S1x96, .f32⟩
  | 52 => ⟨S800000x96, .f32⟩
  | 53 => ⟨S800000x96, .f32⟩
  | 54 => ⟨S1x96, .f32⟩
  | 55 => ⟨S800000x96, .f32⟩
  | 56 => ⟨S800000x96, .f32⟩
  | 57 => ⟨S_, .f32⟩
  | 58 => ⟨S800000x96, .f32⟩
  | 59 => ⟨S800000x96, .f32⟩
  | 60 => ⟨S50000x96, .f32⟩
  | 61 => ⟨S800000x96, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c : Ref sig .tc := ⟨.hbm, 43, rfl⟩
abbrev main_v25 : Ref sig .tc := ⟨.hbm, 44, rfl⟩
abbrev main_v26 : Ref sig .tc := ⟨.hbm, 45, rfl⟩
abbrev main_c_0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_1 : Ref sig .tc := ⟨.hbm, 52, rfl⟩
abbrev main_v32 : Ref sig .tc := ⟨.hbm, 53, rfl⟩
abbrev main_v33 : Ref sig .tc := ⟨.hbm, 54, rfl⟩
abbrev main_c_2 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_c_4 : Ref sig .tc := ⟨.hbm, 71, rfl⟩
abbrev main_v47 : Ref sig .tc := ⟨.hbm, 72, rfl⟩
abbrev main_v48 : Ref sig .tc := ⟨.hbm, 73, rfl⟩
abbrev main_c_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_6 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_7 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_8 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_cst_10 : Ref sig .tc := ⟨.hbm, 96, rfl⟩
abbrev main_v66 : Ref sig .tc := ⟨.hbm, 97, rfl⟩
abbrev main_v67 : Ref sig .tc := ⟨.hbm, 98, rfl⟩
abbrev main_c_11 : Ref sig .tc := ⟨.hbm, 99, rfl⟩
abbrev main_call0_cst : Ref sig .tc := ⟨.hbm, 100, rfl⟩
abbrev main_call0_v0 : Ref sig .tc := ⟨.hbm, 101, rfl⟩
abbrev main_call0_v1 : Ref sig .tc := ⟨.hbm, 102, rfl⟩
abbrev main_call0_cst_0 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_v5 : Ref sig .tc := ⟨.hbm, 107, rfl⟩
abbrev main_call0_v6 : Ref sig .tc := ⟨.hbm, 108, rfl⟩
abbrev main_call0_v7 : Ref sig .tc := ⟨.hbm, 109, rfl⟩
abbrev main_call0_cst_1 : Ref sig .tc := ⟨.hbm, 110, rfl⟩
abbrev main_call0_v8 : Ref sig .tc := ⟨.hbm, 111, rfl⟩
abbrev main_call0_cst_2 : Ref sig .tc := ⟨.hbm, 112, rfl⟩
abbrev main_call0_v9 : Ref sig .tc := ⟨.hbm, 113, rfl⟩
abbrev main_call0_v10 : Ref sig .tc := ⟨.hbm, 114, rfl⟩
abbrev main_call0_v11 : Ref sig .tc := ⟨.hbm, 115, rfl⟩
abbrev main_call0_cst_3 : Ref sig .tc := ⟨.hbm, 116, rfl⟩
abbrev main_call0_v12 : Ref sig .tc := ⟨.hbm, 117, rfl⟩
abbrev main_call0_cst_4 : Ref sig .tc := ⟨.hbm, 118, rfl⟩
abbrev main_call0_call0_v0 : Ref sig .tc := ⟨.hbm, 119, rfl⟩
abbrev main_call0_call0_v1 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_12 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_call1_cst : Ref sig .tc := ⟨.hbm, 138, rfl⟩
abbrev main_call1_v0 : Ref sig .tc := ⟨.hbm, 139, rfl⟩
abbrev main_v84 : Ref sig .tc := ⟨.hbm, 140, rfl⟩
abbrev main_cst_13 : Ref sig .tc := ⟨.hbm, 141, rfl⟩
abbrev main_v85 : Ref sig .tc := ⟨.hbm, 142, rfl⟩
abbrev main_cst_14 : Ref sig .tc := ⟨.hbm, 143, rfl⟩
abbrev main_v86 : Ref sig .tc := ⟨.hbm, 144, rfl⟩
abbrev main_v87 : Ref sig .tc := ⟨.hbm, 145, rfl⟩
abbrev main_c_15 : Ref sig .tc := ⟨.hbm, 146, rfl⟩
abbrev main_call2_cst : Ref sig .tc := ⟨.hbm, 147, rfl⟩
abbrev main_call2_v0 : Ref sig .tc := ⟨.hbm, 148, rfl⟩
abbrev main_call2_v1 : Ref sig .tc := ⟨.hbm, 149, rfl⟩
abbrev main_call2_cst_0 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_v6 : Ref sig .tc := ⟨.hbm, 155, rfl⟩
abbrev main_call2_v7 : Ref sig .tc := ⟨.hbm, 156, rfl⟩
abbrev main_call2_cst_1 : Ref sig .tc := ⟨.hbm, 157, rfl⟩
abbrev main_call2_v8 : Ref sig .tc := ⟨.hbm, 158, rfl⟩
abbrev main_call2_cst_2 : Ref sig .tc := ⟨.hbm, 159, rfl⟩
abbrev main_call2_v9 : Ref sig .tc := ⟨.hbm, 160, rfl⟩
abbrev main_call2_v10 : Ref sig .tc := ⟨.hbm, 161, rfl⟩
abbrev main_call2_v11 : Ref sig .tc := ⟨.hbm, 162, rfl⟩
abbrev main_call2_cst_3 : Ref sig .tc := ⟨.hbm, 163, rfl⟩
abbrev main_call2_v12 : Ref sig .tc := ⟨.hbm, 164, rfl⟩
abbrev main_call2_cst_4 : Ref sig .tc := ⟨.hbm, 165, rfl⟩
abbrev main_call2_call0_v0 : Ref sig .tc := ⟨.hbm, 166, rfl⟩
abbrev main_call2_call0_v1 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_cst_16 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_call3_cst : Ref sig .tc := ⟨.hbm, 185, rfl⟩
abbrev main_call3_v0 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩

abbrev nD : Nat := 1
abbrev τ : Topo := Topo.v7x

variable {F : FTy → Type} [FloatOps F]

class Facts₀ : Prop where
  transposes_S96x96_S96x96_1_0 : S96x96.Transposes [1, 0] S96x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S1x96_S800000x96_0_1 : S1x96.BroadcastsInDim S800000x96 (![0, 1] : Fin 2 → Fin S800000x96.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x96 : S_.BroadcastsInDim S800000x96 (![] : Fin 0 → Fin S800000x96.rank)
  bcast_S_S50000x96 : S_.BroadcastsInDim S50000x96 (![] : Fin 0 → Fin S50000x96.rank)
  reducesTo_S50000x96_S96_d0 : S50000x96.ReducesTo [0] S96
  h_S_ : 0 < S_.numel
  bcast_S_S96 : S_.BroadcastsInDim S96 (![] : Fin 0 → Fin S96.rank)
  bcast_S_S1x96 : S_.BroadcastsInDim S1x96 (![] : Fin 0 → Fin S1x96.rank)
  reducesTo_S800000x96_S96_d0 : S800000x96.ReducesTo [0] S96
  dot_S50000x96_S96x96_S50000x96_1_0_0_1_n_n_wf : DotDims.WF S50000x96 S96x96 S50000x96 [1] [0] [0] [1] [] []
  dot_S800000x96_S96x96_S800000x96_1_0_0_1_n_n_wf : DotDims.WF S800000x96 S96x96 S800000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S800000x96_S96x96_S800000x96_1_0_0_1_n_n : DotDims S800000x96 S96x96 S800000x96 where
  lhsContracting := [1]
  rhsContracting := [0]
  lhsNonContracting := [0]
  rhsNonContracting := [1]
  lhsBatch := []
  rhsBatch := []
  wf := dot_S800000x96_S96x96_S800000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

class Facts : Prop extends Facts₀ where

variable [Facts]
-- ==== Proof.Spec.lean ====
/-
  The gated graph-convolution layer as ONE family of functions on the extended reals, stage by stage, over the
  literal extents of this layer: 50000 nodes, 800000 edges, 96 features.

  For node features h, edge features e, edge endpoints src and dst and five affine maps A, B, C, D, E:
    Ah, Bh, Dh, Eh = h·Wᵀ + b (node side),  Ce = e·C_wᵀ + C_b (edge side),
    e_new(k) = Dh(src k) + Eh(dst k) + Ce(k),   σ = 1 / (1 + exp (−e_new)),
    h_new(p) = Ah(p) + (Σ_{dst k = p} Bh(src k)·σ(k)) / (Σ_{dst k = p} σ(k) + ε_deg),
  and both outputs are  x_in + max(γ·(x − mean)·rsqrt(var + ε_bn) + β, 0)  with the batch mean and the biased batch
  variance of x = h_new, e_new over its rows.

  Two spellings of the batch normalisation are kept apart: the two-pass one (variance as the mean of the squared
  deviations) and the one-pass one (mean of the squares minus the square of the mean, clamped at zero twice, from
  column sums that are handed in). They agree when every entry of x is a real number; that is proved elsewhere.
-/
import Idealize.ShloMosaic.PureOps.Ideal
import Idealize.ShloMosaic.Lib.ValueIdx

noncomputable section

open scoped BigOperators

namespace Cert.Spec

open Idealize.ShloMosaic

/-- A matrix of extended reals, row then column. -/
abbrev Mat (n c : Nat) := Fin n → Fin c → EReal
/-- A row of extended reals. -/
abbrev Row (c : Nat) := Fin c → EReal

/-- The float zero. -/
def z32 : EReal := Ideal.ofBits .f32 0x00000000#32
/-- The float one. -/
def one32 : EReal := Ideal.ofBits .f32 0x3F800000#32
/-- The degree regulariser ε_deg (the float nearest 1e-6). -/
def epsDeg : EReal := Ideal.ofBits .f32 0x358637BD#32
/-- The batch-norm regulariser ε_bn (the float nearest 1e-5). -/
def epsBn : EReal := Ideal.ofBits .f32 0x3727C5AC#32
/-- The node count 50000 as a float. -/
def cN : EReal := Ideal.ofBits .f32 0x47435000#32
/-- The edge count 800000 as a float. -/
def cE : EReal := Ideal.ofBits .f32 0x49435000#32

/-- The affine map x ↦ x·wᵀ + b: entry (i, j) is Σ_k x(i,k)·w(j,k) + b(j). -/
def lin {n : Nat} (x : Mat n 96) (w : Mat 96 96) (b : Row 96) : Mat n 96 :=
  fun i j => (∑ k : Fin 96, x i k * w j k) + b j

/-- The edge pre-activation: source row of Dh plus destination row of Eh plus the edge's own projection. -/
def enew (Dh Eh : Mat 50000 96) (Ce : Mat 800000 96) (src dst : Fin 800000 → Fin 50000) : Mat 800000 96 :=
  fun k j => Dh (src k) j + Eh (dst k) j + Ce k j

/-- The gate: the logistic function entry by entry. -/
def gate {n : Nat} (x : Mat n 96) : Mat n 96 := fun k j => Ideal.logistic (x k j)

/-- The gated message: the gate times the source row of Bh. -/
def gatedMsg (Bh : Mat 50000 96) (sg : Mat 800000 96) (src : Fin 800000 → Fin 50000) : Mat 800000 96 :=
  fun k j => Bh (src k) j * sg k j

/-- The sum of the edge rows arriving at each node, from the float zero. -/
def segSum (dst : Fin 800000 → Fin 50000) (u : Mat 800000 96) : Mat 50000 96 :=
  fun p q => z32 + ∑ k ∈ Finset.univ.filter (fun k => dst k = p), u k q

/-- The node update before normalisation. -/
def hnew (Ah ssh ss : Mat 50000 96) : Mat 50000 96 :=
  fun p q => Ah p q + Ideal.div (ssh p q) (ss p q + epsDeg)

/-- A column sum from the float zero. -/
def colSum {n : Nat} (x : Mat n 96) : Row 96 := fun j => z32 + ∑ i : Fin n, x i j

/-- The batch mean of each column, for a row count handed in as a float. -/
def meanOf {n : Nat} (cn : EReal) (x : Mat n 96) : Row 96 := fun j => Ideal.div (colSum x j) cn

/-- The two-pass biased variance of each column: the mean of the squared deviations from the mean. -/
def varTwoPass {n : Nat} (cn : EReal) (x : Mat n 96) : Row 96 :=
  fun j => Ideal.div (z32 + ∑ i : Fin n, (x i j - meanOf cn x j) * (x i j - meanOf cn x j)) cn

/-- The one-pass variance from handed-in column sums of x and of x²: mean of squares minus squared mean, clamped
    at zero. -/
def varOnePass (cn : EReal) (s sq : Row 96) : Row 96 :=
  fun j => max (Ideal.div (sq j) cn - Ideal.div (s j) cn * Ideal.div (s j) cn) z32

/-- Normalise, scale, shift, rectify and add the residual, for a given mean and variance row. -/
def normRelu {n : Nat} (x xin : Mat n 96) (mean var γ β : Row 96) : Mat n 96 :=
  fun i j => xin i j + max (γ j * (x i j - mean j) * Ideal.rsqrt (var j + epsBn) + β j) z32

/-- The reference's batch normalisation with rectifier and residual. -/
def bnTwoPass {n : Nat} (cn : EReal) (x xin : Mat n 96) (γ β : Row 96) : Mat n 96 :=
  normRelu x xin (meanOf cn x) (varTwoPass cn x) γ β

/-- The kernel's batch normalisation with rectifier and residual, from handed-in column sums; the variance is
    clamped at zero a second time where it is used. -/
def bnOnePass {n : Nat} (cn : EReal) (s sq : Row 96) (x xin : Mat n 96) (γ β : Row 96) : Mat n 96 :=
  normRelu x xin (fun j => Ideal.div (s j) cn) (fun j => max (varOnePass cn s sq j) z32) γ β

/-- An extended real that is a real number. -/
def IsReal (x : EReal) : Prop := ∃ r : ℝ, x = (r : EReal)
/-- A matrix all of whose entries are real numbers. -/
def RealMat {n c : Nat} (x : Mat n c) : Prop := ∀ i j, IsReal (x i j)
/-- A row all of whose entries are real numbers. -/
def RealRow {c : Nat} (x : Row c) : Prop := ∀ j, IsReal (x j)

/-- One tile's column sum, from the float zero. -/
def tileSum {R : Nat} (f : Fin R → EReal) : EReal := z32 + ∑ r : Fin R, f r

/-- A core's running column sum after its tiles 0 … t: the first tile is added onto the float zero, every later
    tile onto what the tiles before it left. -/
def accUpTo {R : Nat} (f : Nat → Fin R → EReal) : Nat → EReal
  | 0 => z32 + tileSum (f 0)
  | t + 1 => accUpTo f t + tileSum (f (t + 1))

/-- The two cores' running sums added from the float zero: the column total as the kernel forms it, for T tiles
    of R rows on each of two cores. Row (c, t, r) of the grid is row c·T·R + t·R + r of x. -/
def twoCoreSum (T R : Nat) {n : Nat} (hn : n = 2 * (T * R)) (hT : 0 < T) (f : Fin n → EReal) : EReal :=
  z32 + ∑ c : Fin 2, accUpTo (fun t (r : Fin R) =>
    if h : t < T then f ⟨c.val * (T * R) + t * R + r.val, by
      subst hn
      have h1 : t * R + r.val < T * R := by
        calc t * R + r.val < t * R + R := Nat.add_lt_add_left r.isLt _
          _ = (t + 1) * R := by ring
          _ ≤ T * R := Nat.mul_le_mul_right _ h
      have h2 : c.val ≤ 1 := Nat.lt_succ_iff.mp c.isLt
      have h3 : c.val * (T * R) ≤ 1 * (T * R) := Nat.mul_le_mul_right _ h2
      rw [Nat.one_mul] at h3
      omega⟩ else 0) (T - 1)

/-- Every stage of the layer from its eighteen inputs, gathered once so that both programs are read against the
    same names. -/
structure Stages where
  Ah : Mat 50000 96
  Bh : Mat 50000 96
  Dh : Mat 50000 96
  Eh : Mat 50000 96
  Ce : Mat 800000 96
  en : Mat 800000 96
  sg : Mat 800000 96
  ssh : Mat 50000 96
  ss : Mat 50000 96
  hn : Mat 50000 96

/-- The stages of the layer. -/
def stages (h : Mat 50000 96) (e : Mat 800000 96) (src dst : Fin 800000 → Fin 50000)
    (Aw : Mat 96 96) (Ab : Row 96) (Bw : Mat 96 96) (Bb : Row 96) (Cw : Mat 96 96) (Cb : Row 96)
    (Dw : Mat 96 96) (Db : Row 96) (Ew : Mat 96 96) (Eb : Row 96) : Stages :=
  let Ah := lin h Aw Ab
  let Bh := lin h Bw Bb
  let Dh := lin h Dw Db
  let Eh := lin h Ew Eb
  let Ce := lin e Cw Cb
  let en := enew Dh Eh Ce src dst
  let sg := gate en
  let ssh := segSum dst (gatedMsg Bh sg src)
  let ss := segSum dst sg
  { Ah := Ah, Bh := Bh, Dh := Dh, Eh := Eh, Ce := Ce, en := en, sg := sg, ssh := ssh, ss := ss,
    hn := hnew Ah ssh ss }

end Cert.Spec

end
-- ==== Proof.Conv.lean ====
/-
  Arrays read as matrices and rows: an array of shape [n, c] is the matrix of its entries at (i, j), an array of
  shape [c] the row of its entries; two arrays with the same matrix are the same array. An index vector "holds" a
  family of node numbers when each entry, read as a signed integer, is that number.
-/
import proofs.«422570_j39187281608763_2_alg».proof.Proof.Spec
import Idealize.ShloMosaic.Lib.ValueIdx

noncomputable section

namespace Cert.Conv

open Idealize.ShloMosaic Idealize.ShloMosaic.ValueIdx

/-- The matrix of a rank-2 array. -/
def toMat {n c : Nat} (x : (⟨2, ![n, c]⟩ : Shape).Idx → EReal) : Cert.Spec.Mat n c := fun i j => x (ix2 i j)

/-- The row of a rank-1 array. -/
def toRow {c : Nat} (x : (⟨1, ![c]⟩ : Shape).Idx → EReal) : Cert.Spec.Row c := fun j => x (ix1 j)

/-- The row of a [1, c] array. -/
def toRow1 {c : Nat} (x : (⟨2, ![1, c]⟩ : Shape).Idx → EReal) : Cert.Spec.Row c := fun j => x (ix2 0 j)

theorem toMat_apply {n c : Nat} (x : (⟨2, ![n, c]⟩ : Shape).Idx → EReal) (i : Fin n) (j : Fin c) :
    toMat x i j = x (ix2 i j) := rfl

/-- An array is determined by its matrix: every index is the pair of its two coordinates. -/
theorem toMat_inj {n c : Nat} {x y : (⟨2, ![n, c]⟩ : Shape).Idx → EReal} (h : toMat x = toMat y) : x = y := by
  funext i
  rw [eq_ix2 i]
  exact congrFun (congrFun h (i 0)) (i 1)

/-- The index vector v holds the node numbers f: entry k, read signed, is f k. -/
def Holds (v : (⟨1, ![800000]⟩ : Shape).Idx → BitVec 32) (f : Fin 800000 → Fin 50000) : Prop :=
  ∀ k : Fin 800000, (v (ix1 k)).toInt = ((f k).val : ℤ)

end Cert.Conv

end
-- ==== Proof.KSpec.lean ====
/-
  The kernel's own arrangement of the layer's data, as functions on the extended reals: an affine map whose weight is
  stored already transposed; the gate and the gated message packed side by side in one matrix of 192 columns; a
  [2, 1, 96] array of per-core column sums read as a table core by column; and one core's column sum accumulated
  tile after tile (the inner part of the two-core total).
-/
import proofs.«422570_j39187281608763_2_alg».proof.Proof.Spec
import proofs.«422570_j39187281608763_2_alg».proof.Proof.Conv

noncomputable section

open scoped BigOperators

namespace Cert.KSpec

open Idealize.ShloMosaic Idealize.ShloMosaic.ValueIdx Cert.Spec

/-- x·w + b with the weight stored as (input feature, output feature). -/
def matAff {n : Nat} (x : Mat n 96) (w : Mat 96 96) (b : Row 96) : Mat n 96 :=
  fun i j => (∑ k : Fin 96, x i k * w k j) + b j

/-- The weight stored transposed gives the layer's affine map. -/
theorem matAff_transpose {n : Nat} (x : Mat n 96) (w : Mat 96 96) (b : Row 96) :
    matAff x (fun k j => w j k) b = lin x w b := rfl

/-- Two matrices of 96 columns side by side. -/
def sideBySide {n : Nat} (a b : Mat n 96) : Mat n 192 :=
  fun i j => if h : j.val < 96 then a i ⟨j.val, h⟩ else b i ⟨j.val - 96, by have := j.isLt; omega⟩

/-- The left half of a matrix of 192 columns. -/
def leftHalf {n : Nat} (x : Mat n 192) : Mat n 96 := fun i j => x i ⟨j.val, by have := j.isLt; omega⟩
/-- The right half of a matrix of 192 columns. -/
def rightHalf {n : Nat} (x : Mat n 192) : Mat n 96 := fun i j => x i ⟨j.val + 96, by have := j.isLt; omega⟩

/-- The edge pre-activation as the kernel forms it: the left half of the packed source rows, plus the destination
    rows, plus the edge's own affine projection (weight stored transposed). -/
def enK (e : Mat 800000 96) (cwT : Mat 96 96) (cb : Row 96) (g16 : Mat 800000 192) (g17 : Mat 800000 96) :
    Mat 800000 96 := fun k j => leftHalf g16 k j + g17 k j + matAff e cwT cb k j

/-- A [2, 1, 96] array read as a table: core, then column. -/
def toAcc (x : (⟨3, ![2, 1, 96]⟩ : Shape).Idx → EReal) : Fin 2 → Fin 96 → EReal := fun c j => x (ix3 c 0 j)

/-- Core c's column sum of x accumulated over its T tiles of R rows (row (c, t, r) of the grid is row
    c·T·R + t·R + r of x): the inner part of `Spec.twoCoreSum`. -/
def coreAcc (T R : Nat) {n : Nat} (hn : n = 2 * (T * R)) (f : Fin n → EReal) (c : Fin 2) : EReal :=
  accUpTo (fun t (r : Fin R) =>
    if h : t < T then f ⟨c.val * (T * R) + t * R + r.val, by
      subst hn
      have h1 : t * R + r.val < T * R := by
        calc t * R + r.val < t * R + R := Nat.add_lt_add_left r.isLt _
          _ = (t + 1) * R := by ring
          _ ≤ T * R := Nat.mul_le_mul_right _ h
      have h2 : c.val ≤ 1 := Nat.lt_succ_iff.mp c.isLt
      have h3 : c.val * (T * R) ≤ 1 * (T * R) := Nat.mul_le_mul_right _ h2
      rw [Nat.one_mul] at h3
      omega⟩ else 0) (T - 1)

/-- The two-core total is the float zero plus the two cores' accumulated sums. -/
theorem twoCoreSum_eq_coreAcc (T R : Nat) {n : Nat} (hn : n = 2 * (T * R)) (hT : 0 < T) (f : Fin n → EReal) :
    twoCoreSum T R hn hT f = z32 + ∑ c : Fin 2, coreAcc T R hn f c := rfl

end Cert.KSpec

end
-- ==== Proof.KHost0.lean ====
/-
  The first host stretch of the idealized kernel read back: the nine bias and scale vectors laid as [1, 96] rows, the
  five weight matrices transposed, and the arguments it does not touch, all as functions of the launch memory.
-/
import proofs.«422570_j39187281608763_2_alg».proof.Proof.KernelRun
import proofs.«422570_j39187281608763_2_alg».proof.Proof.Conv
import proofs.«422570_j39187281608763_2_alg».proof.Proof.KSpec
import Idealize.ShloMosaic.Lib.ValueLayout
import Idealize.ShloMosaic.Lib.StableHlo.Run

noncomputable section

open scoped BigOperators

namespace Cert.KHost0

open Cert Cert.KernelIdeal Cert.KernelIdeal.Gen Cert.Conv Cert.KSpec
open Idealize.ShloMosaic Idealize.ShloMosaic.TcCoe Idealize.SL.Sem

/-- A vector of 96 entries laid as a [1, 96] array has, as its row, the vector's entries: entry (0, j) of the
    laid-out array is entry j of the vector, the row-major position of (0, j) in [1, 96] being 0·96 + j = j. -/
theorem toRow1_cast (x : S96.Idx → EReal) (h : S96.ShapeCasts S1x96) : toRow1 (shapeCast S1x96 x h) = toRow x :=
  funext fun j => ValueIdx.shapeCast_a_1a_apply x h 0 j

/-- A 96 × 96 matrix with its two axes exchanged has, at (k, j), the matrix's entry at (j, k). -/
theorem toMat_transpose (x : S96x96.Idx → EReal) (h : S96x96.Transposes [1, 0] S96x96) :
    toMat (transpose S96x96 [1, 0] x h) = fun k j => toMat x j k :=
  funext fun k => funext fun j => ValueIdx.transpose_ix2_apply x h k j

variable (m : (ℓ : Loc nD τ sig) → Buf (Elt Ideal) ℓ) (ρ : Dev nD → PrngReg)

theorem arg0_eq (c : Dev nD) : W1 m ρ c (Proc.devRef .tc main_arg0) = m ((c.tc : Thread nD τ).loc main_arg0) := by
  show StableHlo.after hostOps0 _ _ = _
  after_results
theorem arg1_eq (c : Dev nD) : W1 m ρ c (Proc.devRef .tc main_arg1) = m ((c.tc : Thread nD τ).loc main_arg1) := by
  show StableHlo.after hostOps0 _ _ = _
  after_results
theorem arg2_eq (c : Dev nD) : W1 m ρ c (Proc.devRef .tc main_arg2) = m ((c.tc : Thread nD τ).loc main_arg2) := by
  show StableHlo.after hostOps0 _ _ = _
  after_results
theorem arg3_eq (c : Dev nD) : W1 m ρ c (Proc.devRef .tc main_arg3) = m ((c.tc : Thread nD τ).loc main_arg3) := by
  show StableHlo.after hostOps0 _ _ = _
  after_results
/-- The transposed weight: entry (k, j) is the argument's entry (j, k). -/
theorem v9_eq (c : Dev nD) : toMat (W1 m ρ c (Proc.devRef .tc main_v9)) = fun k j => toMat (m ((c.tc : Thread nD τ).loc main_arg4)) j k := by
  have e : (W1 m ρ c (Proc.devRef .tc main_v9) : S96x96.Idx → EReal)
      = transpose S96x96 [1, 0] (m ((c.tc : Thread nD τ).loc main_arg4)) transposes_S96x96_S96x96_1_0 := by
    show StableHlo.after hostOps0 _ _ = _
    after_results
  exact (congrArg toMat e).trans (toMat_transpose _ _)
/-- The transposed weight: entry (k, j) is the argument's entry (j, k). -/
theorem v10_eq (c : Dev nD) : toMat (W1 m ρ c (Proc.devRef .tc main_v10)) = fun k j => toMat (m ((c.tc : Thread nD τ).loc main_arg6)) j k := by
  have e : (W1 m ρ c (Proc.devRef .tc main_v10) : S96x96.Idx → EReal)
      = transpose S96x96 [1, 0] (m ((c.tc : Thread nD τ).loc main_arg6)) transposes_S96x96_S96x96_1_0 := by
    show StableHlo.after hostOps0 _ _ = _
    after_results
  exact (congrArg toMat e).trans (toMat_transpose _ _)
/-- The transposed weight: entry (k, j) is the argument's entry (j, k). -/
theorem v11_eq (c : Dev nD) : toMat (W1 m ρ c (Proc.devRef .tc main_v11)) = fun k j => toMat (m ((c.tc : Thread nD τ).loc main_arg8)) j k := by
  have e : (W1 m ρ c (Proc.devRef .tc main_v11) : S96x96.Idx → EReal)
      = transpose S96x96 [1, 0] (m ((c.tc : Thread nD τ).loc main_arg8)) transposes_S96x96_S96x96_1_0 := by
    show StableHlo.after hostOps0 _ _ = _
    after_results
  exact (congrArg toMat e).trans (toMat_transpose _ _)
/-- The transposed weight: entry (k, j) is the argument's entry (j, k). -/
theorem v12_eq (c : Dev nD) : toMat (W1 m ρ c (Proc.devRef .tc main_v12)) = fun k j => toMat (m ((c.tc : Thread nD τ).loc main_arg10)) j k := by
  have e : (W1 m ρ c (Proc.devRef .tc main_v12) : S96x96.Idx → EReal)
      = transpose S96x96 [1, 0] (m ((c.tc : Thread nD τ).loc main_arg10)) transposes_S96x96_S96x96_1_0 := by
    show StableHlo.after hostOps0 _ _ = _
    after_results
  exact (congrArg toMat e).trans (toMat_transpose _ _)
/-- The transposed weight: entry (k, j) is the argument's entry (j, k). -/
theorem v13_eq (c : Dev nD) : toMat (W1 m ρ c (Proc.devRef .tc main_v13)) = fun k j => toMat (m ((c.tc : Thread nD τ).loc main_arg12)) j k := by
  have e : (W1 m ρ c (Proc.devRef .tc main_v13) : S96x96.Idx → EReal)
      = transpose S96x96 [1, 0] (m ((c.tc : Thread nD τ).loc main_arg12)) transposes_S96x96_S96x96_1_0 := by
    show StableHlo.after hostOps0 _ _ = _
    after_results
  exact (congrArg toMat e).trans (toMat_transpose _ _)
/-- The vector laid as a [1, 96] row. -/
theorem v0_eq (c : Dev nD) : toRow1 (W1 m ρ c (Proc.devRef .tc main_v0)) = toRow (m ((c.tc : Thread nD τ).loc main_arg5)) := by
  have e : (W1 m ρ c (Proc.devRef .tc main_v0) : S1x96.Idx → EReal)
      = shapeCast S1x96 (m ((c.tc : Thread nD τ).loc main_arg5)) shapeCasts_S96_S1x96 := by
    show StableHlo.after hostOps0 _ _ = _
    after_results
    rfl
  exact (congrArg toRow1 e).trans (toRow1_cast _ _)
/-- The vector laid as a [1, 96] row. -/
theorem v1_eq (c : Dev nD) : toRow1 (W1 m ρ c (Proc.devRef .tc main_v1)) = toRow (m ((c.tc : Thread nD τ).loc main_arg7)) := by
  have e : (W1 m ρ c (Proc.devRef .tc main_v1) : S1x96.Idx → EReal)
      = shapeCast S1x96 (m ((c.tc : Thread nD τ).loc main_arg7)) shapeCasts_S96_S1x96 := by
    show StableHlo.after hostOps0 _ _ = _
    after_results
    rfl
  exact (congrArg toRow1 e).trans (toRow1_cast _ _)
/-- The vector laid as a [1, 96] row. -/
theorem v2_eq (c : Dev nD) : toRow1 (W1 m ρ c (Proc.devRef .tc main_v2)) = toRow (m ((c.tc : Thread nD τ).loc main_arg9)) := by
  have e : (W1 m ρ c (Proc.devRef .tc main_v2) : S1x96.Idx → EReal)
      = shapeCast S1x96 (m ((c.tc : Thread nD τ).loc main_arg9)) shapeCasts_S96_S1x96 := by
    show StableHlo.after hostOps0 _ _ = _
    after_results
    rfl
  exact (congrArg toRow1 e).trans (toRow1_cast _ _)
/-- The vector laid as a [1, 96] row. -/
theorem v3_eq (c : Dev nD) : toRow1 (W1 m ρ c (Proc.devRef .tc main_v3)) = toRow (m ((c.tc : Thread nD τ).loc main_arg11)) := by
  have e : (W1 m ρ c (Proc.devRef .tc main_v3) : S1x96.Idx → EReal)
      = shapeCast S1x96 (m ((c.tc : Thread nD τ).loc main_arg11)) shapeCasts_S96_S1x96 := by
    show StableHlo.after hostOps0 _ _ = _
    after_results
    rfl
  exact (congrArg toRow1 e).trans (toRow1_cast _ _)
/-- The vector laid as a [1, 96] row. -/
theorem v4_eq (c : Dev nD) : toRow1 (W1 m ρ c (Proc.devRef .tc main_v4)) = toRow (m ((c.tc : Thread nD τ).loc main_arg13)) := by
  have e : (W1 m ρ c (Proc.devRef .tc main_v4) : S1x96.Idx → EReal)
      = shapeCast S1x96 (m ((c.tc : Thread nD τ).loc main_arg13)) shapeCasts_S96_S1x96 := by
    show StableHlo.after hostOps0 _ _ = _
    after_results
    rfl
  exact (congrArg toRow1 e).trans (toRow1_cast _ _)
/-- The vector laid as a [1, 96] row. -/
theorem v5_eq (c : Dev nD) : toRow1 (W1 m ρ c (Proc.devRef .tc main_v5)) = toRow (m ((c.tc : Thread nD τ).loc main_arg14)) := by
  have e : (W1 m ρ c (Proc.devRef .tc main_v5) : S1x96.Idx → EReal)
      = shapeCast S1x96 (m ((c.tc : Thread nD τ).loc main_arg14)) shapeCasts_S96_S1x96 := by
    show StableHlo.after hostOps0 _ _ = _
    after_results
    rfl
  exact (congrArg toRow1 e).trans (toRow1_cast _ _)
/-- The vector laid as a [1, 96] row. -/
theorem v6_eq (c : Dev nD) : toRow1 (W1 m ρ c (Proc.devRef .tc main_v6)) = toRow (m ((c.tc : Thread nD τ).loc main_arg15)) := by
  have e : (W1 m ρ c (Proc.devRef .tc main_v6) : S1x96.Idx → EReal)
      = shapeCast S1x96 (m ((c.tc : Thread nD τ).loc main_arg15)) shapeCasts_S96_S1x96 := by
    show StableHlo.after hostOps0 _ _ = _
    after_results
    rfl
  exact (congrArg toRow1 e).trans (toRow1_cast _ _)
/-- The vector laid as a [1, 96] row. -/
theorem v7_eq (c : Dev nD) : toRow1 (W1 m ρ c (Proc.devRef .tc main_v7)) = toRow (m ((c.tc : Thread nD τ).loc main_arg16)) := by
  have e : (W1 m ρ c (Proc.devRef .tc main_v7) : S1x96.Idx → EReal)
      = shapeCast S1x96 (m ((c.tc : Thread nD τ).loc main_arg16)) shapeCasts_S96_S1x96 := by
    show StableHlo.after hostOps0 _ _ = _
    after_results
    rfl
  exact (congrArg toRow1 e).trans (toRow1_cast _ _)
/-- The vector laid as a [1, 96] row. -/
theorem v8_eq (c : Dev nD) : toRow1 (W1 m ρ c (Proc.devRef .tc main_v8)) = toRow (m ((c.tc : Thread nD τ).loc main_arg17)) := by
  have e : (W1 m ρ c (Proc.devRef .tc main_v8) : S1x96.Idx → EReal)
      = shapeCast S1x96 (m ((c.tc : Thread nD τ).loc main_arg17)) shapeCasts_S96_S1x96 := by
    show StableHlo.after hostOps0 _ _ = _
    after_results
    rfl
  exact (congrArg toRow1 e).trans (toRow1_cast _ _)

end Cert.KHost0

end
-- ==== Proof.KRegion0.lean ====
/-
  The first region (the four node-side projections) read back: each output array, after the region, is x·w + b of the
  node features, the transposed weight and the bias row as the region finds them.
-/
import proofs.«422570_j39187281608763_2_alg».proof.Proof.KernelRun
import proofs.«422570_j39187281608763_2_alg».proof.Proof.Conv
import proofs.«422570_j39187281608763_2_alg».proof.Proof.KSpec
import Idealize.ShloMosaic.Lib.Pipeline.Value
import Idealize.ShloMosaic.Lib.ValueIdx
import Idealize.ShloMosaic.PureOps.Ideal.Laws

noncomputable section

open scoped BigOperators

namespace Cert.KRegion0

open Cert Cert.KernelIdeal Cert.KernelIdeal.Gen Cert.Conv Cert.KSpec
open Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## The matrix product at an entry

The body's product contracts the second axis of the row block with the first axis of the weight block: at the
output entry (p, q) and the contraction position k the left operand is read at (p, k) and the right one at (k, q). -/

theorem lhs_row (j : S5000x96.Idx) (k : dot_S5000x96_S96x96_S5000x96_1_0_0_1_n_n.contr.Idx) :
    (dot_S5000x96_S96x96_S5000x96_1_0_0_1_n_n.lhsIdx j k 0).val = (j 0).val := by
  unfold DotDims.lhsIdx
  rw [dif_neg (show ¬ (0 : Fin S5000x96.rank) ∈ dot_S5000x96_S96x96_S5000x96_1_0_0_1_n_n.lhsBatch by decide),
    dif_pos (show (0 : Fin S5000x96.rank) ∈ dot_S5000x96_S96x96_S5000x96_1_0_0_1_n_n.lhsNonContracting by decide)]
  rfl

theorem lhs_col (j : S5000x96.Idx) (k : dot_S5000x96_S96x96_S5000x96_1_0_0_1_n_n.contr.Idx) :
    (dot_S5000x96_S96x96_S5000x96_1_0_0_1_n_n.lhsIdx j k 1).val = (k ⟨0, by decide⟩).val :=
  dot_S5000x96_S96x96_S5000x96_1_0_0_1_n_n.lhsIdx_val_of_single (cl := 1) rfl j k

theorem rhs_row (j : S5000x96.Idx) (k : dot_S5000x96_S96x96_S5000x96_1_0_0_1_n_n.contr.Idx) :
    (dot_S5000x96_S96x96_S5000x96_1_0_0_1_n_n.rhsIdx j k 0).val = (k ⟨0, by decide⟩).val :=
  dot_S5000x96_S96x96_S5000x96_1_0_0_1_n_n.rhsIdx_val_of_single (cr := 0) rfl j k

theorem rhs_col (j : S5000x96.Idx) (k : dot_S5000x96_S96x96_S5000x96_1_0_0_1_n_n.contr.Idx) :
    (dot_S5000x96_S96x96_S5000x96_1_0_0_1_n_n.rhsIdx j k 1).val = (j 1).val := by
  unfold DotDims.rhsIdx
  rw [dif_neg (show ¬ (1 : Fin S96x96.rank) ∈ dot_S5000x96_S96x96_S5000x96_1_0_0_1_n_n.rhsBatch by decide),
    dif_pos (show (1 : Fin S96x96.rank) ∈ dot_S5000x96_S96x96_S5000x96_1_0_0_1_n_n.rhsNonContracting by decide)]
  rfl

theorem zero_off : (![0, 0] : Fin 2 → Nat) = fun _ => 0 := funext fun a => by fin_cases a <;> rfl

/-- The product into the zero accumulator, at entry (p, q): the sum over k of x(p, k) · w(k, q). -/
theorem prod_at (x0 : FVec Ideal S5000x96 .f32) (x1 : FVec Ideal S96x96 .f32) (p : Fin 5000) (q : Fin 96) :
    matmul dot_S5000x96_S96x96_S5000x96_1_0_0_1_n_n none x0 x1 (constant (F := Ideal) S5000x96 .f32 0x00000000#32) (ix2 p q)
      = ∑ k : Fin 96, x0 (ix2 p k) * x1 (ix2 k q) := by
  show FloatOps.matmul _ _ _ _ _ _ = _
  rw [Ideal.matmul_constant_zero_apply]
  rw [← Equiv.sum_comp (contrEquiv1 dot_S5000x96_S96x96_S5000x96_1_0_0_1_n_n 96 rfl rfl).symm]
  refine Finset.sum_congr rfl fun k _ => ?_
  congr 1
  · refine congrArg x0 (funext fun a => Fin.ext ?_)
    match a with
    | ⟨0, _⟩ => exact lhs_row _ _
    | ⟨1, _⟩ => exact (lhs_col _ _).trans (contrEquiv1_symm_val dot_S5000x96_S96x96_S5000x96_1_0_0_1_n_n 96 rfl rfl k)
  · refine congrArg x1 (funext fun a => Fin.ext ?_)
    match a with
    | ⟨0, _⟩ => exact (rhs_row _ _).trans (contrEquiv1_symm_val dot_S5000x96_S96x96_S5000x96_1_0_0_1_n_n 96 rfl rfl k)
    | ⟨1, _⟩ => exact rhs_col _ _

/-- The bias row broadcast down the rows, at entry (p, q): the bias at column q. -/
theorem bias_at (x2 : FVec Ideal S1x96 .f32) (p : Fin 5000) (q : Fin 96) :
    broadcastTo S5000x96 x2 broadcasts_S1x96_S5000x96 (ix2 p q) = x2 (ix2 0 q) :=
  broadcastTo_apply x2 _ (ix2 p q) (ix2 0 q) (fun a => by match a with | ⟨0, _⟩ => rfl | ⟨1, _⟩ => rfl)

/-! ## What the body leaves in an output block, at an entry

Each of the four stores writes, over the whole block, the product of the row block with one weight block plus
that weight's bias row. -/

/-- The first output block at entry (p, q): the sum over k of x(p, k) · w(k, q), plus b(q). -/
theorem out9_at (x0 : Vec Ideal S5000x96 .f32) (x1 : Vec Ideal S96x96 .f32) (x2 : Vec Ideal S1x96 .f32) (x3 : Vec Ideal S96x96 .f32) (x4 : Vec Ideal S1x96 .f32) (x5 : Vec Ideal S96x96 .f32) (x6 : Vec Ideal S1x96 .f32) (x7 : Vec Ideal S96x96 .f32) (x8 : Vec Ideal S1x96 .f32)
    (p : Fin 5000) (q : Fin 96) :
    out0_9 (F := Ideal) x0 x1 x2 x3 x4 x5 x6 x7 x8 (ix2 p q)
      = (∑ k : Fin 96, x0 (ix2 p k) * x1 (ix2 k q)) + x2 (ix2 0 q) := by
  unfold out0_9
  rw [View.canon_unit_zero zero_off]
  simp only [View.ld_unit_zero (S := S5000x96) zero_off, View.ld_unit_zero (S := S96x96) zero_off,
    View.ld_unit_zero (S := S1x96) zero_off]
  unfold k0_pay2
  simp only [shapeCast_self]
  exact congrArg₂ (· + ·) (prod_at x0 x1 p q) (bias_at x2 p q)

/-- The second output block at entry (p, q): the sum over k of x(p, k) · w(k, q), plus b(q). -/
theorem out10_at (x0 : Vec Ideal S5000x96 .f32) (x1 : Vec Ideal S96x96 .f32) (x2 : Vec Ideal S1x96 .f32) (x3 : Vec Ideal S96x96 .f32) (x4 : Vec Ideal S1x96 .f32) (x5 : Vec Ideal S96x96 .f32) (x6 : Vec Ideal S1x96 .f32) (x7 : Vec Ideal S96x96 .f32) (x8 : Vec Ideal S1x96 .f32)
    (p : Fin 5000) (q : Fin 96) :
    out0_10 (F := Ideal) x0 x1 x2 x3 x4 x5 x6 x7 x8 (ix2 p q)
      = (∑ k : Fin 96, x0 (ix2 p k) * x3 (ix2 k q)) + x4 (ix2 0 q) := by
  unfold out0_10
  rw [View.canon_unit_zero zero_off]
  simp only [View.ld_unit_zero (S := S5000x96) zero_off, View.ld_unit_zero (S := S96x96) zero_off,
    View.ld_unit_zero (S := S1x96) zero_off]
  unfold k0_pay3
  simp only [shapeCast_self]
  exact congrArg₂ (· + ·) (prod_at x0 x3 p q) (bias_at x4 p q)

/-- The third output block at entry (p, q): the sum over k of x(p, k) · w(k, q), plus b(q). -/
theorem out11_at (x0 : Vec Ideal S5000x96 .f32) (x1 : Vec Ideal S96x96 .f32) (x2 : Vec Ideal S1x96 .f32) (x3 : Vec Ideal S96x96 .f32) (x4 : Vec Ideal S1x96 .f32) (x5 : Vec Ideal S96x96 .f32) (x6 : Vec Ideal S1x96 .f32) (x7 : Vec Ideal S96x96 .f32) (x8 : Vec Ideal S1x96 .f32)
    (p : Fin 5000) (q : Fin 96) :
    out0_11 (F := Ideal) x0 x1 x2 x3 x4 x5 x6 x7 x8 (ix2 p q)
      = (∑ k : Fin 96, x0 (ix2 p k) * x5 (ix2 k q)) + x6 (ix2 0 q) := by
  unfold out0_11
  rw [View.canon_unit_zero zero_off]
  simp only [View.ld_unit_zero (S := S5000x96) zero_off, View.ld_unit_zero (S := S96x96) zero_off,
    View.ld_unit_zero (S := S1x96) zero_off]
  unfold k0_pay4
  simp only [shapeCast_self]
  exact congrArg₂ (· + ·) (prod_at x0 x5 p q) (bias_at x6 p q)

/-- The fourth output block at entry (p, q): the sum over k of x(p, k) · w(k, q), plus b(q). -/
theorem out12_at (x0 : Vec Ideal S5000x96 .f32) (x1 : Vec Ideal S96x96 .f32) (x2 : Vec Ideal S1x96 .f32) (x3 : Vec Ideal S96x96 .f32) (x4 : Vec Ideal S1x96 .f32) (x5 : Vec Ideal S96x96 .f32) (x6 : Vec Ideal S1x96 .f32) (x7 : Vec Ideal S96x96 .f32) (x8 : Vec Ideal S1x96 .f32)
    (p : Fin 5000) (q : Fin 96) :
    out0_12 (F := Ideal) x0 x1 x2 x3 x4 x5 x6 x7 x8 (ix2 p q)
      = (∑ k : Fin 96, x0 (ix2 p k) * x7 (ix2 k q)) + x8 (ix2 0 q) := by
  unfold out0_12
  rw [View.canon_unit_zero zero_off]
  simp only [View.ld_unit_zero (S := S5000x96) zero_off, View.ld_unit_zero (S := S96x96) zero_off,
    View.ld_unit_zero (S := S1x96) zero_off]
  unfold k0_pay1 k0_pay5
  simp only [shapeCast_self]
  exact congrArg₂ (· + ·) (prod_at x0 x7 p q) (bias_at x8 p q)

/-! ## The blocks the body reads, as entries of the arrays

The grid has ten points. At point t the row block of the node features, and each output block, is rows
5000·t … 5000·t + 4999 of its array; every weight block and every bias block is its whole array at every point. -/

section AtEntry

-- the buffer contents when the region is entered
variable (V : (c : Dev nD) → (b : Ref sig .tc) → Buf (Elt Ideal) ((c : Thread nD τ).loc b))

/-- The block index of the row-blocked windows at point t is (t, 0). -/
theorem idx_rows : ∀ t : Fin cfg0.N,
    win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The block index of the weight and bias windows is (0, 0) at every point. -/
theorem idx_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Entry (p, k) of the row block at point t is entry (5000·t + p, k) of the node features. -/
theorem xblk_at (c : Dev nD) (t : Fin cfg0.N) (p : Fin 5000) (k : Fin 96) (i : Fin 50000)
    (hi : i.val = t.val * 5000 + p.val) :
    (iblk0 V c 0 t : Vec Ideal S5000x96 .f32) (ix2 p k) = (V c main_arg0 : S50000x96.Idx → EReal) (ix2 i k) := by
  obtain ⟨e0, e1, -⟩ := idx_rows t
  unfold iblk0
  rw [View.read_apply]
  show V c main_arg0 _ = V c main_arg0 _
  congr 1
  funext a
  apply Fin.ext
  match a with
  | ⟨0, _⟩ => show win0_0.index t (0 : Fin 2) * 5000 + 1 * p.val = i.val; rw [e0, hi]; omega
  | ⟨1, _⟩ => show win0_0.index t (1 : Fin 2) * 96 + 1 * k.val = k.val; rw [e1]; omega

/-- The weight block of window 1 is its whole array at every point. -/
theorem wblk1 (c : Dev nD) (t : Fin cfg0.N) : (iblk0 V c 1 t : Vec Ideal S96x96 .f32) = V c main_v9 := by
  obtain ⟨e0, e1, -⟩ := idx_whole t
  funext y
  unfold iblk0
  rw [View.read_apply]
  show V c main_v9 _ = V c main_v9 _
  congr 1
  funext a
  apply Fin.ext
  match a with
  | ⟨0, _⟩ => show win0_1.index t (0 : Fin 2) * 96 + 1 * (y 0).val = (y 0).val; rw [e0]; omega
  | ⟨1, _⟩ => show win0_1.index t (1 : Fin 2) * 96 + 1 * (y 1).val = (y 1).val; rw [e1]; omega

/-- The bias block of window 2 is its whole array at every point. -/
theorem wblk2 (c : Dev nD) (t : Fin cfg0.N) : (iblk0 V c 2 t : Vec Ideal S1x96 .f32) = V c main_v0 := by
  obtain ⟨-, -, e0, e1, -⟩ := idx_whole t
  funext y
  unfold iblk0
  rw [View.read_apply]
  show V c main_v0 _ = V c main_v0 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 96 + 1 * (y 1).val = (y 1).val; rw [e1]; omega

/-- The weight block of window 3 is its whole array at every point. -/
theorem wblk3 (c : Dev nD) (t : Fin cfg0.N) : (iblk0 V c 3 t : Vec Ideal S96x96 .f32) = V c main_v10 := by
  obtain ⟨-, -, -, -, e0, e1, -⟩ := idx_whole t
  funext y
  unfold iblk0
  rw [View.read_apply]
  show V c main_v10 _ = V c main_v10 _
  congr 1
  funext a
  apply Fin.ext
  match a with
  | ⟨0, _⟩ => show win0_3.index t (0 : Fin 2) * 96 + 1 * (y 0).val = (y 0).val; rw [e0]; omega
  | ⟨1, _⟩ => show win0_3.index t (1 : Fin 2) * 96 + 1 * (y 1).val = (y 1).val; rw [e1]; omega

/-- The bias block of window 4 is its whole array at every point. -/
theorem wblk4 (c : Dev nD) (t : Fin cfg0.N) : (iblk0 V c 4 t : Vec Ideal S1x96 .f32) = V c main_v1 := by
  obtain ⟨-, -, -, -, -, -, e0, e1, -⟩ := idx_whole t
  funext y
  unfold iblk0
  rw [View.read_apply]
  show V c main_v1 _ = V c main_v1 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 96 + 1 * (y 1).val = (y 1).val; rw [e1]; omega

/-- The weight block of window 5 is its whole array at every point. -/
theorem wblk5 (c : Dev nD) (t : Fin cfg0.N) : (iblk0 V c 5 t : Vec Ideal S96x96 .f32) = V c main_v12 := by
  obtain ⟨-, -, -, -, -, -, -, -, e0, e1, -⟩ := idx_whole t
  funext y
  unfold iblk0
  rw [View.read_apply]
  show V c main_v12 _ = V c main_v12 _
  congr 1
  funext a
  apply Fin.ext
  match a with
  | ⟨0, _⟩ => show win0_5.index t (0 : Fin 2) * 96 + 1 * (y 0).val = (y 0).val; rw [e0]; omega
  | ⟨1, _⟩ => show win0_5.index t (1 : Fin 2) * 96 + 1 * (y 1).val = (y 1).val; rw [e1]; omega

/-- The bias block of window 6 is its whole array at every point. -/
theorem wblk6 (c : Dev nD) (t : Fin cfg0.N) : (iblk0 V c 6 t : Vec Ideal S1x96 .f32) = V c main_v3 := by
  obtain ⟨-, -, -, -, -, -, -, -, -, -, e0, e1, -⟩ := idx_whole t
  funext y
  unfold iblk0
  rw [View.read_apply]
  show V c main_v3 _ = V c main_v3 _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 96 + 1 * (y 1).val = (y 1).val; rw [e1]; omega

/-- The weight block of window 7 is its whole array at every point. -/
theorem wblk7 (c : Dev nD) (t : Fin cfg0.N) : (iblk0 V c 7 t : Vec Ideal S96x96 .f32) = V c main_v13 := by
  obtain ⟨-, -, -, -, -, -, -, -, -, -, -, -, e0, e1, -⟩ := idx_whole t
  funext y
  unfold iblk0
  rw [View.read_apply]
  show V c main_v13 _ = V c main_v13 _
  congr 1
  funext a
  apply Fin.ext
  match a with
  | ⟨0, _⟩ => show win0_7.index t (0 : Fin 2) * 96 + 1 * (y 0).val = (y 0).val; rw [e0]; omega
  | ⟨1, _⟩ => show win0_7.index t (1 : Fin 2) * 96 + 1 * (y 1).val = (y 1).val; rw [e1]; omega

/-- The bias block of window 8 is its whole array at every point. -/
theorem wblk8 (c : Dev nD) (t : Fin cfg0.N) : (iblk0 V c 8 t : Vec Ideal S1x96 .f32) = V c main_v4 := by
  obtain ⟨-, -, -, -, -, -, -, -, -, -, -, -, -, -, e0, e1⟩ := idx_whole t
  funext y
  unfold iblk0
  rw [View.read_apply]
  show V c main_v4 _ = V c main_v4 _
  congr 1
  funext a
  apply Fin.ext
  match a with
  | ⟨0, _⟩ => show win0_8.index t (0 : Fin 2) * 1 + 1 * (y 0).val = (y 0).val; rw [e0]; omega
  | ⟨1, _⟩ => show win0_8.index t (1 : Fin 2) * 96 + 1 * (y 1).val = (y 1).val; rw [e1]; omega

/-! ## From the blocks to the arrays

What point t writes back is rows 5000·t … 5000·t + 4999 of one whole-array function of the arrays the region
finds: the affine map of the node features. Row r lies in the block of point r / 5000, so the ten blocks cover the
array and it ends holding that function. -/

/-- x·w + b as an array, from the arrays of x, of the weight stored (input, output) and of the bias row. -/
def proj (X : S50000x96.Idx → EReal) (Wt : S96x96.Idx → EReal) (B : S1x96.Idx → EReal) : S50000x96.Idx → EReal :=
  fun i => (∑ k : Fin 96, X (ix2 (i 0) k) * Wt (ix2 k (i 1))) + B (ix2 0 (i 1))

/-- Read as a matrix it is the affine map of the three arrays read as matrices and a row. -/
theorem toMat_proj (X : S50000x96.Idx → EReal) (Wt : S96x96.Idx → EReal) (B : S1x96.Idx → EReal) :
    toMat (proj X Wt B) = matAff (toMat X) (toMat Wt) (toRow1 B) := rfl

theorem point_lt (t : Fin cfg0.N) : t.val < 10 := lt_of_lt_of_eq t.isLt N_0

/-! ### The first output -/

/-- Entry (p, q) of the first output's block at point t sits at (5000·t + p, q) of its array. -/
theorem emb9 (t : Fin cfg0.N) (p : Fin 5000) (q : Fin 96) (i : Fin 50000) (hi : i.val = t.val * 5000 + p.val) :
    (((cfg0.win 9).blk t).view.emb (ix2 p q) : S50000x96.Idx) = ix2 i q := by
  obtain ⟨-, -, e0, e1, -⟩ := idx_rows t
  funext a
  apply Fin.ext
  match a with
  | ⟨0, _⟩ => show win0_9.index t (0 : Fin 2) * 5000 + 1 * p.val = i.val; rw [e0, hi]; omega
  | ⟨1, _⟩ => show win0_9.index t (1 : Fin 2) * 96 + 1 * q.val = q.val; rw [e1]; omega

/-- What point t writes back is its block of the affine map of the arrays the region finds. -/
theorem flushed9 (c : Dev nD) (t : Fin cfg0.N) :
    (dat0 V c).flushed 9 t
      = ((cfg0.win 9).blk t).view.read (Elt Ideal) (proj (V c main_arg0) (V c main_v9) (V c main_v0)) := by
  show (cfg0.win 9).cut (grid0.coords t) ((dat0 V c).after 9 t) = _
  rw [after0_9]
  funext j
  obtain ⟨p, q, rfl⟩ : ∃ (p : Fin 5000) (q : Fin 96), j = ix2 p q := ⟨j 0, j 1, eq_ix2 j⟩
  have ht := point_lt t
  rw [View.read_apply, emb9 t p q ⟨t.val * 5000 + p.val, by have := p.isLt; omega⟩ rfl]
  refine (out9_at (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  exact congrArg₂ (· + ·)
    (Finset.sum_congr rfl fun k _ => congrArg₂ (· * ·) (xblk_at V c t p k _ rfl) (congrFun (wblk1 V c t) (ix2 k q)))
    (congrFun (wblk2 V c t) (ix2 0 q))

/-- An index of the array is in point t's block iff each coordinate is in the block's range on its axis. -/
theorem mem_blk9 (t : Fin cfg0.N) (i : S50000x96.Idx) :
    i ∈ ((cfg0.win 9).blk t).view.set ↔ ∀ a : Fin 2, win0_9.index t a * S5000x96.size a ≤ (i a).val
      ∧ (i a).val < win0_9.index t a * S5000x96.size a + S5000x96.size a := by
  show i ∈ ((View.whole main_v14_0).slice (win0_9.rect t)).set ↔ _
  rw [View.set_slice_whole, Rect.mem_set_unit]
  exact Iff.rfl

/-- Every index of the array is in the block of the point its row falls in. -/
theorem cover9 (i : S50000x96.Idx) :
    ∃ t : Fin cfg0.N, (cfg0.win 9).flush t = true ∧ i ∈ ((cfg0.win 9).blk t).view.set := by
  have hi0 : (i 0).val < 50000 := (i 0).isLt
  have hi1 : (i 1).val < 96 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, e0, e1, -⟩ := idx_rows t
  refine ⟨t, flush0_9 t, ?_⟩
  rw [mem_blk9]
  intro a
  match a with
  | ⟨0, _⟩ =>
    show win0_9.index t (0 : Fin 2) * 5000 ≤ (i 0).val ∧ (i 0).val < win0_9.index t (0 : Fin 2) * 5000 + 5000
    rw [e0, ht]; omega
  | ⟨1, _⟩ =>
    show win0_9.index t (1 : Fin 2) * 96 ≤ (i 1).val ∧ (i 1).val < win0_9.index t (1 : Fin 2) * 96 + 96
    rw [e1]; omega

/-- So the array ends holding the affine map. -/
theorem arr9 (c : Dev nD) :
    (dat0 V c).arrAt 9 cfg0.N = proj (V c main_arg0) (V c main_v9) (V c main_v0) :=
  (dat0 V c).arrAt_eq_of_cover 9 (proj (V c main_arg0) (V c main_v9) (V c main_v0)) (fun t _ => flushed9 V c t) cover9

/-! ### The second output -/

/-- Entry (p, q) of the second output's block at point t sits at (5000·t + p, q) of its array. -/
theorem emb10 (t : Fin cfg0.N) (p : Fin 5000) (q : Fin 96) (i : Fin 50000) (hi : i.val = t.val * 5000 + p.val) :
    (((cfg0.win 10).blk t).view.emb (ix2 p q) : S50000x96.Idx) = ix2 i q := by
  obtain ⟨-, -, -, -, e0, e1, -⟩ := idx_rows t
  funext a
  apply Fin.ext
  match a with
  | ⟨0, _⟩ => show win0_10.index t (0 : Fin 2) * 5000 + 1 * p.val = i.val; rw [e0, hi]; omega
  | ⟨1, _⟩ => show win0_10.index t (1 : Fin 2) * 96 + 1 * q.val = q.val; rw [e1]; omega

/-- What point t writes back is its block of the affine map of the arrays the region finds. -/
theorem flushed10 (c : Dev nD) (t : Fin cfg0.N) :
    (dat0 V c).flushed 10 t
      = ((cfg0.win 10).blk t).view.read (Elt Ideal) (proj (V c main_arg0) (V c main_v10) (V c main_v1)) := by
  show (cfg0.win 10).cut (grid0.coords t) ((dat0 V c).after 10 t) = _
  rw [after0_10]
  funext j
  obtain ⟨p, q, rfl⟩ : ∃ (p : Fin 5000) (q : Fin 96), j = ix2 p q := ⟨j 0, j 1, eq_ix2 j⟩
  have ht := point_lt t
  rw [View.read_apply, emb10 t p q ⟨t.val * 5000 + p.val, by have := p.isLt; omega⟩ rfl]
  refine (out10_at (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  exact congrArg₂ (· + ·)
    (Finset.sum_congr rfl fun k _ => congrArg₂ (· * ·) (xblk_at V c t p k _ rfl) (congrFun (wblk3 V c t) (ix2 k q)))
    (congrFun (wblk4 V c t) (ix2 0 q))

/-- An index of the array is in point t's block iff each coordinate is in the block's range on its axis. -/
theorem mem_blk10 (t : Fin cfg0.N) (i : S50000x96.Idx) :
    i ∈ ((cfg0.win 10).blk t).view.set ↔ ∀ a : Fin 2, win0_10.index t a * S5000x96.size a ≤ (i a).val
      ∧ (i a).val < win0_10.index t a * S5000x96.size a + S5000x96.size a := by
  show i ∈ ((View.whole main_v14_1).slice (win0_10.rect t)).set ↔ _
  rw [View.set_slice_whole, Rect.mem_set_unit]
  exact Iff.rfl

/-- Every index of the array is in the block of the point its row falls in. -/
theorem cover10 (i : S50000x96.Idx) :
    ∃ t : Fin cfg0.N, (cfg0.win 10).flush t = true ∧ i ∈ ((cfg0.win 10).blk t).view.set := by
  have hi0 : (i 0).val < 50000 := (i 0).isLt
  have hi1 : (i 1).val < 96 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, e0, e1, -⟩ := idx_rows t
  refine ⟨t, flush0_10 t, ?_⟩
  rw [mem_blk10]
  intro a
  match a with
  | ⟨0, _⟩ =>
    show win0_10.index t (0 : Fin 2) * 5000 ≤ (i 0).val ∧ (i 0).val < win0_10.index t (0 : Fin 2) * 5000 + 5000
    rw [e0, ht]; omega
  | ⟨1, _⟩ =>
    show win0_10.index t (1 : Fin 2) * 96 ≤ (i 1).val ∧ (i 1).val < win0_10.index t (1 : Fin 2) * 96 + 96
    rw [e1]; omega

/-- So the array ends holding the affine map. -/
theorem arr10 (c : Dev nD) :
    (dat0 V c).arrAt 10 cfg0.N = proj (V c main_arg0) (V c main_v10) (V c main_v1) :=
  (dat0 V c).arrAt_eq_of_cover 10 (proj (V c main_arg0) (V c main_v10) (V c main_v1)) (fun t _ => flushed10 V c t) cover10

/-! ### The third output -/

/-- Entry (p, q) of the third output's block at point t sits at (5000·t + p, q) of its array. -/
theorem emb11 (t : Fin cfg0.N) (p : Fin 5000) (q : Fin 96) (i : Fin 50000) (hi : i.val = t.val * 5000 + p.val) :
    (((cfg0.win 11).blk t).view.emb (ix2 p q) : S50000x96.Idx) = ix2 i q := by
  obtain ⟨-, -, -, -, -, -, e0, e1, -⟩ := idx_rows t
  funext a
  apply Fin.ext
  match a with
  | ⟨0, _⟩ => show win0_11.index t (0 : Fin 2) * 5000 + 1 * p.val = i.val; rw [e0, hi]; omega
  | ⟨1, _⟩ => show win0_11.index t (1 : Fin 2) * 96 + 1 * q.val = q.val; rw [e1]; omega

/-- What point t writes back is its block of the affine map of the arrays the region finds. -/
theorem flushed11 (c : Dev nD) (t : Fin cfg0.N) :
    (dat0 V c).flushed 11 t
      = ((cfg0.win 11).blk t).view.read (Elt Ideal) (proj (V c main_arg0) (V c main_v12) (V c main_v3)) := by
  show (cfg0.win 11).cut (grid0.coords t) ((dat0 V c).after 11 t) = _
  rw [after0_11]
  funext j
  obtain ⟨p, q, rfl⟩ : ∃ (p : Fin 5000) (q : Fin 96), j = ix2 p q := ⟨j 0, j 1, eq_ix2 j⟩
  have ht := point_lt t
  rw [View.read_apply, emb11 t p q ⟨t.val * 5000 + p.val, by have := p.isLt; omega⟩ rfl]
  refine (out11_at (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  exact congrArg₂ (· + ·)
    (Finset.sum_congr rfl fun k _ => congrArg₂ (· * ·) (xblk_at V c t p k _ rfl) (congrFun (wblk5 V c t) (ix2 k q)))
    (congrFun (wblk6 V c t) (ix2 0 q))

/-- An index of the array is in point t's block iff each coordinate is in the block's range on its axis. -/
theorem mem_blk11 (t : Fin cfg0.N) (i : S50000x96.Idx) :
    i ∈ ((cfg0.win 11).blk t).view.set ↔ ∀ a : Fin 2, win0_11.index t a * S5000x96.size a ≤ (i a).val
      ∧ (i a).val < win0_11.index t a * S5000x96.size a + S5000x96.size a := by
  show i ∈ ((View.whole main_v14_2).slice (win0_11.rect t)).set ↔ _
  rw [View.set_slice_whole, Rect.mem_set_unit]
  exact Iff.rfl

/-- Every index of the array is in the block of the point its row falls in. -/
theorem cover11 (i : S50000x96.Idx) :
    ∃ t : Fin cfg0.N, (cfg0.win 11).flush t = true ∧ i ∈ ((cfg0.win 11).blk t).view.set := by
  have hi0 : (i 0).val < 50000 := (i 0).isLt
  have hi1 : (i 1).val < 96 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, -, -, e0, e1, -⟩ := idx_rows t
  refine ⟨t, flush0_11 t, ?_⟩
  rw [mem_blk11]
  intro a
  match a with
  | ⟨0, _⟩ =>
    show win0_11.index t (0 : Fin 2) * 5000 ≤ (i 0).val ∧ (i 0).val < win0_11.index t (0 : Fin 2) * 5000 + 5000
    rw [e0, ht]; omega
  | ⟨1, _⟩ =>
    show win0_11.index t (1 : Fin 2) * 96 ≤ (i 1).val ∧ (i 1).val < win0_11.index t (1 : Fin 2) * 96 + 96
    rw [e1]; omega

/-- So the array ends holding the affine map. -/
theorem arr11 (c : Dev nD) :
    (dat0 V c).arrAt 11 cfg0.N = proj (V c main_arg0) (V c main_v12) (V c main_v3) :=
  (dat0 V c).arrAt_eq_of_cover 11 (proj (V c main_arg0) (V c main_v12) (V c main_v3)) (fun t _ => flushed11 V c t) cover11

/-! ### The fourth output -/

/-- Entry (p, q) of the fourth output's block at point t sits at (5000·t + p, q) of its array. -/
theorem emb12 (t : Fin cfg0.N) (p : Fin 5000) (q : Fin 96) (i : Fin 50000) (hi : i.val = t.val * 5000 + p.val) :
    (((cfg0.win 12).blk t).view.emb (ix2 p q) : S50000x96.Idx) = ix2 i q := by
  obtain ⟨-, -, -, -, -, -, -, -, e0, e1⟩ := idx_rows t
  funext a
  apply Fin.ext
  match a with
  | ⟨0, _⟩ => show win0_12.index t (0 : Fin 2) * 5000 + 1 * p.val = i.val; rw [e0, hi]; omega
  | ⟨1, _⟩ => show win0_12.index t (1 : Fin 2) * 96 + 1 * q.val = q.val; rw [e1]; omega

/-- What point t writes back is its block of the affine map of the arrays the region finds. -/
theorem flushed12 (c : Dev nD) (t : Fin cfg0.N) :
    (dat0 V c).flushed 12 t
      = ((cfg0.win 12).blk t).view.read (Elt Ideal) (proj (V c main_arg0) (V c main_v13) (V c main_v4)) := by
  show (cfg0.win 12).cut (grid0.coords t) ((dat0 V c).after 12 t) = _
  rw [after0_12]
  funext j
  obtain ⟨p, q, rfl⟩ : ∃ (p : Fin 5000) (q : Fin 96), j = ix2 p q := ⟨j 0, j 1, eq_ix2 j⟩
  have ht := point_lt t
  rw [View.read_apply, emb12 t p q ⟨t.val * 5000 + p.val, by have := p.isLt; omega⟩ rfl]
  refine (out12_at (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  exact congrArg₂ (· + ·)
    (Finset.sum_congr rfl fun k _ => congrArg₂ (· * ·) (xblk_at V c t p k _ rfl) (congrFun (wblk7 V c t) (ix2 k q)))
    (congrFun (wblk8 V c t) (ix2 0 q))

/-- An index of the array is in point t's block iff each coordinate is in the block's range on its axis. -/
theorem mem_blk12 (t : Fin cfg0.N) (i : S50000x96.Idx) :
    i ∈ ((cfg0.win 12).blk t).view.set ↔ ∀ a : Fin 2, win0_12.index t a * S5000x96.size a ≤ (i a).val
      ∧ (i a).val < win0_12.index t a * S5000x96.size a + S5000x96.size a := by
  show i ∈ ((View.whole main_v14_3).slice (win0_12.rect t)).set ↔ _
  rw [View.set_slice_whole, Rect.mem_set_unit]
  exact Iff.rfl

/-- Every index of the array is in the block of the point its row falls in. -/
theorem cover12 (i : S50000x96.Idx) :
    ∃ t : Fin cfg0.N, (cfg0.win 12).flush t = true ∧ i ∈ ((cfg0.win 12).blk t).view.set := by
  have hi0 : (i 0).val < 50000 := (i 0).isLt
  have hi1 : (i 1).val < 96 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, -, -, -, -, e0, e1⟩ := idx_rows t
  refine ⟨t, flush0_12 t, ?_⟩
  rw [mem_blk12]
  intro a
  match a with
  | ⟨0, _⟩ =>
    show win0_12.index t (0 : Fin 2) * 5000 ≤ (i 0).val ∧ (i 0).val < win0_12.index t (0 : Fin 2) * 5000 + 5000
    rw [e0, ht]; omega
  | ⟨1, _⟩ =>
    show win0_12.index t (1 : Fin 2) * 96 ≤ (i 1).val ∧ (i 1).val < win0_12.index t (1 : Fin 2) * 96 + 96
    rw [e1]; omega

/-- So the array ends holding the affine map. -/
theorem arr12 (c : Dev nD) :
    (dat0 V c).arrAt 12 cfg0.N = proj (V c main_arg0) (V c main_v13) (V c main_v4) :=
  (dat0 V c).arrAt_eq_of_cover 12 (proj (V c main_arg0) (V c main_v13) (V c main_v4)) (fun t _ => flushed12 V c t) cover12

end AtEntry

/-! ## The four arrays after the region -/

theorem Ah_eq (c : Dev nD) : toMat (W2 m ρ c (Proc.devRef .tc main_v14_0))
    = matAff (toMat (W1 m ρ c (Proc.devRef .tc main_arg0))) (toMat (W1 m ρ c (Proc.devRef .tc main_v9))) (toRow1 (W1 m ρ c (Proc.devRef .tc main_v0))) := by
  have h : (W2 m ρ c (Proc.devRef .tc main_v14_0) : S50000x96.Idx → EReal)
      = proj (W1 m ρ c (Proc.devRef .tc main_arg0)) (W1 m ρ c (Proc.devRef .tc main_v9)) (W1 m ρ c (Proc.devRef .tc main_v0)) :=
    (W2_arr m ρ c 9).trans (arr9 (V1 m ρ) c)
  rw [h]
  rfl
theorem Bh_eq (c : Dev nD) : toMat (W2 m ρ c (Proc.devRef .tc main_v14_1))
    = matAff (toMat (W1 m ρ c (Proc.devRef .tc main_arg0))) (toMat (W1 m ρ c (Proc.devRef .tc main_v10))) (toRow1 (W1 m ρ c (Proc.devRef .tc main_v1))) := by
  have h : (W2 m ρ c (Proc.devRef .tc main_v14_1) : S50000x96.Idx → EReal)
      = proj (W1 m ρ c (Proc.devRef .tc main_arg0)) (W1 m ρ c (Proc.devRef .tc main_v10)) (W1 m ρ c (Proc.devRef .tc main_v1)) :=
    (W2_arr m ρ c 10).trans (arr10 (V1 m ρ) c)
  rw [h]
  rfl
theorem Dh_eq (c : Dev nD) : toMat (W2 m ρ c (Proc.devRef .tc main_v14_2))
    = matAff (toMat (W1 m ρ c (Proc.devRef .tc main_arg0))) (toMat (W1 m ρ c (Proc.devRef .tc main_v12))) (toRow1 (W1 m ρ c (Proc.devRef .tc main_v3))) := by
  have h : (W2 m ρ c (Proc.devRef .tc main_v14_2) : S50000x96.Idx → EReal)
      = proj (W1 m ρ c (Proc.devRef .tc main_arg0)) (W1 m ρ c (Proc.devRef .tc main_v12)) (W1 m ρ c (Proc.devRef .tc main_v3)) :=
    (W2_arr m ρ c 11).trans (arr11 (V1 m ρ) c)
  rw [h]
  rfl
theorem Eh_eq (c : Dev nD) : toMat (W2 m ρ c (Proc.devRef .tc main_v14_3))
    = matAff (toMat (W1 m ρ c (Proc.devRef .tc main_arg0))) (toMat (W1 m ρ c (Proc.devRef .tc main_v13))) (toRow1 (W1 m ρ c (Proc.devRef .tc main_v4))) := by
  have h : (W2 m ρ c (Proc.devRef .tc main_v14_3) : S50000x96.Idx → EReal)
      = proj (W1 m ρ c (Proc.devRef .tc main_arg0)) (W1 m ρ c (Proc.devRef .tc main_v13)) (W1 m ρ c (Proc.devRef .tc main_v4)) :=
    (W2_arr m ρ c 12).trans (arr12 (V1 m ρ) c)
  rw [h]
  rfl

end Cert.KRegion0

end
-- ==== Proof.LibScatterGather.lean ====
/-
  StableHLO's gather and scatter-add READ AT AN INDEX, for the two layouts an embedding-style program prints:
  a table of rows [N × C] (or a vector [N]) addressed by an [n × 1] column of positions.

  * the row gather: result row e is the table's row at the position read signed and clamped into the table;
  * the scatter's landing index decoded: update row e lands in table row p exactly when its position, read signed,
    is p (an update whose position is outside the table lands nowhere), the column kept;
  * the scatter-add at the exact instance: the operand's element plus the sum of the update rows whose position
    is that element's row.
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Idealize.ShloMosaic.ScatterGather

open Idealize.ShloMosaic Idealize.ShloMosaic.ValueIdx

/-- Axes 0 and 1 of a shape differ (stated through the underlying naturals, so it holds at any rank written
    with variables in it). -/
theorem fin_zero_ne_one {r : Nat} (h0 : 0 < r) (h1 : 1 < r) : (⟨0, h0⟩ : Fin r) ≠ ⟨1, h1⟩ :=
  fun h => Nat.zero_ne_one (congrArg Fin.val h)

/-! ## The row gather -/

/-- THE ROW GATHER. `table[pos]` over a table of rows [N × C] at an [n × 1] column of positions: operand axis 0
    collapsed and start-indexed, axis 1 the one offset axis (a whole row is the slice), no batching axes, the index
    vector on axis 1 of the positions. Result element (e, f) is the table at row `pos e` — read SIGNED and CLAMPED
    into [0, N − 1] — and column f. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (f : Fin C) (hN : 0 < N) :
    Host.gather d x idx (ix2 e f) = x (ix2 ⟨min (idx (ix2 e 0)).toInt.toNat (N - 1), by omega⟩ f) := by
  unfold Host.gather
  congr 1
  funext a
  apply Fin.ext
  have hb : ∀ a, a ∉ d.operandBatchingDims := by intro a; rw [hob]; exact List.not_mem_nil
  -- the result's one batch axis is axis 0, its one offset axis is axis 1
  have hbd : ∀ y ∈ d.batchDims, y = 0 := by
    show ∀ y ∈ Shape.kept _ d.offsetDims, y = 0
    rw [hoff]; intro y hy; exact List.mem_singleton.1 hy
  have hod : ∀ y ∈ d.offsetDims, y = 1 := by rw [hoff]; intro y hy; exact List.mem_singleton.1 hy
  -- the operand's one kept axis is axis 1
  have hsk : d.sKept = [1] := by
    show Shape.kept _ (d.collapsedSliceDims ++ d.operandBatchingDims) = _; rw [hcoll, hob]; rfl
  match a with
  | ⟨0, _⟩ =>
    -- axis 0: the clamped start, nothing added
    have hk : (0 : Fin 2) ∉ d.sKept := by
      rw [hsk, List.mem_singleton]; exact fin_zero_ne_one _ _
    have hm : (0 : Fin 2) ∈ d.startIndexMap := by rw [hsim]; exact List.mem_singleton.mpr rfl
    have hsl : d.sliceSizes 0 = 1 := d.slice_collapsed 0 (by rw [hcoll]; exact List.mem_singleton.mpr rfl)
    have hlen : d.startIndexMap.length = 1 := by rw [hsim]; rfl
    -- the start index of result row e is read at (e, 0)
    have hsi : ∀ c : Fin d.startIndexMap.length, d.siIdx (ix2 e f) c = ix2 e 0 := by
      intro c
      funext b
      match b with
      | ⟨0, _⟩ =>
        unfold GatherDims.siIdx
        rw [dif_neg (by rw [hivd]; exact Nat.zero_ne_one)]
        unfold GatherDims.siCoord
        apply Fin.ext
        simp only [Fin.val_cast]
        rw [hbd _ (List.getElem_mem _)]
        rfl
      | ⟨1, _⟩ =>
        unfold GatherDims.siIdx
        rw [dif_pos (by rw [hivd])]
        apply Fin.ext
        show c.val = 0
        have := c.isLt; omega
    show d.start (ix2 e f) idx 0 + d.batchCoord (ix2 e f) 0 + d.offCoord (ix2 e f) 0
      = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, hsi, hsl]
    rfl
  | ⟨1, _⟩ =>
    -- axis 1: no start, the offset coordinate is the result's column
    have hk : (1 : Fin 2) ∈ d.sKept := by rw [hsk]; exact List.mem_singleton.mpr rfl
    have hm : (1 : Fin 2) ∉ d.startIndexMap := by
      rw [hsim, List.mem_singleton]; exact (fin_zero_ne_one _ _).symm
    show d.start (ix2 e f) idx 1 + d.batchCoord (ix2 e f) 1 + d.offCoord (ix2 e f) 1 = f.val
    rw [GatherDims.batchCoord_eq_zero _ _ _ (hb 1), Nat.add_zero]
    unfold GatherDims.start
    rw [dif_neg hm, Nat.zero_add]
    unfold GatherDims.offCoord
    rw [dif_pos hk, hod _ (List.getElem_mem _)]
    rfl

/-! ## Where an update lands -/

/-- THE ROW SCATTER'S LANDING INDEX. Updates [n × C] scattered into a table of rows [N × C] at an [n × 1] column of
    positions: the updates' axis 1 is the window axis and goes to operand axis 1, operand axis 0 is inserted and is the
    one the positions address, the index vector on axis 1 of the positions. Update element (e, f) lands at table
    element (p, q) exactly when row e's position, read SIGNED (not clamped), is p, and the column is kept; a position
    outside the table lands nowhere. -/
theorem scatter_rows_resultIdx {N C n w : Nat} (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (f : Fin C) (p : Fin N) (q : Fin C) :
    d.resultIdx? (ix2 e f) idx = some (ix2 p q) ↔ (idx (ix2 e 0)).toInt = (p.val : ℤ) ∧ f = q := by
  have hus : ∀ y ∈ d.uScatter, y = 0 := by
    show ∀ y ∈ Shape.kept _ d.updateWindowDims, y = 0
    rw [huw]; intro y hy; exact List.mem_singleton.1 hy
  have huwm : ∀ y ∈ d.updateWindowDims, y = 1 := by rw [huw]; intro y hy; exact List.mem_singleton.1 hy
  have hsk : d.sKept = [1] := by
    show Shape.kept _ d.insertedWindowDims = _; rw [hiw]; rfl
  have hlen : d.scatterDimsToOperandDims.length = 1 := by rw [hsd]; rfl
  have hsi : ∀ c : Fin d.scatterDimsToOperandDims.length, d.siIdx (ix2 e f) c = ix2 e 0 := by
    intro c
    funext b
    match b with
    | ⟨0, _⟩ =>
      unfold ScatterDims.siIdx
      rw [dif_neg (by rw [hivd]; exact Nat.zero_ne_one)]
      unfold ScatterDims.siCoord
      apply Fin.ext
      simp only [Fin.val_cast]
      rw [hus _ (List.getElem_mem _)]
      rfl
    | ⟨1, _⟩ =>
      unfold ScatterDims.siIdx
      rw [dif_pos (by rw [hivd])]
      apply Fin.ext
      show c.val = 0
      have := c.isLt; omega
  have hs0 : d.start (ix2 e f) idx 0 = (idx (ix2 e 0)).toInt := by
    unfold ScatterDims.start
    rw [dif_pos (by rw [hsd]; exact List.mem_singleton.mpr rfl), hsi]
  have hs1 : d.start (ix2 e f) idx 1 = 0 := by
    unfold ScatterDims.start
    rw [dif_neg (by rw [hsd, List.mem_singleton]; exact (fin_zero_ne_one _ _).symm)]
  have hw0 : d.window (ix2 e f) 0 = 0 := by
    unfold ScatterDims.window
    rw [dif_neg (by rw [hsk, List.mem_singleton]; exact fin_zero_ne_one _ _)]
  have hw1 : d.window (ix2 e f) 1 = f.val := by
    unfold ScatterDims.window
    rw [dif_pos (by rw [hsk]; exact List.mem_singleton.mpr rfl), huwm _ (List.getElem_mem _)]
    rfl
  unfold ScatterDims.resultIdx?
  split
  · rename_i h
    rw [Option.some.injEq]
    constructor
    · intro hg
      have h0 := congrArg Fin.val (congrFun hg 0)
      have h1 := congrArg Fin.val (congrFun hg 1)
      have g0 := (h 0).1
      simp only [hs0, hs1, hw0, hw1] at h0 h1 g0
      change (_ : ℤ).toNat = p.val at h0
      change (_ : ℤ).toNat = q.val at h1
      refine ⟨by omega, Fin.ext (by omega)⟩
    · rintro ⟨hi, hf⟩
      funext a
      apply Fin.ext
      match a with
      | ⟨0, _⟩ =>
        show (d.start (ix2 e f) idx 0 + (d.window (ix2 e f) 0 : ℤ)).toNat = p.val
        rw [hs0, hw0, hi]; simp
      | ⟨1, _⟩ =>
        show (d.start (ix2 e f) idx 1 + (d.window (ix2 e f) 1 : ℤ)).toNat = q.val
        rw [hs1, hw1, hf]; simp
  · rename_i h
    constructor
    · intro hg; exact absurd hg (by simp)
    · rintro ⟨hi, hf⟩
      exfalso; apply h
      intro a
      match a with
      | ⟨0, _⟩ =>
        show 0 ≤ d.start (ix2 e f) idx 0 + (d.window (ix2 e f) 0 : ℤ) ∧ d.start (ix2 e f) idx 0 + (d.window (ix2 e f) 0 : ℤ) < (N : ℤ)
        rw [hs0, hw0, hi]
        have := p.isLt
        constructor <;> omega
      | ⟨1, _⟩ =>
        show 0 ≤ d.start (ix2 e f) idx 1 + (d.window (ix2 e f) 1 : ℤ) ∧ d.start (ix2 e f) idx 1 + (d.window (ix2 e f) 1 : ℤ) < (C : ℤ)
        rw [hs1, hw1]
        have := f.isLt
        constructor <;> omega

/-- THE VECTOR SCATTER'S LANDING INDEX. Updates [n] scattered into a vector [N] at an [n × 1] column of positions (no window
    axes, the operand's one axis inserted and addressed by the positions): update e lands at element p exactly when
    its position, read SIGNED, is p. -/
theorem scatter_vec_resultIdx {N n w : Nat} (d : ScatterDims ⟨1, ![N]⟩ ⟨2, ![n, 1]⟩ ⟨1, ![n]⟩)
    (hiw : d.insertedWindowDims = [0])
    (hsd : d.scatterDimsToOperandDims = [0]) (hivd : d.indexVectorDim = 1)
    (idx : IVec ⟨2, ![n, 1]⟩ w) (e : Fin n) (p : Fin N) :
    d.resultIdx? (ix1 e) idx = some (ix1 p) ↔ (idx (ix2 e 0)).toInt = (p.val : ℤ) := by
  have hsk : d.sKept = [] := by
    show Shape.kept _ d.insertedWindowDims = _; rw [hiw]; rfl
  have hlen : d.scatterDimsToOperandDims.length = 1 := by rw [hsd]; rfl
  have hsi : ∀ c : Fin d.scatterDimsToOperandDims.length, d.siIdx (ix1 e) c = ix2 e 0 := by
    intro c
    funext b
    match b with
    | ⟨0, _⟩ =>
      unfold ScatterDims.siIdx
      rw [dif_neg (by rw [hivd]; exact Nat.zero_ne_one)]
      unfold ScatterDims.siCoord
      apply Fin.ext
      simp only [Fin.val_cast]
      have hX : ∀ X : Fin 1, ((ix1 e : (⟨1, ![n]⟩ : Shape).Idx) X).val = e.val := fun X => by
        have hX : X = 0 := Subsingleton.elim _ _
        subst hX; rfl
      exact hX _
    | ⟨1, _⟩ =>
      unfold ScatterDims.siIdx
      rw [dif_pos (by rw [hivd])]
      apply Fin.ext
      show c.val = 0
      have := c.isLt; omega
  have hs0 : d.start (ix1 e) idx 0 = (idx (ix2 e 0)).toInt := by
    unfold ScatterDims.start
    rw [dif_pos (by rw [hsd]; exact List.mem_singleton.mpr rfl), hsi]
  have hw0 : d.window (ix1 e) 0 = 0 := by
    unfold ScatterDims.window
    rw [dif_neg (by rw [hsk]; exact List.not_mem_nil)]
  unfold ScatterDims.resultIdx?
  split
  · rename_i h
    rw [Option.some.injEq]
    constructor
    · intro hg
      have h0 := congrArg Fin.val (congrFun hg 0)
      have g0 := (h 0).1
      simp only [hs0, hw0] at h0 g0
      change (_ : ℤ).toNat = p.val at h0
      omega
    · intro hi
      funext a
      obtain rfl : a = 0 := Subsingleton.elim _ _
      apply Fin.ext
      show (d.start (ix1 e) idx 0 + (d.window (ix1 e) 0 : ℤ)).toNat = p.val
      rw [hs0, hw0, hi]; simp
  · rename_i h
    constructor
    · intro hg; exact absurd hg (by simp)
    · intro hi
      exfalso; apply h
      intro a
      obtain rfl : a = 0 := Subsingleton.elim _ _
      show 0 ≤ d.start (ix1 e) idx 0 + (d.window (ix1 e) 0 : ℤ) ∧ d.start (ix1 e) idx 0 + (d.window (ix1 e) 0 : ℤ) < (N : ℤ)
      rw [hs0, hw0, hi]
      have := p.isLt
      constructor <;> omega

/-! ## The scatter-add at the exact instance -/

/-- THE SCATTER-ADD READ AT AN INDEX, at the exact instance: the operand's element plus the sum of the update
    elements that land on it. -/
theorem scatterAdd_apply {s si u : Shape} {w : Nat} {φ : FTy} (d : ScatterDims s si u) (x : FVec Ideal s φ)
    (idx : IVec si w) (upd : FVec Ideal u φ) (i : s.Idx) :
    Host.scatterAdd (F := Ideal) d x idx upd i
      = x i + ∑ j ∈ Finset.univ.filter (fun j => d.resultIdx? j idx = some i), upd j := rfl

/-- THE ROW SCATTER-ADD: table element (p, q) is the operand's plus the sum, over the update ROWS whose position read
    signed is p, of the update's element in column q. (The update elements landing at (p, q) are those with column q in
    such a row: the sum over them is re-indexed by the row.) -/
theorem scatterAdd_rows {N C n w : Nat} {φ : FTy} (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ)
    (p : Fin N) (q : Fin C) :
    Host.scatterAdd (F := Ideal) d x idx upd (ix2 p q)
      = x (ix2 p q) + ∑ e ∈ Finset.univ.filter (fun e : Fin n => (idx (ix2 e 0)).toInt = (p.val : ℤ)), upd (ix2 e q) := by
  rw [scatterAdd_apply]
  congr 1
  have key : ∀ (a : Fin n) (b : Fin C),
      d.resultIdx? (ix2 a b) idx = some (ix2 p q) ↔ (idx (ix2 a 0)).toInt = (p.val : ℤ) ∧ b = q :=
    fun a b => scatter_rows_resultIdx d huw hiw hsd hivd idx a b p q
  refine Finset.sum_bij' (fun j _ => (j 0 : Fin n)) (fun e _ => ix2 e q) ?_ ?_ ?_ ?_ ?_
  · intro j hj
    obtain ⟨a, b, rfl⟩ : ∃ (a : Fin n) (b : Fin C), j = ix2 a b := ⟨j 0, j 1, eq_ix2 j⟩
    exact Finset.mem_filter.2 ⟨Finset.mem_univ _, ((key a b).1 (Finset.mem_filter.1 hj).2).1⟩
  · intro e he
    exact Finset.mem_filter.2 ⟨Finset.mem_univ _, (key e q).2 ⟨(Finset.mem_filter.1 he).2, rfl⟩⟩
  · intro j hj
    obtain ⟨a, b, rfl⟩ : ∃ (a : Fin n) (b : Fin C), j = ix2 a b := ⟨j 0, j 1, eq_ix2 j⟩
    have hq : b = q := ((key a b).1 (Finset.mem_filter.1 hj).2).2
    show ix2 a q = ix2 a b
    rw [hq]
  · intro e he; rfl
  · intro j hj
    obtain ⟨a, b, rfl⟩ : ∃ (a : Fin n) (b : Fin C), j = ix2 a b := ⟨j 0, j 1, eq_ix2 j⟩
    have hq : b = q := ((key a b).1 (Finset.mem_filter.1 hj).2).2
    show upd (ix2 a b) = upd (ix2 a q)
    rw [hq]

/-- THE VECTOR SCATTER-ADD: element p is the operand's plus the sum of the updates whose position read signed is p. -/
theorem scatterAdd_vec {N n w : Nat} {φ : FTy} (d : ScatterDims ⟨1, ![N]⟩ ⟨2, ![n, 1]⟩ ⟨1, ![n]⟩)
    (hiw : d.insertedWindowDims = [0])
    (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (p : Fin N) :
    Host.scatterAdd (F := Ideal) d x idx upd (ix1 p)
      = x (ix1 p) + ∑ e ∈ Finset.univ.filter (fun e : Fin n => (idx (ix2 e 0)).toInt = (p.val : ℤ)), upd (ix1 e) := by
  rw [scatterAdd_apply]
  congr 1
  have key : ∀ a : Fin n, d.resultIdx? (ix1 a) idx = some (ix1 p) ↔ (idx (ix2 a 0)).toInt = (p.val : ℤ) :=
    fun a => scatter_vec_resultIdx d hiw hsd hivd idx a p
  refine Finset.sum_bij' (fun j _ => (j 0 : Fin n)) (fun e _ => ix1 e) ?_ ?_ ?_ ?_ ?_
  · intro j hj
    obtain ⟨a, rfl⟩ : ∃ a : Fin n, j = ix1 a := ⟨j 0, eq_ix1 j⟩
    exact Finset.mem_filter.2 ⟨Finset.mem_univ _, (key a).1 (Finset.mem_filter.1 hj).2⟩
  · intro e he
    exact Finset.mem_filter.2 ⟨Finset.mem_univ _, (key e).2 (Finset.mem_filter.1 he).2⟩
  · intro j hj
    obtain ⟨a, rfl⟩ : ∃ a : Fin n, j = ix1 a := ⟨j 0, eq_ix1 j⟩
    rfl
  · intro e he; rfl
  · intro j hj
    obtain ⟨a, rfl⟩ : ∃ a : Fin n, j = ix1 a := ⟨j 0, eq_ix1 j⟩
    rfl

end Idealize.ShloMosaic.ScatterGather
-- ==== Proof.KHost1Pure.lean ====
/-
  Facts about the printed operations of the second host stretch that mention no program state: a row fetch
  ("take") of a table [50000, C] at an index vector whose entries are node numbers, and two matrices of 96 columns
  laid side by side. The fetch wraps negative indices, forms the mask "0 ≤ position ≤ 49999", gathers whole rows
  at the positions and keeps the gathered row where the mask is set; when every index is a node number nothing is
  wrapped, the mask is set everywhere and the gather's clamp into [0, 49999] is the identity, so entry (k, j) of
  the result is entry (f k, j) of the table.
-/
import proofs.«422570_j39187281608763_2_alg».proof.Proof.LibScatterGather
import proofs.«422570_j39187281608763_2_alg».proof.Proof.Conv
import proofs.«422570_j39187281608763_2_alg».proof.Proof.KSpec
import Idealize.ShloMosaic.Lib.Pipeline.Value
import Idealize.ShloMosaic.Lib.Affine

noncomputable section

namespace Cert.KHost1Pure

open Cert.Conv Cert.KSpec
open Idealize.ShloMosaic Idealize.ShloMosaic.ValueIdx

/-- A left fold by "and" that starts at one and meets only ones ends at one. -/
theorem foldl_andi_one {ι : Type} (g : ι → BitVec 1) :
    ∀ (l : List ι) (r : BitVec 1), r = 1#1 → (∀ n ∈ l, g n = 1#1) → l.foldl (fun r n => IntOp.andi r (g n)) r = 1#1
  | [], r, hr, _ => hr
  | a :: l, r, hr, h => by
    rw [List.foldl_cons]
    exact foldl_andi_one g l _ (IntOp.andi_eq_one.2 ⟨hr, h a List.mem_cons_self⟩)
      (fun n hn => h n (List.mem_cons_of_mem _ hn))

/-- A reduction by "and" from the constant one of an array of bits that are all one is one everywhere. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_one x _ _ hinit (fun i _ => hx i)

/-- A 32-bit word that reads signed as a node number n < 50000 is not below 0, is at least 0 and is at most 49999. -/
theorem word_facts (w : BitVec 32) (n : Fin 50000) (hw : w.toInt = (n.val : ℤ)) :
    IntOp.cmpi .slt w 0#32 = 0#1 ∧ IntOp.cmpi .sge w 0#32 = 1#1 ∧ IntOp.cmpi .sle w 49999#32 = 1#1 := by
  have hn := n.isLt
  have z : (0#32 : BitVec 32).toInt = 0 := by decide
  have c : (49999#32 : BitVec 32).toInt = 49999 := by decide
  refine ⟨?_, ?_, ?_⟩
  · show BitVec.ofBool (w.slt 0#32) = 0#1
    simp only [BitVec.slt, hw, z]
    rw [decide_eq_false (by omega)]; rfl
  · show BitVec.ofBool ((0#32 : BitVec 32).sle w) = 1#1
    simp only [BitVec.sle, hw, z]
    rw [decide_eq_true (by omega)]; rfl
  · show BitVec.ofBool (w.sle 49999#32) = 1#1
    simp only [BitVec.sle, hw, c]
    rw [decide_eq_true (by omega)]; rfl

/-- A vector laid out as an [n, 1] column reads, at (k, 0), the vector at k. -/
theorem bcast_col {α : Type} {n : Nat} (b : (⟨1, ![n]⟩ : Shape).BroadcastsInDim ⟨2, ![n, 1]⟩ ![0])
    (y : (⟨1, ![n]⟩ : Shape).Idx → α) (k : Fin n) : broadcastInDim ⟨2, ![n, 1]⟩ ![0] b y (ix2 k 0) = y (ix1 k) := by
  simp only [broadcastInDim]
  congr 1
  funext a
  have ha : a = 0 := Subsingleton.elim _ _
  subst ha
  apply Fin.ext
  have hk := k.isLt
  split
  · next h1 => change n = 1 at h1; show (0 : Nat) = k.val; omega
  · rfl

/-- A vector copied along the rows of an [n, C] matrix reads, at (k, j), the vector at k. -/
theorem bcast_rowwise {α : Type} {n C : Nat} (b : (⟨1, ![n]⟩ : Shape).BroadcastsInDim ⟨2, ![n, C]⟩ ![0])
    (y : (⟨1, ![n]⟩ : Shape).Idx → α) (k : Fin n) (j : Fin C) :
    broadcastInDim ⟨2, ![n, C]⟩ ![0] b y (ix2 k j) = y (ix1 k) := by
  simp only [broadcastInDim]
  congr 1
  funext a
  have ha : a = 0 := Subsingleton.elim _ _
  subst ha
  apply Fin.ext
  have hk := k.isLt
  split
  · next h1 => change n = 1 at h1; show (0 : Nat) = k.val; omega
  · rfl

/-- "And" of two arrays of words, a signed compare of two arrays of words, and a broadcast constant, read at an index. -/
theorem andi_at {s : Shape} {w : Nat} (x y : IVec s w) (i : s.Idx) : andi x y i = IntOp.andi (x i) (y i) := rfl
theorem cmpi_at {s : Shape} {w : Nat} (p : CmpIPredicate) (x y : IVec s w) (i : s.Idx) :
    cmpi p x y i = IntOp.cmpi p (x i) (y i) := rfl
theorem bcast_constI {s t : Shape} {w : Nat} (dims : Fin s.rank → Fin t.rank) (h : s.BroadcastsInDim t dims) (b : BitVec w)
    (i : t.Idx) : broadcastInDim t dims h (constantI s w b) i = b := rfl
theorem bcast_bcast_constI {s t u : Shape} {w : Nat} (d₁ : Fin s.rank → Fin t.rank) (h₁ : s.BroadcastsInDim t d₁)
    (d₂ : Fin t.rank → Fin u.rank) (h₂ : t.BroadcastsInDim u d₂) (b : BitVec w) (i : u.Idx) :
    broadcastInDim u d₂ h₂ (broadcastInDim t d₁ h₁ (constantI s w b)) i = b := rfl

/-- The positions the fetch uses: each index wrapped (50000 added where it is negative), as an [800000, 1] column.
    Where the index vector holds node numbers nothing is wrapped: entry (k, 0) is entry k of the index vector. -/
theorem wrapped_apply (b0 : (⟨0, ![]⟩ : Shape).BroadcastsInDim ⟨1, ![800000]⟩ (![] : Fin 0 → Fin 1))
    (b1 : (⟨1, ![800000]⟩ : Shape).BroadcastsInDim ⟨2, ![800000, 1]⟩ ![0])
    (v : IVec ⟨1, ![800000]⟩ 32) (f : Fin 800000 → Fin 50000) (hv : Holds v f) (k : Fin 800000) :
    broadcastInDim ⟨2, ![800000, 1]⟩ ![0] b1
        (select (cmpi .slt v (broadcastInDim ⟨1, ![800000]⟩ ![] b0 (constantI ⟨0, ![]⟩ 32 0#32)))
          (addi v (broadcastInDim ⟨1, ![800000]⟩ ![] b0 (constantI ⟨0, ![]⟩ 32 50000#32))) v) (ix2 k 0)
      = v (ix1 k) := by
  rw [bcast_col]
  show Scalar.select (IntOp.cmpi .slt (v (ix1 k)) 0#32) (IntOp.addi (v (ix1 k)) 50000#32) (v (ix1 k)) = v (ix1 k)
  rw [(word_facts _ _ (hv k)).1]
  exact select_zero _ _

/-- The fetch of rows at node numbers. The printed row fetch of a table [50000, C] at an index vector — wrap the
    negative indices, form the mask "0 ≤ position ≤ 49999", gather whole rows at the positions, keep the gathered row
    where the mask is set and a fill value elsewhere — reads, at (k, j), the table at row f k and column j when the
    index vector holds the node numbers f: nothing is wrapped, the mask is set everywhere, and the gather's clamp of
    the position into [0, 49999] is the identity. -/
theorem take_apply {C : Nat}
    (gd : GatherDims ⟨2, ![50000, C]⟩ ⟨2, ![800000, 1]⟩ ⟨2, ![800000, C]⟩)
    (hoff : gd.offsetDims = [1]) (hcoll : gd.collapsedSliceDims = [0]) (hob : gd.operandBatchingDims = [])
    (hsim : gd.startIndexMap = [0]) (hivd : gd.indexVectorDim = 1)
    (b0 : (⟨0, ![]⟩ : Shape).BroadcastsInDim ⟨1, ![800000]⟩ (![] : Fin 0 → Fin 1))
    (b1 : (⟨1, ![800000]⟩ : Shape).BroadcastsInDim ⟨2, ![800000, 1]⟩ ![0])
    (b2 : (⟨0, ![]⟩ : Shape).BroadcastsInDim ⟨2, ![800000, 1]⟩ (![] : Fin 0 → Fin 2))
    (b3 : (⟨1, ![1]⟩ : Shape).BroadcastsInDim ⟨2, ![1, 1]⟩ ![1])
    (b4 : (⟨2, ![1, 1]⟩ : Shape).BroadcastsInDim ⟨2, ![800000, 1]⟩ ![0, 1])
    (r : (⟨2, ![800000, 1]⟩ : Shape).ReducesTo [1] ⟨1, ![800000]⟩) (h0 : 0 < (⟨0, ![]⟩ : Shape).numel)
    (b5 : (⟨1, ![800000]⟩ : Shape).BroadcastsInDim ⟨2, ![800000, C]⟩ ![0])
    (b6 : (⟨0, ![]⟩ : Shape).BroadcastsInDim ⟨2, ![800000, C]⟩ (![] : Fin 0 → Fin 2))
    (x : FVec Ideal ⟨2, ![50000, C]⟩ .f32) (v : IVec ⟨1, ![800000]⟩ 32) (f : Fin 800000 → Fin 50000) (hv : Holds v f)
    (k : Fin 800000) (j : Fin C) :
    select
        (broadcastInDim ⟨2, ![800000, C]⟩ ![0] b5
          (Host.reduce IntOp.andi
            (andi
              (cmpi .sge
                (broadcastInDim ⟨2, ![800000, 1]⟩ ![0] b1
                  (select (cmpi .slt v (broadcastInDim ⟨1, ![800000]⟩ ![] b0 (constantI ⟨0, ![]⟩ 32 0#32)))
                    (addi v (broadcastInDim ⟨1, ![800000]⟩ ![] b0 (constantI ⟨0, ![]⟩ 32 50000#32))) v))
                (broadcastInDim ⟨2, ![800000, 1]⟩ ![] b2 (constantI ⟨0, ![]⟩ 32 0#32)))
              (cmpi .sle
                (broadcastInDim ⟨2, ![800000, 1]⟩ ![0] b1
                  (select (cmpi .slt v (broadcastInDim ⟨1, ![800000]⟩ ![] b0 (constantI ⟨0, ![]⟩ 32 0#32)))
                    (addi v (broadcastInDim ⟨1, ![800000]⟩ ![] b0 (constantI ⟨0, ![]⟩ 32 50000#32))) v))
                (broadcastInDim ⟨2, ![800000, 1]⟩ ![0, 1] b4
                  (broadcastInDim ⟨2, ![1, 1]⟩ ![1] b3 (constantI ⟨1, ![1]⟩ 32 49999#32)))))
            (constantI ⟨0, ![]⟩ 1 1#1) r h0))
        (Host.gather gd x
          (broadcastInDim ⟨2, ![800000, 1]⟩ ![0] b1
            (select (cmpi .slt v (broadcastInDim ⟨1, ![800000]⟩ ![] b0 (constantI ⟨0, ![]⟩ 32 0#32)))
              (addi v (broadcastInDim ⟨1, ![800000]⟩ ![] b0 (constantI ⟨0, ![]⟩ 32 50000#32))) v)))
        (broadcastInDim ⟨2, ![800000, C]⟩ ![] b6 (constant (F := Ideal) ⟨0, ![]⟩ .f32 0x7FC00000#32)) (ix2 k j)
      = x (ix2 (f k) j) := by
  rw [select_apply, bcast_rowwise]
  -- the mask is set at every position
  rw [reduce_andi_one _ _ r h0 (ix1 k) rfl, select_one]
  · -- the gathered row is the table's row f k
    rw [ScatterGather.gather_rows gd hoff hcoll hob hsim hivd x _ k j (by decide)]
    simp only [wrapped_apply b0 b1 v f hv k]
    refine congrArg (fun a => x (ix2 a j)) (Fin.ext ?_)
    show min (v (ix1 k)).toInt.toNat (50000 - 1) = (f k).val
    have := hv k
    have := (f k).isLt
    omega
  · intro i
    obtain ⟨a, b, rfl⟩ : ∃ (a : Fin 800000) (b : Fin 1), i = ix2 a b := ⟨i 0, i 1, eq_ix2 i⟩
    obtain rfl : b = 0 := Subsingleton.elim _ _
    rw [andi_at, cmpi_at, cmpi_at, wrapped_apply b0 b1 v f hv a, bcast_constI, bcast_bcast_constI]
    exact IntOp.andi_eq_one.2 ⟨(word_facts _ _ (hv a)).2.1, (word_facts _ _ (hv a)).2.2⟩

/-- Two matrices of 96 columns laid side by side, read at (p, q): the first at column q where q < 96, else the second
    at column q − 96. -/
theorem concat_apply {n : Nat}
    (hc : Shape.Concatenates [(⟨2, ![n, 96]⟩ : Shape), ⟨2, ![n, 96]⟩] ⟨2, ![n, 192]⟩ (1 : Fin 2))
    (a b : (⟨2, ![n, 96]⟩ : Shape).Idx → EReal) (p : Fin n) (q : Fin 192) :
    concatenate (⟨2, ![n, 192]⟩ : Shape) 1 [⟨⟨2, ![n, 96]⟩, a⟩, ⟨⟨2, ![n, 96]⟩, b⟩] hc (ix2 p q)
      = sideBySide (toMat a) (toMat b) p q := by
  unfold sideBySide
  split
  · next hq =>
    exact concatenate_pair_apply_left (1 : Fin 2) a b hc (ix2 p q) rfl (ix2 p ⟨q.val, hq⟩)
      (fun d => by match d with | ⟨0, _⟩ => rfl | ⟨1, _⟩ => rfl)
  · next hq =>
    have hq' := q.isLt
    exact concatenate_pair_apply_right (1 : Fin 2) a b hc (ix2 p q) rfl rfl (ix2 p ⟨q.val - 96, by omega⟩)
      (fun d hd => by
        match d with
        | ⟨0, _⟩ => rfl
        | ⟨1, _⟩ => exact absurd rfl hd)
      (by show q.val - 96 + 96 = q.val; omega)

/-- A matrix of 96-column halves read at row f k is the side-by-side of the two halves' rows at f. -/
theorem sideBySide_rows {n N : Nat} (a b : Cert.Spec.Mat N 96) (f : Fin n → Fin N) (k : Fin n) (j : Fin 192) :
    sideBySide a b (f k) j = sideBySide (fun k j => a (f k) j) (fun k j => b (f k) j) k j := rfl

/-- An array whose entry (k, j) is M k j for every k and j has the matrix M. -/
theorem toMat_eq_of_apply {n c : Nat} (x : (⟨2, ![n, c]⟩ : Shape).Idx → EReal) (M : Cert.Spec.Mat n c)
    (h : ∀ k j, x (ix2 k j) = M k j) : toMat x = M := by
  funext k j
  exact h k j

end Cert.KHost1Pure

end
-- ==== Proof.KCarry.lean ====
/-
  Buffers carried unchanged across the boundaries: a host stretch leaves every buffer it does not write as it found it,
  and a region leaves every buffer that is none of its output arrays as it found it (an input array is read through
  its window and written back as read). Each statement says that a buffer a later part reads is still what an
  earlier part, or the launch memory, made it.
-/
import proofs.«422570_j39187281608763_2_alg».proof.Proof.KernelRun
import proofs.«422570_j39187281608763_2_alg».proof.Proof.Conv
import proofs.«422570_j39187281608763_2_alg».proof.Proof.KSpec
import Idealize.ShloMosaic.Lib.StableHlo.Run

noncomputable section

open scoped BigOperators

namespace Cert.KCarry

open Cert Cert.KernelIdeal Cert.KernelIdeal.Gen Cert.Conv Cert.KSpec
open Idealize.ShloMosaic Idealize.ShloMosaic.TcCoe Idealize.SL.Sem

/-! ## What each host stretch writes

Every operation of a host stretch writes exactly one buffer, its result. A buffer that is not the result of any
operation of the stretch therefore holds after the stretch what it held before it, whatever the contents the
stretch started from. -/

/-- The buffers the first host stretch writes: the result of each of its operations, in order. -/
abbrev wrote0 : List (Ref sig .tc) :=
  [main_v0, main_v1, main_v2, main_v3, main_v4, main_v5, main_v6, main_v7, main_v8, main_v9, main_v10, main_v11,
   main_v12, main_v13]
/-- Each operation of the first host stretch writes a buffer of that list. -/
theorem wrote0_covers : (hostOps0 : List (HloOp τ sig (Elt Ideal))).Forall fun op =>
    op.writes ⊆ (wrote0.map (Proc.devRef (τ := τ) .tc)).toFinset := by
  simp only [hostOps0, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list is left as it was by the first host stretch. -/
theorem keep0 (V : Valuation τ sig (Elt Ideal)) (b : Ref sig .tc) (h : b ∉ wrote0) :
    StableHlo.after hostOps0 V (Proc.devRef .tc b) = V (Proc.devRef .tc b) :=
  StableHlo.after_of_writes_sub hostOps0 V wrote0_covers h

/-- The buffers the second host stretch writes: the result of each of its operations, in order. -/
abbrev wrote1 : List (Ref sig .tc) :=
  [main_v15]
/-- Each operation of the second host stretch writes a buffer of that list. -/
theorem wrote1_covers : (hostOps1 : List (HloOp τ sig (Elt Ideal))).Forall fun op =>
    op.writes ⊆ (wrote1.map (Proc.devRef (τ := τ) .tc)).toFinset := by
  simp only [hostOps1, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list is left as it was by the second host stretch. -/
theorem keep1 (V : Valuation τ sig (Elt Ideal)) (b : Ref sig .tc) (h : b ∉ wrote1) :
    StableHlo.after hostOps1 V (Proc.devRef .tc b) = V (Proc.devRef .tc b) :=
  StableHlo.after_of_writes_sub hostOps1 V wrote1_covers h

/-- The buffers the third host stretch writes: the result of each of its operations, in order. -/
abbrev wrote1_1 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14,
   main_call0_cst, main_call0_v15, main_v16]
/-- Each operation of the third host stretch writes a buffer of that list. -/
theorem wrote1_1_covers : (hostOps1_1 : List (HloOp τ sig (Elt Ideal))).Forall fun op =>
    op.writes ⊆ (wrote1_1.map (Proc.devRef (τ := τ) .tc)).toFinset := by
  simp only [hostOps1_1, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list is left as it was by the third host stretch. -/
theorem keep1_1 (V : Valuation τ sig (Elt Ideal)) (b : Ref sig .tc) (h : b ∉ wrote1_1) :
    StableHlo.after hostOps1_1 V (Proc.devRef .tc b) = V (Proc.devRef .tc b) :=
  StableHlo.after_of_writes_sub hostOps1_1 V wrote1_1_covers h

/-- The buffers the fourth host stretch writes: the result of each of its operations, in order. -/
abbrev wrote1_2 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14,
   main_call1_cst, main_call1_v15, main_v17]
/-- Each operation of the fourth host stretch writes a buffer of that list. -/
theorem wrote1_2_covers : (hostOps1_2 : List (HloOp τ sig (Elt Ideal))).Forall fun op =>
    op.writes ⊆ (wrote1_2.map (Proc.devRef (τ := τ) .tc)).toFinset := by
  simp only [hostOps1_2, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list is left as it was by the fourth host stretch. -/
theorem keep1_2 (V : Valuation τ sig (Elt Ideal)) (b : Ref sig .tc) (h : b ∉ wrote1_2) :
    StableHlo.after hostOps1_2 V (Proc.devRef .tc b) = V (Proc.devRef .tc b) :=
  StableHlo.after_of_writes_sub hostOps1_2 V wrote1_2_covers h

/-- The buffers the fifth host stretch writes: the result of each of its operations, in order. -/
abbrev wrote2 : List (Ref sig .tc) :=
  [main_cst, main_v19, main_cst_0, main_v20, main_cst_1, main_v21, main_v22, main_cst_2, main_v23, main_v24,
   main_v25, main_v26, main_cst_3, main_v27, main_v28, main_cst_4, main_v29, main_v30, main_v31, main_v32,
   main_v33]
/-- Each operation of the fifth host stretch writes a buffer of that list. -/
theorem wrote2_covers : (hostOps2 : List (HloOp τ sig (Elt Ideal))).Forall fun op =>
    op.writes ⊆ (wrote2.map (Proc.devRef (τ := τ) .tc)).toFinset := by
  simp only [hostOps2, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list is left as it was by the fifth host stretch. -/
theorem keep2 (V : Valuation τ sig (Elt Ideal)) (b : Ref sig .tc) (h : b ∉ wrote2) :
    StableHlo.after hostOps2 V (Proc.devRef .tc b) = V (Proc.devRef .tc b) :=
  StableHlo.after_of_writes_sub hostOps2 V wrote2_covers h

/-- The buffers the sixth host stretch writes: the result of each of its operations, in order. -/
abbrev wrote3 : List (Ref sig .tc) :=
  [main_cst_5, main_v35, main_cst_6, main_v36, main_cst_7, main_v37, main_v38, main_cst_8, main_v39, main_v40,
   main_v41, main_v42, main_cst_9, main_v43, main_v44]
/-- Each operation of the sixth host stretch writes a buffer of that list. -/
theorem wrote3_covers : (hostOps3 : List (HloOp τ sig (Elt Ideal))).Forall fun op =>
    op.writes ⊆ (wrote3.map (Proc.devRef (τ := τ) .tc)).toFinset := by
  simp only [hostOps3, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
/-- A buffer outside that list is left as it was by the sixth host stretch. -/
theorem keep3 (V : Valuation τ sig (Elt Ideal)) (b : Ref sig .tc) (h : b ∉ wrote3) :
    StableHlo.after hostOps3 V (Proc.devRef .tc b) = V (Proc.devRef .tc b) :=
  StableHlo.after_of_writes_sub hostOps3 V wrote3_covers h

/-! ## The carried buffers

Each statement walks back from the later boundary to the earlier one, a boundary at a time: across a host stretch the
buffer is none of the stretch's results; across a region it is none of the region's arrays, or it is an input array,
whose window is written back as it was read. -/

variable (m : (ℓ : Loc nD τ sig) → Buf (Elt Ideal) ℓ) (ρ : Dev nD → PrngReg)

theorem c2_arg2 (c : Dev nD) : W2 m ρ c (Proc.devRef .tc main_arg2) = m ((c.tc : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := keep0 (W0 m ρ c) main_arg2 (by decide)
    _ = m ((c.tc : Thread nD τ).loc main_arg2) := rfl
theorem c2_arg3 (c : Dev nD) : W2 m ρ c (Proc.devRef .tc main_arg3) = m ((c.tc : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := keep0 (W0 m ρ c) main_arg3 (by decide)
    _ = m ((c.tc : Thread nD τ).loc main_arg3) := rfl
theorem c5_arg1 (c : Dev nD) : W5 m ρ c (Proc.devRef .tc main_arg1) = m ((c.tc : Thread nD τ).loc main_arg1) :=
  calc W5 m ρ c (Proc.devRef .tc main_arg1)
    _ = W4 m ρ c (Proc.devRef .tc main_arg1) := keep1_2 (W4 m ρ c) main_arg1 (by decide)
    _ = W3 m ρ c (Proc.devRef .tc main_arg1) := keep1_1 (W3 m ρ c) main_arg1 (by decide)
    _ = W2 m ρ c (Proc.devRef .tc main_arg1) := keep1 (W2 m ρ c) main_arg1 (by decide)
    _ = W1 m ρ c (Proc.devRef .tc main_arg1) := W2_of_ne m ρ c main_arg1 (by decide)
    _ = W0 m ρ c (Proc.devRef .tc main_arg1) := keep0 (W0 m ρ c) main_arg1 (by decide)
    _ = m ((c.tc : Thread nD τ).loc main_arg1) := rfl
theorem c5_v11 (c : Dev nD) : W5 m ρ c (Proc.devRef .tc main_v11) = W1 m ρ c (Proc.devRef .tc main_v11) :=
  calc W5 m ρ c (Proc.devRef .tc main_v11)
    _ = W4 m ρ c (Proc.devRef .tc main_v11) := keep1_2 (W4 m ρ c) main_v11 (by decide)
    _ = W3 m ρ c (Proc.devRef .tc main_v11) := keep1_1 (W3 m ρ c) main_v11 (by decide)
    _ = W2 m ρ c (Proc.devRef .tc main_v11) := keep1 (W2 m ρ c) main_v11 (by decide)
    _ = W1 m ρ c (Proc.devRef .tc main_v11) := W2_of_ne m ρ c main_v11 (by decide)
theorem c5_v2 (c : Dev nD) : W5 m ρ c (Proc.devRef .tc main_v2) = W1 m ρ c (Proc.devRef .tc main_v2) :=
  calc W5 m ρ c (Proc.devRef .tc main_v2)
    _ = W4 m ρ c (Proc.devRef .tc main_v2) := keep1_2 (W4 m ρ c) main_v2 (by decide)
    _ = W3 m ρ c (Proc.devRef .tc main_v2) := keep1_1 (W3 m ρ c) main_v2 (by decide)
    _ = W2 m ρ c (Proc.devRef .tc main_v2) := keep1 (W2 m ρ c) main_v2 (by decide)
    _ = W1 m ρ c (Proc.devRef .tc main_v2) := W2_of_ne m ρ c main_v2 (by decide)
theorem c6_arg3 (c : Dev nD) : W6 m ρ c (Proc.devRef .tc main_arg3) = m ((c.tc : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := keep1_2 (W4 m ρ c) main_arg3 (by decide)
    _ = W3 m ρ c (Proc.devRef .tc main_arg3) := keep1_1 (W3 m ρ c) main_arg3 (by decide)
    _ = W2 m ρ c (Proc.devRef .tc main_arg3) := keep1 (W2 m ρ c) main_arg3 (by decide)
    _ = m ((c.tc : Thread nD τ).loc main_arg3) := c2_arg3 m ρ c
theorem c7_v14_0 (c : Dev nD) : W7 m ρ c (Proc.devRef .tc main_v14_0) = W2 m ρ c (Proc.devRef .tc main_v14_0) :=
  calc W7 m ρ c (Proc.devRef .tc main_v14_0)
    _ = W6 m ρ c (Proc.devRef .tc main_v14_0) := keep2 (W6 m ρ c) main_v14_0 (by decide)
    _ = W5 m ρ c (Proc.devRef .tc main_v14_0) := W6_of_ne m ρ c main_v14_0 (by decide)
    _ = W4 m ρ c (Proc.devRef .tc main_v14_0) := keep1_2 (W4 m ρ c) main_v14_0 (by decide)
    _ = W3 m ρ c (Proc.devRef .tc main_v14_0) := keep1_1 (W3 m ρ c) main_v14_0 (by decide)
    _ = W2 m ρ c (Proc.devRef .tc main_v14_0) := keep1 (W2 m ρ c) main_v14_0 (by decide)
theorem c9_v34_0 (c : Dev nD) : W9 m ρ c (Proc.devRef .tc main_v34_0) = W8 m ρ c (Proc.devRef .tc main_v34_0) :=
  calc W9 m ρ c (Proc.devRef .tc main_v34_0)
    _ = W8 m ρ c (Proc.devRef .tc main_v34_0) := keep3 (W8 m ρ c) main_v34_0 (by decide)
theorem c9_arg0 (c : Dev nD) : W9 m ρ c (Proc.devRef .tc main_arg0) = m ((c.tc : Thread nD τ).loc main_arg0) :=
  calc W9 m ρ c (Proc.devRef .tc main_arg0)
    _ = W8 m ρ c (Proc.devRef .tc main_arg0) := keep3 (W8 m ρ c) main_arg0 (by decide)
    _ = W7 m ρ c (Proc.devRef .tc main_arg0) := W8_of_ne m ρ c main_arg0 (by decide)
    _ = W6 m ρ c (Proc.devRef .tc main_arg0) := keep2 (W6 m ρ c) main_arg0 (by decide)
    _ = W5 m ρ c (Proc.devRef .tc main_arg0) := W6_of_ne m ρ c main_arg0 (by decide)
    _ = W4 m ρ c (Proc.devRef .tc main_arg0) := keep1_2 (W4 m ρ c) main_arg0 (by decide)
    _ = W3 m ρ c (Proc.devRef .tc main_arg0) := keep1_1 (W3 m ρ c) main_arg0 (by decide)
    _ = W2 m ρ c (Proc.devRef .tc main_arg0) := keep1 (W2 m ρ c) main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keep0 (W0 m ρ c) main_arg0 (by decide)
    _ = m ((c.tc : Thread nD τ).loc main_arg0) := rfl
theorem c9_v5 (c : Dev nD) : W9 m ρ c (Proc.devRef .tc main_v5) = W1 m ρ c (Proc.devRef .tc main_v5) :=
  calc W9 m ρ c (Proc.devRef .tc main_v5)
    _ = W8 m ρ c (Proc.devRef .tc main_v5) := keep3 (W8 m ρ c) main_v5 (by decide)
    _ = W7 m ρ c (Proc.devRef .tc main_v5) := W8_of_ne m ρ c main_v5 (by decide)
    _ = W6 m ρ c (Proc.devRef .tc main_v5) := keep2 (W6 m ρ c) main_v5 (by decide)
    _ = W5 m ρ c (Proc.devRef .tc main_v5) := W6_of_ne m ρ c main_v5 (by decide)
    _ = W4 m ρ c (Proc.devRef .tc main_v5) := keep1_2 (W4 m ρ c) main_v5 (by decide)
    _ = W3 m ρ c (Proc.devRef .tc main_v5) := keep1_1 (W3 m ρ c) main_v5 (by decide)
    _ = W2 m ρ c (Proc.devRef .tc main_v5) := keep1 (W2 m ρ c) main_v5 (by decide)
    _ = W1 m ρ c (Proc.devRef .tc main_v5) := W2_of_ne m ρ c main_v5 (by decide)
theorem c9_v6 (c : Dev nD) : W9 m ρ c (Proc.devRef .tc main_v6) = W1 m ρ c (Proc.devRef .tc main_v6) :=
  calc W9 m ρ c (Proc.devRef .tc main_v6)
    _ = W8 m ρ c (Proc.devRef .tc main_v6) := keep3 (W8 m ρ c) main_v6 (by decide)
    _ = W7 m ρ c (Proc.devRef .tc main_v6) := W8_of_ne m ρ c main_v6 (by decide)
    _ = W6 m ρ c (Proc.devRef .tc main_v6) := keep2 (W6 m ρ c) main_v6 (by decide)
    _ = W5 m ρ c (Proc.devRef .tc main_v6) := W6_of_ne m ρ c main_v6 (by decide)
    _ = W4 m ρ c (Proc.devRef .tc main_v6) := keep1_2 (W4 m ρ c) main_v6 (by decide)
    _ = W3 m ρ c (Proc.devRef .tc main_v6) := keep1_1 (W3 m ρ c) main_v6 (by decide)
    _ = W2 m ρ c (Proc.devRef .tc main_v6) := keep1 (W2 m ρ c) main_v6 (by decide)
    _ = W1 m ρ c (Proc.devRef .tc main_v6) := W2_of_ne m ρ c main_v6 (by decide)
theorem c10_v18_0 (c : Dev nD) : W10 m ρ c (Proc.devRef .tc main_v18_0) = W6 m ρ c (Proc.devRef .tc main_v18_0) :=
  calc W10 m ρ c (Proc.devRef .tc main_v18_0)
    _ = W9 m ρ c (Proc.devRef .tc main_v18_0) := W10_of_ne m ρ c main_v18_0 (by decide)
    _ = W8 m ρ c (Proc.devRef .tc main_v18_0) := keep3 (W8 m ρ c) main_v18_0 (by decide)
    _ = W7 m ρ c (Proc.devRef .tc main_v18_0) := W8_of_ne m ρ c main_v18_0 (by decide)
    _ = W6 m ρ c (Proc.devRef .tc main_v18_0) := keep2 (W6 m ρ c) main_v18_0 (by decide)
theorem c10_arg1 (c : Dev nD) : W10 m ρ c (Proc.devRef .tc main_arg1) = m ((c.tc : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := keep3 (W8 m ρ c) main_arg1 (by decide)
    _ = W7 m ρ c (Proc.devRef .tc main_arg1) := W8_of_ne m ρ c main_arg1 (by decide)
    _ = W6 m ρ c (Proc.devRef .tc main_arg1) := keep2 (W6 m ρ c) main_arg1 (by decide)
    _ = W5 m ρ c (Proc.devRef .tc main_arg1) := (W6_arr m ρ c 0).trans (((dat1 (V5 m ρ) c).arrAt_in 0 rfl _).trans (A_eq1 (V5 m ρ) c 0))
    _ = m ((c.tc : Thread nD τ).loc main_arg1) := c5_arg1 m ρ c
theorem c10_v22 (c : Dev nD) : W10 m ρ c (Proc.devRef .tc main_v22) = W7 m ρ c (Proc.devRef .tc main_v22) :=
  calc W10 m ρ c (Proc.devRef .tc main_v22)
    _ = W9 m ρ c (Proc.devRef .tc main_v22) := W10_of_ne m ρ c main_v22 (by decide)
    _ = W8 m ρ c (Proc.devRef .tc main_v22) := keep3 (W8 m ρ c) main_v22 (by decide)
    _ = W7 m ρ c (Proc.devRef .tc main_v22) := W8_of_ne m ρ c main_v22 (by decide)
theorem c10_v28 (c : Dev nD) : W10 m ρ c (Proc.devRef .tc main_v28) = W7 m ρ c (Proc.devRef .tc main_v28) :=
  calc W10 m ρ c (Proc.devRef .tc main_v28)
    _ = W9 m ρ c (Proc.devRef .tc main_v28) := W10_of_ne m ρ c main_v28 (by decide)
    _ = W8 m ρ c (Proc.devRef .tc main_v28) := keep3 (W8 m ρ c) main_v28 (by decide)
    _ = W7 m ρ c (Proc.devRef .tc main_v28) := W8_of_ne m ρ c main_v28 (by decide)
theorem c10_v7 (c : Dev nD) : W10 m ρ c (Proc.devRef .tc main_v7) = W1 m ρ c (Proc.devRef .tc main_v7) :=
  calc W10 m ρ c (Proc.devRef .tc main_v7)
    _ = W9 m ρ c (Proc.devRef .tc main_v7) := W10_of_ne m ρ c main_v7 (by decide)
    _ = W8 m ρ c (Proc.devRef .tc main_v7) := keep3 (W8 m ρ c) main_v7 (by decide)
    _ = W7 m ρ c (Proc.devRef .tc main_v7) := W8_of_ne m ρ c main_v7 (by decide)
    _ = W6 m ρ c (Proc.devRef .tc main_v7) := keep2 (W6 m ρ c) main_v7 (by decide)
    _ = W5 m ρ c (Proc.devRef .tc main_v7) := W6_of_ne m ρ c main_v7 (by decide)
    _ = W4 m ρ c (Proc.devRef .tc main_v7) := keep1_2 (W4 m ρ c) main_v7 (by decide)
    _ = W3 m ρ c (Proc.devRef .tc main_v7) := keep1_1 (W3 m ρ c) main_v7 (by decide)
    _ = W2 m ρ c (Proc.devRef .tc main_v7) := keep1 (W2 m ρ c) main_v7 (by decide)
    _ = W1 m ρ c (Proc.devRef .tc main_v7) := W2_of_ne m ρ c main_v7 (by decide)
theorem c10_v8 (c : Dev nD) : W10 m ρ c (Proc.devRef .tc main_v8) = W1 m ρ c (Proc.devRef .tc main_v8) :=
  calc W10 m ρ c (Proc.devRef .tc main_v8)
    _ = W9 m ρ c (Proc.devRef .tc main_v8) := W10_of_ne m ρ c main_v8 (by decide)
    _ = W8 m ρ c (Proc.devRef .tc main_v8) := keep3 (W8 m ρ c) main_v8 (by decide)
    _ = W7 m ρ c (Proc.devRef .tc main_v8) := W8_of_ne m ρ c main_v8 (by decide)
    _ = W6 m ρ c (Proc.devRef .tc main_v8) := keep2 (W6 m ρ c) main_v8 (by decide)
    _ = W5 m ρ c (Proc.devRef .tc main_v8) := W6_of_ne m ρ c main_v8 (by decide)
    _ = W4 m ρ c (Proc.devRef .tc main_v8) := keep1_2 (W4 m ρ c) main_v8 (by decide)
    _ = W3 m ρ c (Proc.devRef .tc main_v8) := keep1_1 (W3 m ρ c) main_v8 (by decide)
    _ = W2 m ρ c (Proc.devRef .tc main_v8) := keep1 (W2 m ρ c) main_v8 (by decide)
    _ = W1 m ρ c (Proc.devRef .tc main_v8) := W2_of_ne m ρ c main_v8 (by decide)
theorem c11_v45 (c : Dev nD) : W11 m ρ c (Proc.devRef .tc main_v45) = W10 m ρ c (Proc.devRef .tc main_v45) :=
  calc W11 m ρ c (Proc.devRef .tc main_v45)
    _ = W10 m ρ c (Proc.devRef .tc main_v45) := W11_of_ne m ρ c main_v45 (by decide)

end Cert.KCarry

end
-- ==== Proof.KHost1Dst.lean ====
/-
  The destination fetch of the second host stretch read back: the E projection's rows fetched at the destination
  indices. With every index a node number in range, the in-range mask is all true and the fill value is never taken.
-/
import proofs.«422570_j39187281608763_2_alg».proof.Proof.KernelRun
import proofs.«422570_j39187281608763_2_alg».proof.Proof.Conv
import proofs.«422570_j39187281608763_2_alg».proof.Proof.KSpec
import proofs.«422570_j39187281608763_2_alg».proof.Proof.KCarry
import proofs.«422570_j39187281608763_2_alg».proof.Proof.KHost1Pure
import Idealize.ShloMosaic.Lib.StableHlo.Run

noncomputable section

open scoped BigOperators

namespace Cert.KHost1Dst

open Cert Cert.KernelIdeal Cert.KernelIdeal.Gen Cert.Conv Cert.KSpec
open Idealize.ShloMosaic Idealize.ShloMosaic.TcCoe Idealize.SL.Sem

open Idealize.ShloMosaic.ValueIdx

/-! ## The stretch in three stages

The 23 operations of the destination fetch, in order, fall into three runs: the first forms the positions (the index
vector with its negative entries wrapped, laid as a column), the second the mask "0 ≤ position ≤ 49999" reduced to
one bit per row, the third gathers the table's rows at the positions and keeps them where the mask is set. Each
run reads only a few buffers, so its result is a short term of those buffers. -/

/-- The positions: wrap the negative indices, lay them as an [800000, 1] column. -/
abbrev sPos : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S800000, .i32⟩) (broadcastInDim S800000 ![] bcast_S_S800000),
    StableHlo.TRef.binary (.of main_arg3 : StableHlo.TRef sig ⟨S800000, .i32⟩) (.of main_call1_v0 : StableHlo.TRef sig ⟨S800000, .i32⟩) (.of main_call1_v1 : StableHlo.TRef sig ⟨S800000, .i1⟩) (cmpi .slt),
    StableHlo.TRef.nullary (.of main_call1_c_0 : StableHlo.TRef sig ⟨S_, .i32⟩) (constantI S_ 32 50000#32),
    StableHlo.TRef.unary (.of main_call1_c_0 : StableHlo.TRef sig ⟨S_, .i32⟩) (.of main_call1_v2 : StableHlo.TRef sig ⟨S800000, .i32⟩) (broadcastInDim S800000 ![] bcast_S_S800000),
    StableHlo.TRef.binary (.of main_arg3 : StableHlo.TRef sig ⟨S800000, .i32⟩) (.of main_call1_v2 : StableHlo.TRef sig ⟨S800000, .i32⟩) (.of main_call1_v3 : StableHlo.TRef sig ⟨S800000, .i32⟩) addi,
    StableHlo.TRef.ternary (.of main_call1_v1 : StableHlo.TRef sig ⟨S800000, .i1⟩) (.of main_call1_v3 : StableHlo.TRef sig ⟨S800000, .i32⟩) (.of main_arg3 : StableHlo.TRef sig ⟨S800000, .i32⟩) (.of main_call1_v4 : StableHlo.TRef sig ⟨S800000, .i32⟩) select,
    StableHlo.TRef.unary main_call1_call0.v0 (.of main_call1_v5 : StableHlo.TRef sig ⟨S800000x1, .i32⟩) (broadcastInDim S800000x1 ![0] bcast_S800000_S800000x1_0) ]

/-- The mask: 0 ≤ position, position ≤ 49999, both, reduced along the unit axis from the constant one. -/
abbrev sMask : List (HloOp τ sig (Elt Ideal)) :=
  [ StableHlo.TRef.nullary (.of main_call1_c_1 : StableHlo.TRef sig ⟨S1, .i32⟩) (constantI S1 32 49999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S800000x1, .i32⟩) (broadcastInDim S800000x1 ![] bcast_S_S800000x1),
    StableHlo.TRef.binary (.of main_call1_v5 : StableHlo.TRef sig ⟨S800000x1, .i32⟩) (.of main_call1_v6 : StableHlo.TRef sig ⟨S800000x1, .i32⟩) (.of main_call1_v7 : StableHlo.TRef sig ⟨S800000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S800000x1, .i32⟩) (broadcastInDim S800000x1 ![0, 1] bcast_S1x1_S800000x1_0_1),
    StableHlo.TRef.binary (.of main_call1_v5 : StableHlo.TRef sig ⟨S800000x1, .i32⟩) (.of main_call1_v9 : StableHlo.TRef sig ⟨S800000x1, .i32⟩) (.of main_call1_v10 : StableHlo.TRef sig ⟨S800000x1, .i1⟩) (cmpi .sle),
    StableHlo.TRef.binary (.of main_call1_v7 : StableHlo.TRef sig ⟨S800000x1, .i1⟩) (.of main_call1_v10 : StableHlo.TRef sig ⟨S800000x1, .i1⟩) (.of main_call1_v11 : StableHlo.TRef sig ⟨S800000x1, .i1⟩) andi,
    StableHlo.TRef.nullary (.of main_call1_c_3 : StableHlo.TRef sig ⟨S_, .i1⟩) (constantI S_ 1 1#1),
    StableHlo.TRef.binary (.of main_call1_v11 : StableHlo.TRef sig ⟨S800000x1, .i1⟩) (.of main_call1_c_3 : StableHlo.TRef sig ⟨S_, .i1⟩) (.of main_call1_v12 : StableHlo.TRef sig ⟨S800000, .i1⟩) (fun x v => Host.reduce IntOp.andi x v reducesTo_S800000x1_S800000_d1 h_S_) ]

/-- The rows gathered at the positions, kept where the mask is set and a fill value elsewhere. -/
abbrev sTake : List (HloOp τ sig (Elt Ideal)) :=
  [ StableHlo.TRef.binary (.of main_v14_3 : StableHlo.TRef sig ⟨S50000x96, .f32⟩) (.of main_call1_v5 : StableHlo.TRef sig ⟨S800000x1, .i32⟩) (.of main_call1_v13 : StableHlo.TRef sig ⟨S800000x96, .f32⟩) (fun x i => Host.gather gather_S50000x96_S800000x1_S800000x96_1_0_n_n_0_1_196 x i),
    StableHlo.TRef.unary (.of main_call1_v12 : StableHlo.TRef sig ⟨S800000, .i1⟩) (.of main_call1_v14 : StableHlo.TRef sig ⟨S800000x96, .i1⟩) (broadcastInDim S800000x96 ![0] bcast_S800000_S800000x96_0),
    StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v15 : StableHlo.TRef sig ⟨S800000x96, .f32⟩) (broadcastInDim S800000x96 ![] bcast_S_S800000x96),
    StableHlo.TRef.ternary (.of main_call1_v14 : StableHlo.TRef sig ⟨S800000x96, .i1⟩) (.of main_call1_v13 : StableHlo.TRef sig ⟨S800000x96, .f32⟩) (.of main_call1_v15 : StableHlo.TRef sig ⟨S800000x96, .f32⟩) (.of main_v17 : StableHlo.TRef sig ⟨S800000x96, .f32⟩) select ]

/-- The stretch is the three stages in order. -/
theorem stages : (hostOps1_2 : List (HloOp τ sig (Elt Ideal))) = sPos ++ (sMask ++ sTake) := rfl

/-- Running two lists of operations one after the other is running their concatenation. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

/-- The positions as a term of the index vector. -/
abbrev posOf (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The mask as a term of the positions. -/
abbrev maskOf (p : IVec S800000x1 32) : IVec S800000 1 :=
  Host.reduce IntOp.andi
    (andi (cmpi .sge p (broadcastInDim S800000x1 ![] bcast_S_S800000x1 (constantI S_ 32 0#32)))
      (cmpi .sle p (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The masked rows as a term of the table, the positions and the mask. -/
abbrev takeOf (x : FVec Ideal S50000x96 .f32) (p : IVec S800000x1 32) (mk : IVec S800000 1) : FVec Ideal S800000x96 .f32 :=
  select (broadcastInDim S800000x96 ![0] bcast_S800000_S800000x96_0 mk)
    (Host.gather gather_S50000x96_S800000x1_S800000x96_1_0_n_n_0_1_196 x p)
    (broadcastInDim S800000x96 ![] bcast_S_S800000x96 (constant (F := Ideal) S_ .f32 0x7FC00000#32))

section Stages

variable (V : Valuation τ sig (Elt Ideal))

theorem pos_val : StableHlo.after sPos V (Proc.devRef .tc main_call1_v5) = posOf (V (Proc.devRef .tc main_arg3)) := by
  after_results_simp <;> rfl
theorem mask_val : StableHlo.after sMask V (Proc.devRef .tc main_call1_v12) = maskOf (V (Proc.devRef .tc main_call1_v5)) := by
  after_results_simp
  simp only [StableHlo.TRef.ofBuf, StableHlo.TRef.toBuf, cast_eq]
theorem take_val : StableHlo.after sTake V (Proc.devRef .tc main_v17)
    = takeOf (V (Proc.devRef .tc main_v14_3)) (V (Proc.devRef .tc main_call1_v5)) (V (Proc.devRef .tc main_call1_v12)) := by
  after_results_simp <;> rfl

/-- The mask stage writes neither the positions nor the table; the positions stage does not write the table. -/
theorem mask_keeps_pos : StableHlo.after sMask V (Proc.devRef .tc main_call1_v5) = V (Proc.devRef .tc main_call1_v5) := by
  after_results_simp
theorem mask_keeps_table : StableHlo.after sMask V (Proc.devRef .tc main_v14_3) = V (Proc.devRef .tc main_v14_3) := by
  after_results_simp
theorem pos_keeps_table : StableHlo.after sPos V (Proc.devRef .tc main_v14_3) = V (Proc.devRef .tc main_v14_3) := by
  after_results_simp

/-- The fetch's result as one term of the table and the index vector the stretch starts from. -/
theorem fetch_val : StableHlo.after hostOps1_2 V (Proc.devRef .tc main_v17)
    = takeOf (V (Proc.devRef .tc main_v14_3)) (posOf (V (Proc.devRef .tc main_arg3)))
        (maskOf (posOf (V (Proc.devRef .tc main_arg3)))) := by
  rw [stages, after_append, after_append, take_val, mask_val, mask_keeps_pos, mask_keeps_table, pos_val, pos_keeps_table]

end Stages

/-! ## The fetch at an entry

Whatever the other buffers hold, the result at (k, j) is the table's entry at row f k and column j as soon as the
index vector holds the node numbers f: nothing is wrapped, the mask is set everywhere, and the gather's clamp of
the position into [0, 49999] is the identity. -/

theorem fetch_at (V : Valuation τ sig (Elt Ideal)) (f : Fin 800000 → Fin 50000)
    (hf : Holds (V (Proc.devRef .tc main_arg3)) f) (k : Fin 800000) (j : Fin 96) :
    StableHlo.after hostOps1_2 V (Proc.devRef .tc main_v17) (ix2 k j)
      = V (Proc.devRef .tc main_v14_3) (ix2 (f k) j) := by
  rw [fetch_val V]
  exact KHost1Pure.take_apply gather_S50000x96_S800000x1_S800000x96_1_0_n_n_0_1_196 rfl rfl rfl rfl rfl _ _ _ _ _ _ _ _ _ _
    (V (Proc.devRef .tc main_arg3)) f hf k j

variable (m : (ℓ : Loc nD τ sig) → Buf (Elt Ideal) ℓ) (ρ : Dev nD → PrngReg)

/-! ## The index vector and the table when the destination fetch starts

Neither the concatenation nor the source fetch writes the destination index vector or the E projection, so at the
start of the destination fetch both are what the first region left. -/

theorem index_at4 (c : Dev nD) :
    W4 m ρ c (Proc.devRef .tc main_arg3) = W2 m ρ c (Proc.devRef .tc main_arg3) :=
  calc W4 m ρ c (Proc.devRef .tc main_arg3)
    _ = W3 m ρ c (Proc.devRef .tc main_arg3) := KCarry.keep1_1 (W3 m ρ c) main_arg3 (by decide)
    _ = W2 m ρ c (Proc.devRef .tc main_arg3) := KCarry.keep1 (W2 m ρ c) main_arg3 (by decide)

theorem table_at4 (c : Dev nD) :
    W4 m ρ c (Proc.devRef .tc main_v14_3) = W2 m ρ c (Proc.devRef .tc main_v14_3) :=
  calc W4 m ρ c (Proc.devRef .tc main_v14_3)
    _ = W3 m ρ c (Proc.devRef .tc main_v14_3) := KCarry.keep1_1 (W3 m ρ c) main_v14_3 (by decide)
    _ = W2 m ρ c (Proc.devRef .tc main_v14_3) := KCarry.keep1 (W2 m ρ c) main_v14_3 (by decide)

/-- The contents after the destination fetch are the fetch's operations run from the contents before it. -/
theorem after_fetch (c : Dev nD) : W5 m ρ c = StableHlo.after hostOps1_2 (W4 m ρ c) := rfl

theorem v17_eq (c : Dev nD) (dstN : Fin 800000 → Fin 50000) (hd : Holds (W2 m ρ c (Proc.devRef .tc main_arg3)) dstN) :
    toMat (W5 m ρ c (Proc.devRef .tc main_v17)) = fun k j => toMat (W2 m ρ c (Proc.devRef .tc main_v14_3)) (dstN k) j := by
  have hd4 : Holds (W4 m ρ c (Proc.devRef .tc main_arg3)) dstN := by
    rw [index_at4 m ρ c]; exact hd
  refine KHost1Pure.toMat_eq_of_apply _ _ fun k j => ?_
  show _ = toMat (W2 m ρ c (Proc.devRef .tc main_v14_3)) (dstN k) j
  rw [toMat_apply, after_fetch m ρ c, ← table_at4 m ρ c]
  exact fetch_at (W4 m ρ c) dstN hd4 k j

end Cert.KHost1Dst

end
-- ==== Proof.KHost1.lean ====
/-
  The second host stretch read back: the D and B projections side by side, their rows fetched at the source indices,
  and the E projection's rows fetched at the destination indices. With every index a node number in range, the
  in-range mask is all true and the fill value is never taken.
-/
import proofs.«422570_j39187281608763_2_alg».proof.Proof.KernelRun
import proofs.«422570_j39187281608763_2_alg».proof.Proof.Conv
import proofs.«422570_j39187281608763_2_alg».proof.Proof.KSpec
import proofs.«422570_j39187281608763_2_alg».proof.Proof.KHost1Pure
import proofs.«422570_j39187281608763_2_alg».proof.Proof.KHost1Dst
import Idealize.ShloMosaic.Lib.StableHlo.Run

noncomputable section

open scoped BigOperators

set_option Elab.async false

namespace Cert.KHost1

open Cert Cert.KernelIdeal Cert.KernelIdeal.Gen Cert.Conv Cert.KSpec Cert.KHost1Pure
open Idealize.ShloMosaic Idealize.ShloMosaic.TcCoe Idealize.SL.Sem

/-! The source fetch's twenty-three operations in four stages: the positions (wrap the negative indices, lay them out as
    a column), the mask (0 ≤ position ≤ 49999, reduced over the column's one entry), the gather of whole rows, and the
    selection of the gathered row against the fill value. Each stage is read over ANY buffer contents V. -/
section Stages
open Idealize.ShloMosaic.ValueIdx

abbrev sPos : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_arg2 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_arg2 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_arg2 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0) ]
abbrev sMask : List (HloOp τ sig (Elt Ideal)) :=
  [ StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v reducesTo_S800000x1_S800000_d1 h_S_) ]
abbrev sGather : List (HloOp τ sig (Elt Ideal)) :=
  [ StableHlo.TRef.binary (.of main_v15 : StableHlo.TRef sig ⟨S50000x192, .f32⟩) (.of main_call0_v5 : StableHlo.TRef sig ⟨S800000x1, .i32⟩) (.of main_call0_v13 : StableHlo.TRef sig ⟨S800000x192, .f32⟩) (fun x i => Host.gather gather_S50000x192_S800000x1_S800000x192_1_0_n_n_0_1_1192 x i) ]
abbrev sSel : List (HloOp τ sig (Elt Ideal)) :=
  [ StableHlo.TRef.unary (.of main_call0_v12 : StableHlo.TRef sig ⟨S800000, .i1⟩) (.of main_call0_v14 : StableHlo.TRef sig ⟨S800000x192, .i1⟩) (broadcastInDim S800000x192 ![0] bcast_S800000_S800000x192_0),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S800000x192, .f32⟩) (broadcastInDim S800000x192 ![] bcast_S_S800000x192),
    StableHlo.TRef.ternary (.of main_call0_v14 : StableHlo.TRef sig ⟨S800000x192, .i1⟩) (.of main_call0_v13 : StableHlo.TRef sig ⟨S800000x192, .f32⟩) (.of main_call0_v15 : StableHlo.TRef sig ⟨S800000x192, .f32⟩) (.of main_v16 : StableHlo.TRef sig ⟨S800000x192, .f32⟩) select ]

/-- The fetch's list is its four stages in order. -/
theorem ops11_split : (hostOps1_1 : List (HloOp τ sig (Elt Ideal))) = sPos ++ (sMask ++ (sGather ++ sSel)) := rfl

/-- Two lists run one after the other leave what the second leaves from what the first left. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, StableHlo.after_cons, ih]

variable (V : Valuation τ sig (Elt Ideal))

/-- The positions: the wrapped indices as a column. -/
theorem valPos : StableHlo.after sPos V (Proc.devRef .tc main_call0_v5)
    = broadcastInDim S800000x1 ![0] bcast_S800000_S800000x1_0
        (select (cmpi .slt (V (Proc.devRef .tc main_arg2)) (broadcastInDim S800000 ![] bcast_S_S800000 (constantI S_ 32 0#32)))
          (addi (V (Proc.devRef .tc main_arg2)) (broadcastInDim S800000 ![] bcast_S_S800000 (constantI S_ 32 50000#32))) (V (Proc.devRef .tc main_arg2))) := by
  after_results_simp <;> (try simp only [StableHlo.TRef.ofBuf, StableHlo.TRef.toBuf, cast_eq]) <;> (try rfl)

/-- The mask: both compares of the positions, joined and reduced over the column's one entry. -/
theorem valMask : StableHlo.after sMask V (Proc.devRef .tc main_call0_v12)
    = Host.reduce IntOp.andi
        (andi (cmpi .sge (V (Proc.devRef .tc main_call0_v5)) (broadcastInDim S800000x1 ![] bcast_S_S800000x1 (constantI S_ 32 0#32)))
          (cmpi .sle (V (Proc.devRef .tc main_call0_v5)) (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_ := by
  after_results_simp <;> (try simp only [StableHlo.TRef.ofBuf, StableHlo.TRef.toBuf, cast_eq]) <;> (try rfl)

/-- The gather of whole rows of the packed matrix at the positions. -/
theorem valGather : StableHlo.after sGather V (Proc.devRef .tc main_call0_v13)
    = Host.gather gather_S50000x192_S800000x1_S800000x192_1_0_n_n_0_1_1192 (V (Proc.devRef .tc main_v15)) (V (Proc.devRef .tc main_call0_v5)) := by
  after_results_simp <;> (try simp only [StableHlo.TRef.ofBuf, StableHlo.TRef.toBuf, cast_eq]) <;> (try rfl)

/-- The selection: the gathered row where the mask is set, the fill value elsewhere. -/
theorem valSel : StableHlo.after sSel V (Proc.devRef .tc main_v16)
    = select (broadcastInDim S800000x192 ![0] bcast_S800000_S800000x192_0 (V (Proc.devRef .tc main_call0_v12)))
        (V (Proc.devRef .tc main_call0_v13))
        (broadcastInDim S800000x192 ![] bcast_S_S800000x192 (constant (F := Ideal) S_ .f32 0x7FC00000#32)) := by
  after_results_simp <;> (try simp only [StableHlo.TRef.ofBuf, StableHlo.TRef.toBuf, cast_eq]) <;> (try rfl)

/-- What passes through a stage that does not write it. -/
theorem keepPos_v15 : StableHlo.after sPos V (Proc.devRef .tc main_v15) = V (Proc.devRef .tc main_v15) :=
  StableHlo.after_of_forall_not_mem (b := Proc.devRef .tc main_v15) _ _ (List.forall_iff_forall_mem.mp (by
    simp only [sPos, List.Forall, StableHlo.nullary_writes, StableHlo.unary_writes, StableHlo.binary_writes, StableHlo.ternary_writes, Finset.mem_singleton]
    repeat' apply And.intro
    all_goals exact StableHlo.devRef_ne_of_ne (by decide)))
theorem keepMask_v15 : StableHlo.after sMask V (Proc.devRef .tc main_v15) = V (Proc.devRef .tc main_v15) :=
  StableHlo.after_of_forall_not_mem (b := Proc.devRef .tc main_v15) _ _ (List.forall_iff_forall_mem.mp (by
    simp only [sMask, List.Forall, StableHlo.nullary_writes, StableHlo.unary_writes, StableHlo.binary_writes, StableHlo.ternary_writes, Finset.mem_singleton]
    repeat' apply And.intro
    all_goals exact StableHlo.devRef_ne_of_ne (by decide)))
theorem keepMask_v5 : StableHlo.after sMask V (Proc.devRef .tc main_call0_v5) = V (Proc.devRef .tc main_call0_v5) :=
  StableHlo.after_of_forall_not_mem (b := Proc.devRef .tc main_call0_v5) _ _ (List.forall_iff_forall_mem.mp (by
    simp only [sMask, List.Forall, StableHlo.nullary_writes, StableHlo.unary_writes, StableHlo.binary_writes, StableHlo.ternary_writes, Finset.mem_singleton]
    repeat' apply And.intro
    all_goals exact StableHlo.devRef_ne_of_ne (by decide)))
theorem keepGather_v12 : StableHlo.after sGather V (Proc.devRef .tc main_call0_v12) = V (Proc.devRef .tc main_call0_v12) :=
  StableHlo.after_of_forall_not_mem (b := Proc.devRef .tc main_call0_v12) _ _ (List.forall_iff_forall_mem.mp (by
    simp only [sGather, List.Forall, StableHlo.nullary_writes, StableHlo.unary_writes, StableHlo.binary_writes, StableHlo.ternary_writes, Finset.mem_singleton]
    exact StableHlo.devRef_ne_of_ne (by decide)))

/-- The source fetch, read at (k, j): row f k of the packed matrix, when the source indices hold the node numbers f.
    The four stages are put together and the result is the row fetch of a table at node numbers. -/
theorem ops11_v16_apply (f : Fin 800000 → Fin 50000) (hf : Holds (V (Proc.devRef .tc main_arg2)) f)
    (k : Fin 800000) (j : Fin 192) :
    StableHlo.after hostOps1_1 V (Proc.devRef .tc main_v16) (ix2 k j) = V (Proc.devRef .tc main_v15) (ix2 (f k) j) := by
  rw [ops11_split, after_append, after_append, after_append, valSel, keepGather_v12, valMask, valGather, keepMask_v15,
    keepPos_v15, keepMask_v5, valPos]
  exact take_apply gather_S50000x192_S800000x1_S800000x192_1_0_n_n_0_1_1192 rfl rfl rfl rfl rfl _ _ _ _ _ _ _ _ _ _
    (V (Proc.devRef .tc main_arg2)) f hf k j

/-- The concatenate writes the packed matrix only. -/
theorem ops1_other (b : Ref sig .tc) (hb : b ≠ main_v15) :
    StableHlo.after hostOps1 V (Proc.devRef .tc b) = V (Proc.devRef .tc b) :=
  StableHlo.after_of_forall_not_mem (b := Proc.devRef .tc b) _ _ (List.forall_iff_forall_mem.mp (by
    simp only [hostOps1, List.Forall, StableHlo.binary_writes, Finset.mem_singleton]
    exact StableHlo.devRef_ne_of_ne hb))

/-- The packed matrix after the concatenate, read at (p, q): the two projections side by side. -/
theorem ops1_v15_apply (p : Fin 50000) (q : Fin 192) :
    StableHlo.after hostOps1 V (Proc.devRef .tc main_v15) (ix2 p q)
      = sideBySide (toMat (V (Proc.devRef .tc main_v14_2))) (toMat (V (Proc.devRef .tc main_v14_1))) p q := by
  after_results
  exact concat_apply _ _ _ p q

/-- The destination fetch does not write the source fetch's result. -/
theorem ops12_v16 : StableHlo.after hostOps1_2 V (Proc.devRef .tc main_v16) = V (Proc.devRef .tc main_v16) :=
  StableHlo.after_of_forall_not_mem (b := Proc.devRef .tc main_v16) _ _ (List.forall_iff_forall_mem.mp (by
    simp only [hostOps1_2, List.Forall, StableHlo.nullary_writes, StableHlo.unary_writes, StableHlo.binary_writes, StableHlo.ternary_writes, Finset.mem_singleton]
    repeat' apply And.intro
    all_goals exact StableHlo.devRef_ne_of_ne (by decide)))

end Stages

variable (m : (ℓ : Loc nD τ sig) → Buf (Elt Ideal) ℓ) (ρ : Dev nD → PrngReg)

/-- The buffer contents at the three boundaries of the stretch are the three lists run one after the other. -/
theorem W3_eq (c : Dev nD) : W3 m ρ c = StableHlo.after hostOps1 (W2 m ρ c) := rfl
theorem W4_eq (c : Dev nD) : W4 m ρ c = StableHlo.after hostOps1_1 (W3 m ρ c) := rfl
theorem W5_eq (c : Dev nD) : W5 m ρ c = StableHlo.after hostOps1_2 (W4 m ρ c) := rfl

theorem v16_eq (c : Dev nD) (srcN : Fin 800000 → Fin 50000) (hs : Holds (W2 m ρ c (Proc.devRef .tc main_arg2)) srcN) :
    toMat (W5 m ρ c (Proc.devRef .tc main_v16))
      = sideBySide (fun k j => toMat (W2 m ρ c (Proc.devRef .tc main_v14_2)) (srcN k) j) (fun k j => toMat (W2 m ρ c (Proc.devRef .tc main_v14_1)) (srcN k) j) := by
  have hs3 : Holds (W3 m ρ c (Proc.devRef .tc main_arg2)) srcN := by
    rw [W3_eq, ops1_other _ main_arg2 (by decide)]; exact hs
  refine toMat_eq_of_apply _ _ (fun k j => ?_)
  rw [W5_eq, ops12_v16, W4_eq, ops11_v16_apply (W3 m ρ c) srcN hs3 k j, W3_eq, ops1_v15_apply]
  exact sideBySide_rows _ _ srcN k j
theorem v17_eq (c : Dev nD) (dstN : Fin 800000 → Fin 50000) (hd : Holds (W2 m ρ c (Proc.devRef .tc main_arg3)) dstN) :
    toMat (W5 m ρ c (Proc.devRef .tc main_v17)) = fun k j => toMat (W2 m ρ c (Proc.devRef .tc main_v14_3)) (dstN k) j :=
  Cert.KHost1Dst.v17_eq m ρ c dstN hd

end Cert.KHost1

end
-- ==== Proof.KRegion1Packed.lean ====
/-
  The edge gate's packed output read back: the gate and the gated message side by side, row-blocked over the region's
  hundred points.
-/
import proofs.«422570_j39187281608763_2_alg».proof.Proof.KernelRun
import proofs.«422570_j39187281608763_2_alg».proof.Proof.Conv
import proofs.«422570_j39187281608763_2_alg».proof.Proof.KSpec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.Lib.Tactic
import Idealize.ShloMosaic.PureOps.Ideal.Laws

noncomputable section

open scoped BigOperators

namespace Cert.KRegion1Packed

open Cert Cert.KernelIdeal Cert.KernelIdeal.Gen Cert.Conv Cert.KSpec
open Idealize.ShloMosaic Idealize.ShloMosaic.TcCoe Idealize.SL.Sem
open Idealize.ShloMosaic.Tactic

section Pieces
variable {F : FTy → Type} [FloatOps F]

theorem hz2 : (![0, 0] : Fin 2 → Nat) = fun _ => 0 := funext fun a => by fin_cases a <;> rfl

/-- On a point that begins a core's tiles the body leaves in the packed output's buffer its one store's payload. -/
theorem packedA (c : Dev nD) (i : grid1.Coords) (arg2 : Memref sig .tc .vmem S8000x96 .f32) (harg2 : arg2.IsWhole) (arg3 : Memref sig .tc .vmem S96x96 .f32) (harg3 : arg3.IsWhole) (arg4 : Memref sig .tc .vmem S1x96 .f32) (harg4 : arg4.IsWhole) (arg5 : Memref sig .tc .vmem S8000x192 .f32) (harg5 : arg5.IsWhole) (arg6 : Memref sig .tc .vmem S8000x96 .f32) (harg6 : arg6.IsWhole) (arg7 : Memref sig .tc .vmem S8000x96 .f32) (harg7 : arg7.IsWhole) (arg8 : Memref sig .tc .vmem S8000x192 .f32) (harg8 : arg8.IsWhole) (arg9 : Memref sig .tc .vmem S1x1x96 .f32) (harg9 : arg9.IsWhole) (arg10 : Memref sig .tc .vmem S1x1x96 .f32) (harg10 : arg10.IsWhole) (hc0 : cond1_0 i) (x0 : Vec F S8000x96 .f32) (x1 : Vec F S96x96 .f32) (x2 : Vec F S1x96 .f32) (x3 : Vec F S8000x192 .f32) (x4 : Vec F S8000x96 .f32) :
    out1_A_6 c i arg2 harg2 arg3 harg3 arg4 harg4 arg5 harg5 arg6 harg6 arg7 harg7 arg8 harg8 arg9 harg9 arg10 harg10 hc0 x0 x1 x2 x3 x4 = k1_pay6 x0 x1 x2 x3 x4 := by
  unfold out1_A_6
  rw [View.read_writes_eq_canon _ _ _ (cover1_A_6 c i arg2 harg2 arg3 harg3 arg4 harg4 arg5 harg5 arg6 harg6 arg7 harg7 arg8 harg8 arg9 harg9 arg10 harg10 hc0 x0 x1 x2 x3 x4)]
  unfold kernelRun1_A
  dsimp only
  sl_unfold_words
  rw [View.canon_unit_zero hz2]
  simp only [View.readAt_eq_ld, harg2.read_unread, harg3.read_unread, harg4.read_unread, harg5.read_unread,
    harg6.read_unread, View.ld_unit_zero (S := S8000x96) hz2, View.ld_unit_zero (S := S96x96) hz2,
    View.ld_unit_zero (S := S1x96) hz2, View.ld_unit_zero (S := S8000x192) hz2]

/-- On every other point the body leaves the same payload there, whatever the accumulators held. -/
theorem packedB (c : Dev nD) (i : grid1.Coords) (arg2 : Memref sig .tc .vmem S8000x96 .f32) (harg2 : arg2.IsWhole) (arg3 : Memref sig .tc .vmem S96x96 .f32) (harg3 : arg3.IsWhole) (arg4 : Memref sig .tc .vmem S1x96 .f32) (harg4 : arg4.IsWhole) (arg5 : Memref sig .tc .vmem S8000x192 .f32) (harg5 : arg5.IsWhole) (arg6 : Memref sig .tc .vmem S8000x96 .f32) (harg6 : arg6.IsWhole) (arg7 : Memref sig .tc .vmem S8000x96 .f32) (harg7 : arg7.IsWhole) (arg8 : Memref sig .tc .vmem S8000x192 .f32) (harg8 : arg8.IsWhole) (arg9 : Memref sig .tc .vmem S1x1x96 .f32) (harg9 : arg9.IsWhole) (arg10 : Memref sig .tc .vmem S1x1x96 .f32) (harg10 : arg10.IsWhole) (hc0 : ¬cond1_0 i) (x0 : Vec F S8000x96 .f32) (x1 : Vec F S96x96 .f32) (x2 : Vec F S1x96 .f32) (x3 : Vec F S8000x192 .f32) (x4 : Vec F S8000x96 .f32)
    (xo7 : Vec F S1x1x96 .f32) (xo8 : Vec F S1x1x96 .f32) :
    out1_B_6 c i arg2 harg2 arg3 harg3 arg4 harg4 arg5 harg5 arg6 harg6 arg7 harg7 arg8 harg8 arg9 harg9 arg10 harg10 hc0 x0 x1 x2 x3 x4 xo7 xo8 = k1_pay6 x0 x1 x2 x3 x4 := by
  unfold out1_B_6
  rw [View.read_writes_eq_canon _ _ _ (cover1_B_6 c i arg2 harg2 arg3 harg3 arg4 harg4 arg5 harg5 arg6 harg6 arg7 harg7 arg8 harg8 arg9 harg9 arg10 harg10 hc0 x0 x1 x2 x3 x4 xo7 xo8)]
  unfold kernelRun1_B
  dsimp only
  sl_unfold_words
  rw [View.canon_unit_zero hz2]
  simp only [View.readAt_eq_ld, harg2.read_unread, harg3.read_unread, harg4.read_unread, harg5.read_unread,
    harg6.read_unread, View.ld_unit_zero (S := S8000x96) hz2, View.ld_unit_zero (S := S96x96) hz2,
    View.ld_unit_zero (S := S1x96) hz2, View.ld_unit_zero (S := S8000x192) hz2]
end Pieces

section Payload
open Idealize.ShloMosaic.ValueIdx

/-- The block product into the zero splat, at (r, q), is Σ_k l(r, k) · w(k, q). -/
theorem blockProduct_apply (l : FVec Ideal S8000x96 .f32) (w : FVec Ideal S96x96 .f32) (r : Fin 8000) (q : Fin 96) :
    matmul dot_S8000x96_S96x96_S8000x96_1_0_0_1_n_n none l w (constant (F := Ideal) S8000x96 .f32 0x00000000#32) (ix2 r q)
      = ∑ k : Fin 96, l (ix2 r k) * w (ix2 k q) :=
  (Ideal.matmul_constant_zero_apply (DotDims.plain 8000 96 96) none l w (ix2 r q)).trans
    ((Ideal.dotGeneral_apply (DotDims.plain 8000 96 96) none .single l w (ix2 r q)).symm.trans
      (StackMember.dotGeneral_plain_apply (m := 8000) (k := 96) (n := 96) none l w r q))

/-- The edge pre-activation of one block at (r, q): the packed source rows' column q, plus the destination rows',
    plus the block's own affine projection. -/
theorem preact_apply (x0 : FVec Ideal S8000x96 .f32) (x1 : FVec Ideal S96x96 .f32) (x2 : FVec Ideal S1x96 .f32)
    (x3 : FVec Ideal S8000x192 .f32) (x4 : FVec Ideal S8000x96 .f32) (r : Fin 8000) (q : Fin 96) :
    k1_pay5 (F := Ideal) x0 x1 x2 x3 x4 (ix2 r q)
      = x3 (ix2 r ⟨q.val, by have := q.isLt; omega⟩) + x4 (ix2 r q)
        + ((∑ k : Fin 96, x0 (ix2 r k) * x1 (ix2 k q)) + x2 (ix2 (0 : Fin 1) q)) := by
  unfold k1_pay5 k1_pay4
  simp only [shapeCast_self]
  rw [addf_apply, addf_apply, addf_apply, blockProduct_apply, broadcastTo_1b_ab_apply,
    slice2_axis1_apply 0 x3 slices_S8000x192_o0_0_S8000x96 r q ⟨q.val, by have := q.isLt; omega⟩ (by simp)]

/-- The packed payload of one block at a column of the left half: the gate of the pre-activation. -/
theorem packed_left (x0 : FVec Ideal S8000x96 .f32) (x1 : FVec Ideal S96x96 .f32) (x2 : FVec Ideal S1x96 .f32)
    (x3 : FVec Ideal S8000x192 .f32) (x4 : FVec Ideal S8000x96 .f32) (r : Fin 8000) (q : Fin 192) (hq : q.val < 96) :
    k1_pay6 (F := Ideal) x0 x1 x2 x3 x4 (ix2 r q)
      = Ideal.logistic (k1_pay5 (F := Ideal) x0 x1 x2 x3 x4 (ix2 r ⟨q.val, hq⟩)) := by
  unfold k1_pay6
  refine (concatenate_pair_apply_left (t := S8000x192) (s₁ := S8000x96) (s₂ := S8000x96) (1 : Fin 2) _ _
    concatenates_S8000x96_S8000x96_S8000x192_d1 (ix2 r q) rfl (ix2 r ⟨q.val, hq⟩) (fun b => ?_)).trans rfl
  match b with
  | ⟨0, _⟩ => rfl
  | ⟨1, _⟩ => rfl

/-- At a column of the right half: the gate at that column less 96, times the packed source rows' own column. -/
theorem packed_right (x0 : FVec Ideal S8000x96 .f32) (x1 : FVec Ideal S96x96 .f32) (x2 : FVec Ideal S1x96 .f32)
    (x3 : FVec Ideal S8000x192 .f32) (x4 : FVec Ideal S8000x96 .f32) (r : Fin 8000) (q : Fin 192) (hq : ¬q.val < 96) :
    k1_pay6 (F := Ideal) x0 x1 x2 x3 x4 (ix2 r q)
      = Ideal.logistic (k1_pay5 (F := Ideal) x0 x1 x2 x3 x4 (ix2 r ⟨q.val - 96, by have := q.isLt; omega⟩))
        * x3 (ix2 r q) := by
  unfold k1_pay6 k1_pay4
  simp only [shapeCast_self]
  refine (concatenate_pair_apply_right (t := S8000x192) (s₁ := S8000x96) (s₂ := S8000x96) (1 : Fin 2) _ _
    concatenates_S8000x96_S8000x96_S8000x192_d1 (ix2 r q) rfl rfl
    (ix2 r ⟨q.val - 96, by have := q.isLt; omega⟩) (fun b hb => ?_) ?_).trans ?_
  · match b with
    | ⟨0, _⟩ => rfl
    | ⟨1, _⟩ => exact absurd rfl hb
  · show q.val - 96 + 96 = q.val
    omega
  · rw [mulf_apply, slice2_axis1_apply 96 x3 slices_S8000x192_o0_96_S8000x96 r ⟨q.val - 96, by have := q.isLt; omega⟩ q
      (by show q.val = 96 + (q.val - 96); omega)]
    rfl
end Payload
section Point
open Idealize.ShloMosaic.ValueIdx

/-- A matrix as a rank-2 array. -/
def ofMat {n c : Nat} (M : Spec.Mat n c) : (⟨2, ![n, c]⟩ : Shape).Idx → EReal := fun i => M (i 0) (i 1)

/-- The packed matrix: the gate, and the gate times the right half of the packed source rows, side by side. -/
def packedMat (e : Spec.Mat 800000 96) (cw : Spec.Mat 96 96) (cb : Spec.Row 96) (g16 : Spec.Mat 800000 192)
    (g17 : Spec.Mat 800000 96) : Spec.Mat 800000 192 :=
  sideBySide (Spec.gate (enK e cw cb g16 g17)) (fun k j => Spec.gate (enK e cw cb g16 g17) k j * rightHalf g16 k j)

/-- One block's packed payload at (r, q) is the packed matrix at (R, q), when the block's rows are the arrays' rows
    from R − r on and the weight and bias blocks are the whole arrays. -/
theorem point_value (e : FVec Ideal S800000x96 .f32) (cw : FVec Ideal S96x96 .f32) (cb : FVec Ideal S1x96 .f32)
    (g16 : FVec Ideal S800000x192 .f32) (g17 : FVec Ideal S800000x96 .f32)
    (x0 : FVec Ideal S8000x96 .f32) (x1 : FVec Ideal S96x96 .f32) (x2 : FVec Ideal S1x96 .f32)
    (x3 : FVec Ideal S8000x192 .f32) (x4 : FVec Ideal S8000x96 .f32)
    (R : Fin 800000) (r : Fin 8000) (q : Fin 192)
    (h0 : ∀ k : Fin 96, x0 (ix2 r k) = e (ix2 R k)) (h1 : ∀ k j : Fin 96, x1 (ix2 k j) = cw (ix2 k j))
    (h2 : ∀ j : Fin 96, x2 (ix2 (0 : Fin 1) j) = cb (ix2 (0 : Fin 1) j))
    (h3 : ∀ j : Fin 192, x3 (ix2 r j) = g16 (ix2 R j)) (h4 : ∀ j : Fin 96, x4 (ix2 r j) = g17 (ix2 R j)) :
    k1_pay6 (F := Ideal) x0 x1 x2 x3 x4 (ix2 r q)
      = packedMat (toMat e) (toMat cw) (toRow1 cb) (toMat g16) (toMat g17) R q := by
  have hpre : ∀ j : Fin 96, k1_pay5 (F := Ideal) x0 x1 x2 x3 x4 (ix2 r j)
      = enK (toMat e) (toMat cw) (toRow1 cb) (toMat g16) (toMat g17) R j := by
    intro j
    rw [preact_apply, h3, h4, h2]
    simp only [h0, h1]
    rfl
  unfold packedMat sideBySide
  by_cases hq : q.val < 96
  · rw [packed_left _ _ _ _ _ r q hq, hpre, dif_pos hq]
    rfl
  · rw [packed_right _ _ _ _ _ r q hq, hpre, h3, dif_neg hq]
    have hq' : (⟨q.val - 96 + 96, by have := q.isLt; omega⟩ : Fin 192) = q :=
      Fin.ext (by show q.val - 96 + 96 = q.val; omega)
    show _ * g16 (ix2 R q) = _ * g16 (ix2 R ⟨q.val - 96 + 96, by have := q.isLt; omega⟩)
    rw [hq']
    rfl
end Point

section Array
open Idealize.ShloMosaic.ValueIdx
open Idealize.ShloMosaic.Pipeline (Dat)

variable (V : (c : Dev nD) → (b : Ref sig .tc) → Buf (Elt Ideal) ((c : Thread nD τ).loc b))

/-- The five arrays the region reads, as it finds them. -/
abbrev eArr (c : Dev nD) : FVec Ideal S800000x96 .f32 := V c main_arg1
abbrev cwArr (c : Dev nD) : FVec Ideal S96x96 .f32 := V c main_v11
abbrev cbArr (c : Dev nD) : FVec Ideal S1x96 .f32 := V c main_v2
abbrev srcArr (c : Dev nD) : FVec Ideal S800000x192 .f32 := V c main_v16
abbrev dstArr (c : Dev nD) : FVec Ideal S800000x96 .f32 := V c main_v17

/-- Their blocks at a point. -/
abbrev eBlk (c : Dev nD) (t : Fin cfg1.N) : FVec Ideal S8000x96 .f32 := iblk1 V c 0 t
abbrev cwBlk (c : Dev nD) (t : Fin cfg1.N) : FVec Ideal S96x96 .f32 := iblk1 V c 1 t
abbrev cbBlk (c : Dev nD) (t : Fin cfg1.N) : FVec Ideal S1x96 .f32 := iblk1 V c 2 t
abbrev srcBlk (c : Dev nD) (t : Fin cfg1.N) : FVec Ideal S8000x192 .f32 := iblk1 V c 3 t
abbrev dstBlk (c : Dev nD) (t : Fin cfg1.N) : FVec Ideal S8000x96 .f32 := iblk1 V c 4 t

/-- The printed index maps, decided over the hundred points: the row-blocked windows sit at row block t, the weight
    and the bias at block zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_6.index t (0 : Fin 2) = t.val ∧ win1_6.index t (1 : Fin 2) = 0 :=
  (by decide +kernel : ∀ t : Fin grid1.N, _)

/-- A point's row r is a row of the arrays. -/
theorem row_lt (t : Fin cfg1.N) (r : Fin 8000) : t.val * 8000 + r.val < 800000 := by
  have h1 : t.val < 100 := lt_of_lt_of_eq t.isLt (show cfg1.N = 100 from N_1)
  have := r.isLt
  omega

/-- Row r of point t's block of the edge features is row 8000·t + r of the array. -/
theorem eBlk_apply (c : Dev nD) (t : Fin cfg1.N) (r : Fin 8000) (k : Fin 96) :
    eBlk V c t (ix2 r k) = eArr V c (ix2 ⟨t.val * 8000 + r.val, row_lt t r⟩ k) := by
  obtain ⟨f00, f01, -⟩ := idx_facts t
  show V c main_arg1 (((cfg1.win 0).blk t).view.emb (ix2 r k)) = V c main_arg1 (ix2 ⟨t.val * 8000 + r.val, row_lt t r⟩ k)
  refine congrArg _ (funext fun a => Fin.ext ?_)
  match a with
  | ⟨0, _⟩ => show win1_0.index t (0 : Fin 2) * 8000 + 1 * r.val = t.val * 8000 + r.val; rw [f00]; omega
  | ⟨1, _⟩ => show win1_0.index t (1 : Fin 2) * 96 + 1 * k.val = k.val; rw [f01]; omega

/-- The weight's block is the weight. -/
theorem cwBlk_apply (c : Dev nD) (t : Fin cfg1.N) (k j : Fin 96) : cwBlk V c t (ix2 k j) = cwArr V c (ix2 k j) := by
  obtain ⟨-, -, f10, f11, -⟩ := idx_facts t
  show V c main_v11 (((cfg1.win 1).blk t).view.emb (ix2 k j)) = V c main_v11 (ix2 k j)
  refine congrArg _ (funext fun a => Fin.ext ?_)
  match a with
  | ⟨0, _⟩ => show win1_1.index t (0 : Fin 2) * 96 + 1 * k.val = k.val; rw [f10]; omega
  | ⟨1, _⟩ => show win1_1.index t (1 : Fin 2) * 96 + 1 * j.val = j.val; rw [f11]; omega

/-- The bias' block is the bias. -/
theorem cbBlk_apply (c : Dev nD) (t : Fin cfg1.N) (j : Fin 96) :
    cbBlk V c t (ix2 (0 : Fin 1) j) = cbArr V c (ix2 (0 : Fin 1) j) := by
  obtain ⟨-, -, -, -, f20, f21, -⟩ := idx_facts t
  show V c main_v2 (((cfg1.win 2).blk t).view.emb (ix2 (0 : Fin 1) j)) = V c main_v2 (ix2 (0 : Fin 1) j)
  refine congrArg _ (funext fun a => Fin.ext ?_)
  match a with
  | ⟨0, _⟩ => show win1_2.index t (0 : Fin 2) * 1 + 1 * 0 = 0; rw [f20]
  | ⟨1, _⟩ => show win1_2.index t (1 : Fin 2) * 96 + 1 * j.val = j.val; rw [f21]; omega

/-- Row r of point t's block of the packed source rows is row 8000·t + r of the array. -/
theorem srcBlk_apply (c : Dev nD) (t : Fin cfg1.N) (r : Fin 8000) (j : Fin 192) :
    srcBlk V c t (ix2 r j) = srcArr V c (ix2 ⟨t.val * 8000 + r.val, row_lt t r⟩ j) := by
  obtain ⟨-, -, -, -, -, -, f30, f31, -⟩ := idx_facts t
  show V c main_v16 (((cfg1.win 3).blk t).view.emb (ix2 r j)) = V c main_v16 (ix2 ⟨t.val * 8000 + r.val, row_lt t r⟩ j)
  refine congrArg _ (funext fun a => Fin.ext ?_)
  match a with
  | ⟨0, _⟩ => show win1_3.index t (0 : Fin 2) * 8000 + 1 * r.val = t.val * 8000 + r.val; rw [f30]; omega
  | ⟨1, _⟩ => show win1_3.index t (1 : Fin 2) * 192 + 1 * j.val = j.val; rw [f31]; omega

/-- Row r of point t's block of the destination rows is row 8000·t + r of the array. -/
theorem dstBlk_apply (c : Dev nD) (t : Fin cfg1.N) (r : Fin 8000) (j : Fin 96) :
    dstBlk V c t (ix2 r j) = dstArr V c (ix2 ⟨t.val * 8000 + r.val, row_lt t r⟩ j) := by
  obtain ⟨-, -, -, -, -, -, -, -, f40, f41, -⟩ := idx_facts t
  show V c main_v17 (((cfg1.win 4).blk t).view.emb (ix2 r j)) = V c main_v17 (ix2 ⟨t.val * 8000 + r.val, row_lt t r⟩ j)
  refine congrArg _ (funext fun a => Fin.ext ?_)
  match a with
  | ⟨0, _⟩ => show win1_4.index t (0 : Fin 2) * 8000 + 1 * r.val = t.val * 8000 + r.val; rw [f40]; omega
  | ⟨1, _⟩ => show win1_4.index t (1 : Fin 2) * 96 + 1 * j.val = j.val; rw [f41]; omega

/-- After every point the packed output's buffer holds the packed payload of the point's five input blocks: the two
    control cases differ only in the accumulators. -/
theorem packed_after (c : Dev nD) (t : Fin cfg1.N) :
    (outsAt1 V c t.val t.isLt).2.1 = k1_pay6 (F := Ideal) (eBlk V c t) (cwBlk V c t) (cbBlk V c t) (srcBlk V c t) (dstBlk V c t) := by
  by_cases h0 : t.val % 50 = 0
  · rw [outsAt1_A V c t h0]
    dsimp only
    exact packedA (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0)
      (iblk1 V c 0 t) (iblk1 V c 1 t) (iblk1 V c 2 t) (iblk1 V c 3 t) (iblk1 V c 4 t)
  · rw [outsAt1_B V c t h0]
    dsimp only
    exact packedB (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h))
      (iblk1 V c 0 t) (iblk1 V c 1 t) (iblk1 V c 2 t) (iblk1 V c 3 t) (iblk1 V c 4 t)
      (outsAt1 V c (t.val - 1) (Nat.lt_of_le_of_lt (Nat.sub_le _ _) t.isLt)).2.2.1
      (outsAt1 V c (t.val - 1) (Nat.lt_of_le_of_lt (Nat.sub_le _ _) t.isLt)).2.2.2

/-- The packed matrix of the arrays the region finds, as an array. -/
abbrev packedArr (c : Dev nD) : FVec Ideal S800000x192 .f32 := ofMat (packedMat (toMat (eArr V c)) (toMat (cwArr V c)) (toRow1 (cbArr V c)) (toMat (srcArr V c)) (toMat (dstArr V c)))

/-- What point t writes back into the packed output is block t of the packed matrix of the arrays. -/
theorem flushed_packed (c : Dev nD) (t : Fin cfg1.N) :
    (dat1 V c).flushed 6 t = ((cfg1.win 6).blk t).view.read (Elt Ideal) (packedArr V c) := by
  show (cfg1.win 6).cut (grid1.coords t) ((dat1 V c).after 6 t) = _
  rw [after1_6, packed_after]
  obtain ⟨-, -, -, -, -, -, -, -, -, -, f60, f61⟩ := idx_facts t
  funext y
  obtain ⟨r, q, rfl⟩ : ∃ (r : Fin 8000) (q : Fin 192), y = ix2 r q := ⟨y 0, y 1, eq_ix2 y⟩
  have hemb : ((cfg1.win 6).blk t).view.emb (ix2 r q) = ix2 (⟨t.val * 8000 + r.val, row_lt t r⟩ : Fin 800000) q := by
    funext a
    apply Fin.ext
    match a with
    | ⟨0, _⟩ => show win1_6.index t (0 : Fin 2) * 8000 + 1 * r.val = t.val * 8000 + r.val; rw [f60]; omega
    | ⟨1, _⟩ => show win1_6.index t (1 : Fin 2) * 192 + 1 * q.val = q.val; rw [f61]; omega
  show k1_pay6 (F := Ideal) (eBlk V c t) (cwBlk V c t) (cbBlk V c t) (srcBlk V c t) (dstBlk V c t) (ix2 r q) = packedArr V c (((cfg1.win 6).blk t).view.emb (ix2 r q))
  rw [hemb]
  exact point_value (eArr V c) (cwArr V c) (cbArr V c) (srcArr V c) (dstArr V c) (eBlk V c t) (cwBlk V c t) (cbBlk V c t) (srcBlk V c t) (dstBlk V c t)
    ⟨t.val * 8000 + r.val, row_lt t r⟩ r q
    (fun k => eBlk_apply V c t r k) (fun k j => cwBlk_apply V c t k j) (fun j => cbBlk_apply V c t j)
    (fun j => srcBlk_apply V c t r j) (fun j => dstBlk_apply V c t r j)

/-- An index of the packed output is in point t's block exactly when each coordinate is in the block's range. -/
theorem mem_packed_blk (t : Fin cfg1.N) (i : S800000x192.Idx) :
    i ∈ ((cfg1.win 6).blk t).view.set
      ↔ ∀ a : Fin 2, win1_6.index t a * S8000x192.size a ≤ (i a).val
          ∧ (i a).val < win1_6.index t a * S8000x192.size a + S8000x192.size a := by
  show i ∈ ((View.whole main_v18_1).slice (win1_6.rect t)).set ↔ _
  rw [View.set_slice_whole, Rect.mem_set_unit]
  exact Iff.rfl

/-- The packed output after the region is the packed matrix of the arrays: row R lies in the block of point R / 8000. -/
theorem packed_final (c : Dev nD) : (dat1 V c).arrAt 6 cfg1.N = packedArr V c :=
  (dat1 V c).arrAt_eq_of_cover 6 (packedArr V c) (fun t _ => flushed_packed V c t) fun i => by
    have hi0 : (i 0).val < 800000 := idx2_lt0 i
    have hi1 : (i 1).val < 192 := idx2_lt1 i
    have hN : cfg1.N = 100 := N_1
    obtain ⟨-, -, -, -, -, -, -, -, -, -, f60, f61⟩ := idx_facts ⟨(i 0).val / 8000, by rw [hN]; omega⟩
    refine ⟨⟨(i 0).val / 8000, by rw [hN]; omega⟩, flush1_6 _, ?_⟩
    rw [mem_packed_blk]
    intro a
    match a with
    | ⟨0, _⟩ =>
      show win1_6.index _ (0 : Fin 2) * 8000 ≤ (i 0).val ∧ (i 0).val < win1_6.index _ (0 : Fin 2) * 8000 + 8000
      rw [f60]; dsimp only; omega
    | ⟨1, _⟩ =>
      show win1_6.index _ (1 : Fin 2) * 192 ≤ (i 1).val ∧ (i 1).val < win1_6.index _ (1 : Fin 2) * 192 + 192
      rw [f61]; omega
end Array

variable (m : (ℓ : Loc nD τ sig) → Buf (Elt Ideal) ℓ) (ρ : Dev nD → PrngReg)

theorem packed_eq (c : Dev nD) : toMat (W6 m ρ c (Proc.devRef .tc main_v18_1))
    = sideBySide (Spec.gate (enK (toMat (W5 m ρ c (Proc.devRef .tc main_arg1))) (toMat (W5 m ρ c (Proc.devRef .tc main_v11))) (toRow1 (W5 m ρ c (Proc.devRef .tc main_v2))) (toMat (W5 m ρ c (Proc.devRef .tc main_v16))) (toMat (W5 m ρ c (Proc.devRef .tc main_v17)))))
        (fun k j => Spec.gate (enK (toMat (W5 m ρ c (Proc.devRef .tc main_arg1))) (toMat (W5 m ρ c (Proc.devRef .tc main_v11))) (toRow1 (W5 m ρ c (Proc.devRef .tc main_v2))) (toMat (W5 m ρ c (Proc.devRef .tc main_v16))) (toMat (W5 m ρ c (Proc.devRef .tc main_v17)))) k j * rightHalf (toMat (W5 m ρ c (Proc.devRef .tc main_v16))) k j) := by
  have h := (W6_arr m ρ c 6).trans (packed_final (V5 m ρ) c)
  funext k j
  exact congrFun h (Idealize.ShloMosaic.ValueIdx.ix2 k j)

end Cert.KRegion1Packed

end
-- ==== Proof.KRegion1.lean ====
/-
  The second region (the edge gate) read back, its two row-blocked outputs: the edge pre-activation, and the gate and
  the gated message packed side by side.
-/
import proofs.«422570_j39187281608763_2_alg».proof.Proof.KernelRun
import proofs.«422570_j39187281608763_2_alg».proof.Proof.Conv
import proofs.«422570_j39187281608763_2_alg».proof.Proof.KSpec
import proofs.«422570_j39187281608763_2_alg».proof.Proof.KRegion1Packed
import Idealize.ShloMosaic.Lib.StackMember
import Idealize.ShloMosaic.Lib.ValueLayout
import Idealize.ShloMosaic.Lib.Pipeline.Value

noncomputable section

open scoped BigOperators

namespace Cert.KRegion1

open Cert Cert.KernelIdeal Cert.KernelIdeal.Gen Cert.Conv Cert.KSpec
open Idealize.ShloMosaic Idealize.ShloMosaic.TcCoe Idealize.SL.Sem
open Idealize.ShloMosaic.ValueIdx
open Idealize.ShloMosaic.Pipeline (Dat)

/-! ## The body's arithmetic at one entry of a tile

A tile is 8000 edge rows. Entry (p, q) of the pre-activation the body stores is the left half of the packed source
row, plus the destination row, plus the edge row's own affine image: the product with the weight is a sum over the 96
input features, and the bias is the one row of a [1, 96] array laid along every row of the tile. -/

theorem hz : (![0, 0] : Fin 2 → Nat) = fun _ => 0 := funext fun a => by fin_cases a <;> rfl

/-- The tile's matrix product into a zero accumulator, at an entry: the sum over the contracted feature. -/
theorem mm_apply (l : FVec Ideal S8000x96 .f32) (r : FVec Ideal S96x96 .f32) (p : Fin 8000) (q : Fin 96) :
    matmul (F := Ideal) dot_S8000x96_S96x96_S8000x96_1_0_0_1_n_n none l r (constant (F := Ideal) S8000x96 .f32 0x00000000#32) (ix2 p q)
      = ∑ k : Fin 96, l (ix2 p k) * r (ix2 k q) :=
  (congrFun (matmul_zero_eq_dotGeneral _ none l r) (ix2 p q)).trans
    (StackMember.dotGeneral_plain_apply (m := 8000) (n := 96) (k := 96) none l r p q)

/-- The pre-activation the body stores, at entry (p, q) of the tile, from the five blocks it loads: the edge rows
    x0, the weight x1, the bias row x2, the packed source rows x3 and the destination rows x4. -/
theorem enewPay_apply (x0 : FVec Ideal S8000x96 .f32) (x1 : FVec Ideal S96x96 .f32) (x2 : FVec Ideal S1x96 .f32)
    (x3 : FVec Ideal S8000x192 .f32) (x4 : FVec Ideal S8000x96 .f32) (p : Fin 8000) (q : Fin 96) :
    k1_pay5 (F := Ideal) x0 x1 x2 x3 x4 (ix2 p q)
      = x3 (ix2 p ⟨q.val, by have := q.isLt; omega⟩) + x4 (ix2 p q)
        + ((∑ k : Fin 96, x0 (ix2 p k) * x1 (ix2 k q)) + x2 (ix2 0 q)) := by
  have hs : extractStridedSlice S8000x96 ![0, 0] (shapeCast S8000x192 x3 shapeCasts_S8000x192_S8000x192)
      slices_S8000x192_o0_0_S8000x96 (ix2 p q) = x3 (ix2 p ⟨q.val, by have := q.isLt; omega⟩) := by
    rw [shapeCast_self]; exact slice2_axis1_apply 0 x3 _ p q _ (by simp)
  have hm : matmul (F := Ideal) dot_S8000x96_S96x96_S8000x96_1_0_0_1_n_n none x0 (shapeCast S96x96 x1 shapeCasts_S96x96_S96x96)
      (constant (F := Ideal) S8000x96 .f32 0x00000000#32) (ix2 p q) = ∑ k : Fin 96, x0 (ix2 p k) * x1 (ix2 k q) := by
    rw [shapeCast_self]; exact mm_apply x0 x1 p q
  have hb : broadcastTo S8000x96 (shapeCast S1x96 x2 shapeCasts_S1x96_S1x96) broadcasts_S1x96_S8000x96 (ix2 p q)
      = x2 (ix2 0 q) := by
    rw [shapeCast_self]; exact broadcastTo_1b_ab_apply x2 _ p q
  have hd : shapeCast S8000x96 x4 shapeCasts_S8000x96_S8000x96 (ix2 p q) = x4 (ix2 p q) := by rw [shapeCast_self]
  exact congrArg₂ (· + ·) (congrArg₂ (· + ·) hs hd) (congrArg₂ (· + ·) hm hb)

/-! ## What the body leaves in the pre-activation's buffer

In both control cases (the first tile of a core, which also resets the two accumulators, and every later tile) the
body stores the pre-activation once, over the whole tile, computed from the five blocks it loaded. -/

section Pieces
variable {F : FTy → Type} [FloatOps F]

/-- On the first tile of a core the pre-activation's buffer ends holding the body's pre-activation of the loaded blocks. -/
theorem enew_A (c : Dev nD) (i : grid1.Coords) (a2 : Memref sig .tc .vmem S8000x96 .f32) (h2 : a2.IsWhole)
    (a3 : Memref sig .tc .vmem S96x96 .f32) (h3 : a3.IsWhole) (a4 : Memref sig .tc .vmem S1x96 .f32) (h4 : a4.IsWhole)
    (a5 : Memref sig .tc .vmem S8000x192 .f32) (h5 : a5.IsWhole) (a6 : Memref sig .tc .vmem S8000x96 .f32) (h6 : a6.IsWhole)
    (a7 : Memref sig .tc .vmem S8000x96 .f32) (h7 : a7.IsWhole) (a8 : Memref sig .tc .vmem S8000x192 .f32) (h8 : a8.IsWhole)
    (a9 : Memref sig .tc .vmem S1x1x96 .f32) (h9 : a9.IsWhole) (a10 : Memref sig .tc .vmem S1x1x96 .f32) (h10 : a10.IsWhole)
    (hc : cond1_0 i) (x0 : Vec F S8000x96 .f32) (x1 : Vec F S96x96 .f32) (x2 : Vec F S1x96 .f32)
    (x3 : Vec F S8000x192 .f32) (x4 : Vec F S8000x96 .f32) :
    out1_A_5 c i a2 h2 a3 h3 a4 h4 a5 h5 a6 h6 a7 h7 a8 h8 a9 h9 a10 h10 hc x0 x1 x2 x3 x4 = k1_pay5 x0 x1 x2 x3 x4 := by
  unfold out1_A_5
  rw [View.read_writes_eq_canon _ _ _ (cover1_A_5 c i a2 h2 a3 h3 a4 h4 a5 h5 a6 h6 a7 h7 a8 h8 a9 h9 a10 h10 hc x0 x1 x2 x3 x4)]
  unfold kernelRun1_A
  dsimp only
  sl_unfold_words
  rw [View.canon_unit_zero hz]
  simp only [View.readAt_eq_ld, h2.read_unread, h3.read_unread, h4.read_unread, h5.read_unread, h6.read_unread,
    View.ld_unit_zero (S := S8000x96) hz, View.ld_unit_zero (S := S96x96) hz, View.ld_unit_zero (S := S1x96) hz,
    View.ld_unit_zero (S := S8000x192) hz]

/-- On every later tile of a core too, whatever the two accumulators held. -/
theorem enew_B (c : Dev nD) (i : grid1.Coords) (a2 : Memref sig .tc .vmem S8000x96 .f32) (h2 : a2.IsWhole)
    (a3 : Memref sig .tc .vmem S96x96 .f32) (h3 : a3.IsWhole) (a4 : Memref sig .tc .vmem S1x96 .f32) (h4 : a4.IsWhole)
    (a5 : Memref sig .tc .vmem S8000x192 .f32) (h5 : a5.IsWhole) (a6 : Memref sig .tc .vmem S8000x96 .f32) (h6 : a6.IsWhole)
    (a7 : Memref sig .tc .vmem S8000x96 .f32) (h7 : a7.IsWhole) (a8 : Memref sig .tc .vmem S8000x192 .f32) (h8 : a8.IsWhole)
    (a9 : Memref sig .tc .vmem S1x1x96 .f32) (h9 : a9.IsWhole) (a10 : Memref sig .tc .vmem S1x1x96 .f32) (h10 : a10.IsWhole)
    (hc : ¬cond1_0 i) (x0 : Vec F S8000x96 .f32) (x1 : Vec F S96x96 .f32) (x2 : Vec F S1x96 .f32)
    (x3 : Vec F S8000x192 .f32) (x4 : Vec F S8000x96 .f32) (xo7 : Vec F S1x1x96 .f32) (xo8 : Vec F S1x1x96 .f32) :
    out1_B_5 c i a2 h2 a3 h3 a4 h4 a5 h5 a6 h6 a7 h7 a8 h8 a9 h9 a10 h10 hc x0 x1 x2 x3 x4 xo7 xo8 = k1_pay5 x0 x1 x2 x3 x4 := by
  unfold out1_B_5
  rw [View.read_writes_eq_canon _ _ _ (cover1_B_5 c i a2 h2 a3 h3 a4 h4 a5 h5 a6 h6 a7 h7 a8 h8 a9 h9 a10 h10 hc x0 x1 x2 x3 x4 xo7 xo8)]
  unfold kernelRun1_B
  dsimp only
  sl_unfold_words
  rw [View.canon_unit_zero hz]
  simp only [View.readAt_eq_ld, h2.read_unread, h3.read_unread, h4.read_unread, h5.read_unread, h6.read_unread,
    View.ld_unit_zero (S := S8000x96) hz, View.ld_unit_zero (S := S96x96) hz, View.ld_unit_zero (S := S1x96) hz,
    View.ld_unit_zero (S := S8000x192) hz]

end Pieces

/-! ## From tiles to the array

Point t of the region's hundred (core t / 50, tile t % 50) works on row block t of the five row-blocked arrays: rows
8000·t … 8000·t + 7999; the weight and the bias are one block each. So row r of the result is written at point
r / 8000, and the hundred blocks cover the 800000 rows. -/

section Blocks
variable (V : (c : Dev nD) → (b : Ref sig .tc) → Buf (Elt Ideal) ((c : Thread nD τ).loc b))

/-- The five blocks the body loads at point t, at their literal shapes. -/
abbrev eblk (c : Dev nD) (t : Fin cfg1.N) : FVec Ideal S8000x96 .f32 := iblk1 V c 0 t
abbrev wblk (c : Dev nD) (t : Fin cfg1.N) : FVec Ideal S96x96 .f32 := iblk1 V c 1 t
abbrev bblk (c : Dev nD) (t : Fin cfg1.N) : FVec Ideal S1x96 .f32 := iblk1 V c 2 t
abbrev sblk (c : Dev nD) (t : Fin cfg1.N) : FVec Ideal S8000x192 .f32 := iblk1 V c 3 t
abbrev dblk (c : Dev nD) (t : Fin cfg1.N) : FVec Ideal S8000x96 .f32 := iblk1 V c 4 t

/-- After the body at any point the pre-activation's buffer holds the body's pre-activation of that point's blocks. -/
theorem enew_after (c : Dev nD) (t : Fin cfg1.N) :
    (dat1 V c).after 5 t = k1_pay5 (F := Ideal) (eblk V c t) (wblk V c t) (bblk V c t) (sblk V c t) (dblk V c t) := by
  rw [after1_5]
  by_cases h0 : t.val % 50 = 0
  · rw [outsAt1_A V c t h0]
    dsimp only
    exact enew_A (F := Ideal) c (grid1.coords t) (ms1_0 t) (hs1_0 t) (ms1_1 t) (hs1_1 t) (ms1_2 t) (hs1_2 t) (ms1_3 t) (hs1_3 t)
      (ms1_4 t) (hs1_4 t) (ms1_5 t) (hs1_5 t) (ms1_6 t) (hs1_6 t) (ms1_7 t) (hs1_7 t) (ms1_8 t) (hs1_8 t)
      ((hcond1_0 t).mpr h0) (iblk1 V c 0 t) (iblk1 V c 1 t) (iblk1 V c 2 t) (iblk1 V c 3 t) (iblk1 V c 4 t)
  · rw [outsAt1_B V c t h0]
    dsimp only
    exact enew_B (F := Ideal) c (grid1.coords t) (ms1_0 t) (hs1_0 t) (ms1_1 t) (hs1_1 t) (ms1_2 t) (hs1_2 t) (ms1_3 t) (hs1_3 t)
      (ms1_4 t) (hs1_4 t) (ms1_5 t) (hs1_5 t) (ms1_6 t) (hs1_6 t) (ms1_7 t) (hs1_7 t) (ms1_8 t) (hs1_8 t)
      (fun h => h0 ((hcond1_0 t).mp h)) (iblk1 V c 0 t) (iblk1 V c 1 t) (iblk1 V c 2 t) (iblk1 V c 3 t) (iblk1 V c 4 t)
      (outsAt1 V c (t.val - 1) (Nat.lt_of_le_of_lt (Nat.sub_le _ _) t.isLt)).2.2.1
      (outsAt1 V c (t.val - 1) (Nat.lt_of_le_of_lt (Nat.sub_le _ _) t.isLt)).2.2.2

/-- The block indices of the region's windows, decided over its hundred points: the row-blocked ones are at row block
    t, the weight and the bias at their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 100 := lt_of_lt_of_eq t.isLt (show cfg1.N = 100 from N_1)

theorem row_lt (t : Fin cfg1.N) (p : Fin 8000) : t.val * 8000 + p.val < 800000 := by
  have := t_lt t; have := p.isLt; omega

/-- Row p of point t's block of edge rows is row 8000·t + p of the edge features. -/
theorem eblk_apply (c : Dev nD) (t : Fin cfg1.N) (p : Fin 8000) (k : Fin 96) :
    eblk V c t (ix2 p k) = toMat (V c main_arg1) ⟨t.val * 8000 + p.val, row_lt t p⟩ k := by
  show V c main_arg1 (((cfg1.win 0).blk t).view.emb (ix2 p k)) = V c main_arg1 (ix2 ⟨t.val * 8000 + p.val, row_lt t p⟩ k)
  refine congrArg _ (funext fun a => Fin.ext ?_)
  obtain ⟨e0, e1, -⟩ := idx_facts t
  match a with
  | ⟨0, _⟩ => show win1_0.index t (0 : Fin 2) * 8000 + 1 * p.val = t.val * 8000 + p.val; rw [e0]; omega
  | ⟨1, _⟩ => show win1_0.index t (1 : Fin 2) * 96 + 1 * k.val = k.val; rw [e1]; omega

/-- The weight's one block is the weight. -/
theorem wblk_apply (c : Dev nD) (t : Fin cfg1.N) (k : Fin 96) (q : Fin 96) :
    wblk V c t (ix2 k q) = toMat (V c main_v11) k q := by
  show V c main_v11 (((cfg1.win 1).blk t).view.emb (ix2 k q)) = V c main_v11 (ix2 k q)
  refine congrArg _ (funext fun a => Fin.ext ?_)
  obtain ⟨-, -, e0, e1, -⟩ := idx_facts t
  match a with
  | ⟨0, _⟩ => show win1_1.index t (0 : Fin 2) * 96 + 1 * k.val = k.val; rw [e0]; omega
  | ⟨1, _⟩ => show win1_1.index t (1 : Fin 2) * 96 + 1 * q.val = q.val; rw [e1]; omega

/-- The bias's one block is the bias row. -/
theorem bblk_apply (c : Dev nD) (t : Fin cfg1.N) (q : Fin 96) :
    bblk V c t (ix2 0 q) = toRow1 (V c main_v2) q := by
  show V c main_v2 (((cfg1.win 2).blk t).view.emb (ix2 0 q)) = V c main_v2 (ix2 0 q)
  refine congrArg _ (funext fun a => Fin.ext ?_)
  obtain ⟨-, -, -, -, e0, e1, -⟩ := idx_facts t
  match a with
  | ⟨0, _⟩ => show win1_2.index t (0 : Fin 2) * 1 + 1 * 0 = 0; rw [e0]
  | ⟨1, _⟩ => show win1_2.index t (1 : Fin 2) * 96 + 1 * q.val = q.val; rw [e1]; omega

/-- Row p of point t's block of packed source rows is row 8000·t + p of the packed source rows. -/
theorem sblk_apply (c : Dev nD) (t : Fin cfg1.N) (p : Fin 8000) (q : Fin 192) :
    sblk V c t (ix2 p q) = toMat (V c main_v16) ⟨t.val * 8000 + p.val, row_lt t p⟩ q := by
  show V c main_v16 (((cfg1.win 3).blk t).view.emb (ix2 p q)) = V c main_v16 (ix2 ⟨t.val * 8000 + p.val, row_lt t p⟩ q)
  refine congrArg _ (funext fun a => Fin.ext ?_)
  obtain ⟨-, -, -, -, -, -, e0, e1, -⟩ := idx_facts t
  match a with
  | ⟨0, _⟩ => show win1_3.index t (0 : Fin 2) * 8000 + 1 * p.val = t.val * 8000 + p.val; rw [e0]; omega
  | ⟨1, _⟩ => show win1_3.index t (1 : Fin 2) * 192 + 1 * q.val = q.val; rw [e1]; omega

/-- Row p of point t's block of destination rows is row 8000·t + p of the destination rows. -/
theorem dblk_apply (c : Dev nD) (t : Fin cfg1.N) (p : Fin 8000) (q : Fin 96) :
    dblk V c t (ix2 p q) = toMat (V c main_v17) ⟨t.val * 8000 + p.val, row_lt t p⟩ q := by
  show V c main_v17 (((cfg1.win 4).blk t).view.emb (ix2 p q)) = V c main_v17 (ix2 ⟨t.val * 8000 + p.val, row_lt t p⟩ q)
  refine congrArg _ (funext fun a => Fin.ext ?_)
  obtain ⟨-, -, -, -, -, -, -, -, e0, e1, -⟩ := idx_facts t
  match a with
  | ⟨0, _⟩ => show win1_4.index t (0 : Fin 2) * 8000 + 1 * p.val = t.val * 8000 + p.val; rw [e0]; omega
  | ⟨1, _⟩ => show win1_4.index t (1 : Fin 2) * 96 + 1 * q.val = q.val; rw [e1]; omega

/-- The whole pre-activation as one function of the five arrays, index by index. -/
abbrev enArr (c : Dev nD) : S800000x96.Idx → EReal := fun i =>
  enK (toMat (V c main_arg1)) (toMat (V c main_v11)) (toRow1 (V c main_v2)) (toMat (V c main_v16)) (toMat (V c main_v17))
    ⟨(i 0).val, idx2_lt0 i⟩ ⟨(i 1).val, idx2_lt1 i⟩

/-- What point t writes back is block t of that function. -/
theorem enew_flushed (c : Dev nD) (t : Fin cfg1.N) :
    (dat1 V c).flushed 5 t = ((cfg1.win 5).blk t).view.read (Elt Ideal) (enArr V c) := by
  show (cfg1.win 5).cut (grid1.coords t) ((dat1 V c).after 5 t) = _
  rw [enew_after]
  funext j
  obtain ⟨p, q, rfl⟩ : ∃ (p : Fin 8000) (q : Fin 96), j = ix2 p q := ⟨j 0, j 1, eq_ix2 j⟩
  show k1_pay5 (F := Ideal) (eblk V c t) (wblk V c t) (bblk V c t) (sblk V c t) (dblk V c t) (ix2 p q)
    = enArr V c (((cfg1.win 5).blk t).view.emb (ix2 p q))
  refine (enewPay_apply (eblk V c t) (wblk V c t) (bblk V c t) (sblk V c t) (dblk V c t) p q).trans ?_
  obtain ⟨-, -, -, -, -, -, -, -, -, -, e0, e1⟩ := idx_facts t
  have hemb : ((cfg1.win 5).blk t).view.emb (ix2 p q) = ix2 ⟨t.val * 8000 + p.val, row_lt t p⟩ q := by
    funext a; apply Fin.ext
    match a with
    | ⟨0, _⟩ => show win1_5.index t (0 : Fin 2) * 8000 + 1 * p.val = t.val * 8000 + p.val; rw [e0]; omega
    | ⟨1, _⟩ => show win1_5.index t (1 : Fin 2) * 96 + 1 * q.val = q.val; rw [e1]; omega
  rw [hemb, sblk_apply, dblk_apply, bblk_apply]
  simp only [eblk_apply, wblk_apply]
  rfl

/-- An index of the array is in point t's block when each coordinate is in the block's range on its axis. -/
theorem mem_blk5 (t : Fin cfg1.N) (i : S800000x96.Idx) :
    i ∈ ((cfg1.win 5).blk t).view.set ↔ ∀ a : Fin 2, win1_5.index t a * S8000x96.size a ≤ (i a).val
      ∧ (i a).val < win1_5.index t a * S8000x96.size a + S8000x96.size a := by
  show i ∈ ((View.whole main_v18_0).slice (win1_5.rect t)).set ↔ _
  rw [View.set_slice_whole, Rect.mem_set_unit]
  exact Iff.rfl

/-- The array after the region: the pre-activation of the five arrays, everywhere. -/
theorem enew_final (c : Dev nD) : (dat1 V c).arrAt 5 cfg1.N = enArr V c :=
  (dat1 V c).arrAt_eq_of_cover 5 (enArr V c) (fun t _ => enew_flushed V c t) fun i => by
    have hi0 : (i 0).val < 800000 := idx2_lt0 i
    have hi1 : (i 1).val < 96 := idx2_lt1 i
    have hN : cfg1.N = 100 := N_1
    refine ⟨⟨(i 0).val / 8000, by rw [hN]; omega⟩, flush1_5 _, ?_⟩
    rw [mem_blk5]
    obtain ⟨-, -, -, -, -, -, -, -, -, -, e0, e1⟩ := idx_facts ⟨(i 0).val / 8000, by rw [hN]; omega⟩
    intro a
    match a with
    | ⟨0, _⟩ =>
      show win1_5.index _ (0 : Fin 2) * 8000 ≤ (i 0).val ∧ (i 0).val < win1_5.index _ (0 : Fin 2) * 8000 + 8000
      rw [e0]; dsimp only; omega
    | ⟨1, _⟩ =>
      show win1_5.index _ (1 : Fin 2) * 96 ≤ (i 1).val ∧ (i 1).val < win1_5.index _ (1 : Fin 2) * 96 + 96
      rw [e1]; omega

end Blocks

variable (m : (ℓ : Loc nD τ sig) → Buf (Elt Ideal) ℓ) (ρ : Dev nD → PrngReg)

theorem enew_eq (c : Dev nD) : toMat (W6 m ρ c (Proc.devRef .tc main_v18_0))
    = enK (toMat (W5 m ρ c (Proc.devRef .tc main_arg1))) (toMat (W5 m ρ c (Proc.devRef .tc main_v11))) (toRow1 (W5 m ρ c (Proc.devRef .tc main_v2))) (toMat (W5 m ρ c (Proc.devRef .tc main_v16))) (toMat (W5 m ρ c (Proc.devRef .tc main_v17))) := by
  have h := (W6_arr m ρ c 5).trans (enew_final (V5 m ρ) c)
  funext k j
  exact congrFun h (ix2 k j)
theorem packed_eq (c : Dev nD) : toMat (W6 m ρ c (Proc.devRef .tc main_v18_1))
    = sideBySide (Spec.gate (enK (toMat (W5 m ρ c (Proc.devRef .tc main_arg1))) (toMat (W5 m ρ c (Proc.devRef .tc main_v11))) (toRow1 (W5 m ρ c (Proc.devRef .tc main_v2))) (toMat (W5 m ρ c (Proc.devRef .tc main_v16))) (toMat (W5 m ρ c (Proc.devRef .tc main_v17)))))
        (fun k j => Spec.gate (enK (toMat (W5 m ρ c (Proc.devRef .tc main_arg1))) (toMat (W5 m ρ c (Proc.devRef .tc main_v11))) (toRow1 (W5 m ρ c (Proc.devRef .tc main_v2))) (toMat (W5 m ρ c (Proc.devRef .tc main_v16))) (toMat (W5 m ρ c (Proc.devRef .tc main_v17)))) k j * rightHalf (toMat (W5 m ρ c (Proc.devRef .tc main_v16))) k j) :=
  Cert.KRegion1Packed.packed_eq m ρ c

end Cert.KRegion1

end
-- ==== Proof.KLast.lean ====
/-
  The four accumulated outputs, the two of the edge gate and the two of the node update, read back at the final
  boundary: the index map sends every point of core c to block c of the [2, 1, 96] array, so the array's block c ends
  at what core c's LAST point left in the output's buffer; the flushes of the core's earlier points are overwritten.

  How it is read: such an output is written back only where its block index is about to change or the grid ends, that
  is at the last point of each core (t ≡ 49 mod 50 for the edge gate, t ≡ 24 mod 25 for the node update). The two
  write-backs go to blocks 0 and 1 of the array, which share no index, so each block of the final array is exactly
  what its one write-back wrote; and entry (0, 0, j) of block c sits at (c, 0, j) of the array.
-/
import proofs.«422570_j39187281608763_2_alg».proof.Proof.KernelRun
import proofs.«422570_j39187281608763_2_alg».proof.Proof.Conv
import proofs.«422570_j39187281608763_2_alg».proof.Proof.KSpec
import Idealize.ShloMosaic.Lib.Pipeline.Value

noncomputable section

open scoped BigOperators

namespace Cert.KLast

open Cert Cert.KernelIdeal Cert.KernelIdeal.Gen Cert.Conv Cert.KSpec
open Idealize.ShloMosaic Idealize.ShloMosaic.TcCoe Idealize.SL.Sem

open Idealize.ShloMosaic.ValueIdx (ix3)

variable (m : (ℓ : Loc nD τ sig) → Buf (Elt Ideal) ℓ) (ρ : Dev nD → PrngReg)

/-- In region 1, the block index of window 7 at point t is (t / 50, 0, 0): the 50 points of one core all name the
    same block. -/
theorem idx1_7 : ∀ t : Fin cfg1.N, win1_7.index t (0 : Fin 3) = t.val / 50 ∧ win1_7.index t (1 : Fin 3) = 0
    ∧ win1_7.index t (2 : Fin 3) = 0 :=
  (by decide +kernel : ∀ t : Fin grid1.N, win1_7.index t (0 : Fin 3) = t.val / 50 ∧ win1_7.index t (1 : Fin 3) = 0
    ∧ win1_7.index t (2 : Fin 3) = 0)

/-- Window 7 of region 1 is written back only at the points ≡ 49 (mod 50), one per core, and two such points have
    different quotients by 50: their blocks are different blocks of the array, which share no index. -/
theorem disj1_7 : ∀ t t' : Fin cfg1.N, (cfg1.win 7).flush t = true → (cfg1.win 7).flush t' = true → t ≠ t' →
    Disjoint ((cfg1.win 7).blk t).view.set ((cfg1.win 7).blk t').view.set :=
  fun t t' hf hf' hne => (cfg1.win 7).disjoint_blk fun h => hne (by
    have h0 : win1_7.index t (0 : Fin 3) = win1_7.index t' (0 : Fin 3) := congrFun h (0 : Fin 3)
    rw [(idx1_7 t).1, (idx1_7 t').1] at h0
    have a := (flush1_7 t).mp hf
    have b := (flush1_7 t').mp hf'
    exact Fin.ext (by omega))

theorem v18_2_last (c : Dev nD) (c' : Fin 2) (j : Fin 96) (hlt : c'.val * 50 + 49 < cfg1.N) :
    toAcc (W6 m ρ c (Proc.devRef .tc main_v18_2)) c' j
      = (outsAt1 (V5 m ρ) c (c'.val * 50 + 49) hlt).2.2.1 (Idealize.ShloMosaic.ValueIdx.ix3 0 0 j) := by
  -- the core's last point writes its block back
  have hf : (cfg1.win 7).flush ⟨c'.val * 50 + 49, hlt⟩ = true :=
    (flush1_7 ⟨c'.val * 50 + 49, hlt⟩).mpr (by show (c'.val * 50 + 49) % 50 = 49; omega)
  -- so that block of the final array, read back, is what that point wrote: no other write-back meets it
  have hb := congrFun ((dat1 (V5 m ρ) c).read_blk_arrAt_eq_flushed 7 disj1_7 cfg1.N ⟨c'.val * 50 + 49, hlt⟩ hlt hf)
    (ix3 (0 : Fin 1) (0 : Fin 1) j)
  have hW : W6 m ρ c (Proc.devRef .tc main_v18_2) = (dat1 (V5 m ρ) c).arrAt 7 cfg1.N := W6_arr m ρ c 7
  -- what it wrote is the whole of what the body left in the output's buffer there
  have hR : (dat1 (V5 m ρ) c).flushed 7 ⟨c'.val * 50 + 49, hlt⟩ (ix3 (0 : Fin 1) (0 : Fin 1) j)
      = (outsAt1 (V5 m ρ) c (c'.val * 50 + 49) hlt).2.2.1 (ix3 0 0 j) := by
    show (cfg1.win 7).cut (grid1.coords ⟨c'.val * 50 + 49, hlt⟩) ((dat1 (V5 m ρ) c).after 7 ⟨c'.val * 50 + 49, hlt⟩)
      (ix3 (0 : Fin 1) (0 : Fin 1) j) = _
    rw [after1_7]
    rfl
  -- entry (0, 0, j) of the block at that point sits at (c', 0, j) of the array: block index times block size plus
  -- the coordinate inside the block, axis by axis
  have e : ((cfg1.win 7).blk ⟨c'.val * 50 + 49, hlt⟩).view.emb (ix3 (0 : Fin 1) (0 : Fin 1) j) = ix3 c' (0 : Fin 1) j := by
    funext a
    apply Fin.ext
    match a with
    | ⟨0, _⟩ =>
      show win1_7.index ⟨c'.val * 50 + 49, hlt⟩ (0 : Fin 3) * 1 + 1 * 0 = c'.val
      rw [(idx1_7 _).1]
      show (c'.val * 50 + 49) / 50 * 1 + 1 * 0 = c'.val
      omega
    | ⟨1, _⟩ =>
      show win1_7.index ⟨c'.val * 50 + 49, hlt⟩ (1 : Fin 3) * 1 + 1 * 0 = 0
      rw [(idx1_7 _).2.1]
    | ⟨2, _⟩ =>
      show win1_7.index ⟨c'.val * 50 + 49, hlt⟩ (2 : Fin 3) * 96 + 1 * j.val = j.val
      rw [(idx1_7 _).2.2]
      omega
  rw [View.read_apply, e] at hb
  exact (congrArg (fun X => toAcc X c' j) hW).trans (hb.trans hR)

/-- In region 1, the block index of window 8 at point t is (t / 50, 0, 0): the 50 points of one core all name the
    same block. -/
theorem idx1_8 : ∀ t : Fin cfg1.N, win1_8.index t (0 : Fin 3) = t.val / 50 ∧ win1_8.index t (1 : Fin 3) = 0
    ∧ win1_8.index t (2 : Fin 3) = 0 :=
  (by decide +kernel : ∀ t : Fin grid1.N, win1_8.index t (0 : Fin 3) = t.val / 50 ∧ win1_8.index t (1 : Fin 3) = 0
    ∧ win1_8.index t (2 : Fin 3) = 0)

/-- Window 8 of region 1 is written back only at the points ≡ 49 (mod 50), one per core, and two such points have
    different quotients by 50: their blocks are different blocks of the array, which share no index. -/
theorem disj1_8 : ∀ t t' : Fin cfg1.N, (cfg1.win 8).flush t = true → (cfg1.win 8).flush t' = true → t ≠ t' →
    Disjoint ((cfg1.win 8).blk t).view.set ((cfg1.win 8).blk t').view.set :=
  fun t t' hf hf' hne => (cfg1.win 8).disjoint_blk fun h => hne (by
    have h0 : win1_8.index t (0 : Fin 3) = win1_8.index t' (0 : Fin 3) := congrFun h (0 : Fin 3)
    rw [(idx1_8 t).1, (idx1_8 t').1] at h0
    have a := (flush1_8 t).mp hf
    have b := (flush1_8 t').mp hf'
    exact Fin.ext (by omega))

theorem v18_3_last (c : Dev nD) (c' : Fin 2) (j : Fin 96) (hlt : c'.val * 50 + 49 < cfg1.N) :
    toAcc (W6 m ρ c (Proc.devRef .tc main_v18_3)) c' j
      = (outsAt1 (V5 m ρ) c (c'.val * 50 + 49) hlt).2.2.2 (Idealize.ShloMosaic.ValueIdx.ix3 0 0 j) := by
  -- the core's last point writes its block back
  have hf : (cfg1.win 8).flush ⟨c'.val * 50 + 49, hlt⟩ = true :=
    (flush1_8 ⟨c'.val * 50 + 49, hlt⟩).mpr (by show (c'.val * 50 + 49) % 50 = 49; omega)
  -- so that block of the final array, read back, is what that point wrote: no other write-back meets it
  have hb := congrFun ((dat1 (V5 m ρ) c).read_blk_arrAt_eq_flushed 8 disj1_8 cfg1.N ⟨c'.val * 50 + 49, hlt⟩ hlt hf)
    (ix3 (0 : Fin 1) (0 : Fin 1) j)
  have hW : W6 m ρ c (Proc.devRef .tc main_v18_3) = (dat1 (V5 m ρ) c).arrAt 8 cfg1.N := W6_arr m ρ c 8
  -- what it wrote is the whole of what the body left in the output's buffer there
  have hR : (dat1 (V5 m ρ) c).flushed 8 ⟨c'.val * 50 + 49, hlt⟩ (ix3 (0 : Fin 1) (0 : Fin 1) j)
      = (outsAt1 (V5 m ρ) c (c'.val * 50 + 49) hlt).2.2.2 (ix3 0 0 j) := by
    show (cfg1.win 8).cut (grid1.coords ⟨c'.val * 50 + 49, hlt⟩) ((dat1 (V5 m ρ) c).after 8 ⟨c'.val * 50 + 49, hlt⟩)
      (ix3 (0 : Fin 1) (0 : Fin 1) j) = _
    rw [after1_8]
    rfl
  -- entry (0, 0, j) of the block at that point sits at (c', 0, j) of the array: block index times block size plus
  -- the coordinate inside the block, axis by axis
  have e : ((cfg1.win 8).blk ⟨c'.val * 50 + 49, hlt⟩).view.emb (ix3 (0 : Fin 1) (0 : Fin 1) j) = ix3 c' (0 : Fin 1) j := by
    funext a
    apply Fin.ext
    match a with
    | ⟨0, _⟩ =>
      show win1_8.index ⟨c'.val * 50 + 49, hlt⟩ (0 : Fin 3) * 1 + 1 * 0 = c'.val
      rw [(idx1_8 _).1]
      show (c'.val * 50 + 49) / 50 * 1 + 1 * 0 = c'.val
      omega
    | ⟨1, _⟩ =>
      show win1_8.index ⟨c'.val * 50 + 49, hlt⟩ (1 : Fin 3) * 1 + 1 * 0 = 0
      rw [(idx1_8 _).2.1]
    | ⟨2, _⟩ =>
      show win1_8.index ⟨c'.val * 50 + 49, hlt⟩ (2 : Fin 3) * 96 + 1 * j.val = j.val
      rw [(idx1_8 _).2.2]
      omega
  rw [View.read_apply, e] at hb
  exact (congrArg (fun X => toAcc X c' j) hW).trans (hb.trans hR)

/-- In region 2, the block index of window 4 at point t is (t / 25, 0, 0): the 25 points of one core all name the
    same block. -/
theorem idx2_4 : ∀ t : Fin cfg2.N, win2_4.index t (0 : Fin 3) = t.val / 25 ∧ win2_4.index t (1 : Fin 3) = 0
    ∧ win2_4.index t (2 : Fin 3) = 0 :=
  (by decide +kernel : ∀ t : Fin grid2.N, win2_4.index t (0 : Fin 3) = t.val / 25 ∧ win2_4.index t (1 : Fin 3) = 0
    ∧ win2_4.index t (2 : Fin 3) = 0)

/-- Window 4 of region 2 is written back only at the points ≡ 24 (mod 25), one per core, and two such points have
    different quotients by 25: their blocks are different blocks of the array, which share no index. -/
theorem disj2_4 : ∀ t t' : Fin cfg2.N, (cfg2.win 4).flush t = true → (cfg2.win 4).flush t' = true → t ≠ t' →
    Disjoint ((cfg2.win 4).blk t).view.set ((cfg2.win 4).blk t').view.set :=
  fun t t' hf hf' hne => (cfg2.win 4).disjoint_blk fun h => hne (by
    have h0 : win2_4.index t (0 : Fin 3) = win2_4.index t' (0 : Fin 3) := congrFun h (0 : Fin 3)
    rw [(idx2_4 t).1, (idx2_4 t').1] at h0
    have a := (flush2_4 t).mp hf
    have b := (flush2_4 t').mp hf'
    exact Fin.ext (by omega))

theorem v34_1_last (c : Dev nD) (c' : Fin 2) (j : Fin 96) (hlt : c'.val * 25 + 24 < cfg2.N) :
    toAcc (W8 m ρ c (Proc.devRef .tc main_v34_1)) c' j
      = (outsAt2 (V7 m ρ) c (c'.val * 25 + 24) hlt).2.1 (Idealize.ShloMosaic.ValueIdx.ix3 0 0 j) := by
  -- the core's last point writes its block back
  have hf : (cfg2.win 4).flush ⟨c'.val * 25 + 24, hlt⟩ = true :=
    (flush2_4 ⟨c'.val * 25 + 24, hlt⟩).mpr (by show (c'.val * 25 + 24) % 25 = 24; omega)
  -- so that block of the final array, read back, is what that point wrote: no other write-back meets it
  have hb := congrFun ((dat2 (V7 m ρ) c).read_blk_arrAt_eq_flushed 4 disj2_4 cfg2.N ⟨c'.val * 25 + 24, hlt⟩ hlt hf)
    (ix3 (0 : Fin 1) (0 : Fin 1) j)
  have hW : W8 m ρ c (Proc.devRef .tc main_v34_1) = (dat2 (V7 m ρ) c).arrAt 4 cfg2.N := W8_arr m ρ c 4
  -- what it wrote is the whole of what the body left in the output's buffer there
  have hR : (dat2 (V7 m ρ) c).flushed 4 ⟨c'.val * 25 + 24, hlt⟩ (ix3 (0 : Fin 1) (0 : Fin 1) j)
      = (outsAt2 (V7 m ρ) c (c'.val * 25 + 24) hlt).2.1 (ix3 0 0 j) := by
    show (cfg2.win 4).cut (grid2.coords ⟨c'.val * 25 + 24, hlt⟩) ((dat2 (V7 m ρ) c).after 4 ⟨c'.val * 25 + 24, hlt⟩)
      (ix3 (0 : Fin 1) (0 : Fin 1) j) = _
    rw [after2_4]
    rfl
  -- entry (0, 0, j) of the block at that point sits at (c', 0, j) of the array: block index times block size plus
  -- the coordinate inside the block, axis by axis
  have e : ((cfg2.win 4).blk ⟨c'.val * 25 + 24, hlt⟩).view.emb (ix3 (0 : Fin 1) (0 : Fin 1) j) = ix3 c' (0 : Fin 1) j := by
    funext a
    apply Fin.ext
    match a with
    | ⟨0, _⟩ =>
      show win2_4.index ⟨c'.val * 25 + 24, hlt⟩ (0 : Fin 3) * 1 + 1 * 0 = c'.val
      rw [(idx2_4 _).1]
      show (c'.val * 25 + 24) / 25 * 1 + 1 * 0 = c'.val
      omega
    | ⟨1, _⟩ =>
      show win2_4.index ⟨c'.val * 25 + 24, hlt⟩ (1 : Fin 3) * 1 + 1 * 0 = 0
      rw [(idx2_4 _).2.1]
    | ⟨2, _⟩ =>
      show win2_4.index ⟨c'.val * 25 + 24, hlt⟩ (2 : Fin 3) * 96 + 1 * j.val = j.val
      rw [(idx2_4 _).2.2]
      omega
  rw [View.read_apply, e] at hb
  exact (congrArg (fun X => toAcc X c' j) hW).trans (hb.trans hR)

/-- In region 2, the block index of window 5 at point t is (t / 25, 0, 0): the 25 points of one core all name the
    same block. -/
theorem idx2_5 : ∀ t : Fin cfg2.N, win2_5.index t (0 : Fin 3) = t.val / 25 ∧ win2_5.index t (1 : Fin 3) = 0
    ∧ win2_5.index t (2 : Fin 3) = 0 :=
  (by decide +kernel : ∀ t : Fin grid2.N, win2_5.index t (0 : Fin 3) = t.val / 25 ∧ win2_5.index t (1 : Fin 3) = 0
    ∧ win2_5.index t (2 : Fin 3) = 0)

/-- Window 5 of region 2 is written back only at the points ≡ 24 (mod 25), one per core, and two such points have
    different quotients by 25: their blocks are different blocks of the array, which share no index. -/
theorem disj2_5 : ∀ t t' : Fin cfg2.N, (cfg2.win 5).flush t = true → (cfg2.win 5).flush t' = true → t ≠ t' →
    Disjoint ((cfg2.win 5).blk t).view.set ((cfg2.win 5).blk t').view.set :=
  fun t t' hf hf' hne => (cfg2.win 5).disjoint_blk fun h => hne (by
    have h0 : win2_5.index t (0 : Fin 3) = win2_5.index t' (0 : Fin 3) := congrFun h (0 : Fin 3)
    rw [(idx2_5 t).1, (idx2_5 t').1] at h0
    have a := (flush2_5 t).mp hf
    have b := (flush2_5 t').mp hf'
    exact Fin.ext (by omega))

theorem v34_2_last (c : Dev nD) (c' : Fin 2) (j : Fin 96) (hlt : c'.val * 25 + 24 < cfg2.N) :
    toAcc (W8 m ρ c (Proc.devRef .tc main_v34_2)) c' j
      = (outsAt2 (V7 m ρ) c (c'.val * 25 + 24) hlt).2.2 (Idealize.ShloMosaic.ValueIdx.ix3 0 0 j) := by
  -- the core's last point writes its block back
  have hf : (cfg2.win 5).flush ⟨c'.val * 25 + 24, hlt⟩ = true :=
    (flush2_5 ⟨c'.val * 25 + 24, hlt⟩).mpr (by show (c'.val * 25 + 24) % 25 = 24; omega)
  -- so that block of the final array, read back, is what that point wrote: no other write-back meets it
  have hb := congrFun ((dat2 (V7 m ρ) c).read_blk_arrAt_eq_flushed 5 disj2_5 cfg2.N ⟨c'.val * 25 + 24, hlt⟩ hlt hf)
    (ix3 (0 : Fin 1) (0 : Fin 1) j)
  have hW : W8 m ρ c (Proc.devRef .tc main_v34_2) = (dat2 (V7 m ρ) c).arrAt 5 cfg2.N := W8_arr m ρ c 5
  -- what it wrote is the whole of what the body left in the output's buffer there
  have hR : (dat2 (V7 m ρ) c).flushed 5 ⟨c'.val * 25 + 24, hlt⟩ (ix3 (0 : Fin 1) (0 : Fin 1) j)
      = (outsAt2 (V7 m ρ) c (c'.val * 25 + 24) hlt).2.2 (ix3 0 0 j) := by
    show (cfg2.win 5).cut (grid2.coords ⟨c'.val * 25 + 24, hlt⟩) ((dat2 (V7 m ρ) c).after 5 ⟨c'.val * 25 + 24, hlt⟩)
      (ix3 (0 : Fin 1) (0 : Fin 1) j) = _
    rw [after2_5]
    rfl
  -- entry (0, 0, j) of the block at that point sits at (c', 0, j) of the array: block index times block size plus
  -- the coordinate inside the block, axis by axis
  have e : ((cfg2.win 5).blk ⟨c'.val * 25 + 24, hlt⟩).view.emb (ix3 (0 : Fin 1) (0 : Fin 1) j) = ix3 c' (0 : Fin 1) j := by
    funext a
    apply Fin.ext
    match a with
    | ⟨0, _⟩ =>
      show win2_5.index ⟨c'.val * 25 + 24, hlt⟩ (0 : Fin 3) * 1 + 1 * 0 = c'.val
      rw [(idx2_5 _).1]
      show (c'.val * 25 + 24) / 25 * 1 + 1 * 0 = c'.val
      omega
    | ⟨1, _⟩ =>
      show win2_5.index ⟨c'.val * 25 + 24, hlt⟩ (1 : Fin 3) * 1 + 1 * 0 = 0
      rw [(idx2_5 _).2.1]
    | ⟨2, _⟩ =>
      show win2_5.index ⟨c'.val * 25 + 24, hlt⟩ (2 : Fin 3) * 96 + 1 * j.val = j.val
      rw [(idx2_5 _).2.2]
      omega
  rw [View.read_apply, e] at hb
  exact (congrArg (fun X => toAcc X c' j) hW).trans (hb.trans hR)

end Cert.KLast

end
-- ==== Proof.KRegion1Acc.lean ====
/-
  The second region's two accumulated outputs read back: per core, the column sums of the edge pre-activation and of
  its square, accumulated tile after tile over the core's 50 tiles of 8000 rows.
  Why: on a core's first tile the body stores the float zero in both buffers, reads it back and adds the tile's column
  sums (of the pre-activation, and of its square); on every later tile it adds them to what the buffer held, which is
  what the point before left, the buffers not being written back in between. A tile's column sum is a sum over its 8000
  rows, and row r of point t's blocks is row 8000·t + r of the arrays, so by induction on the tile the buffer after tile
  s of core c holds the running sum of the core's tile sums up to s; the array's block c is what the core's last tile
  left.
-/
import proofs.«422570_j39187281608763_2_alg».proof.Proof.KernelRun
import proofs.«422570_j39187281608763_2_alg».proof.Proof.Conv
import proofs.«422570_j39187281608763_2_alg».proof.Proof.KSpec
import proofs.«422570_j39187281608763_2_alg».proof.Proof.KLast
import Idealize.ShloMosaic.Lib.Pipeline.Value
import Idealize.ShloMosaic.Lib.Tactic
import Idealize.ShloMosaic.PureOps.Ideal.Laws
import Idealize.ShloMosaic.Lib.ValueIdx

set_option maxRecDepth 16384

noncomputable section

open scoped BigOperators

namespace Cert.KRegion1Acc

open Cert Cert.KernelIdeal Cert.KernelIdeal.Gen Cert.Conv Cert.KSpec
open Idealize.ShloMosaic Idealize.ShloMosaic.TcCoe Idealize.SL.Sem

open Idealize.ShloMosaic.Tactic

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- On a later tile of a core the column-sum buffer, holding `xo7`, is left at `xo7` plus the tile's column sums. -/
theorem sumB (c : Dev nD) (i : grid1.Coords) (arg2 : Memref sig .tc .vmem S8000x96 .f32) (harg2 : arg2.IsWhole) (arg3 : Memref sig .tc .vmem S96x96 .f32) (harg3 : arg3.IsWhole) (arg4 : Memref sig .tc .vmem S1x96 .f32) (harg4 : arg4.IsWhole) (arg5 : Memref sig .tc .vmem S8000x192 .f32) (harg5 : arg5.IsWhole) (arg6 : Memref sig .tc .vmem S8000x96 .f32) (harg6 : arg6.IsWhole) (arg7 : Memref sig .tc .vmem S8000x96 .f32) (harg7 : arg7.IsWhole) (arg8 : Memref sig .tc .vmem S8000x192 .f32) (harg8 : arg8.IsWhole) (arg9 : Memref sig .tc .vmem S1x1x96 .f32) (harg9 : arg9.IsWhole) (arg10 : Memref sig .tc .vmem S1x1x96 .f32) (harg10 : arg10.IsWhole) (hc0 : ¬cond1_0 i) (x0 : Vec F S8000x96 .f32) (x1 : Vec F S96x96 .f32) (x2 : Vec F S1x96 .f32) (x3 : Vec F S8000x192 .f32) (x4 : Vec F S8000x96 .f32) (xo7 xo8 : Vec F S1x1x96 .f32) :
    out1_B_7 c i arg2 harg2 arg3 harg3 arg4 harg4 arg5 harg5 arg6 harg6 arg7 harg7 arg8 harg8 arg9 harg9 arg10 harg10 hc0 x0 x1 x2 x3 x4 xo7 xo8 = k1_pay7 x0 x1 x2 x3 x4 xo7 := by
  unfold out1_B_7
  rw [View.read_writes_eq_canon _ _ _ (cover1_B_7 c i arg2 harg2 arg3 harg3 arg4 harg4 arg5 harg5 arg6 harg6 arg7 harg7 arg8 harg8 arg9 harg9 arg10 harg10 hc0 x0 x1 x2 x3 x4 xo7 xo8)]
  unfold kernelRun1_B
  dsimp only
  sl_unfold_words
  rw [View.canon_unit_zero hz3]
  simp only [View.readAt_eq_ld, harg2.read_unread, harg3.read_unread, harg4.read_unread, harg5.read_unread, harg6.read_unread, harg9.read_unread, harg10.read_unread, View.ld_unit_zero (S := S8000x96) hz2, View.ld_unit_zero (S := S96x96) hz2, View.ld_unit_zero (S := S1x96) hz2, View.ld_unit_zero (S := S8000x192) hz2, View.ld_unit_zero (S := S1x1x96) hz3]

/-- On a later tile the squares' buffer, holding `xo8`, is left at `xo8` plus the column sums of the tile's squares. -/
theorem sqB (c : Dev nD) (i : grid1.Coords) (arg2 : Memref sig .tc .vmem S8000x96 .f32) (harg2 : arg2.IsWhole) (arg3 : Memref sig .tc .vmem S96x96 .f32) (harg3 : arg3.IsWhole) (arg4 : Memref sig .tc .vmem S1x96 .f32) (harg4 : arg4.IsWhole) (arg5 : Memref sig .tc .vmem S8000x192 .f32) (harg5 : arg5.IsWhole) (arg6 : Memref sig .tc .vmem S8000x96 .f32) (harg6 : arg6.IsWhole) (arg7 : Memref sig .tc .vmem S8000x96 .f32) (harg7 : arg7.IsWhole) (arg8 : Memref sig .tc .vmem S8000x192 .f32) (harg8 : arg8.IsWhole) (arg9 : Memref sig .tc .vmem S1x1x96 .f32) (harg9 : arg9.IsWhole) (arg10 : Memref sig .tc .vmem S1x1x96 .f32) (harg10 : arg10.IsWhole) (hc0 : ¬cond1_0 i) (x0 : Vec F S8000x96 .f32) (x1 : Vec F S96x96 .f32) (x2 : Vec F S1x96 .f32) (x3 : Vec F S8000x192 .f32) (x4 : Vec F S8000x96 .f32) (xo7 xo8 : Vec F S1x1x96 .f32) :
    out1_B_8 c i arg2 harg2 arg3 harg3 arg4 harg4 arg5 harg5 arg6 harg6 arg7 harg7 arg8 harg8 arg9 harg9 arg10 harg10 hc0 x0 x1 x2 x3 x4 xo7 xo8 = k1_pay1 (k1_pay5 x0 x1 x2 x3 x4) xo8 := by
  unfold out1_B_8
  rw [View.read_writes_eq_canon _ _ _ (cover1_B_8 c i arg2 harg2 arg3 harg3 arg4 harg4 arg5 harg5 arg6 harg6 arg7 harg7 arg8 harg8 arg9 harg9 arg10 harg10 hc0 x0 x1 x2 x3 x4 xo7 xo8)]
  unfold kernelRun1_B
  dsimp only
  sl_unfold_words
  rw [View.canon_unit_zero hz3]
  simp only [View.readAt_eq_ld, harg2.read_unread, harg3.read_unread, harg4.read_unread, harg5.read_unread, harg6.read_unread, harg9.read_unread, harg10.read_unread, View.ld_unit_zero (S := S8000x96) hz2, View.ld_unit_zero (S := S96x96) hz2, View.ld_unit_zero (S := S1x96) hz2, View.ld_unit_zero (S := S8000x192) hz2, View.ld_unit_zero (S := S1x1x96) hz3]

/-- On a core's first tile the column-sum buffer is first set to zero, read back, and left at zero plus the tile's column sums. -/
theorem sumA (c : Dev nD) (i : grid1.Coords) (arg2 : Memref sig .tc .vmem S8000x96 .f32) (harg2 : arg2.IsWhole) (arg3 : Memref sig .tc .vmem S96x96 .f32) (harg3 : arg3.IsWhole) (arg4 : Memref sig .tc .vmem S1x96 .f32) (harg4 : arg4.IsWhole) (arg5 : Memref sig .tc .vmem S8000x192 .f32) (harg5 : arg5.IsWhole) (arg6 : Memref sig .tc .vmem S8000x96 .f32) (harg6 : arg6.IsWhole) (arg7 : Memref sig .tc .vmem S8000x96 .f32) (harg7 : arg7.IsWhole) (arg8 : Memref sig .tc .vmem S8000x192 .f32) (harg8 : arg8.IsWhole) (arg9 : Memref sig .tc .vmem S1x1x96 .f32) (harg9 : arg9.IsWhole) (arg10 : Memref sig .tc .vmem S1x1x96 .f32) (harg10 : arg10.IsWhole) (hc0 : cond1_0 i) (x0 : Vec F S8000x96 .f32) (x1 : Vec F S96x96 .f32) (x2 : Vec F S1x96 .f32) (x3 : Vec F S8000x192 .f32) (x4 : Vec F S8000x96 .f32) :
    out1_A_7 c i arg2 harg2 arg3 harg3 arg4 harg4 arg5 harg5 arg6 harg6 arg7 harg7 arg8 harg8 arg9 harg9 arg10 harg10 hc0 x0 x1 x2 x3 x4 = k1_pay7 x0 x1 x2 x3 x4 (k1_pay2 (F := F)) := by
  unfold out1_A_7
  rw [View.read_writes_eq_canon _ _ _ (cover1_A_7 c i arg2 harg2 arg3 harg3 arg4 harg4 arg5 harg5 arg6 harg6 arg7 harg7 arg8 harg8 arg9 harg9 arg10 harg10 hc0 x0 x1 x2 x3 x4)]
  unfold kernelRun1_A
  dsimp only
  sl_unfold_words
  rw [View.canon_cons_unit_zero (S := S1x1x96) hz3, View.readCov_unit_zero (S := S1x1x96) _ hz3]
  simp only [View.readAt_eq_ld, harg2.read_unread, harg3.read_unread, harg4.read_unread, harg5.read_unread, harg6.read_unread, harg9.read_unread, harg10.read_unread, View.ld_unit_zero (S := S8000x96) hz2, View.ld_unit_zero (S := S96x96) hz2, View.ld_unit_zero (S := S1x96) hz2, View.ld_unit_zero (S := S8000x192) hz2, View.ld_unit_zero (S := S1x1x96) hz3, View.readCov_unit_zero (S := S1x1x96) _ hz3]

/-- On a core's first tile the squares' buffer is first set to zero, read back, and left at zero plus the column sums of the tile's squares. -/
theorem sqA (c : Dev nD) (i : grid1.Coords) (arg2 : Memref sig .tc .vmem S8000x96 .f32) (harg2 : arg2.IsWhole) (arg3 : Memref sig .tc .vmem S96x96 .f32) (harg3 : arg3.IsWhole) (arg4 : Memref sig .tc .vmem S1x96 .f32) (harg4 : arg4.IsWhole) (arg5 : Memref sig .tc .vmem S8000x192 .f32) (harg5 : arg5.IsWhole) (arg6 : Memref sig .tc .vmem S8000x96 .f32) (harg6 : arg6.IsWhole) (arg7 : Memref sig .tc .vmem S8000x96 .f32) (harg7 : arg7.IsWhole) (arg8 : Memref sig .tc .vmem S8000x192 .f32) (harg8 : arg8.IsWhole) (arg9 : Memref sig .tc .vmem S1x1x96 .f32) (harg9 : arg9.IsWhole) (arg10 : Memref sig .tc .vmem S1x1x96 .f32) (harg10 : arg10.IsWhole) (hc0 : cond1_0 i) (x0 : Vec F S8000x96 .f32) (x1 : Vec F S96x96 .f32) (x2 : Vec F S1x96 .f32) (x3 : Vec F S8000x192 .f32) (x4 : Vec F S8000x96 .f32) :
    out1_A_8 c i arg2 harg2 arg3 harg3 arg4 harg4 arg5 harg5 arg6 harg6 arg7 harg7 arg8 harg8 arg9 harg9 arg10 harg10 hc0 x0 x1 x2 x3 x4 = k1_pay1 (k1_pay5 x0 x1 x2 x3 x4) (k1_pay3 (F := F)) := by
  unfold out1_A_8
  rw [View.read_writes_eq_canon _ _ _ (cover1_A_8 c i arg2 harg2 arg3 harg3 arg4 harg4 arg5 harg5 arg6 harg6 arg7 harg7 arg8 harg8 arg9 harg9 arg10 harg10 hc0 x0 x1 x2 x3 x4)]
  unfold kernelRun1_A
  dsimp only
  sl_unfold_words
  rw [View.canon_cons_unit_zero (S := S1x1x96) hz3, View.readCov_unit_zero (S := S1x1x96) _ hz3]
  simp only [View.readAt_eq_ld, harg2.read_unread, harg3.read_unread, harg4.read_unread, harg5.read_unread, harg6.read_unread, harg9.read_unread, harg10.read_unread, View.ld_unit_zero (S := S8000x96) hz2, View.ld_unit_zero (S := S96x96) hz2, View.ld_unit_zero (S := S1x96) hz2, View.ld_unit_zero (S := S8000x192) hz2, View.ld_unit_zero (S := S1x1x96) hz3, View.readCov_unit_zero (S := S1x1x96) _ hz3]

end Pieces

section Values
open Idealize.ShloMosaic.ValueIdx

/-- The product's left operand is read at the output's row … -/
theorem lhs_row (j : S8000x96.Idx) (k : dot_S8000x96_S96x96_S8000x96_1_0_0_1_n_n.contr.Idx) : (dot_S8000x96_S96x96_S8000x96_1_0_0_1_n_n.lhsIdx j k 0).val = (j 0).val := by
  unfold DotDims.lhsIdx
  rw [dif_neg (show ¬(0 : Fin S8000x96.rank) ∈ dot_S8000x96_S96x96_S8000x96_1_0_0_1_n_n.lhsBatch by decide),
    dif_pos (show (0 : Fin S8000x96.rank) ∈ dot_S8000x96_S96x96_S8000x96_1_0_0_1_n_n.lhsNonContracting by decide)]
  rfl
/-- … and the contraction position, -/
theorem lhs_col (j : S8000x96.Idx) (k : dot_S8000x96_S96x96_S8000x96_1_0_0_1_n_n.contr.Idx) : (dot_S8000x96_S96x96_S8000x96_1_0_0_1_n_n.lhsIdx j k 1).val = (k ⟨0, by decide⟩).val :=
  DotDims.lhsIdx_val_of_single (d := dot_S8000x96_S96x96_S8000x96_1_0_0_1_n_n) (cl := 1) rfl j k
/-- the right operand at the contraction position … -/
theorem rhs_row (j : S8000x96.Idx) (k : dot_S8000x96_S96x96_S8000x96_1_0_0_1_n_n.contr.Idx) : (dot_S8000x96_S96x96_S8000x96_1_0_0_1_n_n.rhsIdx j k 0).val = (k ⟨0, by decide⟩).val :=
  DotDims.rhsIdx_val_of_single (d := dot_S8000x96_S96x96_S8000x96_1_0_0_1_n_n) (cr := 0) rfl j k
/-- … and the output's column. -/
theorem rhs_col (j : S8000x96.Idx) (k : dot_S8000x96_S96x96_S8000x96_1_0_0_1_n_n.contr.Idx) : (dot_S8000x96_S96x96_S8000x96_1_0_0_1_n_n.rhsIdx j k 1).val = (j 1).val := by
  unfold DotDims.rhsIdx
  rw [dif_neg (show ¬(1 : Fin S96x96.rank) ∈ dot_S8000x96_S96x96_S8000x96_1_0_0_1_n_n.rhsBatch by decide),
    dif_pos (show (1 : Fin S96x96.rank) ∈ dot_S8000x96_S96x96_S8000x96_1_0_0_1_n_n.rhsNonContracting by decide)]
  rfl

/-- A tile's matrix product into the zero block, at (r, q): the sum over the 96 features. -/
theorem prod_apply (x : FVec Ideal S8000x96 .f32) (w : FVec Ideal S96x96 .f32) (r : Fin 8000) (q : Fin 96) :
    matmul (F := Ideal) (φ₁ := .f32) (φ₂ := .f32) dot_S8000x96_S96x96_S8000x96_1_0_0_1_n_n none x w (constant (F := Ideal) S8000x96 .f32 0x00000000#32) (ix2 r q)
      = ∑ k : Fin 96, x (ix2 r k) * w (ix2 k q) := by
  refine (Ideal.matmul_constant_zero_apply dot_S8000x96_S96x96_S8000x96_1_0_0_1_n_n none x w (ix2 r q)).trans ?_
  rw [← Equiv.sum_comp (contrEquiv1 dot_S8000x96_S96x96_S8000x96_1_0_0_1_n_n 96 rfl rfl).symm]
  refine Finset.sum_congr rfl fun k _ => ?_
  congr 1
  · refine congrArg x (funext fun a => Fin.ext ?_)
    match a with
    | ⟨0, _⟩ => exact lhs_row _ _
    | ⟨1, _⟩ => exact (lhs_col _ _).trans (contrEquiv1_symm_val dot_S8000x96_S96x96_S8000x96_1_0_0_1_n_n 96 rfl rfl k)
  · refine congrArg w (funext fun a => Fin.ext ?_)
    match a with
    | ⟨0, _⟩ => exact (rhs_row _ _).trans (contrEquiv1_symm_val dot_S8000x96_S96x96_S8000x96_1_0_0_1_n_n 96 rfl rfl k)
    | ⟨1, _⟩ => exact rhs_col _ _

/-- The edge pre-activation of a tile at (r, q): the left half of the packed source row, plus the destination row, plus
    the edge's own projection and bias. -/
theorem pre_apply (v3 : Vec Ideal S8000x96 .f32) (v4 : Vec Ideal S96x96 .f32) (v7 : Vec Ideal S1x96 .f32) (v11 : Vec Ideal S8000x192 .f32) (v15 : Vec Ideal S8000x96 .f32) (r : Fin 8000) (q : Fin 96) :
    k1_pay5 (F := Ideal) v3 v4 v7 v11 v15 (ix2 r q)
      = v11 (ix2 r ⟨q.val, by have := q.isLt; omega⟩) + v15 (ix2 r q) + ((∑ k : Fin 96, v3 (ix2 r k) * v4 (ix2 k q)) + v7 (ix2 0 q)) := by
  unfold k1_pay5 k1_pay4
  dsimp only
  refine (addf_apply _ _ (ix2 r q)).trans ?_
  refine congrArg₂ (· + ·) ?_ ?_
  · refine (addf_apply _ _ (ix2 r q)).trans ?_
    refine congrArg₂ (· + ·) ?_ ?_
    · refine (extractStridedSlice_apply _ _ _ (ix2 r q) (ix2 r ⟨q.val, by have := q.isLt; omega⟩) (fun a => ?_)).trans ?_
      · match a with
        | ⟨0, _⟩ => show r.val = 0 + r.val; omega
        | ⟨1, _⟩ => show q.val = 0 + q.val; omega
      · exact congrFun (shapeCast_self v11 _) _
    · exact congrFun (shapeCast_self v15 _) _
  · refine (addf_apply _ _ (ix2 r q)).trans ?_
    refine congrArg₂ (· + ·) ?_ ?_
    · rw [shapeCast_self v4]
      exact prod_apply v3 v4 r q
    · refine (broadcastTo_apply _ _ (ix2 r q) (ix2 0 q) (fun a => ?_)).trans ?_
      · match a with
        | ⟨0, _⟩ => rfl
        | ⟨1, _⟩ => rfl
      · exact congrFun (shapeCast_self v7 _) _

/-- The row index over column q with r put on the summed axis is (r, q). -/
theorem lift_eq (q : Fin 96) (r : Fin (S8000x96.size 0)) :
    Shape.Reduces.lift reduces_S8000x96_S96 (ix1 q) r = ix2 (n0 := 8000) (n1 := 96) r q := by
  funext a
  match a with
  | ⟨0, _⟩ => exact Fin.ext rfl
  | ⟨1, _⟩ => exact Fin.ext rfl

/-- A column sum over a tile's 8000 rows, reshaped to [1, 1, 96], at (0, 0, q). -/
theorem colsum_apply (x : Vec Ideal S8000x96 .f32) (hacc : (0x00000000#32 : BitVec 32) = 0x00000000#32) (q : Fin 96) :
    shapeCast S1x1x96 (shapeCast S1x96 (multiReduction (F := Ideal) .add [0] S96 x 0x00000000#32 reduces_S8000x96_S96 (.inl rfl) hacc)
      shapeCasts_S96_S1x96) shapeCasts_S1x96_S1x1x96 (ix3 0 0 q) = ∑ r : Fin 8000, x (ix2 r q) := by
  refine (shapeCast_apply _ _ (ix3 0 0 q) (ix2 0 q) ?_).trans ?_
  · rw [Shape.rowMajor_val_two, Shape.rowMajor_val_three]
    show 0 * 96 + q.val = (0 * 1 + 0) * 96 + q.val
    omega
  refine (shapeCast_apply _ _ (ix2 0 q) (ix1 q) ?_).trans ?_
  · rw [Shape.rowMajor_val_one, Shape.rowMajor_val_two]
    show q.val = 0 * 96 + q.val
    omega
  refine (Ideal.multiReduction_add_single x 0x00000000#32 reduces_S8000x96_S96 (.inl rfl) hacc (ix1 q)).trans ?_
  exact Finset.sum_congr rfl fun r _ => congrArg x (lift_eq q r)

/-- The column-sum update at (0, 0, q): what the buffer held plus the tile's column sum of the pre-activation. -/
theorem sum_apply (v3 : Vec Ideal S8000x96 .f32) (v4 : Vec Ideal S96x96 .f32) (v7 : Vec Ideal S1x96 .f32) (v11 : Vec Ideal S8000x192 .f32) (v15 : Vec Ideal S8000x96 .f32) (v24 : Vec Ideal S1x1x96 .f32) (q : Fin 96) :
    k1_pay7 (F := Ideal) v3 v4 v7 v11 v15 v24 (ix3 0 0 q)
      = v24 (ix3 0 0 q) + ∑ r : Fin 8000, k1_pay5 (F := Ideal) v3 v4 v7 v11 v15 (ix2 r q) := by
  unfold k1_pay7
  dsimp only
  refine (addf_apply _ _ (ix3 0 0 q)).trans ?_
  refine congrArg₂ (· + ·) ?_ ?_
  · exact congrFun (shapeCast_self v24 _) _
  · exact colsum_apply _ rfl q

/-- The squares' update at (0, 0, q): what the buffer held plus the tile's column sum of the squared pre-activation. -/
theorem sq_apply (v18 : Vec Ideal S8000x96 .f32) (v31 : Vec Ideal S1x1x96 .f32) (q : Fin 96) :
    k1_pay1 (F := Ideal) v18 v31 (ix3 0 0 q) = v31 (ix3 0 0 q) + ∑ r : Fin 8000, v18 (ix2 r q) * v18 (ix2 r q) := by
  unfold k1_pay1
  dsimp only
  refine (addf_apply _ _ (ix3 0 0 q)).trans ?_
  refine congrArg₂ (· + ·) ?_ ?_
  · exact congrFun (shapeCast_self v31 _) _
  · exact (colsum_apply _ rfl q).trans (Finset.sum_congr rfl fun r _ => mulf_apply v18 v18 (ix2 r q))

end Values

section BlockReads
open Idealize.ShloMosaic.ValueIdx

/-- At point t the three row-blocked inputs are read at row block t, the weight and the bias whole. -/
theorem idx_e : ∀ t : Fin cfg1.N, win1_0.index t 0 = t.val ∧ win1_0.index t 1 = 0 :=
  (by decide +kernel : ∀ t : Fin grid1.N, win1_0.index t 0 = t.val ∧ win1_0.index t 1 = 0)
theorem idx_w : ∀ t : Fin cfg1.N, win1_1.index t 0 = 0 ∧ win1_1.index t 1 = 0 :=
  (by decide +kernel : ∀ t : Fin grid1.N, win1_1.index t 0 = 0 ∧ win1_1.index t 1 = 0)
theorem idx_b : ∀ t : Fin cfg1.N, win1_2.index t 0 = 0 ∧ win1_2.index t 1 = 0 :=
  (by decide +kernel : ∀ t : Fin grid1.N, win1_2.index t 0 = 0 ∧ win1_2.index t 1 = 0)
theorem idx_g : ∀ t : Fin cfg1.N, win1_3.index t 0 = t.val ∧ win1_3.index t 1 = 0 :=
  (by decide +kernel : ∀ t : Fin grid1.N, win1_3.index t 0 = t.val ∧ win1_3.index t 1 = 0)
theorem idx_d : ∀ t : Fin cfg1.N, win1_4.index t 0 = t.val ∧ win1_4.index t 1 = 0 :=
  (by decide +kernel : ∀ t : Fin grid1.N, win1_4.index t 0 = t.val ∧ win1_4.index t 1 = 0)

/-- Row r of point t's edge block is row 8000·t + r of the edge features, whatever the region finds in them. -/
theorem eblk_apply {F : FTy → Type} [FloatOps F] (V : (c : Dev nD) → (b : Ref sig .tc) → Buf (Elt F) ((c : Thread nD τ).loc b))
    (c : Dev nD) (t : Fin cfg1.N) (r : Fin 8000) (k : Fin 96) (i : S800000x96.Idx)
    (h0 : (i 0).val = t.val * 8000 + r.val) (h1 : (i 1).val = k.val) :
    (iblk1 V c 0 t : Vec F S8000x96 .f32) (ix2 r k) = V c (Pipeline.arrRef spec1 0) i := by
  unfold iblk1
  rw [View.read_apply]
  refine congrArg (V c (Pipeline.arrRef spec1 0)) (funext fun a => Fin.ext ?_)
  match a with
  | ⟨0, _⟩ => show win1_0.index t 0 * 8000 + 1 * r.val = (i 0).val; rw [h0, (idx_e t).1]; omega
  | ⟨1, _⟩ => show win1_0.index t 1 * 96 + 1 * k.val = (i 1).val; rw [h1, (idx_e t).2]; omega

/-- The weight block is the whole stored weight. -/
theorem wblk_apply {F : FTy → Type} [FloatOps F] (V : (c : Dev nD) → (b : Ref sig .tc) → Buf (Elt F) ((c : Thread nD τ).loc b))
    (c : Dev nD) (t : Fin cfg1.N) (r : Fin 96) (k : Fin 96) (i : S96x96.Idx)
    (h0 : (i 0).val = r.val) (h1 : (i 1).val = k.val) :
    (iblk1 V c 1 t : Vec F S96x96 .f32) (ix2 r k) = V c (Pipeline.arrRef spec1 1) i := by
  unfold iblk1
  rw [View.read_apply]
  refine congrArg (V c (Pipeline.arrRef spec1 1)) (funext fun a => Fin.ext ?_)
  match a with
  | ⟨0, _⟩ => show win1_1.index t 0 * 96 + 1 * r.val = (i 0).val; rw [h0, (idx_w t).1]; omega
  | ⟨1, _⟩ => show win1_1.index t 1 * 96 + 1 * k.val = (i 1).val; rw [h1, (idx_w t).2]; omega

/-- The bias block is the whole bias row. -/
theorem bblk_apply {F : FTy → Type} [FloatOps F] (V : (c : Dev nD) → (b : Ref sig .tc) → Buf (Elt F) ((c : Thread nD τ).loc b))
    (c : Dev nD) (t : Fin cfg1.N) (r : Fin 1) (k : Fin 96) (i : S1x96.Idx)
    (h0 : (i 0).val = r.val) (h1 : (i 1).val = k.val) :
    (iblk1 V c 2 t : Vec F S1x96 .f32) (ix2 r k) = V c (Pipeline.arrRef spec1 2) i := by
  unfold iblk1
  rw [View.read_apply]
  refine congrArg (V c (Pipeline.arrRef spec1 2)) (funext fun a => Fin.ext ?_)
  match a with
  | ⟨0, _⟩ => show win1_2.index t 0 * 1 + 1 * r.val = (i 0).val; rw [h0, (idx_b t).1]; omega
  | ⟨1, _⟩ => show win1_2.index t 1 * 96 + 1 * k.val = (i 1).val; rw [h1, (idx_b t).2]; omega

/-- Row r of point t's packed block is row 8000·t + r of the packed source rows. -/
theorem gblk_apply {F : FTy → Type} [FloatOps F] (V : (c : Dev nD) → (b : Ref sig .tc) → Buf (Elt F) ((c : Thread nD τ).loc b))
    (c : Dev nD) (t : Fin cfg1.N) (r : Fin 8000) (k : Fin 192) (i : S800000x192.Idx)
    (h0 : (i 0).val = t.val * 8000 + r.val) (h1 : (i 1).val = k.val) :
    (iblk1 V c 3 t : Vec F S8000x192 .f32) (ix2 r k) = V c (Pipeline.arrRef spec1 3) i := by
  unfold iblk1
  rw [View.read_apply]
  refine congrArg (V c (Pipeline.arrRef spec1 3)) (funext fun a => Fin.ext ?_)
  match a with
  | ⟨0, _⟩ => show win1_3.index t 0 * 8000 + 1 * r.val = (i 0).val; rw [h0, (idx_g t).1]; omega
  | ⟨1, _⟩ => show win1_3.index t 1 * 192 + 1 * k.val = (i 1).val; rw [h1, (idx_g t).2]; omega

/-- Row r of point t's destination block is row 8000·t + r of the destination rows. -/
theorem dblk_apply {F : FTy → Type} [FloatOps F] (V : (c : Dev nD) → (b : Ref sig .tc) → Buf (Elt F) ((c : Thread nD τ).loc b))
    (c : Dev nD) (t : Fin cfg1.N) (r : Fin 8000) (k : Fin 96) (i : S800000x96.Idx)
    (h0 : (i 0).val = t.val * 8000 + r.val) (h1 : (i 1).val = k.val) :
    (iblk1 V c 4 t : Vec F S8000x96 .f32) (ix2 r k) = V c (Pipeline.arrRef spec1 4) i := by
  unfold iblk1
  rw [View.read_apply]
  refine congrArg (V c (Pipeline.arrRef spec1 4)) (funext fun a => Fin.ext ?_)
  match a with
  | ⟨0, _⟩ => show win1_4.index t 0 * 8000 + 1 * r.val = (i 0).val; rw [h0, (idx_d t).1]; omega
  | ⟨1, _⟩ => show win1_4.index t 1 * 96 + 1 * k.val = (i 1).val; rw [h1, (idx_d t).2]; omega

end BlockReads

section TileEntry
open Idealize.ShloMosaic.ValueIdx

variable (m : (ℓ : Loc nD τ sig) → Buf (Elt Ideal) ℓ) (ρ : Dev nD → PrngReg)

/-- The region's five input arrays are the boundary's buffers of those names. -/
theorem arr_e (c : Dev nD) : V5 m ρ c (Pipeline.arrRef spec1 0) = (W5 m ρ c (Proc.devRef .tc main_arg1)) := rfl
theorem arr_w (c : Dev nD) : V5 m ρ c (Pipeline.arrRef spec1 1) = (W5 m ρ c (Proc.devRef .tc main_v11)) := rfl
theorem arr_b (c : Dev nD) : V5 m ρ c (Pipeline.arrRef spec1 2) = (W5 m ρ c (Proc.devRef .tc main_v2)) := rfl
theorem arr_g (c : Dev nD) : V5 m ρ c (Pipeline.arrRef spec1 3) = (W5 m ρ c (Proc.devRef .tc main_v16)) := rfl
theorem arr_d (c : Dev nD) : V5 m ρ c (Pipeline.arrRef spec1 4) = (W5 m ρ c (Proc.devRef .tc main_v17)) := rfl

/-- The five input blocks of point t, at their literal shapes: edge features, the stored weight, the bias, the packed
    source rows, the destination rows. -/
abbrev eB (c : Dev nD) (t : Fin cfg1.N) : Vec Ideal S8000x96 .f32 := iblk1 (V5 m ρ) c 0 t
abbrev wB (c : Dev nD) (t : Fin cfg1.N) : Vec Ideal S96x96 .f32 := iblk1 (V5 m ρ) c 1 t
abbrev bB (c : Dev nD) (t : Fin cfg1.N) : Vec Ideal S1x96 .f32 := iblk1 (V5 m ρ) c 2 t
abbrev gB (c : Dev nD) (t : Fin cfg1.N) : Vec Ideal S8000x192 .f32 := iblk1 (V5 m ρ) c 3 t
abbrev dB (c : Dev nD) (t : Fin cfg1.N) : Vec Ideal S8000x96 .f32 := iblk1 (V5 m ρ) c 4 t

/-- The kernel-side edge pre-activation at an entry, spelt out. -/
theorem enK_apply (e : Spec.Mat 800000 96) (cwT : Spec.Mat 96 96) (cb : Spec.Row 96) (g16 : Spec.Mat 800000 192) (g17 : Spec.Mat 800000 96)
    (i : Fin 800000) (q : Fin 96) :
    enK e cwT cb g16 g17 i q = g16 i ⟨q.val, by have := q.isLt; omega⟩ + g17 i q + ((∑ k : Fin 96, e i k * cwT k q) + cb q) := rfl

/-- The pre-activation the body forms at point t, row r, column q is the kernel-side edge pre-activation at edge
    8000·t + r. -/
theorem tile_entry (c : Dev nD) (t : Fin cfg1.N) (r : Fin 8000) (q : Fin 96) (h : t.val * 8000 + r.val < 800000) :
    k1_pay5 (F := Ideal) (eB m ρ c t) (wB m ρ c t) (bB m ρ c t) (gB m ρ c t) (dB m ρ c t) (ix2 r q) = enK (toMat (W5 m ρ c (Proc.devRef .tc main_arg1))) (toMat (W5 m ρ c (Proc.devRef .tc main_v11))) (toRow1 (W5 m ρ c (Proc.devRef .tc main_v2))) (toMat (W5 m ρ c (Proc.devRef .tc main_v16))) (toMat (W5 m ρ c (Proc.devRef .tc main_v17))) ⟨t.val * 8000 + r.val, h⟩ q := by
  refine (pre_apply _ _ _ _ _ r q).trans (Eq.trans ?_ (enK_apply _ _ _ _ _ _ q).symm)
  refine congrArg₂ (· + ·) (congrArg₂ (· + ·) ?_ ?_) (congrArg₂ (· + ·) (Finset.sum_congr rfl fun k _ => congrArg₂ (· * ·) ?_ ?_) ?_)
  · exact (gblk_apply (V5 m ρ) c t r ⟨q.val, by have := q.isLt; omega⟩ (ix2 ⟨t.val * 8000 + r.val, h⟩ ⟨q.val, by have := q.isLt; omega⟩) rfl rfl).trans
      (congrFun (arr_g m ρ c) _)
  · exact (dblk_apply (V5 m ρ) c t r q (ix2 ⟨t.val * 8000 + r.val, h⟩ q) rfl rfl).trans (congrFun (arr_d m ρ c) _)
  · exact (eblk_apply (V5 m ρ) c t r k (ix2 ⟨t.val * 8000 + r.val, h⟩ k) rfl rfl).trans (congrFun (arr_e m ρ c) _)
  · exact (wblk_apply (V5 m ρ) c t k q (ix2 k q) rfl rfl).trans (congrFun (arr_w m ρ c) _)
  · exact (bblk_apply (V5 m ρ) c t 0 q (ix2 0 q) rfl rfl).trans (congrFun (arr_b m ρ c) _)

end TileEntry

section Accumulate
open Idealize.ShloMosaic.ValueIdx Cert.Spec

/-- The float zero is the real zero. -/
theorem z32_eq : (z32 : EReal) = 0 := by unfold z32; exact Ideal.ofBits_zero_f32

/-- A tile's sum from the float zero is the plain sum. -/
theorem tileSum_eq {R : Nat} (g : Fin R → EReal) : tileSum g = ∑ r : Fin R, g r := by
  unfold tileSum; rw [z32_eq, zero_add]

/-- Core cc's tile function for a column f of 800000 entries: tile t, row r is entry cc·400000 + t·8000 + r (zero
    past the core's 50 tiles). -/
def tileF (f : Fin 800000 → EReal) (cc : Fin 2) : ℕ → Fin 8000 → EReal := fun t r =>
  if h : t < 50 then f ⟨cc.val * (50 * 8000) + t * 8000 + r.val, by have := cc.isLt; have := r.isLt; omega⟩ else 0

/-- A core's accumulated column sum is the running sum after its last tile. -/
theorem coreAcc_eq (f : Fin 800000 → EReal) (cc : Fin 2) (hn : 800000 = 2 * (50 * 8000)) :
    coreAcc 50 8000 hn f cc = accUpTo (tileF f cc) 49 := rfl

/-- A quantity X that on a core's first tile is the float zero plus the tile's sum and on every later tile what it was
    plus the tile's sum is, after tile s of core cc, the running sum of the tile sums. -/
theorem acc_of_steps (f : Fin 800000 → EReal) (X g : ℕ → EReal) (cc : Fin 2)
    (hA : X (cc.val * 50) = z32 + g (cc.val * 50))
    (hB : ∀ s, s + 1 < 50 → X (cc.val * 50 + (s + 1)) = X (cc.val * 50 + s) + g (cc.val * 50 + (s + 1)))
    (hg : ∀ s, s < 50 → g (cc.val * 50 + s) = ∑ r : Fin 8000, tileF f cc s r) :
    ∀ s, s < 50 → X (cc.val * 50 + s) = accUpTo (tileF f cc) s
  | 0, h => by
    show X (cc.val * 50) = z32 + tileSum (tileF f cc 0)
    rw [hA, tileSum_eq]
    exact congrArg (z32 + ·) (hg 0 h)
  | s + 1, h => by
    show _ = accUpTo (tileF f cc) s + tileSum (tileF f cc (s + 1))
    rw [hB s h, acc_of_steps f X g cc hA hB hg s (by omega), tileSum_eq, hg (s + 1) h]

end Accumulate

section Points
open Idealize.ShloMosaic.ValueIdx Cert.Spec

variable (m : (ℓ : Loc nD τ sig) → Buf (Elt Ideal) ℓ) (ρ : Dev nD → PrngReg)

/-- What the outputs hold after a point depends on the point's number only. -/
theorem outs_congr (c : Dev nD) (n n' : ℕ) (h : n < cfg1.N) (h' : n' < cfg1.N) (e : n = n') :
    outsAt1 (V5 m ρ) c n h = outsAt1 (V5 m ρ) c n' h' := by subst e; rfl

/-- The column-sum buffer after a core's first tile, at column q: the float zero plus the tile's column sum. -/
theorem sum_first (c : Dev nD) (q : Fin 96) (t : Fin cfg1.N) (h0 : t.val % 50 = 0) :
    (outsAt1 (V5 m ρ) c t.val t.isLt).2.2.1 (ix3 0 0 q)
      = z32 + ∑ r : Fin 8000, k1_pay5 (F := Ideal) (eB m ρ c t) (wB m ρ c t) (bB m ρ c t) (gB m ρ c t) (dB m ρ c t) (ix2 r q) := by
  rw [outsAt1_A (V5 m ρ) c t h0]
  dsimp only
  refine (congrFun (sumA (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (eB m ρ c t) (wB m ρ c t) (bB m ρ c t) (gB m ρ c t) (dB m ρ c t)) (ix3 0 0 q)).trans ?_
  exact sum_apply _ _ _ _ _ _ q
/-- After a later tile: what the buffer held after the point before, plus the tile's column sum. -/
theorem sum_later (c : Dev nD) (q : Fin 96) (t : Fin cfg1.N) (h0 : ¬t.val % 50 = 0) :
    (outsAt1 (V5 m ρ) c t.val t.isLt).2.2.1 (ix3 0 0 q)
      = (outsAt1 (V5 m ρ) c (t.val - 1) (Nat.lt_of_le_of_lt (Nat.sub_le _ _) t.isLt)).2.2.1 (ix3 0 0 q) + ∑ r : Fin 8000, k1_pay5 (F := Ideal) (eB m ρ c t) (wB m ρ c t) (bB m ρ c t) (gB m ρ c t) (dB m ρ c t) (ix2 r q) := by
  rw [outsAt1_B (V5 m ρ) c t h0]
  dsimp only
  refine (congrFun (sumB (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (eB m ρ c t) (wB m ρ c t) (bB m ρ c t) (gB m ρ c t) (dB m ρ c t) (outsAt1 (V5 m ρ) c (t.val - 1) (Nat.lt_of_le_of_lt (Nat.sub_le _ _) t.isLt)).2.2.1 (outsAt1 (V5 m ρ) c (t.val - 1) (Nat.lt_of_le_of_lt (Nat.sub_le _ _) t.isLt)).2.2.2) (ix3 0 0 q)).trans ?_
  exact sum_apply _ _ _ _ _ _ q
/-- The squares' buffer after a core's first tile. -/
theorem sq_first (c : Dev nD) (q : Fin 96) (t : Fin cfg1.N) (h0 : t.val % 50 = 0) :
    (outsAt1 (V5 m ρ) c t.val t.isLt).2.2.2 (ix3 0 0 q)
      = z32 + ∑ r : Fin 8000, k1_pay5 (F := Ideal) (eB m ρ c t) (wB m ρ c t) (bB m ρ c t) (gB m ρ c t) (dB m ρ c t) (ix2 r q) * k1_pay5 (F := Ideal) (eB m ρ c t) (wB m ρ c t) (bB m ρ c t) (gB m ρ c t) (dB m ρ c t) (ix2 r q) := by
  rw [outsAt1_A (V5 m ρ) c t h0]
  dsimp only
  refine (congrFun (sqA (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (eB m ρ c t) (wB m ρ c t) (bB m ρ c t) (gB m ρ c t) (dB m ρ c t)) (ix3 0 0 q)).trans ?_
  exact sq_apply _ _ q
/-- The squares' buffer after a later tile. -/
theorem sq_later (c : Dev nD) (q : Fin 96) (t : Fin cfg1.N) (h0 : ¬t.val % 50 = 0) :
    (outsAt1 (V5 m ρ) c t.val t.isLt).2.2.2 (ix3 0 0 q)
      = (outsAt1 (V5 m ρ) c (t.val - 1) (Nat.lt_of_le_of_lt (Nat.sub_le _ _) t.isLt)).2.2.2 (ix3 0 0 q) + ∑ r : Fin 8000, k1_pay5 (F := Ideal) (eB m ρ c t) (wB m ρ c t) (bB m ρ c t) (gB m ρ c t) (dB m ρ c t) (ix2 r q) * k1_pay5 (F := Ideal) (eB m ρ c t) (wB m ρ c t) (bB m ρ c t) (gB m ρ c t) (dB m ρ c t) (ix2 r q) := by
  rw [outsAt1_B (V5 m ρ) c t h0]
  dsimp only
  refine (congrFun (sqB (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (eB m ρ c t) (wB m ρ c t) (bB m ρ c t) (gB m ρ c t) (dB m ρ c t) (outsAt1 (V5 m ρ) c (t.val - 1) (Nat.lt_of_le_of_lt (Nat.sub_le _ _) t.isLt)).2.2.1 (outsAt1 (V5 m ρ) c (t.val - 1) (Nat.lt_of_le_of_lt (Nat.sub_le _ _) t.isLt)).2.2.2) (ix3 0 0 q)).trans ?_
  exact sq_apply _ _ q

end Points

section Runs
open Idealize.ShloMosaic.ValueIdx Cert.Spec

variable (m : (ℓ : Loc nD τ sig) → Buf (Elt Ideal) ℓ) (ρ : Dev nD → PrngReg)

/-- The column-sum buffer's entry q after point n (zero past the grid). -/
def sumAt (c : Dev nD) (q : Fin 96) (n : ℕ) : EReal :=
  if hn : n < cfg1.N then (outsAt1 (V5 m ρ) c n hn).2.2.1 (ix3 0 0 q) else 0
/-- The squares' buffer's entry q after point n. -/
def sqAt (c : Dev nD) (q : Fin 96) (n : ℕ) : EReal :=
  if hn : n < cfg1.N then (outsAt1 (V5 m ρ) c n hn).2.2.2 (ix3 0 0 q) else 0
/-- Point n's column sum of the pre-activation, at column q. -/
def tileCol (c : Dev nD) (q : Fin 96) (n : ℕ) : EReal :=
  if hn : n < cfg1.N then ∑ r : Fin 8000, k1_pay5 (F := Ideal) (eB m ρ c ⟨n, hn⟩) (wB m ρ c ⟨n, hn⟩) (bB m ρ c ⟨n, hn⟩) (gB m ρ c ⟨n, hn⟩) (dB m ρ c ⟨n, hn⟩) (ix2 r q) else 0
/-- Point n's column sum of the squared pre-activation. -/
def tileColSq (c : Dev nD) (q : Fin 96) (n : ℕ) : EReal :=
  if hn : n < cfg1.N then ∑ r : Fin 8000, k1_pay5 (F := Ideal) (eB m ρ c ⟨n, hn⟩) (wB m ρ c ⟨n, hn⟩) (bB m ρ c ⟨n, hn⟩) (gB m ρ c ⟨n, hn⟩) (dB m ρ c ⟨n, hn⟩) (ix2 r q) * k1_pay5 (F := Ideal) (eB m ρ c ⟨n, hn⟩) (wB m ρ c ⟨n, hn⟩) (bB m ρ c ⟨n, hn⟩) (gB m ρ c ⟨n, hn⟩) (dB m ρ c ⟨n, hn⟩) (ix2 r q) else 0

theorem lt_grid (cc : Fin 2) (s : ℕ) (hs : s < 50) : cc.val * 50 + s < cfg1.N := by
  rw [show cfg1.N = 100 from N_1]; have := cc.isLt; omega

/-- After tile s of core cc the column-sum buffer holds the running sum of the pre-activation's column q over the
    core's tiles 0 … s. -/
theorem sum_run (c : Dev nD) (q : Fin 96) (cc : Fin 2) : ∀ s, s < 50 →
    sumAt m ρ c q (cc.val * 50 + s) = accUpTo (tileF (fun i => enK (toMat (W5 m ρ c (Proc.devRef .tc main_arg1))) (toMat (W5 m ρ c (Proc.devRef .tc main_v11))) (toRow1 (W5 m ρ c (Proc.devRef .tc main_v2))) (toMat (W5 m ρ c (Proc.devRef .tc main_v16))) (toMat (W5 m ρ c (Proc.devRef .tc main_v17))) i q) cc) s := by
  refine acc_of_steps _ (sumAt m ρ c q) (tileCol m ρ c q) cc ?_ ?_ ?_
  · have hlt : cc.val * 50 < cfg1.N := lt_grid cc 0 (by norm_num)
    unfold sumAt tileCol
    rw [dif_pos hlt, dif_pos hlt]
    exact sum_first m ρ c q ⟨cc.val * 50, hlt⟩ (by show cc.val * 50 % 50 = 0; omega)
  · intro s hs
    have hlt := lt_grid cc (s + 1) hs
    have hlt' := lt_grid cc s (by omega)
    unfold sumAt tileCol
    rw [dif_pos hlt, dif_pos hlt', dif_pos hlt]
    refine (sum_later m ρ c q ⟨cc.val * 50 + (s + 1), hlt⟩ (by show ¬(cc.val * 50 + (s + 1)) % 50 = 0; omega)).trans ?_
    rw [outs_congr m ρ c (cc.val * 50 + (s + 1) - 1) (cc.val * 50 + s) _ hlt' (by omega)]
  · intro s hs
    have hlt := lt_grid cc s hs
    unfold tileCol
    rw [dif_pos hlt]
    refine Finset.sum_congr rfl fun r _ => ?_
    have hb : (cc.val * 50 + s) * 8000 + r.val < 800000 := by have := cc.isLt; have := r.isLt; omega
    refine (tile_entry m ρ c ⟨cc.val * 50 + s, hlt⟩ r q hb).trans ?_
    unfold tileF
    rw [dif_pos hs]
    exact congrArg (fun i => enK (toMat (W5 m ρ c (Proc.devRef .tc main_arg1))) (toMat (W5 m ρ c (Proc.devRef .tc main_v11))) (toRow1 (W5 m ρ c (Proc.devRef .tc main_v2))) (toMat (W5 m ρ c (Proc.devRef .tc main_v16))) (toMat (W5 m ρ c (Proc.devRef .tc main_v17))) i q) (Fin.ext (by show (cc.val * 50 + s) * 8000 + r.val = cc.val * (50 * 8000) + s * 8000 + r.val; omega))

/-- The same for the squares' buffer. -/
theorem sq_run (c : Dev nD) (q : Fin 96) (cc : Fin 2) : ∀ s, s < 50 →
    sqAt m ρ c q (cc.val * 50 + s) = accUpTo (tileF (fun i => enK (toMat (W5 m ρ c (Proc.devRef .tc main_arg1))) (toMat (W5 m ρ c (Proc.devRef .tc main_v11))) (toRow1 (W5 m ρ c (Proc.devRef .tc main_v2))) (toMat (W5 m ρ c (Proc.devRef .tc main_v16))) (toMat (W5 m ρ c (Proc.devRef .tc main_v17))) i q * enK (toMat (W5 m ρ c (Proc.devRef .tc main_arg1))) (toMat (W5 m ρ c (Proc.devRef .tc main_v11))) (toRow1 (W5 m ρ c (Proc.devRef .tc main_v2))) (toMat (W5 m ρ c (Proc.devRef .tc main_v16))) (toMat (W5 m ρ c (Proc.devRef .tc main_v17))) i q) cc) s := by
  refine acc_of_steps _ (sqAt m ρ c q) (tileColSq m ρ c q) cc ?_ ?_ ?_
  · have hlt : cc.val * 50 < cfg1.N := lt_grid cc 0 (by norm_num)
    unfold sqAt tileColSq
    rw [dif_pos hlt, dif_pos hlt]
    exact sq_first m ρ c q ⟨cc.val * 50, hlt⟩ (by show cc.val * 50 % 50 = 0; omega)
  · intro s hs
    have hlt := lt_grid cc (s + 1) hs
    have hlt' := lt_grid cc s (by omega)
    unfold sqAt tileColSq
    rw [dif_pos hlt, dif_pos hlt', dif_pos hlt]
    refine (sq_later m ρ c q ⟨cc.val * 50 + (s + 1), hlt⟩ (by show ¬(cc.val * 50 + (s + 1)) % 50 = 0; omega)).trans ?_
    rw [outs_congr m ρ c (cc.val * 50 + (s + 1) - 1) (cc.val * 50 + s) _ hlt' (by omega)]
  · intro s hs
    have hlt := lt_grid cc s hs
    unfold tileColSq
    rw [dif_pos hlt]
    refine Finset.sum_congr rfl fun r _ => ?_
    have hb : (cc.val * 50 + s) * 8000 + r.val < 800000 := by have := cc.isLt; have := r.isLt; omega
    have he := (tile_entry m ρ c ⟨cc.val * 50 + s, hlt⟩ r q hb).trans
      (congrArg (fun i => enK (toMat (W5 m ρ c (Proc.devRef .tc main_arg1))) (toMat (W5 m ρ c (Proc.devRef .tc main_v11))) (toRow1 (W5 m ρ c (Proc.devRef .tc main_v2))) (toMat (W5 m ρ c (Proc.devRef .tc main_v16))) (toMat (W5 m ρ c (Proc.devRef .tc main_v17))) i q) (Fin.ext (by show (cc.val * 50 + s) * 8000 + r.val = cc.val * (50 * 8000) + s * 8000 + r.val; omega) :
        (⟨(cc.val * 50 + s) * 8000 + r.val, hb⟩ : Fin 800000) = ⟨cc.val * (50 * 8000) + s * 8000 + r.val, by have := cc.isLt; have := r.isLt; omega⟩))
    unfold tileF
    rw [dif_pos hs]
    exact congrArg₂ (· * ·) he he

end Runs

variable (m : (ℓ : Loc nD τ sig) → Buf (Elt Ideal) ℓ) (ρ : Dev nD → PrngReg)

theorem sum_eq (c : Dev nD) : toAcc (W6 m ρ c (Proc.devRef .tc main_v18_2))
    = fun c' j => coreAcc 50 8000 (by norm_num : 800000 = 2 * (50 * 8000)) (fun i => enK (toMat (W5 m ρ c (Proc.devRef .tc main_arg1))) (toMat (W5 m ρ c (Proc.devRef .tc main_v11))) (toRow1 (W5 m ρ c (Proc.devRef .tc main_v2))) (toMat (W5 m ρ c (Proc.devRef .tc main_v16))) (toMat (W5 m ρ c (Proc.devRef .tc main_v17))) i j) c' := by
  funext c' j
  have hlt := lt_grid c' 49 (by norm_num)
  rw [KLast.v18_2_last m ρ c c' j hlt, coreAcc_eq]
  have h := sum_run m ρ c j c' 49 (by norm_num)
  unfold sumAt at h
  rw [dif_pos hlt] at h
  exact h
theorem sumsq_eq (c : Dev nD) : toAcc (W6 m ρ c (Proc.devRef .tc main_v18_3))
    = fun c' j => coreAcc 50 8000 (by norm_num : 800000 = 2 * (50 * 8000))
        (fun i => enK (toMat (W5 m ρ c (Proc.devRef .tc main_arg1))) (toMat (W5 m ρ c (Proc.devRef .tc main_v11))) (toRow1 (W5 m ρ c (Proc.devRef .tc main_v2))) (toMat (W5 m ρ c (Proc.devRef .tc main_v16))) (toMat (W5 m ρ c (Proc.devRef .tc main_v17))) i j * enK (toMat (W5 m ρ c (Proc.devRef .tc main_arg1))) (toMat (W5 m ρ c (Proc.devRef .tc main_v11))) (toRow1 (W5 m ρ c (Proc.devRef .tc main_v2))) (toMat (W5 m ρ c (Proc.devRef .tc main_v16))) (toMat (W5 m ρ c (Proc.devRef .tc main_v17))) i j) c' := by
  funext c' j
  have hlt := lt_grid c' 49 (by norm_num)
  rw [KLast.v18_3_last m ρ c c' j hlt, coreAcc_eq]
  have h := sq_run m ρ c j c' 49 (by norm_num)
  unfold sqAt at h
  rw [dif_pos hlt] at h
  exact h

end Cert.KRegion1Acc

end
-- ==== Proof.KHost23.lean ====
/-
  The third and fourth host stretches read back: the two cores' sums added from zero and divided by the row count
  (the mean), the one-pass variance clamped at zero, and, in the third stretch, the packed scatter-sum over the
  destination split into its two halves.
-/
import proofs.«422570_j39187281608763_2_alg».proof.Proof.KernelRun
import proofs.«422570_j39187281608763_2_alg».proof.Proof.Conv
import proofs.«422570_j39187281608763_2_alg».proof.Proof.KSpec
import proofs.«422570_j39187281608763_2_alg».proof.Proof.LibScatterGather
import Idealize.ShloMosaic.Lib.IdealHost
import Idealize.ShloMosaic.Lib.ValueLayout

noncomputable section

open scoped BigOperators

namespace Cert.KHost23

open Cert Cert.KernelIdeal Cert.KernelIdeal.Gen Cert.Conv Cert.KSpec
open Idealize.ShloMosaic Idealize.ShloMosaic.TcCoe Idealize.SL.Sem
open Idealize.ShloMosaic.ValueIdx

variable (m : (ℓ : Loc nD τ sig) → Buf (Elt Ideal) ℓ) (ρ : Dev nD → PrngReg)

/-! ### The two cores' sums, the mean and the one-pass variance as functions of the summed tables -/

/-- Inserting core k on the reduced axis of the [1, 96] index (0, j) gives the [2, 1, 96] index (k, 0, j). -/
theorem lift_core (h : S2x1x96.Reduces [0] S1x96) (j : Fin 96) (k : Fin 2) :
    h.lift (ix2 0 j) k = ix3 k 0 j := by
  funext a
  apply Fin.ext
  match a with
  | ⟨0, _⟩ => rfl
  | ⟨1, _⟩ => rfl
  | ⟨2, _⟩ => rfl

/-- The host's sum over the core axis from the float zero: the row of a [2, 1, 96] table's two core entries added
    onto the float zero. -/
def sumT (X : FVec Ideal S2x1x96 .f32) : FVec Ideal S1x96 .f32 :=
  Host.reduceAdd (F := Ideal) X (constant (F := Ideal) S_ .f32 0x00000000#32) reducesTo_S2x1x96_S1x96_d0 h_S_

theorem sumT_apply (X : FVec Ideal S2x1x96 .f32) (j : Fin 96) :
    sumT X (ix2 0 j) = Spec.z32 + ∑ c' : Fin 2, toAcc X c' j := by
  have h : S2x1x96.Reduces [0] S1x96 := by decide
  unfold sumT
  rw [hostReduceAdd_apply]
  refine (Ideal.hostReduceAdd_single reducesTo_S2x1x96_S1x96_d0 h X _ (ix2 0 j)).trans ?_
  refine congrArg (fun s => Spec.z32 + s) ?_
  exact Finset.sum_congr rfl fun k _ => congrArg X (lift_core h j k)

/-- The splat of a float word over a [1, 96] row. -/
def splatT (w : BitVec 32) : FVec Ideal S1x96 .f32 :=
  broadcastInDim S1x96 ![] bcast_S_S1x96 (constant (F := Ideal) S_ .f32 w)

theorem splatT_apply (w : BitVec 32) (i : S1x96.Idx) : splatT w i = Ideal.ofBits .f32 w := rfl

/-- The mean row: the two cores' sum divided by the row count. -/
def meanT (w : BitVec 32) (X : FVec Ideal S2x1x96 .f32) : FVec Ideal S1x96 .f32 :=
  Host.divf (F := Ideal) (sumT X) (splatT w)

theorem meanT_apply (w : BitVec 32) (X : FVec Ideal S2x1x96 .f32) (j : Fin 96) :
    meanT w X (ix2 0 j) = Ideal.div (Spec.z32 + ∑ c' : Fin 2, toAcc X c' j) (Ideal.ofBits .f32 w) := by
  show Ideal.div (sumT X (ix2 0 j)) (Ideal.ofBits .f32 w) = _
  rw [sumT_apply]

/-- The one-pass variance row: the mean of the squares minus the square of the mean, clamped at the float zero. -/
def varT (w : BitVec 32) (X Y : FVec Ideal S2x1x96 .f32) : FVec Ideal S1x96 .f32 :=
  maximumf (F := Ideal) (subf (F := Ideal) (meanT w Y) (mulf (F := Ideal) (meanT w X) (meanT w X))) (splatT 0x00000000#32)

theorem varT_apply (w : BitVec 32) (X Y : FVec Ideal S2x1x96 .f32) (j : Fin 96) :
    varT w X Y (ix2 0 j)
      = max (Ideal.div (Spec.z32 + ∑ c' : Fin 2, toAcc Y c' j) (Ideal.ofBits .f32 w)
          - Ideal.div (Spec.z32 + ∑ c' : Fin 2, toAcc X c' j) (Ideal.ofBits .f32 w)
            * Ideal.div (Spec.z32 + ∑ c' : Fin 2, toAcc X c' j) (Ideal.ofBits .f32 w)) Spec.z32 := by
  show max (meanT w Y (ix2 0 j) - meanT w X (ix2 0 j) * meanT w X (ix2 0 j)) (Ideal.ofBits .f32 0x00000000#32) = _
  rw [meanT_apply, meanT_apply]
  rfl

/-! ### The packed scatter-sum over the destination -/

/-- The zero [50000, 192] table with every update row added at the row its position names; the positions are the
    index vector written as an [800000, 1] column. -/
def scatT (I : IVec S800000 32) (U : FVec Ideal S800000x192 .f32) : FVec Ideal S50000x192 .f32 :=
  Host.scatterAdd (F := Ideal) scatter_S50000x192_S800000x1_S800000x192_1_0_0_1
    (broadcastInDim S50000x192 ![] bcast_S_S50000x192 (constant (F := Ideal) S_ .f32 0x00000000#32))
    (broadcastInDim S800000x1 ![0] bcast_S800000_S800000x1_0 I) U

/-- The column of positions read at row e is the index vector's entry e. -/
theorem column_apply (I : IVec S800000 32) (e : Fin 800000) :
    broadcastInDim S800000x1 ![0] bcast_S800000_S800000x1_0 I (ix2 e 0) = I (ix1 e) :=
  broadcastInDim_apply _ _ _ _ (ix1 e) (fun a => by
    match a with
    | ⟨0, _⟩ => rfl)

/-- Entry (p, k) of the scatter-sum is the float zero plus the sum of the update rows whose destination is p. -/
theorem scatT_apply (I : IVec S800000 32) (U : FVec Ideal S800000x192 .f32) (dstN : Fin 800000 → Fin 50000)
    (hd : Holds I dstN) (p : Fin 50000) (k : Fin 192) :
    scatT I U (ix2 p k) = Spec.z32 + ∑ e ∈ Finset.univ.filter (fun e : Fin 800000 => dstN e = p), U (ix2 e k) := by
  unfold scatT
  refine (ScatterGather.scatterAdd_rows scatter_S50000x192_S800000x1_S800000x192_1_0_0_1 rfl rfl rfl rfl _ _ U p k).trans ?_
  refine congrArg (fun s => Spec.z32 + s) ?_
  refine Finset.sum_congr (Finset.filter_congr fun e _ => ?_) (fun _ _ => rfl)
  rw [column_apply, hd e]
  constructor
  · intro h
    exact Fin.ext (by omega)
  · intro h
    rw [h]

/-! ### What the stretches leave in their result buffers

Each result buffer of a stretch, as one of the functions above of the buffers the stretch was entered with: the
stretch's operations composed, every other buffer left as it was. -/

section Terms

variable (V : Valuation τ sig (Elt Ideal))

theorem v22_term : StableHlo.after (hostOps2 (F := Ideal)) V (Proc.devRef .tc main_v22)
    = meanT 0x49435000#32 (V (Proc.devRef .tc main_v18_2)) := by
  after_results
  rfl

theorem v28_term : StableHlo.after (hostOps2 (F := Ideal)) V (Proc.devRef .tc main_v28)
    = varT 0x49435000#32 (V (Proc.devRef .tc main_v18_2)) (V (Proc.devRef .tc main_v18_3)) := by
  after_results_simp
  rfl

theorem v38_term : StableHlo.after (hostOps3 (F := Ideal)) V (Proc.devRef .tc main_v38)
    = meanT 0x47435000#32 (V (Proc.devRef .tc main_v34_1)) := by
  after_results
  rfl

theorem v44_term : StableHlo.after (hostOps3 (F := Ideal)) V (Proc.devRef .tc main_v44)
    = varT 0x47435000#32 (V (Proc.devRef .tc main_v34_1)) (V (Proc.devRef .tc main_v34_2)) := by
  after_results_simp
  rfl

theorem v32_term : StableHlo.after (hostOps2 (F := Ideal)) V (Proc.devRef .tc main_v32)
    = extractStridedSlice S50000x96 ![0, 0] (scatT (V (Proc.devRef .tc main_arg3)) (V (Proc.devRef .tc main_v18_1)))
        slices_S50000x192_S50000x96_0_0 := by
  after_results_simp
  rfl

theorem v33_term : StableHlo.after (hostOps2 (F := Ideal)) V (Proc.devRef .tc main_v33)
    = extractStridedSlice S50000x96 ![0, 96] (scatT (V (Proc.devRef .tc main_arg3)) (V (Proc.devRef .tc main_v18_1)))
        slices_S50000x192_S50000x96_0_96 := by
  after_results_simp
  rfl

end Terms

/-! ### The two stretches read back -/

theorem mean_e (c : Dev nD) : toRow1 (W7 m ρ c (Proc.devRef .tc main_v22)) = fun j => Ideal.div ((fun j => Spec.z32 + ∑ c' : Fin 2, toAcc (W6 m ρ c (Proc.devRef .tc main_v18_2)) c' j) j) Spec.cE := by
  funext j
  refine (congrFun (v22_term (W6 m ρ c)) (ix2 0 j)).trans ?_
  exact meanT_apply _ _ j

theorem var_e (c : Dev nD) : toRow1 (W7 m ρ c (Proc.devRef .tc main_v28)) = Spec.varOnePass Spec.cE (fun j => Spec.z32 + ∑ c' : Fin 2, toAcc (W6 m ρ c (Proc.devRef .tc main_v18_2)) c' j) (fun j => Spec.z32 + ∑ c' : Fin 2, toAcc (W6 m ρ c (Proc.devRef .tc main_v18_3)) c' j) := by
  funext j
  refine (congrFun (v28_term (W6 m ρ c)) (ix2 0 j)).trans ?_
  exact varT_apply _ _ _ j

theorem ss_eq (c : Dev nD) (dstN : Fin 800000 → Fin 50000) (hd : Holds (W6 m ρ c (Proc.devRef .tc main_arg3)) dstN) :
    toMat (W7 m ρ c (Proc.devRef .tc main_v32)) = Spec.segSum dstN (leftHalf (toMat (W6 m ρ c (Proc.devRef .tc main_v18_1)))) := by
  funext p q
  refine (congrFun (v32_term (W6 m ρ c)) (ix2 p q)).trans ?_
  refine (slice2_axis1_apply (n0 := 50000) (n1 := 192) (m := 96) 0 (scatT (W6 m ρ c (Proc.devRef .tc main_arg3)) (W6 m ρ c (Proc.devRef .tc main_v18_1))) slices_S50000x192_S50000x96_0_0 p q ⟨q.val, by have := q.isLt; omega⟩ (Nat.zero_add _).symm).trans ?_
  exact scatT_apply _ _ dstN hd p _

theorem ssh_eq (c : Dev nD) (dstN : Fin 800000 → Fin 50000) (hd : Holds (W6 m ρ c (Proc.devRef .tc main_arg3)) dstN) :
    toMat (W7 m ρ c (Proc.devRef .tc main_v33)) = Spec.segSum dstN (rightHalf (toMat (W6 m ρ c (Proc.devRef .tc main_v18_1)))) := by
  funext p q
  refine (congrFun (v33_term (W6 m ρ c)) (ix2 p q)).trans ?_
  refine (slice2_axis1_apply (n0 := 50000) (n1 := 192) (m := 96) 96 (scatT (W6 m ρ c (Proc.devRef .tc main_arg3)) (W6 m ρ c (Proc.devRef .tc main_v18_1))) slices_S50000x192_S50000x96_0_96 p q ⟨q.val + 96, by have := q.isLt; omega⟩ (Nat.add_comm _ _)).trans ?_
  exact scatT_apply _ _ dstN hd p _

theorem mean_h (c : Dev nD) : toRow1 (W9 m ρ c (Proc.devRef .tc main_v38)) = fun j => Ideal.div ((fun j => Spec.z32 + ∑ c' : Fin 2, toAcc (W8 m ρ c (Proc.devRef .tc main_v34_1)) c' j) j) Spec.cN := by
  funext j
  refine (congrFun (v38_term (W8 m ρ c)) (ix2 0 j)).trans ?_
  exact meanT_apply _ _ j

theorem var_h (c : Dev nD) : toRow1 (W9 m ρ c (Proc.devRef .tc main_v44)) = Spec.varOnePass Spec.cN (fun j => Spec.z32 + ∑ c' : Fin 2, toAcc (W8 m ρ c (Proc.devRef .tc main_v34_1)) c' j) (fun j => Spec.z32 + ∑ c' : Fin 2, toAcc (W8 m ρ c (Proc.devRef .tc main_v34_2)) c' j) := by
  funext j
  refine (congrFun (v44_term (W8 m ρ c)) (ix2 0 j)).trans ?_
  exact varT_apply _ _ _ j
end Cert.KHost23

end
-- ==== Proof.KRegion2Tile.lean ====
/-
  The node-update region, tile by tile. At every point of its grid the region's body leaves, in its first output, the
  update  Ah + ssh / (ss + ε_deg)  of the point's three input blocks; in its second and third outputs, the running
  column sums of the update and of its square: on the first tile of a core the tile's column sum added to a zero just
  stored, on a later tile added to what the tile before left. Point t reads and writes row block t (rows 1000 t …
  1000 t + 999) of the four row-blocked arrays, so the update of point t's blocks is row block t of the update of the
  arrays as the region finds them.
-/
import proofs.«422570_j39187281608763_2_alg».proof.Proof.KernelRun
import proofs.«422570_j39187281608763_2_alg».proof.Proof.Conv
import proofs.«422570_j39187281608763_2_alg».proof.Proof.KSpec
import Idealize.ShloMosaic.Lib.Pipeline.Value
import Idealize.ShloMosaic.Lib.Tactic
import Idealize.ShloMosaic.Lib.ValueLayout
import Idealize.ShloMosaic.PureOps.Ideal.Laws

noncomputable section

open scoped BigOperators

namespace Cert.KRegion2Tile

open Cert Cert.KernelIdeal Cert.KernelIdeal.Gen Cert.Conv Cert.KSpec
open Idealize.ShloMosaic Idealize.ShloMosaic.TcCoe Idealize.SL.Sem Idealize.ShloMosaic.Tactic
open Idealize.ShloMosaic.Pipeline (Dat)

section Pieces

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- On a later tile of a core the body leaves the update of its three input blocks in the first output. -/
theorem upd_B (c : Dev nD) (i : grid2.Coords) (a2 : Memref sig .tc .vmem S1000x96 .f32) (h2 : a2.IsWhole) (a3 : Memref sig .tc .vmem S1000x96 .f32) (h3 : a3.IsWhole) (a4 : Memref sig .tc .vmem S1000x96 .f32) (h4 : a4.IsWhole) (a5 : Memref sig .tc .vmem S1000x96 .f32) (h5 : a5.IsWhole) (a6 : Memref sig .tc .vmem S1x1x96 .f32) (h6 : a6.IsWhole) (a7 : Memref sig .tc .vmem S1x1x96 .f32) (h7 : a7.IsWhole) (hc : ¬cond2_0 i)
    (x0 x1 x2 : Vec F S1000x96 .f32) (xo4 xo5 : Vec F S1x1x96 .f32) :
    out2_B_3 c i a2 h2 a3 h3 a4 h4 a5 h5 a6 h6 a7 h7 hc x0 x1 x2 xo4 xo5 = k2_pay3 x0 x1 x2 := by
  unfold out2_B_3
  rw [View.read_writes_eq_canon _ _ _ (cover2_B_3 c i a2 h2 a3 h3 a4 h4 a5 h5 a6 h6 a7 h7 hc x0 x1 x2 xo4 xo5)]
  unfold kernelRun2_B
  dsimp only
  sl_unfold_words
  rw [View.canon_unit_zero zeros2]
  simp only [View.readAt_eq_ld, h2.read_unread, h3.read_unread, h4.read_unread, View.ld_unit_zero (S := S1000x96) zeros2]

/-- On the first tile of a core too. -/
theorem upd_A (c : Dev nD) (i : grid2.Coords) (a2 : Memref sig .tc .vmem S1000x96 .f32) (h2 : a2.IsWhole) (a3 : Memref sig .tc .vmem S1000x96 .f32) (h3 : a3.IsWhole) (a4 : Memref sig .tc .vmem S1000x96 .f32) (h4 : a4.IsWhole) (a5 : Memref sig .tc .vmem S1000x96 .f32) (h5 : a5.IsWhole) (a6 : Memref sig .tc .vmem S1x1x96 .f32) (h6 : a6.IsWhole) (a7 : Memref sig .tc .vmem S1x1x96 .f32) (h7 : a7.IsWhole) (hc : cond2_0 i)
    (x0 x1 x2 : Vec F S1000x96 .f32) :
    out2_A_3 c i a2 h2 a3 h3 a4 h4 a5 h5 a6 h6 a7 h7 hc x0 x1 x2 = k2_pay3 x0 x1 x2 := by
  unfold out2_A_3
  rw [View.read_writes_eq_canon _ _ _ (cover2_A_3 c i a2 h2 a3 h3 a4 h4 a5 h5 a6 h6 a7 h7 hc x0 x1 x2)]
  unfold kernelRun2_A
  dsimp only
  sl_unfold_words
  rw [View.canon_unit_zero zeros2]
  simp only [View.readAt_eq_ld, h2.read_unread, h3.read_unread, h4.read_unread, View.ld_unit_zero (S := S1000x96) zeros2]

/-- On a later tile the running column sum becomes what it was plus the tile's column sum. -/
theorem sum_B (c : Dev nD) (i : grid2.Coords) (a2 : Memref sig .tc .vmem S1000x96 .f32) (h2 : a2.IsWhole) (a3 : Memref sig .tc .vmem S1000x96 .f32) (h3 : a3.IsWhole) (a4 : Memref sig .tc .vmem S1000x96 .f32) (h4 : a4.IsWhole) (a5 : Memref sig .tc .vmem S1000x96 .f32) (h5 : a5.IsWhole) (a6 : Memref sig .tc .vmem S1x1x96 .f32) (h6 : a6.IsWhole) (a7 : Memref sig .tc .vmem S1x1x96 .f32) (h7 : a7.IsWhole) (hc : ¬cond2_0 i)
    (x0 x1 x2 : Vec F S1000x96 .f32) (xo4 xo5 : Vec F S1x1x96 .f32) :
    out2_B_4 c i a2 h2 a3 h3 a4 h4 a5 h5 a6 h6 a7 h7 hc x0 x1 x2 xo4 xo5 = k2_pay4 x0 x1 x2 xo4 := by
  unfold out2_B_4
  rw [View.read_writes_eq_canon _ _ _ (cover2_B_4 c i a2 h2 a3 h3 a4 h4 a5 h5 a6 h6 a7 h7 hc x0 x1 x2 xo4 xo5)]
  unfold kernelRun2_B
  dsimp only
  sl_unfold_words
  rw [View.canon_unit_zero zeros3]
  simp only [View.readAt_eq_ld, h2.read_unread, h3.read_unread, h4.read_unread, h6.read_unread, View.ld_unit_zero (S := S1000x96) zeros2, View.ld_unit_zero (S := S1x1x96) zeros3]

theorem sumsq_B (c : Dev nD) (i : grid2.Coords) (a2 : Memref sig .tc .vmem S1000x96 .f32) (h2 : a2.IsWhole) (a3 : Memref sig .tc .vmem S1000x96 .f32) (h3 : a3.IsWhole) (a4 : Memref sig .tc .vmem S1000x96 .f32) (h4 : a4.IsWhole) (a5 : Memref sig .tc .vmem S1000x96 .f32) (h5 : a5.IsWhole) (a6 : Memref sig .tc .vmem S1x1x96 .f32) (h6 : a6.IsWhole) (a7 : Memref sig .tc .vmem S1x1x96 .f32) (h7 : a7.IsWhole) (hc : ¬cond2_0 i)
    (x0 x1 x2 : Vec F S1000x96 .f32) (xo4 xo5 : Vec F S1x1x96 .f32) :
    out2_B_5 c i a2 h2 a3 h3 a4 h4 a5 h5 a6 h6 a7 h7 hc x0 x1 x2 xo4 xo5 = k2_pay5 x0 x1 x2 xo5 := by
  unfold out2_B_5
  rw [View.read_writes_eq_canon _ _ _ (cover2_B_5 c i a2 h2 a3 h3 a4 h4 a5 h5 a6 h6 a7 h7 hc x0 x1 x2 xo4 xo5)]
  unfold kernelRun2_B
  dsimp only
  sl_unfold_words
  rw [View.canon_unit_zero zeros3]
  simp only [View.readAt_eq_ld, h2.read_unread, h3.read_unread, h4.read_unread, h7.read_unread, View.ld_unit_zero (S := S1000x96) zeros2, View.ld_unit_zero (S := S1x1x96) zeros3]

/-- On the first tile the running column sum is the tile's column sum added to the zero just stored. -/
theorem sum_A (c : Dev nD) (i : grid2.Coords) (a2 : Memref sig .tc .vmem S1000x96 .f32) (h2 : a2.IsWhole) (a3 : Memref sig .tc .vmem S1000x96 .f32) (h3 : a3.IsWhole) (a4 : Memref sig .tc .vmem S1000x96 .f32) (h4 : a4.IsWhole) (a5 : Memref sig .tc .vmem S1000x96 .f32) (h5 : a5.IsWhole) (a6 : Memref sig .tc .vmem S1x1x96 .f32) (h6 : a6.IsWhole) (a7 : Memref sig .tc .vmem S1x1x96 .f32) (h7 : a7.IsWhole) (hc : cond2_0 i)
    (x0 x1 x2 : Vec F S1000x96 .f32) :
    out2_A_4 c i a2 h2 a3 h3 a4 h4 a5 h5 a6 h6 a7 h7 hc x0 x1 x2 = k2_pay4 x0 x1 x2 (k2_pay1 (F := F)) := by
  unfold out2_A_4
  rw [View.read_writes_eq_canon _ _ _ (cover2_A_4 c i a2 h2 a3 h3 a4 h4 a5 h5 a6 h6 a7 h7 hc x0 x1 x2)]
  unfold kernelRun2_A
  dsimp only
  sl_unfold_words
  rw [View.canon_cons_unit_zero (S := S1x1x96) zeros3]
  simp only [View.readAt_eq_ld, h2.read_unread, h3.read_unread, h4.read_unread, View.ld_unit_zero (S := S1000x96) zeros2, View.readCov_unit_zero (S := S1x1x96) _ zeros3]

theorem sumsq_A (c : Dev nD) (i : grid2.Coords) (a2 : Memref sig .tc .vmem S1000x96 .f32) (h2 : a2.IsWhole) (a3 : Memref sig .tc .vmem S1000x96 .f32) (h3 : a3.IsWhole) (a4 : Memref sig .tc .vmem S1000x96 .f32) (h4 : a4.IsWhole) (a5 : Memref sig .tc .vmem S1000x96 .f32) (h5 : a5.IsWhole) (a6 : Memref sig .tc .vmem S1x1x96 .f32) (h6 : a6.IsWhole) (a7 : Memref sig .tc .vmem S1x1x96 .f32) (h7 : a7.IsWhole) (hc : cond2_0 i)
    (x0 x1 x2 : Vec F S1000x96 .f32) :
    out2_A_5 c i a2 h2 a3 h3 a4 h4 a5 h5 a6 h6 a7 h7 hc x0 x1 x2 = k2_pay5 x0 x1 x2 (k2_pay2 (F := F)) := by
  unfold out2_A_5
  rw [View.read_writes_eq_canon _ _ _ (cover2_A_5 c i a2 h2 a3 h3 a4 h4 a5 h5 a6 h6 a7 h7 hc x0 x1 x2)]
  unfold kernelRun2_A
  dsimp only
  sl_unfold_words
  rw [View.canon_cons_unit_zero (S := S1x1x96) zeros3]
  simp only [View.readAt_eq_ld, h2.read_unread, h3.read_unread, h4.read_unread, View.ld_unit_zero (S := S1000x96) zeros2, View.readCov_unit_zero (S := S1x1x96) _ zeros3]

end Pieces

section Values

open Idealize.ShloMosaic.ValueIdx

/-- The update of three blocks at an entry: the first plus the quotient of the second by the third raised by the
    regulariser. -/
theorem upd_apply (x0 x1 x2 : Vec Ideal S1000x96 .f32) (r : Fin 1000) (q : Fin 96) :
    k2_pay3 (F := Ideal) x0 x1 x2 (ix2 r q)
      = x0 (ix2 r q) + Ideal.div (x1 (ix2 r q)) (x2 (ix2 r q) + Spec.epsDeg) := by
  unfold k2_pay3
  simp only [shapeCast_self]
  rfl

/-- The sum over the rows of a block, at a column. -/
theorem colsum_apply (y : FVec Ideal S1000x96 .f32) (q : Fin 96) :
    multiReduction (F := Ideal) .add [0] S96 y 0x00000000#32 reduces_S1000x96_S96 (.inl rfl) rfl (ix1 q)
      = ∑ r : Fin 1000, y (ix2 r q) := by
  refine (Ideal.multiReduction_add_single y _ reduces_S1000x96_S96 (.inl rfl) rfl (ix1 q)).trans ?_
  show ∑ r : Fin 1000, y (reduces_S1000x96_S96.lift (ix1 q) r) = _
  refine Finset.sum_congr rfl fun r _ => congrArg y ?_
  funext a
  apply Fin.ext
  match a with
  | ⟨0, _⟩ => rfl
  | ⟨1, _⟩ => rfl

/-- The running column sum after a tile, at a column: what it was plus the tile's column sum of the update. -/
theorem sum_apply (x0 x1 x2 : Vec Ideal S1000x96 .f32) (a : Vec Ideal S1x1x96 .f32) (q : Fin 96) :
    k2_pay4 (F := Ideal) x0 x1 x2 a (ix3 0 0 q)
      = a (ix3 0 0 q) + ∑ r : Fin 1000, k2_pay3 (F := Ideal) x0 x1 x2 (ix2 r q) := by
  unfold k2_pay4
  simp only [shapeCast_self]
  refine (addf_apply _ _ _).trans ?_
  refine congrArg (a (ix3 0 0 q) + ·) ?_
  refine (shapeCast_ab_1ab_apply _ _ 0 0 q).trans ?_
  refine (shapeCast_a_1a_apply _ _ 0 q).trans ?_
  exact colsum_apply _ q

/-- The running column sum of squares after a tile, at a column. -/
theorem sumsq_apply (x0 x1 x2 : Vec Ideal S1000x96 .f32) (a : Vec Ideal S1x1x96 .f32) (q : Fin 96) :
    k2_pay5 (F := Ideal) x0 x1 x2 a (ix3 0 0 q)
      = a (ix3 0 0 q) + ∑ r : Fin 1000, k2_pay3 (F := Ideal) x0 x1 x2 (ix2 r q) * k2_pay3 (F := Ideal) x0 x1 x2 (ix2 r q) := by
  unfold k2_pay5
  simp only [shapeCast_self]
  refine (addf_apply _ _ _).trans ?_
  refine congrArg (a (ix3 0 0 q) + ·) ?_
  refine (shapeCast_ab_1ab_apply _ _ 0 0 q).trans ?_
  refine (shapeCast_a_1a_apply _ _ 0 q).trans ?_
  exact colsum_apply _ q

theorem zero4_apply (q : Fin 96) : k2_pay1 (F := Ideal) (ix3 0 0 q) = Spec.z32 := rfl
theorem zero5_apply (q : Fin 96) : k2_pay2 (F := Ideal) (ix3 0 0 q) = Spec.z32 := rfl

end Values

section Blocks

open Idealize.ShloMosaic.ValueIdx

variable (m : (ℓ : Loc nD τ sig) → Buf (Elt Ideal) ℓ) (ρ : Dev nD → PrngReg)

/-- The node update as a matrix, from the three arrays as the region finds them. -/
def updM (c : Dev nD) : Spec.Mat 50000 96 :=
  Spec.hnew (toMat (W7 m ρ c (Proc.devRef .tc main_v14_0))) (toMat (W7 m ρ c (Proc.devRef .tc main_v33))) (toMat (W7 m ρ c (Proc.devRef .tc main_v32)))

/-- Every point reads and writes row block t of its four row-blocked arrays: the index maps, decided over the grid. -/
theorem rowblock : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row r of row block t of ANY array of the first input's shape, read through the first input's window at point t,
    is row 1000 t + r of the array. -/
theorem read_blk0 (t : Fin cfg2.N) (X : S50000x96.Idx → EReal) (r : Fin 1000) (q : Fin 96) (h : t.val * 1000 + r.val < 50000) :
    ((cfg2.win 0).blk t).view.read (Elt Ideal) X (ix2 r q) = toMat X ⟨t.val * 1000 + r.val, h⟩ q := by
  obtain ⟨e0, e1, -⟩ := rowblock t
  rw [View.read_apply, toMat_apply]
  show X _ = X _
  refine congrArg X (funext fun a => Fin.ext ?_)
  match a with
  | ⟨0, _⟩ => show win2_0.index t (0 : Fin 2) * 1000 + 1 * r.val = t.val * 1000 + r.val; rw [e0]; omega
  | ⟨1, _⟩ => show win2_0.index t (1 : Fin 2) * 96 + 1 * q.val = q.val; rw [e1]; omega

/-- The same through the second input's window. -/
theorem read_blk1 (t : Fin cfg2.N) (X : S50000x96.Idx → EReal) (r : Fin 1000) (q : Fin 96) (h : t.val * 1000 + r.val < 50000) :
    ((cfg2.win 1).blk t).view.read (Elt Ideal) X (ix2 r q) = toMat X ⟨t.val * 1000 + r.val, h⟩ q := by
  obtain ⟨-, -, e0, e1, -⟩ := rowblock t
  rw [View.read_apply, toMat_apply]
  show X _ = X _
  refine congrArg X (funext fun a => Fin.ext ?_)
  match a with
  | ⟨0, _⟩ => show win2_1.index t (0 : Fin 2) * 1000 + 1 * r.val = t.val * 1000 + r.val; rw [e0]; omega
  | ⟨1, _⟩ => show win2_1.index t (1 : Fin 2) * 96 + 1 * q.val = q.val; rw [e1]; omega

/-- The same through the third input's window. -/
theorem read_blk2 (t : Fin cfg2.N) (X : S50000x96.Idx → EReal) (r : Fin 1000) (q : Fin 96) (h : t.val * 1000 + r.val < 50000) :
    ((cfg2.win 2).blk t).view.read (Elt Ideal) X (ix2 r q) = toMat X ⟨t.val * 1000 + r.val, h⟩ q := by
  obtain ⟨-, -, -, -, e0, e1, -⟩ := rowblock t
  rw [View.read_apply, toMat_apply]
  show X _ = X _
  refine congrArg X (funext fun a => Fin.ext ?_)
  match a with
  | ⟨0, _⟩ => show win2_2.index t (0 : Fin 2) * 1000 + 1 * r.val = t.val * 1000 + r.val; rw [e0]; omega
  | ⟨1, _⟩ => show win2_2.index t (1 : Fin 2) * 96 + 1 * q.val = q.val; rw [e1]; omega

/-- The three input arrays as the region finds them, named by their buffers. -/
theorem arr0_eq (c : Dev nD) : V7 m ρ c (Pipeline.arrRef spec2 0) = W7 m ρ c (Proc.devRef .tc main_v14_0) := rfl
theorem arr1_eq (c : Dev nD) : V7 m ρ c (Pipeline.arrRef spec2 1) = W7 m ρ c (Proc.devRef .tc main_v33) := rfl
theorem arr2_eq (c : Dev nD) : V7 m ρ c (Pipeline.arrRef spec2 2) = W7 m ρ c (Proc.devRef .tc main_v32) := rfl

/-- Row r of the first input's block at point t is row 1000 t + r of its array. -/
theorem blk0_apply (c : Dev nD) (t : Fin cfg2.N) (r : Fin 1000) (q : Fin 96) (h : t.val * 1000 + r.val < 50000) :
    (iblk2 (V7 m ρ) c 0 t : Vec Ideal S1000x96 .f32) (ix2 r q)
      = toMat (W7 m ρ c (Proc.devRef .tc main_v14_0)) ⟨t.val * 1000 + r.val, h⟩ q := by
  unfold iblk2
  rw [arr0_eq]
  exact read_blk0 t _ r q h

theorem blk1_apply (c : Dev nD) (t : Fin cfg2.N) (r : Fin 1000) (q : Fin 96) (h : t.val * 1000 + r.val < 50000) :
    (iblk2 (V7 m ρ) c 1 t : Vec Ideal S1000x96 .f32) (ix2 r q)
      = toMat (W7 m ρ c (Proc.devRef .tc main_v33)) ⟨t.val * 1000 + r.val, h⟩ q := by
  unfold iblk2
  rw [arr1_eq]
  exact read_blk1 t _ r q h

theorem blk2_apply (c : Dev nD) (t : Fin cfg2.N) (r : Fin 1000) (q : Fin 96) (h : t.val * 1000 + r.val < 50000) :
    (iblk2 (V7 m ρ) c 2 t : Vec Ideal S1000x96 .f32) (ix2 r q)
      = toMat (W7 m ρ c (Proc.devRef .tc main_v32)) ⟨t.val * 1000 + r.val, h⟩ q := by
  unfold iblk2
  rw [arr2_eq]
  exact read_blk2 t _ r q h

/-- So the update of point t's three input blocks is row block t of the update of the arrays. -/
theorem tile_eq (c : Dev nD) (t : Fin cfg2.N) (r : Fin 1000) (q : Fin 96) (h : t.val * 1000 + r.val < 50000) :
    k2_pay3 (F := Ideal) (iblk2 (V7 m ρ) c 0 t) (iblk2 (V7 m ρ) c 1 t) (iblk2 (V7 m ρ) c 2 t) (ix2 r q) = updM m ρ c ⟨t.val * 1000 + r.val, h⟩ q := by
  refine (upd_apply (iblk2 (V7 m ρ) c 0 t) (iblk2 (V7 m ρ) c 1 t) (iblk2 (V7 m ρ) c 2 t) r q).trans ?_
  rw [blk0_apply m ρ c t r q h, blk1_apply m ρ c t r q h, blk2_apply m ρ c t r q h]
  rfl

/-- Whichever case the point is, the first output's buffer is left at the update of the point's input blocks. -/
theorem outs_upd (c : Dev nD) (t : Fin cfg2.N) :
    (outsAt2 (V7 m ρ) c t.val t.isLt).1 = k2_pay3 (F := Ideal) (iblk2 (V7 m ρ) c 0 t) (iblk2 (V7 m ρ) c 1 t) (iblk2 (V7 m ρ) c 2 t) := by
  by_cases h0 : t.val % 25 = 0
  · rw [outsAt2_A (V7 m ρ) c t h0]
    dsimp only
    exact upd_A (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 (V7 m ρ) c 0 t) (iblk2 (V7 m ρ) c 1 t) (iblk2 (V7 m ρ) c 2 t)
  · rw [outsAt2_B (V7 m ρ) c t h0]
    dsimp only
    exact upd_B (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 (V7 m ρ) c 0 t) (iblk2 (V7 m ρ) c 1 t) (iblk2 (V7 m ρ) c 2 t)
      (outsAt2 (V7 m ρ) c (t.val - 1) (Nat.lt_of_le_of_lt (Nat.sub_le _ _) t.isLt)).2.1
      (outsAt2 (V7 m ρ) c (t.val - 1) (Nat.lt_of_le_of_lt (Nat.sub_le _ _) t.isLt)).2.2

end Blocks

end Cert.KRegion2Tile

end
-- ==== Proof.KRegion2Acc.lean ====
/-
  The node update's two accumulated outputs read back: per core, the column sums of the update and of its square,
  accumulated tile after tile over the core's 25 tiles of 1000 rows.
-/
import proofs.«422570_j39187281608763_2_alg».proof.Proof.KernelRun
import proofs.«422570_j39187281608763_2_alg».proof.Proof.Conv
import proofs.«422570_j39187281608763_2_alg».proof.Proof.KSpec
import proofs.«422570_j39187281608763_2_alg».proof.Proof.KLast
import proofs.«422570_j39187281608763_2_alg».proof.Proof.KRegion2Tile
import Idealize.ShloMosaic.PureOps.Ideal.Laws

noncomputable section

open scoped BigOperators

namespace Cert.KRegion2Acc

open Cert Cert.KernelIdeal Cert.KernelIdeal.Gen Cert.Conv Cert.KSpec
open Idealize.ShloMosaic Idealize.ShloMosaic.TcCoe Idealize.SL.Sem
open Idealize.ShloMosaic.ValueIdx Cert.KRegion2Tile

variable (m : (ℓ : Loc nD τ sig) → Buf (Elt Ideal) ℓ) (ρ : Dev nD → PrngReg)

/-- The float zero is the zero of the extended reals: adding it on the left changes nothing. -/
theorem z32_add (x : EReal) : Spec.z32 + x = x := by
  show Ideal.ofBits .f32 0x00000000#32 + x = x
  rw [Ideal.ofBits_zero_f32, zero_add]

/-- The accumulated outputs after a point depend on the point's number only. -/
theorem outs_congr (c : Dev nD) {n n' : ℕ} (e : n = n') (h : n < cfg2.N) (h' : n' < cfg2.N) :
    outsAt2 (V7 m ρ) c n h = outsAt2 (V7 m ρ) c n' h' := by
  subst e; rfl

/-! ### One point: the first tile of a core stores the zero and adds its tile sum, every later tile adds its tile
    sum onto what the tile before left -/

theorem sum_first (c : Dev nD) (t : Fin cfg2.N) (h0 : t.val % 25 = 0) (q : Fin 96) :
    (outsAt2 (V7 m ρ) c t.val t.isLt).2.1 (ix3 0 0 q)
      = Spec.z32 + ∑ r : Fin 1000, k2_pay3 (F := Ideal) (iblk2 (V7 m ρ) c 0 t) (iblk2 (V7 m ρ) c 1 t) (iblk2 (V7 m ρ) c 2 t) (ix2 r q) := by
  rw [outsAt2_A (V7 m ρ) c t h0]
  dsimp only
  refine (congrFun (sum_A (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 (V7 m ρ) c 0 t) (iblk2 (V7 m ρ) c 1 t) (iblk2 (V7 m ρ) c 2 t)) (ix3 0 0 q)).trans ?_
  rw [sum_apply, zero4_apply]

theorem sum_next (c : Dev nD) (t : Fin cfg2.N) (h0 : ¬t.val % 25 = 0) (q : Fin 96) :
    (outsAt2 (V7 m ρ) c t.val t.isLt).2.1 (ix3 0 0 q)
      = (outsAt2 (V7 m ρ) c (t.val - 1) (Nat.lt_of_le_of_lt (Nat.sub_le _ _) t.isLt)).2.1 (ix3 0 0 q)
        + ∑ r : Fin 1000, k2_pay3 (F := Ideal) (iblk2 (V7 m ρ) c 0 t) (iblk2 (V7 m ρ) c 1 t) (iblk2 (V7 m ρ) c 2 t) (ix2 r q) := by
  rw [outsAt2_B (V7 m ρ) c t h0]
  dsimp only
  refine (congrFun (sum_B (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 (V7 m ρ) c 0 t) (iblk2 (V7 m ρ) c 1 t) (iblk2 (V7 m ρ) c 2 t)
    (outsAt2 (V7 m ρ) c (t.val - 1) (Nat.lt_of_le_of_lt (Nat.sub_le _ _) t.isLt)).2.1 (outsAt2 (V7 m ρ) c (t.val - 1) (Nat.lt_of_le_of_lt (Nat.sub_le _ _) t.isLt)).2.2) (ix3 0 0 q)).trans ?_
  rw [sum_apply]

theorem sumsq_first (c : Dev nD) (t : Fin cfg2.N) (h0 : t.val % 25 = 0) (q : Fin 96) :
    (outsAt2 (V7 m ρ) c t.val t.isLt).2.2 (ix3 0 0 q)
      = Spec.z32 + ∑ r : Fin 1000, k2_pay3 (F := Ideal) (iblk2 (V7 m ρ) c 0 t) (iblk2 (V7 m ρ) c 1 t) (iblk2 (V7 m ρ) c 2 t) (ix2 r q)
          * k2_pay3 (F := Ideal) (iblk2 (V7 m ρ) c 0 t) (iblk2 (V7 m ρ) c 1 t) (iblk2 (V7 m ρ) c 2 t) (ix2 r q) := by
  rw [outsAt2_A (V7 m ρ) c t h0]
  dsimp only
  refine (congrFun (sumsq_A (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 (V7 m ρ) c 0 t) (iblk2 (V7 m ρ) c 1 t) (iblk2 (V7 m ρ) c 2 t)) (ix3 0 0 q)).trans ?_
  rw [sumsq_apply, zero5_apply]

theorem sumsq_next (c : Dev nD) (t : Fin cfg2.N) (h0 : ¬t.val % 25 = 0) (q : Fin 96) :
    (outsAt2 (V7 m ρ) c t.val t.isLt).2.2 (ix3 0 0 q)
      = (outsAt2 (V7 m ρ) c (t.val - 1) (Nat.lt_of_le_of_lt (Nat.sub_le _ _) t.isLt)).2.2 (ix3 0 0 q)
        + ∑ r : Fin 1000, k2_pay3 (F := Ideal) (iblk2 (V7 m ρ) c 0 t) (iblk2 (V7 m ρ) c 1 t) (iblk2 (V7 m ρ) c 2 t) (ix2 r q)
            * k2_pay3 (F := Ideal) (iblk2 (V7 m ρ) c 0 t) (iblk2 (V7 m ρ) c 1 t) (iblk2 (V7 m ρ) c 2 t) (ix2 r q) := by
  rw [outsAt2_B (V7 m ρ) c t h0]
  dsimp only
  refine (congrFun (sumsq_B (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 (V7 m ρ) c 0 t) (iblk2 (V7 m ρ) c 1 t) (iblk2 (V7 m ρ) c 2 t)
    (outsAt2 (V7 m ρ) c (t.val - 1) (Nat.lt_of_le_of_lt (Nat.sub_le _ _) t.isLt)).2.1 (outsAt2 (V7 m ρ) c (t.val - 1) (Nat.lt_of_le_of_lt (Nat.sub_le _ _) t.isLt)).2.2) (ix3 0 0 q)).trans ?_
  rw [sumsq_apply]

/-! ### The tiles of one core in order

After tile s of core c' (point 25·c' + s of the grid) an accumulated output holds the running sum over the tiles
0 … s of the core, whatever family g of tile entries the points' tile sums are taken over: by induction on the tile. -/

theorem sum_upTo (c : Dev nD) (c' : Fin 2) (q : Fin 96) (g : ℕ → Fin 1000 → EReal)
    (hg : ∀ (s : ℕ) (hs : s < 25) (hlt : c'.val * 25 + s < cfg2.N) (r : Fin 1000),
      k2_pay3 (F := Ideal) (iblk2 (V7 m ρ) c 0 ⟨c'.val * 25 + s, hlt⟩) (iblk2 (V7 m ρ) c 1 ⟨c'.val * 25 + s, hlt⟩)
        (iblk2 (V7 m ρ) c 2 ⟨c'.val * 25 + s, hlt⟩) (ix2 r q) = g s r) :
    ∀ (s : ℕ) (hs : s < 25) (hlt : c'.val * 25 + s < cfg2.N),
      (outsAt2 (V7 m ρ) c (c'.val * 25 + s) hlt).2.1 (ix3 0 0 q) = Spec.accUpTo g s
  | 0, hs, hlt => by
    have h0 : (⟨c'.val * 25 + 0, hlt⟩ : Fin cfg2.N).val % 25 = 0 := by dsimp only; omega
    refine (sum_first m ρ c ⟨c'.val * 25 + 0, hlt⟩ h0 q).trans ?_
    show _ = Spec.z32 + (Spec.z32 + ∑ r : Fin 1000, g 0 r)
    rw [Finset.sum_congr rfl (fun r _ => hg 0 hs hlt r), z32_add, z32_add]
  | s + 1, hs, hlt => by
    have hB : ¬(⟨c'.val * 25 + (s + 1), hlt⟩ : Fin cfg2.N).val % 25 = 0 := by dsimp only; omega
    have hlt' : c'.val * 25 + s < cfg2.N := by omega
    refine (sum_next m ρ c ⟨c'.val * 25 + (s + 1), hlt⟩ hB q).trans ?_
    show _ = Spec.accUpTo g s + (Spec.z32 + ∑ r : Fin 1000, g (s + 1) r)
    rw [Finset.sum_congr rfl (fun r _ => hg (s + 1) hs hlt r), z32_add,
      outs_congr m ρ c (show (⟨c'.val * 25 + (s + 1), hlt⟩ : Fin cfg2.N).val - 1 = c'.val * 25 + s from by dsimp only; omega) _ hlt',
      sum_upTo c c' q g hg s (by omega) hlt']

theorem sumsq_upTo (c : Dev nD) (c' : Fin 2) (q : Fin 96) (g : ℕ → Fin 1000 → EReal)
    (hg : ∀ (s : ℕ) (hs : s < 25) (hlt : c'.val * 25 + s < cfg2.N) (r : Fin 1000),
      k2_pay3 (F := Ideal) (iblk2 (V7 m ρ) c 0 ⟨c'.val * 25 + s, hlt⟩) (iblk2 (V7 m ρ) c 1 ⟨c'.val * 25 + s, hlt⟩)
        (iblk2 (V7 m ρ) c 2 ⟨c'.val * 25 + s, hlt⟩) (ix2 r q)
        * k2_pay3 (F := Ideal) (iblk2 (V7 m ρ) c 0 ⟨c'.val * 25 + s, hlt⟩) (iblk2 (V7 m ρ) c 1 ⟨c'.val * 25 + s, hlt⟩)
        (iblk2 (V7 m ρ) c 2 ⟨c'.val * 25 + s, hlt⟩) (ix2 r q) = g s r) :
    ∀ (s : ℕ) (hs : s < 25) (hlt : c'.val * 25 + s < cfg2.N),
      (outsAt2 (V7 m ρ) c (c'.val * 25 + s) hlt).2.2 (ix3 0 0 q) = Spec.accUpTo g s
  | 0, hs, hlt => by
    have h0 : (⟨c'.val * 25 + 0, hlt⟩ : Fin cfg2.N).val % 25 = 0 := by dsimp only; omega
    refine (sumsq_first m ρ c ⟨c'.val * 25 + 0, hlt⟩ h0 q).trans ?_
    show _ = Spec.z32 + (Spec.z32 + ∑ r : Fin 1000, g 0 r)
    rw [Finset.sum_congr rfl (fun r _ => hg 0 hs hlt r), z32_add, z32_add]
  | s + 1, hs, hlt => by
    have hB : ¬(⟨c'.val * 25 + (s + 1), hlt⟩ : Fin cfg2.N).val % 25 = 0 := by dsimp only; omega
    have hlt' : c'.val * 25 + s < cfg2.N := by omega
    refine (sumsq_next m ρ c ⟨c'.val * 25 + (s + 1), hlt⟩ hB q).trans ?_
    show _ = Spec.accUpTo g s + (Spec.z32 + ∑ r : Fin 1000, g (s + 1) r)
    rw [Finset.sum_congr rfl (fun r _ => hg (s + 1) hs hlt r), z32_add,
      outs_congr m ρ c (show (⟨c'.val * 25 + (s + 1), hlt⟩ : Fin cfg2.N).val - 1 = c'.val * 25 + s from by dsimp only; omega) _ hlt',
      sumsq_upTo c c' q g hg s (by omega) hlt']

/-- Row r of tile s of core c' is row c'·25000 + s·1000 + r of the update: the point's payload entry there. -/
theorem tile_entry (c : Dev nD) (c' : Fin 2) (q : Fin 96) (s : ℕ) (hs : s < 25) (hlt : c'.val * 25 + s < cfg2.N)
    (r : Fin 1000) (hrow : c'.val * (25 * 1000) + s * 1000 + r.val < 50000) :
    k2_pay3 (F := Ideal) (iblk2 (V7 m ρ) c 0 ⟨c'.val * 25 + s, hlt⟩) (iblk2 (V7 m ρ) c 1 ⟨c'.val * 25 + s, hlt⟩)
        (iblk2 (V7 m ρ) c 2 ⟨c'.val * 25 + s, hlt⟩) (ix2 r q)
      = Spec.hnew (toMat (W7 m ρ c (Proc.devRef .tc main_v14_0))) (toMat (W7 m ρ c (Proc.devRef .tc main_v33))) (toMat (W7 m ρ c (Proc.devRef .tc main_v32)))
          ⟨c'.val * (25 * 1000) + s * 1000 + r.val, hrow⟩ q := by
  have hr := r.isLt
  refine (tile_eq m ρ c ⟨c'.val * 25 + s, hlt⟩ r q (by dsimp only; omega)).trans ?_
  exact congrArg (fun i => updM m ρ c i q) (Fin.ext (by dsimp only; omega))

theorem sum_eq (c : Dev nD) : toAcc (W8 m ρ c (Proc.devRef .tc main_v34_1))
    = fun c' j => coreAcc 25 1000 (by norm_num : 50000 = 2 * (25 * 1000)) (fun i => Spec.hnew (toMat (W7 m ρ c (Proc.devRef .tc main_v14_0))) (toMat (W7 m ρ c (Proc.devRef .tc main_v33))) (toMat (W7 m ρ c (Proc.devRef .tc main_v32))) i j) c' := by
  funext c' j
  have hN : cfg2.N = 50 := N_2
  have hc' := c'.isLt
  have hlt : c'.val * 25 + 24 < cfg2.N := by omega
  refine (KLast.v34_1_last m ρ c c' j hlt).trans ?_
  refine sum_upTo m ρ c c' j _ (fun s hs hlt' r => ?_) 24 (by omega) hlt
  rw [dif_pos hs]
  exact tile_entry m ρ c c' j s hs hlt' r _

theorem sumsq_eq (c : Dev nD) : toAcc (W8 m ρ c (Proc.devRef .tc main_v34_2))
    = fun c' j => coreAcc 25 1000 (by norm_num : 50000 = 2 * (25 * 1000)) (fun i => Spec.hnew (toMat (W7 m ρ c (Proc.devRef .tc main_v14_0))) (toMat (W7 m ρ c (Proc.devRef .tc main_v33))) (toMat (W7 m ρ c (Proc.devRef .tc main_v32))) i j * Spec.hnew (toMat (W7 m ρ c (Proc.devRef .tc main_v14_0))) (toMat (W7 m ρ c (Proc.devRef .tc main_v33))) (toMat (W7 m ρ c (Proc.devRef .tc main_v32))) i j) c' := by
  funext c' j
  have hN : cfg2.N = 50 := N_2
  have hc' := c'.isLt
  have hlt : c'.val * 25 + 24 < cfg2.N := by omega
  refine (KLast.v34_2_last m ρ c c' j hlt).trans ?_
  refine sumsq_upTo m ρ c c' j _ (fun s hs hlt' r => ?_) 24 (by omega) hlt
  rw [dif_pos hs]
  rw [tile_entry m ρ c c' j s hs hlt' r _]

end Cert.KRegion2Acc

end
-- ==== Proof.KRegion2.lean ====
/-
  The third region (the node update) read back: the update itself, row-blocked, and per core the column sums of the
  update and of its square accumulated over the core's 25 tiles of 1000 rows.

  The update: every point of the grid writes back, to row block t of the first output, the update of row block t of
  the three inputs; the fifty row blocks cover the array (row p lies in block p / 1000), so the array ends holding the
  update of the input arrays, entry by entry. The two accumulated sums are read in their own module.
-/
import proofs.«422570_j39187281608763_2_alg».proof.Proof.KernelRun
import proofs.«422570_j39187281608763_2_alg».proof.Proof.Conv
import proofs.«422570_j39187281608763_2_alg».proof.Proof.KSpec
import proofs.«422570_j39187281608763_2_alg».proof.Proof.KRegion2Tile
import proofs.«422570_j39187281608763_2_alg».proof.Proof.KRegion2Acc

noncomputable section

open scoped BigOperators

namespace Cert.KRegion2

open Cert Cert.KernelIdeal Cert.KernelIdeal.Gen Cert.Conv Cert.KSpec
open Idealize.ShloMosaic Idealize.ShloMosaic.TcCoe Idealize.SL.Sem

variable (m : (ℓ : Loc nD τ sig) → Buf (Elt Ideal) ℓ) (ρ : Dev nD → PrngReg)

section Cover

open Cert.KRegion2Tile Idealize.ShloMosaic.ValueIdx
open Idealize.ShloMosaic.Pipeline (Dat)

/-- The node update of the arrays as the region finds them, as an array. -/
def updArr (c : Dev nD) : S50000x96.Idx → EReal :=
  fun i => updM m ρ c ⟨(i 0).val, idx2_lt0 i⟩ ⟨(i 1).val, idx2_lt1 i⟩

/-- The update of point t's input blocks at a block entry is the update array at the entry 1000 t rows further down. -/
theorem tile_at (c : Dev nD) (t : Fin cfg2.N) (j : S1000x96.Idx) (i : S50000x96.Idx)
    (h0 : (i 0).val = t.val * 1000 + (j 0).val) (h1 : (i 1).val = (j 1).val) :
    k2_pay3 (F := Ideal) (iblk2 (V7 m ρ) c 0 t) (iblk2 (V7 m ρ) c 1 t) (iblk2 (V7 m ρ) c 2 t) j = updArr m ρ c i := by
  obtain ⟨r, q, rfl⟩ : ∃ (r : Fin 1000) (q : Fin 96), j = ix2 r q := ⟨j 0, j 1, eq_ix2 j⟩
  have hi : (i 0).val < 50000 := idx2_lt0 i
  have h0' : (i 0).val = t.val * 1000 + r.val := h0
  have h1' : (i 1).val = q.val := h1
  refine (tile_eq m ρ c t r q (by omega)).trans ?_
  unfold updArr
  congr 1 <;> apply Fin.ext
  · exact h0'.symm
  · exact h1'.symm

/-- What point t writes back to the first output is row block t of the update. -/
theorem upd_flushed (c : Dev nD) (t : Fin cfg2.N) :
    (dat2 (V7 m ρ) c).flushed 3 t = ((cfg2.win 3).blk t).view.read (Elt Ideal) (updArr m ρ c) := by
  obtain ⟨-, -, -, -, -, -, e0, e1⟩ := rowblock t
  show (cfg2.win 3).cut (grid2.coords t) ((dat2 (V7 m ρ) c).after 3 t) = _
  rw [after2_3, outs_upd m ρ c t]
  funext j
  show k2_pay3 (F := Ideal) (iblk2 (V7 m ρ) c 0 t) (iblk2 (V7 m ρ) c 1 t) (iblk2 (V7 m ρ) c 2 t) ((cfg2.win 3).xinj (grid2.coords t) j) = updArr m ρ c (((cfg2.win 3).blk t).view.emb j)
  refine tile_at m ρ c t _ _ ?_ ?_
  · show win2_3.index t (0 : Fin 2) * 1000 + 1 * (j 0).val = t.val * 1000 + (j 0).val
    rw [e0]; omega
  · show win2_3.index t (1 : Fin 2) * 96 + 1 * (j 1).val = (j 1).val
    rw [e1]; omega

/-- An entry of the first output is in point t's block when, on each axis, its coordinate is in the block's range. -/
theorem upd_mem_blk (t : Fin cfg2.N) (i : S50000x96.Idx) :
    i ∈ ((cfg2.win 3).blk t).view.set ↔ ∀ a : Fin 2, win2_3.index t a * S1000x96.size a ≤ (i a).val ∧ (i a).val < win2_3.index t a * S1000x96.size a + S1000x96.size a := by
  show i ∈ ((View.whole main_v34_0).slice (win2_3.rect t)).set ↔ _
  rw [View.set_slice_whole, Rect.mem_set_unit]
  exact Iff.rfl

/-- Every entry of the first output is written back by the point of its row block: row p by point p / 1000. -/
theorem upd_cover (i : S50000x96.Idx) :
    ∃ t : Fin cfg2.N, (cfg2.win 3).flush t = true ∧ i ∈ ((cfg2.win 3).blk t).view.set := by
  have hi0 : (i 0).val < 50000 := idx2_lt0 i
  have hi1 : (i 1).val < 96 := idx2_lt1 i
  have hN : cfg2.N = 50 := N_2
  obtain ⟨t, ht⟩ : ∃ t : Fin cfg2.N, t.val = (i 0).val / 1000 := ⟨⟨(i 0).val / 1000, by rw [hN]; omega⟩, rfl⟩
  obtain ⟨-, -, -, -, -, -, e0, e1⟩ := rowblock t
  refine ⟨t, flush2_3 t, ?_⟩
  rw [upd_mem_blk]
  intro a
  match a with
  | ⟨0, _⟩ => show win2_3.index t (0 : Fin 2) * 1000 ≤ (i 0).val ∧ (i 0).val < win2_3.index t (0 : Fin 2) * 1000 + 1000
              rw [e0]; omega
  | ⟨1, _⟩ => show win2_3.index t (1 : Fin 2) * 96 ≤ (i 1).val ∧ (i 1).val < win2_3.index t (1 : Fin 2) * 96 + 96
              rw [e1]; omega

/-- So the first output's array ends holding the update. -/
theorem upd_arr (c : Dev nD) : (dat2 (V7 m ρ) c).arrAt 3 cfg2.N = updArr m ρ c :=
  (dat2 (V7 m ρ) c).arrAt_eq_of_cover 3 (updArr m ρ c) (fun t _ => upd_flushed m ρ c t) upd_cover

/-- The first output at the region's exit is that array. -/
theorem upd_exit (c : Dev nD) : W8 m ρ c (Proc.devRef .tc main_v34_0) = updArr m ρ c :=
  (W8_arr m ρ c 3).trans (upd_arr m ρ c)

end Cover

theorem hnew_eq (c : Dev nD) : toMat (W8 m ρ c (Proc.devRef .tc main_v34_0)) = Spec.hnew (toMat (W7 m ρ c (Proc.devRef .tc main_v14_0))) (toMat (W7 m ρ c (Proc.devRef .tc main_v33))) (toMat (W7 m ρ c (Proc.devRef .tc main_v32))) := by
  funext p q
  exact congrFun (upd_exit m ρ c) (Idealize.ShloMosaic.ValueIdx.ix2 p q)
theorem sum_eq (c : Dev nD) : toAcc (W8 m ρ c (Proc.devRef .tc main_v34_1))
    = fun c' j => coreAcc 25 1000 (by norm_num : 50000 = 2 * (25 * 1000)) (fun i => Spec.hnew (toMat (W7 m ρ c (Proc.devRef .tc main_v14_0))) (toMat (W7 m ρ c (Proc.devRef .tc main_v33))) (toMat (W7 m ρ c (Proc.devRef .tc main_v32))) i j) c' :=
  Cert.KRegion2Acc.sum_eq m ρ c
theorem sumsq_eq (c : Dev nD) : toAcc (W8 m ρ c (Proc.devRef .tc main_v34_2))
    = fun c' j => coreAcc 25 1000 (by norm_num : 50000 = 2 * (25 * 1000)) (fun i => Spec.hnew (toMat (W7 m ρ c (Proc.devRef .tc main_v14_0))) (toMat (W7 m ρ c (Proc.devRef .tc main_v33))) (toMat (W7 m ρ c (Proc.devRef .tc main_v32))) i j * Spec.hnew (toMat (W7 m ρ c (Proc.devRef .tc main_v14_0))) (toMat (W7 m ρ c (Proc.devRef .tc main_v33))) (toMat (W7 m ρ c (Proc.devRef .tc main_v32))) i j) c' :=
  Cert.KRegion2Acc.sumsq_eq m ρ c

end Cert.KRegion2

end
-- ==== Proof.KRegion4.lean ====
/-
  The last region (normalise, scale, shift, rectify, add the residual, over the edges) read back: the variance row is
  clamped at zero once more inside the body.
-/
import proofs.«422570_j39187281608763_2_alg».proof.Proof.KernelRun
import proofs.«422570_j39187281608763_2_alg».proof.Proof.Conv
import proofs.«422570_j39187281608763_2_alg».proof.Proof.KSpec
import Idealize.ShloMosaic.Lib.Pipeline.Value
import Idealize.ShloMosaic.Lib.ValueIdx
import Idealize.ShloMosaic.Lib.ValueLayout

noncomputable section

open scoped BigOperators

namespace Cert.KRegion4

open Cert Cert.KernelIdeal Cert.KernelIdeal.Gen Cert.Conv Cert.KSpec
open Idealize.ShloMosaic Idealize.ShloMosaic.TcCoe Idealize.SL.Sem

open Idealize.ShloMosaic.ValueIdx
open Idealize.ShloMosaic.Pipeline (Dat)

/-! ## One entry of the result

At row r and column q the region computes, from the entry x of the matrix to normalise, the entry of the residual,
and column q of the mean, variance, scale and shift rows,
  residual + max (scale · (x − mean) · rsqrt (max (variance, 0) + ε) + shift, 0). -/

/-- One entry of the result, from the six numbers it depends on. -/
def bnEntry (x xin mean var gam bet : EReal) : EReal :=
  xin + max (gam * (x - mean) * Ideal.rsqrt (max var Spec.z32 + Spec.epsBn) + bet) Spec.z32

/-- Equal arguments give equal entries. -/
theorem bnEntry_congr {x x' xin xin' mean mean' var var' gam gam' bet bet' : EReal}
    (h0 : x = x') (h1 : xin = xin') (h2 : mean = mean') (h3 : var = var') (h4 : gam = gam') (h5 : bet = bet') :
    bnEntry x xin mean var gam bet = bnEntry x' xin' mean' var' gam' bet' := by
  rw [h0, h1, h2, h3, h4, h5]

/-- The offset (0, 0) is the zero offset. -/
theorem zero_off : (![0, 0] : Fin 2 → Nat) = fun _ => 0 := funext fun a => by fin_cases a <;> rfl

/-! ## The body on one block

A block is 10000 rows of 96 columns; the four rows (mean, variance, scale, shift) are [1, 96] arrays, each laid
over the block's 10000 rows. -/

/-- The body's result at row p, column q of a block, from the block of the matrix to normalise (x0), the block of
    the residual (x1) and the mean, variance, scale and shift rows (x2 … x5). -/
theorem out_at (x0 x1 : Vec Ideal S10000x96 .f32) (x2 x3 x4 x5 : Vec Ideal S1x96 .f32) (p : Fin 10000) (q : Fin 96) :
    out4_6 x0 x1 x2 x3 x4 x5 (ix2 p q)
      = bnEntry (x0 (ix2 p q)) (x1 (ix2 p q)) (x2 (ix2 0 q)) (x3 (ix2 0 q)) (x4 (ix2 0 q)) (x5 (ix2 0 q)) := by
  unfold out4_6
  rw [View.canon_unit_zero zero_off]
  simp only [View.ld_unit_zero (S := S10000x96) zero_off, View.ld_unit_zero (S := S1x96) zero_off]
  unfold k4_pay1
  simp only [shapeCast_self, addf_apply, maximumf_apply, mulf_apply, subf_apply]
  rw [broadcastTo_1b_ab_apply x4 broadcasts_S1x96_S10000x96 p q, broadcastTo_1b_ab_apply x2 broadcasts_S1x96_S10000x96 p q,
    broadcastTo_1b_ab_apply x5 broadcasts_S1x96_S10000x96 p q, broadcastTo_1b_ab_apply _ broadcasts_S1x96_S10000x96 p q]
  rfl

/-! ## The whole result as one function of the six input arrays -/

/-- The result array, entry by entry: at (r, q) the entry formula of row r of the two matrices and column q of the
    four rows. -/
def edgeOut (a0 a1 : S800000x96.Idx → EReal) (a2 a3 a4 a5 : S1x96.Idx → EReal) : S800000x96.Idx → EReal :=
  fun i => bnEntry (a0 i) (a1 i) (a2 (ix2 0 ⟨(i 1).val, idx2_lt1 i⟩)) (a3 (ix2 0 ⟨(i 1).val, idx2_lt1 i⟩))
    (a4 (ix2 0 ⟨(i 1).val, idx2_lt1 i⟩)) (a5 (ix2 0 ⟨(i 1).val, idx2_lt1 i⟩))

theorem edgeOut_at (a0 a1 : S800000x96.Idx → EReal) (a2 a3 a4 a5 : S1x96.Idx → EReal) (r : Fin 800000) (q : Fin 96) :
    edgeOut a0 a1 a2 a3 a4 a5 (ix2 r q)
      = bnEntry (a0 (ix2 r q)) (a1 (ix2 r q)) (a2 (ix2 0 q)) (a3 (ix2 0 q)) (a4 (ix2 0 q)) (a5 (ix2 0 q)) := rfl

/-- Read as a matrix, the result is the normalisation with rectifier and residual of the two matrices and the
    four rows, the variance row clamped at zero. -/
theorem toMat_edgeOut (a0 a1 : S800000x96.Idx → EReal) (a2 a3 a4 a5 : S1x96.Idx → EReal) :
    toMat (edgeOut a0 a1 a2 a3 a4 a5)
      = Spec.normRelu (toMat a0) (toMat a1) (toRow1 a2) (fun j => max (toRow1 a3 j) Spec.z32) (toRow1 a4) (toRow1 a5) :=
  funext fun p => funext fun q => rfl

/-! ## Which block each grid point reads and writes

The grid has 80 points. At point t the two matrices' windows and the result's window are at block (t, 0): rows
10000·t … 10000·t + 9999; the four rows' windows are always at block (0, 0), the whole [1, 96] array. -/

theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row p of block t is a row of the array: 10000·t + p < 800000 for t < 80, p < 10000. -/
theorem row_lt (t : Fin cfg4.N) (p : Fin 10000) : t.val * 10000 + p.val < 800000 := by
  have ht := t.isLt
  have hN : cfg4.N = 80 := N_4
  have hp := p.isLt
  omega

section Blocks

variable (V : (c : Dev nD) → (b : Ref sig .tc) → Buf (Elt Ideal) ((c : Thread nD τ).loc b))

/-- Entry (p, q) of point t's block of the matrix to normalise is entry (10000·t + p, q) of the array. -/
theorem x_block (c : Dev nD) (t : Fin cfg4.N) (p : Fin 10000) (q : Fin 96) :
    (iblk4 V c 0 t : Vec Ideal S10000x96 .f32) (ix2 p q)
      = (V c main_v18_0 : S800000x96.Idx → EReal) (ix2 ⟨t.val * 10000 + p.val, row_lt t p⟩ q) := by
  obtain ⟨e0, e1, -⟩ := index_facts t
  unfold iblk4
  rw [View.read_apply]
  show V c main_v18_0 _ = V c main_v18_0 _
  congr 1
  funext a; apply Fin.ext
  match a with
  | ⟨0, _⟩ => show win4_0.index t (0 : Fin 2) * 10000 + 1 * p.val = t.val * 10000 + p.val; omega
  | ⟨1, _⟩ => show win4_0.index t (1 : Fin 2) * 96 + 1 * q.val = q.val; omega

/-- Entry (p, q) of point t's block of the residual is entry (10000·t + p, q) of the array. -/
theorem xin_block (c : Dev nD) (t : Fin cfg4.N) (p : Fin 10000) (q : Fin 96) :
    (iblk4 V c 1 t : Vec Ideal S10000x96 .f32) (ix2 p q)
      = (V c main_arg1 : S800000x96.Idx → EReal) (ix2 ⟨t.val * 10000 + p.val, row_lt t p⟩ q) := by
  obtain ⟨-, -, e0, e1, -⟩ := index_facts t
  unfold iblk4
  rw [View.read_apply]
  show V c main_arg1 _ = V c main_arg1 _
  congr 1
  funext a; apply Fin.ext
  match a with
  | ⟨0, _⟩ => show win4_1.index t (0 : Fin 2) * 10000 + 1 * p.val = t.val * 10000 + p.val; omega
  | ⟨1, _⟩ => show win4_1.index t (1 : Fin 2) * 96 + 1 * q.val = q.val; omega

/-- Column q of the mean row's block, at any point, is column q of the array: its one block is the whole array. -/
theorem mean_block (c : Dev nD) (t : Fin cfg4.N) (q : Fin 96) :
    (iblk4 V c 2 t : Vec Ideal S1x96 .f32) (ix2 0 q) = (V c main_v22 : S1x96.Idx → EReal) (ix2 0 q) := by
  obtain ⟨-, -, -, -, e0, e1, -⟩ := index_facts t
  unfold iblk4
  rw [View.read_apply]
  show V c main_v22 _ = V c main_v22 _
  congr 1
  funext a; apply Fin.ext
  match a with
  | ⟨0, _⟩ => show win4_2.index t (0 : Fin 2) * 1 + 1 * 0 = 0; omega
  | ⟨1, _⟩ => show win4_2.index t (1 : Fin 2) * 96 + 1 * q.val = q.val; omega

/-- Column q of the variance row's block, at any point, is column q of the array: its one block is the whole array. -/
theorem variance_block (c : Dev nD) (t : Fin cfg4.N) (q : Fin 96) :
    (iblk4 V c 3 t : Vec Ideal S1x96 .f32) (ix2 0 q) = (V c main_v28 : S1x96.Idx → EReal) (ix2 0 q) := by
  obtain ⟨-, -, -, -, -, -, e0, e1, -⟩ := index_facts t
  unfold iblk4
  rw [View.read_apply]
  show V c main_v28 _ = V c main_v28 _
  congr 1
  funext a; apply Fin.ext
  match a with
  | ⟨0, _⟩ => show win4_3.index t (0 : Fin 2) * 1 + 1 * 0 = 0; omega
  | ⟨1, _⟩ => show win4_3.index t (1 : Fin 2) * 96 + 1 * q.val = q.val; omega

/-- Column q of the scale row's block, at any point, is column q of the array: its one block is the whole array. -/
theorem scale_block (c : Dev nD) (t : Fin cfg4.N) (q : Fin 96) :
    (iblk4 V c 4 t : Vec Ideal S1x96 .f32) (ix2 0 q) = (V c main_v7 : S1x96.Idx → EReal) (ix2 0 q) := by
  obtain ⟨-, -, -, -, -, -, -, -, e0, e1, -⟩ := index_facts t
  unfold iblk4
  rw [View.read_apply]
  show V c main_v7 _ = V c main_v7 _
  congr 1
  funext a; apply Fin.ext
  match a with
  | ⟨0, _⟩ => show win4_4.index t (0 : Fin 2) * 1 + 1 * 0 = 0; omega
  | ⟨1, _⟩ => show win4_4.index t (1 : Fin 2) * 96 + 1 * q.val = q.val; omega

/-- Column q of the shift row's block, at any point, is column q of the array: its one block is the whole array. -/
theorem shift_block (c : Dev nD) (t : Fin cfg4.N) (q : Fin 96) :
    (iblk4 V c 5 t : Vec Ideal S1x96 .f32) (ix2 0 q) = (V c main_v8 : S1x96.Idx → EReal) (ix2 0 q) := by
  obtain ⟨-, -, -, -, -, -, -, -, -, -, e0, e1, -⟩ := index_facts t
  unfold iblk4
  rw [View.read_apply]
  show V c main_v8 _ = V c main_v8 _
  congr 1
  funext a; apply Fin.ext
  match a with
  | ⟨0, _⟩ => show win4_5.index t (0 : Fin 2) * 1 + 1 * 0 = 0; omega
  | ⟨1, _⟩ => show win4_5.index t (1 : Fin 2) * 96 + 1 * q.val = q.val; omega

/-! ## What a grid point writes back, and the array after the last point -/

/-- What point t writes back is block t of the whole result. -/
theorem wrote_back (c : Dev nD) (t : Fin cfg4.N) :
    (dat4 V c).flushed 6 t = ((cfg4.win 6).blk t).view.read (Elt Ideal) (edgeOut (V c main_v18_0) (V c main_arg1) (V c main_v22) (V c main_v28) (V c main_v7) (V c main_v8)) := by
  show (cfg4.win 6).cut (grid4.coords t) ((dat4 V c).after 6 t) = _
  rw [after4_6]
  funext j
  obtain ⟨p, q, rfl⟩ : ∃ (p : Fin 10000) (q : Fin 96), j = ix2 p q := ⟨j 0, j 1, eq_ix2 j⟩
  rw [View.read_apply]
  have he : ((cfg4.win 6).blk t).view.emb (ix2 p q) = ix2 ⟨t.val * 10000 + p.val, row_lt t p⟩ q := by
    obtain ⟨-, -, -, -, -, -, -, -, -, -, -, -, e0, e1⟩ := index_facts t
    funext a; apply Fin.ext
    match a with
    | ⟨0, _⟩ => show win4_6.index t (0 : Fin 2) * 10000 + 1 * p.val = t.val * 10000 + p.val; omega
    | ⟨1, _⟩ => show win4_6.index t (1 : Fin 2) * 96 + 1 * q.val = q.val; omega
  show out4_6 (iblk4 V c 0 t) (iblk4 V c 1 t) (iblk4 V c 2 t) (iblk4 V c 3 t) (iblk4 V c 4 t) (iblk4 V c 5 t) (ix2 p q)
    = edgeOut (V c main_v18_0) (V c main_arg1) (V c main_v22) (V c main_v28) (V c main_v7) (V c main_v8) (((cfg4.win 6).blk t).view.emb (ix2 p q))
  rw [he, edgeOut_at]
  refine (out_at (iblk4 V c 0 t) (iblk4 V c 1 t) (iblk4 V c 2 t) (iblk4 V c 3 t) (iblk4 V c 4 t) (iblk4 V c 5 t) p q).trans ?_
  exact bnEntry_congr (x_block V c t p q) (xin_block V c t p q) (mean_block V c t q) (variance_block V c t q)
    (scale_block V c t q) (shift_block V c t q)

/-- An index of the array lies in point t's block iff each coordinate lies in the block's range on its axis. -/
theorem in_block (t : Fin cfg4.N) (i : S800000x96.Idx) :
    i ∈ ((cfg4.win 6).blk t).view.set ↔ ∀ a : Fin 2, win4_6.index t a * S10000x96.size a ≤ (i a).val
      ∧ (i a).val < win4_6.index t a * S10000x96.size a + S10000x96.size a := by
  show i ∈ ((View.whole main_v46).slice (win4_6.rect t)).set ↔ _
  rw [View.set_slice_whole, Rect.mem_set_unit]
  exact Iff.rfl

/-- Every entry of the array is written back by some point: row r lies in block r / 10000. -/
theorem covered (i : S800000x96.Idx) :
    ∃ t : Fin cfg4.N, (cfg4.win 6).flush t = true ∧ i ∈ ((cfg4.win 6).blk t).view.set := by
  have hi0 : (i 0).val < 800000 := idx2_lt0 i
  have hi1 : (i 1).val < 96 := idx2_lt1 i
  have hN : cfg4.N = 80 := N_4
  obtain ⟨t, ht⟩ : ∃ t : Fin cfg4.N, t.val = (i 0).val / 10000 := ⟨⟨(i 0).val / 10000, by omega⟩, rfl⟩
  obtain ⟨-, -, -, -, -, -, -, -, -, -, -, -, e0, e1⟩ := index_facts t
  refine ⟨t, flush4_6 t, ?_⟩
  rw [in_block]
  intro a
  match a with
  | ⟨0, _⟩ =>
    show win4_6.index t (0 : Fin 2) * 10000 ≤ (i 0).val ∧ (i 0).val < win4_6.index t (0 : Fin 2) * 10000 + 10000
    omega
  | ⟨1, _⟩ =>
    show win4_6.index t (1 : Fin 2) * 96 ≤ (i 1).val ∧ (i 1).val < win4_6.index t (1 : Fin 2) * 96 + 96
    omega

/-- After the last point the result array holds the whole result. -/
theorem final (c : Dev nD) : (dat4 V c).arrAt 6 cfg4.N = edgeOut (V c main_v18_0) (V c main_arg1) (V c main_v22) (V c main_v28) (V c main_v7) (V c main_v8) :=
  (dat4 V c).arrAt_eq_of_cover 6 (edgeOut (V c main_v18_0) (V c main_arg1) (V c main_v22) (V c main_v28) (V c main_v7) (V c main_v8)) (fun t _ => wrote_back V c t) covered

end Blocks

variable (m : (ℓ : Loc nD τ sig) → Buf (Elt Ideal) ℓ) (ρ : Dev nD → PrngReg)

theorem out_e (c : Dev nD) : toMat (W11 m ρ c (Proc.devRef .tc main_v46))
    = Spec.normRelu (toMat (W10 m ρ c (Proc.devRef .tc main_v18_0))) (toMat (W10 m ρ c (Proc.devRef .tc main_arg1))) (toRow1 (W10 m ρ c (Proc.devRef .tc main_v22)))
        (fun j => max (toRow1 (W10 m ρ c (Proc.devRef .tc main_v28)) j) Spec.z32) (toRow1 (W10 m ρ c (Proc.devRef .tc main_v7))) (toRow1 (W10 m ρ c (Proc.devRef .tc main_v8))) := by
  have hW : (W11 m ρ c (Proc.devRef .tc main_v46) : S800000x96.Idx → EReal) = edgeOut (V10 m ρ c main_v18_0) (V10 m ρ c main_arg1) (V10 m ρ c main_v22) (V10 m ρ c main_v28) (V10 m ρ c main_v7) (V10 m ρ c main_v8) :=
    (W11_arr m ρ c 6).trans (final (V10 m ρ) c)
  exact (congrArg toMat hW).trans (toMat_edgeOut _ _ _ _ _ _)

end Cert.KRegion4

end
-- ==== Proof.KRegion34.lean ====
/-
  The last two regions (normalise, scale, shift, rectify, add the residual) read back, over the nodes and over the
  edges: the variance row is clamped at zero once more inside the body.

  One body at two sizes. At a grid point the body holds a block of consecutive rows of the matrix x to normalise and of
  the residual x_in and the four [1, 96] rows mean, var, γ, β whole, and leaves in the output block, entry (p, q),
      x_in(p, q) + max(γ(q)·(x(p, q) − mean(q))·rsqrt(max(var(q), 0) + ε_bn) + β(q), 0):
  every operation is pointwise, a row being broadcast over the block's rows.

  Over the nodes (ten blocks of 5000 rows), proved here: point t's matrix blocks are rows t·5000 … t·5000 + 4999 of the
  arrays and the rows' blocks are the rows themselves, so what point t writes back is block t of ONE whole-array
  function of the six arrays as the region finds them; row r lies in the block of point r / 5000, so the ten blocks
  tile the output and it ends holding that function, which entry by entry is the specification's normRelu with the
  variance row clamped at zero. Over the edges (eighty blocks of 10000 rows) the same reading is made in its own
  module and cited here.
-/
import proofs.«422570_j39187281608763_2_alg».proof.Proof.KernelRun
import proofs.«422570_j39187281608763_2_alg».proof.Proof.Conv
import proofs.«422570_j39187281608763_2_alg».proof.Proof.KSpec
import proofs.«422570_j39187281608763_2_alg».proof.Proof.KRegion4
import Idealize.ShloMosaic.Lib.Pipeline.Value
import Idealize.ShloMosaic.Lib.ValueIdx

noncomputable section

open scoped BigOperators

namespace Cert.KRegion34

open Cert Cert.KernelIdeal Cert.KernelIdeal.Gen Cert.Conv Cert.KSpec
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The body at one entry -/

theorem hz : (![0, 0] : Fin 2 → Nat) = fun _ => 0 := funext fun a => by fin_cases a <;> rfl

/-- The pointwise formula of the body at one entry. -/
def nrm (x xin mean var gam bet : EReal) : EReal :=
  xin + max (gam * (x - mean) * Ideal.rsqrt (max var Spec.z32 + Spec.epsBn) + bet) Spec.z32

theorem rsqrt_apply {s : Shape} {φ : FTy} (a : FVec Ideal s φ) (i : s.Idx) : rsqrt a i = Ideal.rsqrt (a i) := rfl

theorem nrm_congr {a a' b b' c c' d d' e e' f f' : EReal} (h1 : a = a') (h2 : b = b') (h3 : c = c') (h4 : d = d')
    (h5 : e = e') (h6 : f = f') : nrm a b c d e f = nrm a' b' c' d' e' f' := by
  subst h1 h2 h3 h4 h5 h6; rfl

/-! ## The node region: ten blocks of 5000 rows -/

/-- A [1, 96] row broadcast over the 5000 rows of a block reads the row at the column. -/
theorem bcast_h (x : Vec Ideal S1x96 .f32) (p : Fin 5000) (q : Fin 96) :
    broadcastTo S5000x96 x broadcasts_S1x96_S5000x96 (ix2 p q) = x (ix2 0 q) :=
  broadcastTo_apply x _ (ix2 p q) (ix2 0 q) (fun a => by
    match a with
    | ⟨0, _⟩ => rfl
    | ⟨1, _⟩ => rfl)

/-- What the body leaves in the output block, entry (p, q): the pointwise formula of the two matrix blocks at (p, q)
    and of the four rows at column q. -/
theorem pay_h (x0 x1 : Vec Ideal S5000x96 .f32) (x2 x3 x4 x5 : Vec Ideal S1x96 .f32) (p : Fin 5000) (q : Fin 96) :
    out3_6 x0 x1 x2 x3 x4 x5 (ix2 p q)
      = nrm (x0 (ix2 p q)) (x1 (ix2 p q)) (x2 (ix2 0 q)) (x3 (ix2 0 q)) (x4 (ix2 0 q)) (x5 (ix2 0 q)) := by
  unfold out3_6
  rw [View.canon_unit_zero hz]
  simp only [View.ld_unit_zero (S := S5000x96) hz, View.ld_unit_zero (S := S1x96) hz]
  unfold k3_pay1
  simp only [shapeCast_self, addf_apply, maximumf_apply, mulf_apply, subf_apply]
  rw [bcast_h x4 p q, bcast_h x2 p q, bcast_h x5 p q, bcast_h _ p q]
  rfl

/-- The whole array the node region leaves: the pointwise formula, each row vector read at the column. -/
def G_h (x xin : Vec Ideal S50000x96 .f32) (mean var gam bet : Vec Ideal S1x96 .f32) : Vec Ideal S50000x96 .f32 :=
  fun i => nrm (x i) (xin i) (mean (ix2 0 ⟨(i 1).val, idx2_lt1 i⟩)) (var (ix2 0 ⟨(i 1).val, idx2_lt1 i⟩))
    (gam (ix2 0 ⟨(i 1).val, idx2_lt1 i⟩)) (bet (ix2 0 ⟨(i 1).val, idx2_lt1 i⟩))

/-- The whole-array formula at row r, column q. -/
theorem G_h_apply (x xin : Vec Ideal S50000x96 .f32) (mean var gam bet : Vec Ideal S1x96 .f32) (r : Fin 50000) (q : Fin 96) :
    G_h x xin mean var gam bet (ix2 r q)
      = nrm (x (ix2 r q)) (xin (ix2 r q)) (mean (ix2 0 q)) (var (ix2 0 q)) (gam (ix2 0 q)) (bet (ix2 0 q)) := rfl

/-- The block index maps of the node region, decided over its ten grid points: the two matrices and the output move
    with the point along the rows, the four rows stay. -/
theorem idx_h : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row p of block t is row t·5000 + p of the array. -/
theorem lt_h (t : Fin cfg3.N) (p : Fin 5000) : t.val * 5000 + p.val < 50000 := by
  have h := t.isLt; have h2 : cfg3.N = 10 := N_3; have := p.isLt; omega

section
variable (V : (c : Dev nD) → (b : Ref sig .tc) → Buf (Elt Ideal) ((c : Thread nD τ).loc b))

/-- Entry (p, q) of the normalised matrix's block at point t is entry (t·5000 + p, q) of the array. -/
theorem blk0_h (c : Dev nD) (t : Fin cfg3.N) (p : Fin 5000) (q : Fin 96) :
    (iblk3 V c 0 t : Vec Ideal S5000x96 .f32) (ix2 p q)
      = (V c main_v34_0 : Vec Ideal S50000x96 .f32) (ix2 ⟨t.val * 5000 + p.val, lt_h t p⟩ q) := by
  obtain ⟨e0, e1, -⟩ := idx_h t
  unfold iblk3
  rw [View.read_apply]
  show V c main_v34_0 _ = V c main_v34_0 _
  congr 1
  funext a; apply Fin.ext
  match a with
  | ⟨0, _⟩ => show win3_0.index t (0 : Fin 2) * 5000 + 1 * p.val = t.val * 5000 + p.val; rw [e0]; omega
  | ⟨1, _⟩ => show win3_0.index t (1 : Fin 2) * 96 + 1 * q.val = q.val; rw [e1]; omega

/-- Entry (p, q) of the residual matrix's block at point t is entry (t·5000 + p, q) of the array. -/
theorem blk1_h (c : Dev nD) (t : Fin cfg3.N) (p : Fin 5000) (q : Fin 96) :
    (iblk3 V c 1 t : Vec Ideal S5000x96 .f32) (ix2 p q)
      = (V c main_arg0 : Vec Ideal S50000x96 .f32) (ix2 ⟨t.val * 5000 + p.val, lt_h t p⟩ q) := by
  have e0 := (idx_h t).2.2.1
  have e1 := (idx_h t).2.2.2.1
  unfold iblk3
  rw [View.read_apply]
  show V c main_arg0 _ = V c main_arg0 _
  congr 1
  funext a; apply Fin.ext
  match a with
  | ⟨0, _⟩ => show win3_1.index t (0 : Fin 2) * 5000 + 1 * p.val = t.val * 5000 + p.val; rw [e0]; omega
  | ⟨1, _⟩ => show win3_1.index t (1 : Fin 2) * 96 + 1 * q.val = q.val; rw [e1]; omega

/-- The mean row's block at any point is the row. -/
theorem blk2_h (c : Dev nD) (t : Fin cfg3.N) (q : Fin 96) :
    (iblk3 V c 2 t : Vec Ideal S1x96 .f32) (ix2 0 q) = (V c main_v38 : Vec Ideal S1x96 .f32) (ix2 0 q) := by
  have e0 := (idx_h t).2.2.2.2.1
  have e1 := (idx_h t).2.2.2.2.2.1
  unfold iblk3
  rw [View.read_apply]
  show V c main_v38 _ = V c main_v38 _
  congr 1
  funext a; apply Fin.ext
  match a with
  | ⟨0, _⟩ => show win3_2.index t (0 : Fin 2) * 1 + 1 * 0 = 0; rw [e0]
  | ⟨1, _⟩ => show win3_2.index t (1 : Fin 2) * 96 + 1 * q.val = q.val; rw [e1]; omega

/-- The variance row's block at any point is the row. -/
theorem blk3_h (c : Dev nD) (t : Fin cfg3.N) (q : Fin 96) :
    (iblk3 V c 3 t : Vec Ideal S1x96 .f32) (ix2 0 q) = (V c main_v44 : Vec Ideal S1x96 .f32) (ix2 0 q) := by
  have e0 := (idx_h t).2.2.2.2.2.2.1
  have e1 := (idx_h t).2.2.2.2.2.2.2.1
  unfold iblk3
  rw [View.read_apply]
  show V c main_v44 _ = V c main_v44 _
  congr 1
  funext a; apply Fin.ext
  match a with
  | ⟨0, _⟩ => show win3_3.index t (0 : Fin 2) * 1 + 1 * 0 = 0; rw [e0]
  | ⟨1, _⟩ => show win3_3.index t (1 : Fin 2) * 96 + 1 * q.val = q.val; rw [e1]; omega

/-- The scale row's block at any point is the row. -/
theorem blk4_h (c : Dev nD) (t : Fin cfg3.N) (q : Fin 96) :
    (iblk3 V c 4 t : Vec Ideal S1x96 .f32) (ix2 0 q) = (V c main_v5 : Vec Ideal S1x96 .f32) (ix2 0 q) := by
  have e0 := (idx_h t).2.2.2.2.2.2.2.2.1
  have e1 := (idx_h t).2.2.2.2.2.2.2.2.2.1
  unfold iblk3
  rw [View.read_apply]
  show V c main_v5 _ = V c main_v5 _
  congr 1
  funext a; apply Fin.ext
  match a with
  | ⟨0, _⟩ => show win3_4.index t (0 : Fin 2) * 1 + 1 * 0 = 0; rw [e0]
  | ⟨1, _⟩ => show win3_4.index t (1 : Fin 2) * 96 + 1 * q.val = q.val; rw [e1]; omega

/-- The shift row's block at any point is the row. -/
theorem blk5_h (c : Dev nD) (t : Fin cfg3.N) (q : Fin 96) :
    (iblk3 V c 5 t : Vec Ideal S1x96 .f32) (ix2 0 q) = (V c main_v6 : Vec Ideal S1x96 .f32) (ix2 0 q) := by
  have e0 := (idx_h t).2.2.2.2.2.2.2.2.2.2.1
  have e1 := (idx_h t).2.2.2.2.2.2.2.2.2.2.2.1
  unfold iblk3
  rw [View.read_apply]
  show V c main_v6 _ = V c main_v6 _
  congr 1
  funext a; apply Fin.ext
  match a with
  | ⟨0, _⟩ => show win3_5.index t (0 : Fin 2) * 1 + 1 * 0 = 0; rw [e0]
  | ⟨1, _⟩ => show win3_5.index t (1 : Fin 2) * 96 + 1 * q.val = q.val; rw [e1]; omega

/-- What point t writes back is block t of the whole-array formula of the arrays as the region finds them. -/
theorem flushed_h (c : Dev nD) (t : Fin cfg3.N) :
    (dat3 V c).flushed 6 t = ((cfg3.win 6).blk t).view.read (Elt Ideal)
      (G_h (V c main_v34_0) (V c main_arg0) (V c main_v38) (V c main_v44) (V c main_v5) (V c main_v6)) := by
  show (cfg3.win 6).cut (grid3.coords t) ((dat3 V c).after 6 t) = _
  rw [after3_6]
  funext j
  obtain ⟨p, q, rfl⟩ : ∃ (p : Fin 5000) (q : Fin 96), j = ix2 p q := ⟨j 0, j 1, eq_ix2 j⟩
  rw [View.read_apply]
  have he : ((cfg3.win 6).blk t).view.emb (ix2 p q) = (ix2 ⟨t.val * 5000 + p.val, lt_h t p⟩ q : S50000x96.Idx) := by
    have e0 := (idx_h t).2.2.2.2.2.2.2.2.2.2.2.2.1
    have e1 := (idx_h t).2.2.2.2.2.2.2.2.2.2.2.2.2
    funext a; apply Fin.ext
    match a with
    | ⟨0, _⟩ => show win3_6.index t (0 : Fin 2) * 5000 + 1 * p.val = t.val * 5000 + p.val; rw [e0]; omega
    | ⟨1, _⟩ => show win3_6.index t (1 : Fin 2) * 96 + 1 * q.val = q.val; rw [e1]; omega
  show out3_6 (iblk3 V c 0 t) (iblk3 V c 1 t) (iblk3 V c 2 t) (iblk3 V c 3 t) (iblk3 V c 4 t) (iblk3 V c 5 t) (ix2 p q)
    = G_h (V c main_v34_0) (V c main_arg0) (V c main_v38) (V c main_v44) (V c main_v5) (V c main_v6)
        (((cfg3.win 6).blk t).view.emb (ix2 p q))
  rw [he, G_h_apply]
  refine (pay_h (iblk3 V c 0 t) (iblk3 V c 1 t) (iblk3 V c 2 t) (iblk3 V c 3 t) (iblk3 V c 4 t) (iblk3 V c 5 t) p q).trans ?_
  exact nrm_congr (blk0_h V c t p q) (blk1_h V c t p q) (blk2_h V c t q) (blk3_h V c t q) (blk4_h V c t q) (blk5_h V c t q)

/-- An index of the array is in point t's block iff each coordinate is in the block's range on its axis. -/
theorem mem_blk_h (t : Fin cfg3.N) (i : S50000x96.Idx) :
    i ∈ ((cfg3.win 6).blk t).view.set ↔ ∀ a : Fin 2, win3_6.index t a * S5000x96.size a ≤ (i a).val
      ∧ (i a).val < win3_6.index t a * S5000x96.size a + S5000x96.size a := by
  show i ∈ ((View.whole main_v45).slice (win3_6.rect t)).set ↔ _
  rw [View.set_slice_whole, Rect.mem_set_unit]
  exact Iff.rfl

/-- Row r lies in the block of point r / 5000: the ten blocks tile the array. -/
theorem cover_h (i : S50000x96.Idx) :
    ∃ t : Fin cfg3.N, (cfg3.win 6).flush t = true ∧ i ∈ ((cfg3.win 6).blk t).view.set := by
  have hi0 : (i 0).val < 50000 := idx2_lt0 i
  have hi1 : (i 1).val < 96 := idx2_lt1 i
  have hN : cfg3.N = 10 := N_3
  obtain ⟨t, ht⟩ : ∃ t : Fin cfg3.N, t.val = (i 0).val / 5000 := ⟨⟨(i 0).val / 5000, by rw [hN]; omega⟩, rfl⟩
  refine ⟨t, flush3_6 t, ?_⟩
  rw [mem_blk_h]
  have e0 := (idx_h t).2.2.2.2.2.2.2.2.2.2.2.2.1
  have e1 := (idx_h t).2.2.2.2.2.2.2.2.2.2.2.2.2
  intro a
  match a with
  | ⟨0, _⟩ => show win3_6.index t (0 : Fin 2) * 5000 ≤ (i 0).val ∧ (i 0).val < win3_6.index t (0 : Fin 2) * 5000 + 5000; rw [e0, ht]; omega
  | ⟨1, _⟩ => show win3_6.index t (1 : Fin 2) * 96 ≤ (i 1).val ∧ (i 1).val < win3_6.index t (1 : Fin 2) * 96 + 96; rw [e1]; omega

/-- The array after the region: the whole-array formula of the arrays as the region finds them. -/
theorem final_h (c : Dev nD) : (dat3 V c).arrAt 6 cfg3.N
    = G_h (V c main_v34_0) (V c main_arg0) (V c main_v38) (V c main_v44) (V c main_v5) (V c main_v6) :=
  (dat3 V c).arrAt_eq_of_cover 6 (G_h (V c main_v34_0) (V c main_arg0) (V c main_v38) (V c main_v44) (V c main_v5) (V c main_v6))
    (fun t _ => flushed_h V c t) cover_h

end

/-! ## The two arrays, read as matrices -/

theorem out_h (c : Dev nD) : toMat (W10 m ρ c (Proc.devRef .tc main_v45))
    = Spec.normRelu (toMat (W9 m ρ c (Proc.devRef .tc main_v34_0))) (toMat (W9 m ρ c (Proc.devRef .tc main_arg0))) (toRow1 (W9 m ρ c (Proc.devRef .tc main_v38)))
        (fun j => max (toRow1 (W9 m ρ c (Proc.devRef .tc main_v44)) j) Spec.z32) (toRow1 (W9 m ρ c (Proc.devRef .tc main_v5))) (toRow1 (W9 m ρ c (Proc.devRef .tc main_v6))) := by
  have hW : (W10 m ρ c (Proc.devRef .tc main_v45) : Vec Ideal S50000x96 .f32)
      = G_h (V9 m ρ c main_v34_0) (V9 m ρ c main_arg0) (V9 m ρ c main_v38) (V9 m ρ c main_v44) (V9 m ρ c main_v5) (V9 m ρ c main_v6) :=
    (W10_arr m ρ c 6).trans (final_h (V9 m ρ) c)
  funext p q
  rw [toMat_apply, hW]
  rfl
theorem out_e (c : Dev nD) : toMat (W11 m ρ c (Proc.devRef .tc main_v46))
    = Spec.normRelu (toMat (W10 m ρ c (Proc.devRef .tc main_v18_0))) (toMat (W10 m ρ c (Proc.devRef .tc main_arg1))) (toRow1 (W10 m ρ c (Proc.devRef .tc main_v22)))
        (fun j => max (toRow1 (W10 m ρ c (Proc.devRef .tc main_v28)) j) Spec.z32) (toRow1 (W10 m ρ c (Proc.devRef .tc main_v7))) (toRow1 (W10 m ρ c (Proc.devRef .tc main_v8))) := Cert.KRegion4.out_e m ρ c

end Cert.KRegion34

end
-- ==== Proof.KChain.lean ====
/-
  The idealized kernel's two results as functions of the launch memory: the boundary-by-boundary readings composed.
  Both results are the one-pass batch normalisation (with rectifier and residual) of a stage of the layer, the node
  update for the first and the edge pre-activation for the second, the column sums of the stage and of its square
  formed core by core and tile by tile. Between the boundaries every buffer a later part reads is carried unchanged
  across the regions and host stretches that do not write it.
-/
import proofs.«422570_j39187281608763_2_alg».proof.Proof.KernelRun
import proofs.«422570_j39187281608763_2_alg».proof.Proof.Conv
import proofs.«422570_j39187281608763_2_alg».proof.Proof.KSpec
import proofs.«422570_j39187281608763_2_alg».proof.Proof.KHost0
import proofs.«422570_j39187281608763_2_alg».proof.Proof.KRegion0
import proofs.«422570_j39187281608763_2_alg».proof.Proof.KHost1
import proofs.«422570_j39187281608763_2_alg».proof.Proof.KRegion1
import proofs.«422570_j39187281608763_2_alg».proof.Proof.KRegion1Acc
import proofs.«422570_j39187281608763_2_alg».proof.Proof.KHost23
import proofs.«422570_j39187281608763_2_alg».proof.Proof.KRegion2
import proofs.«422570_j39187281608763_2_alg».proof.Proof.KRegion34
import proofs.«422570_j39187281608763_2_alg».proof.Proof.KCarry

noncomputable section

open scoped BigOperators

namespace Cert.KChain

open Cert Cert.KernelIdeal Cert.KernelIdeal.Gen Cert.Conv Cert.KSpec
open Idealize.ShloMosaic Idealize.ShloMosaic.TcCoe Idealize.SL.Sem

variable (m : (ℓ : Loc nD τ sig) → Buf (Elt Ideal) ℓ) (ρ : Dev nD → PrngReg)

/-- The stages of the layer at the launch memory's arguments, for given node numbers of the two index vectors. -/
abbrev S (c : Dev nD) (srcN dstN : Fin 800000 → Fin 50000) : Spec.Stages :=
  Spec.stages (toMat (m ((c.tc : Thread nD τ).loc main_arg0))) (toMat (m ((c.tc : Thread nD τ).loc main_arg1))) srcN dstN
    (toMat (m ((c.tc : Thread nD τ).loc main_arg4))) (toRow (m ((c.tc : Thread nD τ).loc main_arg5))) (toMat (m ((c.tc : Thread nD τ).loc main_arg6))) (toRow (m ((c.tc : Thread nD τ).loc main_arg7)))
    (toMat (m ((c.tc : Thread nD τ).loc main_arg8))) (toRow (m ((c.tc : Thread nD τ).loc main_arg9))) (toMat (m ((c.tc : Thread nD τ).loc main_arg10))) (toRow (m ((c.tc : Thread nD τ).loc main_arg11)))
    (toMat (m ((c.tc : Thread nD τ).loc main_arg12))) (toRow (m ((c.tc : Thread nD τ).loc main_arg13)))

/-- The left half of two matrices laid side by side is the first of them: a column below 96 takes the first branch. -/
theorem leftHalf_sideBySide {n : Nat} (a b : Spec.Mat n 96) : leftHalf (sideBySide a b) = a := by
  funext i j
  have h : ((⟨j.val, by have := j.isLt; omega⟩ : Fin 192)).val < 96 := j.isLt
  unfold leftHalf sideBySide
  rw [dif_pos h]

/-- The right half of two matrices laid side by side is the second of them: column j + 96 takes the second branch,
    which reads column (j + 96) − 96 = j. -/
theorem rightHalf_sideBySide {n : Nat} (a b : Spec.Mat n 96) : rightHalf (sideBySide a b) = b := by
  funext i j
  have h : ¬ ((⟨j.val + 96, by have := j.isLt; omega⟩ : Fin 192)).val < 96 := by
    show ¬ (j.val + 96 < 96); omega
  unfold rightHalf sideBySide
  rw [dif_neg h]
  exact congrArg (b i) (Fin.ext (Nat.add_sub_cancel _ _))

/-! ## The index vectors are still the launch memory's where they are read -/

/-- The source index vector after the first region holds the node numbers the launch memory's does. -/
theorem holds_src2 (c : Dev nD) (srcN : Fin 800000 → Fin 50000) (hs : Holds (m ((c.tc : Thread nD τ).loc main_arg2)) srcN) :
    Holds (W2 m ρ c (Proc.devRef .tc main_arg2)) srcN := by
  rw [KCarry.c2_arg2]; exact hs

/-- The destination index vector after the first region holds the node numbers the launch memory's does. -/
theorem holds_dst2 (c : Dev nD) (dstN : Fin 800000 → Fin 50000) (hd : Holds (m ((c.tc : Thread nD τ).loc main_arg3)) dstN) :
    Holds (W2 m ρ c (Proc.devRef .tc main_arg3)) dstN := by
  rw [KCarry.c2_arg3]; exact hd

/-- The destination index vector after the second region holds the node numbers the launch memory's does. -/
theorem holds_dst6 (c : Dev nD) (dstN : Fin 800000 → Fin 50000) (hd : Holds (m ((c.tc : Thread nD τ).loc main_arg3)) dstN) :
    Holds (W6 m ρ c (Proc.devRef .tc main_arg3)) dstN := by
  rw [KCarry.c6_arg3]; exact hd

/-! ## The node-side projections

After the first region each projection is x·w + b with the weight stored transposed and the bias laid as a row, of
arrays the first host stretch made from the launch memory; a transposed stored weight gives the layer's x·wᵀ + b. -/

theorem Ah_S (c : Dev nD) (srcN dstN : Fin 800000 → Fin 50000) :
    toMat (W2 m ρ c (Proc.devRef .tc main_v14_0)) = (S m c srcN dstN).Ah := by
  rw [KRegion0.Ah_eq, KHost0.arg0_eq, KHost0.v9_eq, KHost0.v0_eq]; rfl

theorem Bh_S (c : Dev nD) (srcN dstN : Fin 800000 → Fin 50000) :
    toMat (W2 m ρ c (Proc.devRef .tc main_v14_1)) = (S m c srcN dstN).Bh := by
  rw [KRegion0.Bh_eq, KHost0.arg0_eq, KHost0.v10_eq, KHost0.v1_eq]; rfl

theorem Dh_S (c : Dev nD) (srcN dstN : Fin 800000 → Fin 50000) :
    toMat (W2 m ρ c (Proc.devRef .tc main_v14_2)) = (S m c srcN dstN).Dh := by
  rw [KRegion0.Dh_eq, KHost0.arg0_eq, KHost0.v12_eq, KHost0.v3_eq]; rfl

theorem Eh_S (c : Dev nD) (srcN dstN : Fin 800000 → Fin 50000) :
    toMat (W2 m ρ c (Proc.devRef .tc main_v14_3)) = (S m c srcN dstN).Eh := by
  rw [KRegion0.Eh_eq, KHost0.arg0_eq, KHost0.v13_eq, KHost0.v4_eq]; rfl

/-! ## The edge pre-activation, the gate and the two sums over arriving edges -/

/-- The edge pre-activation as the second region forms it is the layer's: the left half of the packed source rows is
    the D projection's row at the source, the destination rows are the E projection's, and the edge's own projection
    with the transposed stored weight is e·C_wᵀ + C_b. -/
theorem en_S (c : Dev nD) (srcN dstN : Fin 800000 → Fin 50000) (hs : Holds (m ((c.tc : Thread nD τ).loc main_arg2)) srcN) (hd : Holds (m ((c.tc : Thread nD τ).loc main_arg3)) dstN) :
    enK (toMat (W5 m ρ c (Proc.devRef .tc main_arg1))) (toMat (W5 m ρ c (Proc.devRef .tc main_v11))) (toRow1 (W5 m ρ c (Proc.devRef .tc main_v2))) (toMat (W5 m ρ c (Proc.devRef .tc main_v16))) (toMat (W5 m ρ c (Proc.devRef .tc main_v17)))
      = (S m c srcN dstN).en := by
  rw [KCarry.c5_arg1, KCarry.c5_v11, KCarry.c5_v2, KHost0.v11_eq, KHost0.v2_eq,
    KHost1.v16_eq m ρ c srcN (holds_src2 m ρ c srcN hs), KHost1.v17_eq m ρ c dstN (holds_dst2 m ρ c dstN hd),
    Dh_S m ρ c srcN dstN, Bh_S m ρ c srcN dstN, Eh_S m ρ c srcN dstN]
  funext k j
  unfold enK
  rw [leftHalf_sideBySide]
  rfl

/-- The packed output of the second region: the gate beside the gated message. The region multiplies the gate by the
    B projection's source row; the layer writes the same product the other way round. -/
theorem packed_S (c : Dev nD) (srcN dstN : Fin 800000 → Fin 50000) (hs : Holds (m ((c.tc : Thread nD τ).loc main_arg2)) srcN) (hd : Holds (m ((c.tc : Thread nD τ).loc main_arg3)) dstN) :
    toMat (W6 m ρ c (Proc.devRef .tc main_v18_1))
      = sideBySide (S m c srcN dstN).sg (Spec.gatedMsg (S m c srcN dstN).Bh (S m c srcN dstN).sg srcN) := by
  rw [KRegion1.packed_eq, en_S m ρ c srcN dstN hs hd,
    KHost1.v16_eq m ρ c srcN (holds_src2 m ρ c srcN hs), rightHalf_sideBySide, Bh_S m ρ c srcN dstN]
  refine congrArg (sideBySide (S m c srcN dstN).sg) ?_
  funext k j
  unfold Spec.gatedMsg
  exact mul_comm _ _

/-- The sum of the gates arriving at each node: the left half of the packed scatter-sum. -/
theorem ss_S (c : Dev nD) (srcN dstN : Fin 800000 → Fin 50000) (hs : Holds (m ((c.tc : Thread nD τ).loc main_arg2)) srcN) (hd : Holds (m ((c.tc : Thread nD τ).loc main_arg3)) dstN) :
    toMat (W7 m ρ c (Proc.devRef .tc main_v32)) = (S m c srcN dstN).ss := by
  rw [KHost23.ss_eq m ρ c dstN (holds_dst6 m ρ c dstN hd), packed_S m ρ c srcN dstN hs hd, leftHalf_sideBySide]
  rfl

/-- The sum of the gated messages arriving at each node: the right half of the packed scatter-sum. -/
theorem ssh_S (c : Dev nD) (srcN dstN : Fin 800000 → Fin 50000) (hs : Holds (m ((c.tc : Thread nD τ).loc main_arg2)) srcN) (hd : Holds (m ((c.tc : Thread nD τ).loc main_arg3)) dstN) :
    toMat (W7 m ρ c (Proc.devRef .tc main_v33)) = (S m c srcN dstN).ssh := by
  rw [KHost23.ssh_eq m ρ c dstN (holds_dst6 m ρ c dstN hd), packed_S m ρ c srcN dstN hs hd, rightHalf_sideBySide]
  rfl

/-- The node update as the third region forms it is the layer's. -/
theorem hn_S (c : Dev nD) (srcN dstN : Fin 800000 → Fin 50000) (hs : Holds (m ((c.tc : Thread nD τ).loc main_arg2)) srcN) (hd : Holds (m ((c.tc : Thread nD τ).loc main_arg3)) dstN) :
    Spec.hnew (toMat (W7 m ρ c (Proc.devRef .tc main_v14_0))) (toMat (W7 m ρ c (Proc.devRef .tc main_v33))) (toMat (W7 m ρ c (Proc.devRef .tc main_v32)))
      = (S m c srcN dstN).hn := by
  rw [KCarry.c7_v14_0, Ah_S m ρ c srcN dstN, ssh_S m ρ c srcN dstN hs hd, ss_S m ρ c srcN dstN hs hd]
  rfl

/-! ## The two results

Each result is the normalisation of a stage by a mean row and a variance row that the host formed from the two cores'
accumulated column sums: the float zero plus the two cores' sums is the two-core total, and the one-pass
normalisation over those totals unfolds to exactly that normalisation. -/

theorem kernel_h (c : Dev nD) (srcN dstN : Fin 800000 → Fin 50000)
    (hs : Holds (m ((c.tc : Thread nD τ).loc main_arg2)) srcN) (hd : Holds (m ((c.tc : Thread nD τ).loc main_arg3)) dstN) :
    toMat (W11 m ρ c (Proc.devRef .tc main_v45))
      = Spec.bnOnePass Spec.cN
          (fun j => Spec.twoCoreSum 25 1000 (by norm_num : 50000 = 2 * (25 * 1000)) (by norm_num) (fun i => (S m c srcN dstN).hn i j))
          (fun j => Spec.twoCoreSum 25 1000 (by norm_num : 50000 = 2 * (25 * 1000)) (by norm_num)
            (fun i => (S m c srcN dstN).hn i j * (S m c srcN dstN).hn i j))
          (S m c srcN dstN).hn (toMat (m ((c.tc : Thread nD τ).loc main_arg0))) (toRow (m ((c.tc : Thread nD τ).loc main_arg14))) (toRow (m ((c.tc : Thread nD τ).loc main_arg15))) := by
  rw [KCarry.c11_v45, KRegion34.out_h, KCarry.c9_v34_0, KCarry.c9_arg0, KCarry.c9_v5, KCarry.c9_v6,
    KHost0.v5_eq, KHost0.v6_eq, KHost23.mean_h, KHost23.var_h, KRegion2.sum_eq, KRegion2.sumsq_eq, KRegion2.hnew_eq,
    hn_S m ρ c srcN dstN hs hd]
  rfl

theorem kernel_e (c : Dev nD) (srcN dstN : Fin 800000 → Fin 50000)
    (hs : Holds (m ((c.tc : Thread nD τ).loc main_arg2)) srcN) (hd : Holds (m ((c.tc : Thread nD τ).loc main_arg3)) dstN) :
    toMat (W11 m ρ c (Proc.devRef .tc main_v46))
      = Spec.bnOnePass Spec.cE
          (fun j => Spec.twoCoreSum 50 8000 (by norm_num : 800000 = 2 * (50 * 8000)) (by norm_num) (fun i => (S m c srcN dstN).en i j))
          (fun j => Spec.twoCoreSum 50 8000 (by norm_num : 800000 = 2 * (50 * 8000)) (by norm_num)
            (fun i => (S m c srcN dstN).en i j * (S m c srcN dstN).en i j))
          (S m c srcN dstN).en (toMat (m ((c.tc : Thread nD τ).loc main_arg1))) (toRow (m ((c.tc : Thread nD τ).loc main_arg16))) (toRow (m ((c.tc : Thread nD τ).loc main_arg17))) := by
  rw [KRegion34.out_e, KCarry.c10_v18_0, KCarry.c10_arg1, KCarry.c10_v22, KCarry.c10_v28, KCarry.c10_v7, KCarry.c10_v8,
    KHost0.v7_eq, KHost0.v8_eq, KHost23.mean_e, KHost23.var_e, KRegion1Acc.sum_eq, KRegion1Acc.sumsq_eq, KRegion1.enew_eq,
    en_S m ρ c srcN dstN hs hd]
  rfl

end Cert.KChain

end
-- ==== Proof.RefTerm.lean ====
/-
  The reference program's two results as pure functions of its eighteen arguments, stage by stage, in the program's
  own operations: five affine maps x·wᵀ + b; the source and destination rows fetched at indices wrapped by the table
  length when negative; the logistic gate spelled 1 / (1 + exp (−x)); two scatter-sums over the destination from zero;
  the node update; and for nodes and edges the batch normalisation with the two-pass variance (the count N − 0 and the
  guard N − 0 > 0 as the program writes them), the rectifier and the residual.
-/
import proofs.«422570_j39187281608763_2_alg».proof.ReferenceIdeal

noncomputable section

namespace Cert.RefTerm

open Cert.ReferenceIdeal Idealize.ShloMosaic

variable {F : FTy → Type} [FloatOps F] [Cert.ReferenceIdeal.Facts]
open Cert.ReferenceIdeal.Facts₀ Cert.ReferenceIdeal.Facts

/-- The float zero as a rank-0 array. -/
def zero0 : FVec F S_ .f32 := constant S_ .f32 0x00000000#32
/-- The float one as a rank-0 array. -/
def one0 : FVec F S_ .f32 := constant S_ .f32 0x3F800000#32

/-- A row of 96 laid along the second axis of a [1, 96] array. -/
def asRow (r : FVec F S96 .f32) : FVec F S1x96 .f32 := broadcastInDim S1x96 ![1] bcast_S96_S1x96_1 r
/-- A row of 96 repeated down 50000 rows. -/
def downN (r : FVec F S96 .f32) : FVec F S50000x96 .f32 :=
  broadcastInDim S50000x96 ![0, 1] bcast_S1x96_S50000x96_0_1 (asRow r)
/-- A row of 96 repeated down 800000 rows. -/
def downE (r : FVec F S96 .f32) : FVec F S800000x96 .f32 :=
  broadcastInDim S800000x96 ![0, 1] bcast_S1x96_S800000x96_0_1 (asRow r)

/-- x·wᵀ + b over the nodes. -/
def linN (x : FVec F S50000x96 .f32) (w : FVec F S96x96 .f32) (b : FVec F S96 .f32) : FVec F S50000x96 .f32 :=
  addf (Host.dotGeneral dot_S50000x96_S96x96_S50000x96_1_0_0_1_n_n none x
      (transpose S96x96 [1, 0] w transposes_S96x96_S96x96_1_0)) (downN b)
/-- x·wᵀ + b over the edges. -/
def linE (x : FVec F S800000x96 .f32) (w : FVec F S96x96 .f32) (b : FVec F S96 .f32) : FVec F S800000x96 .f32 :=
  addf (Host.dotGeneral dot_S800000x96_S96x96_S800000x96_1_0_0_1_n_n none x
      (transpose S96x96 [1, 0] w transposes_S96x96_S96x96_1_0)) (downE b)

/-- An index vector with its negative entries moved up by the table length 50000. -/
def wrap (i : IVec S800000 32) : IVec S800000 32 :=
  select (cmpi .slt i (broadcastInDim S800000 ![] bcast_S_S800000 (constantI S_ 32 0#32)))
    (addi i (broadcastInDim S800000 ![] bcast_S_S800000 (constantI S_ 32 50000#32))) i
/-- An index vector as an [800000, 1] column. -/
def asCol (i : IVec S800000 32) : IVec S800000x1 32 := broadcastInDim S800000x1 ![0] bcast_S800000_S800000x1_0 i
/-- The table's rows at the wrapped indices. -/
def rowsAt (tbl : FVec F S50000x96 .f32) (i : IVec S800000 32) : FVec F S800000x96 .f32 :=
  Host.gather gather_S50000x96_S800000x1_S800000x96_1_0_n_n_0_1_196 tbl (asCol (wrap i))

/-- The edge pre-activation. -/
def enewT (Dh Eh : FVec F S50000x96 .f32) (Ce : FVec F S800000x96 .f32) (src dst : IVec S800000 32) :
    FVec F S800000x96 .f32 := addf (addf (rowsAt Dh src) (rowsAt Eh dst)) Ce
/-- The gate 1 / (1 + exp (−x)). -/
def gateT (x : FVec F S800000x96 .f32) : FVec F S800000x96 .f32 :=
  Host.divf (broadcastInDim S800000x96 ![] bcast_S_S800000x96 one0)
    (addf (broadcastInDim S800000x96 ![] bcast_S_S800000x96 one0) (Host.exp (Host.negf x)))
/-- The sum of the edge rows arriving at each node, from zero. -/
def segT (dst : IVec S800000 32) (u : FVec F S800000x96 .f32) : FVec F S50000x96 .f32 :=
  Host.scatterAdd scatter_S50000x96_S800000x1_S800000x96_1_0_0_1
    (broadcastInDim S50000x96 ![] bcast_S_S50000x96 zero0) (asCol dst) u
/-- The node update before normalisation. -/
def hnewT (Ah ssh ss : FVec F S50000x96 .f32) : FVec F S50000x96 .f32 :=
  addf Ah (Host.divf ssh (addf ss (broadcastInDim S50000x96 ![] bcast_S_S50000x96 (constant S_ .f32 0x358637BD#32))))

/-! ### Batch normalisation over the nodes -/

/-- The column sums over the nodes. -/
def sumN (x : FVec F S50000x96 .f32) : FVec F S96 .f32 := Host.reduceAdd x zero0 reducesTo_S50000x96_S96_d0 h_S_
/-- The column means over the nodes. -/
def meanN (x : FVec F S50000x96 .f32) : FVec F S96 .f32 :=
  Host.divf (sumN x) (broadcastInDim S96 ![] bcast_S_S96 (constant S_ .f32 0x47435000#32))
/-- The deviations from the column means, the means formed on a [1, 96] array. -/
def devN (x : FVec F S50000x96 .f32) : FVec F S50000x96 .f32 :=
  subf x (broadcastInDim S50000x96 ![0, 1] bcast_S1x96_S50000x96_0_1
    (Host.divf (asRow (sumN x)) (broadcastInDim S1x96 ![] bcast_S_S1x96 (constant S_ .f32 0x47435000#32))))
/-- The count N − 0. -/
def cntN : FVec F S_ .f32 := subf (constant S_ .f32 0x47435000#32) (sitofp .f32 (constantI S_ 32 0#32))
/-- The biased variance over the nodes, guarded by N − 0 > 0. -/
def varN (x : FVec F S50000x96 .f32) : FVec F S96 .f32 :=
  select (broadcastInDim S96 ![] bcast_S_S96 (cmpf .ogt (cntN (F := F)) zero0))
    (Host.divf (Host.reduceAdd (mulf (devN x) (devN x)) zero0 reducesTo_S50000x96_S96_d0 h_S_)
      (broadcastInDim S96 ![] bcast_S_S96 cntN))
    (broadcastInDim S96 ![] bcast_S_S96 (id (constant S_ .f32 0x7FC00000#32)))
/-- Normalise, scale, shift and rectify over the nodes. -/
def bnReluN (x : FVec F S50000x96 .f32) (γ β : FVec F S96 .f32) : FVec F S50000x96 .f32 :=
  maximumf (addf (mulf (mulf (downN γ) (subf x (downN (meanN x))))
      (downN (Host.rsqrt (addf (varN x) (broadcastInDim S96 ![] bcast_S_S96 (constant S_ .f32 0x3727C5AC#32))))))
      (downN β))
    (broadcastInDim S50000x96 ![] bcast_S_S50000x96 zero0)

/-! ### Batch normalisation over the edges -/

/-- The column sums over the edges. -/
def sumE (x : FVec F S800000x96 .f32) : FVec F S96 .f32 := Host.reduceAdd x zero0 reducesTo_S800000x96_S96_d0 h_S_
/-- The column means over the edges. -/
def meanE (x : FVec F S800000x96 .f32) : FVec F S96 .f32 :=
  Host.divf (sumE x) (broadcastInDim S96 ![] bcast_S_S96 (constant S_ .f32 0x49435000#32))
/-- The deviations from the column means over the edges. -/
def devE (x : FVec F S800000x96 .f32) : FVec F S800000x96 .f32 :=
  subf x (broadcastInDim S800000x96 ![0, 1] bcast_S1x96_S800000x96_0_1
    (Host.divf (asRow (sumE x)) (broadcastInDim S1x96 ![] bcast_S_S1x96 (constant S_ .f32 0x49435000#32))))
/-- The count E − 0. -/
def cntE : FVec F S_ .f32 := subf (constant S_ .f32 0x49435000#32) (sitofp .f32 (constantI S_ 32 0#32))
/-- The biased variance over the edges, guarded by E − 0 > 0. -/
def varE (x : FVec F S800000x96 .f32) : FVec F S96 .f32 :=
  select (broadcastInDim S96 ![] bcast_S_S96 (cmpf .ogt (cntE (F := F)) zero0))
    (Host.divf (Host.reduceAdd (mulf (devE x) (devE x)) zero0 reducesTo_S800000x96_S96_d0 h_S_)
      (broadcastInDim S96 ![] bcast_S_S96 cntE))
    (broadcastInDim S96 ![] bcast_S_S96 (id (constant S_ .f32 0x7FC00000#32)))
/-- Normalise, scale, shift and rectify over the edges. -/
def bnReluE (x : FVec F S800000x96 .f32) (γ β : FVec F S96 .f32) : FVec F S800000x96 .f32 :=
  maximumf (addf (mulf (mulf (downE γ) (subf x (downE (meanE x))))
      (downE (Host.rsqrt (addf (varE x) (broadcastInDim S96 ![] bcast_S_S96 (constant S_ .f32 0x3727C5AC#32))))))
      (downE β))
    (broadcastInDim S800000x96 ![] bcast_S_S800000x96 zero0)

/-! ### The two results -/

/-- The edge pre-activation of the whole layer. -/
def enAll (h : FVec F S50000x96 .f32) (e : FVec F S800000x96 .f32) (src dst : IVec S800000 32)
    (Cw : FVec F S96x96 .f32) (Cb : FVec F S96 .f32) (Dw : FVec F S96x96 .f32) (Db : FVec F S96 .f32)
    (Ew : FVec F S96x96 .f32) (Eb : FVec F S96 .f32) : FVec F S800000x96 .f32 :=
  enewT (linN h Dw Db) (linN h Ew Eb) (linE e Cw Cb) src dst

/-- The node update of the whole layer. -/
def hnAll (h : FVec F S50000x96 .f32) (e : FVec F S800000x96 .f32) (src dst : IVec S800000 32)
    (Aw : FVec F S96x96 .f32) (Ab : FVec F S96 .f32) (Bw : FVec F S96x96 .f32) (Bb : FVec F S96 .f32)
    (Cw : FVec F S96x96 .f32) (Cb : FVec F S96 .f32) (Dw : FVec F S96x96 .f32) (Db : FVec F S96 .f32)
    (Ew : FVec F S96x96 .f32) (Eb : FVec F S96 .f32) : FVec F S50000x96 .f32 :=
  hnewT (linN h Aw Ab)
    (segT dst (mulf (rowsAt (linN h Bw Bb) src) (gateT (enAll h e src dst Cw Cb Dw Db Ew Eb))))
    (segT dst (gateT (enAll h e src dst Cw Cb Dw Db Ew Eb)))

/-- The first result: the node features. -/
def outH (h : FVec F S50000x96 .f32) (e : FVec F S800000x96 .f32) (src dst : IVec S800000 32)
    (Aw : FVec F S96x96 .f32) (Ab : FVec F S96 .f32) (Bw : FVec F S96x96 .f32) (Bb : FVec F S96 .f32)
    (Cw : FVec F S96x96 .f32) (Cb : FVec F S96 .f32) (Dw : FVec F S96x96 .f32) (Db : FVec F S96 .f32)
    (Ew : FVec F S96x96 .f32) (Eb : FVec F S96 .f32) (γh βh : FVec F S96 .f32) : FVec F S50000x96 .f32 :=
  addf h (bnReluN (hnAll h e src dst Aw Ab Bw Bb Cw Cb Dw Db Ew Eb) γh βh)

/-- The second result: the edge features. -/
def outE (h : FVec F S50000x96 .f32) (e : FVec F S800000x96 .f32) (src dst : IVec S800000 32)
    (Cw : FVec F S96x96 .f32) (Cb : FVec F S96 .f32) (Dw : FVec F S96x96 .f32) (Db : FVec F S96 .f32)
    (Ew : FVec F S96x96 .f32) (Eb : FVec F S96 .f32) (γe βe : FVec F S96 .f32) : FVec F S800000x96 .f32 :=
  addf e (bnReluE (enAll h e src dst Cw Cb Dw Db Ew Eb) γe βe)

end Cert.RefTerm

end
-- ==== Proof.RefRun.lean ====
/-
  The reference program's run. The program is a straight line of host operations once its four calls (the two
  variances, each guarding its quotient by a select, and the two rectifiers) are read as the callee's operations
  at the call site, over that call's own buffers. The line is cut into the layer's stages:

    the five affine maps;  the edge pre-activation (both endpoint rows fetched at wrapped indices);  the gate;
    the source rows of the second affine map;  the two sums over the destination and the node update;
    the batch normalisation, rectifier and residual over the nodes, then over the edges.

  Each stage's result is the corresponding stage of the fixed result term, as a function of what the stage reads;
  a buffer a stage does not write passes through it. Composed, every weakly fair execution ends with the two
  results at the fixed term of the arguments' launch contents, and the arguments unchanged.
-/
import proofs.«422570_j39187281608763_2_alg».proof.Proof.Gen.ReferenceIdeal
import proofs.«422570_j39187281608763_2_alg».proof.Proof.RefTerm
import Idealize.ShloMosaic.Lib.StableHlo.Run

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-! ## The operations, stage by stage -/

/-- The five affine maps x·wᵀ + b: the weight transposed, the product, the bias laid along a row and repeated
    down the rows, the sum. Over the nodes with A, B, D, E; over the edges with C. -/
abbrev sLin : List (HloOp τ sig (Elt F)) :=
  [ unary main_arg4 main_v0 (transpose S96x96 [1, 0] · transposes_S96x96_S96x96_1_0),
    binary main_arg0 main_v0 main_v1 (fun l r => Host.dotGeneral dot_S50000x96_S96x96_S50000x96_1_0_0_1_n_n none l r),
    unary main_arg5 main_v2 (broadcastInDim S1x96 ![1] bcast_S96_S1x96_1),
    unary main_v2 main_v3 (broadcastInDim S50000x96 ![0, 1] bcast_S1x96_S50000x96_0_1),
    binary main_v1 main_v3 main_v4 addf,
    unary main_arg6 main_v5 (transpose S96x96 [1, 0] · transposes_S96x96_S96x96_1_0),
    binary main_arg0 main_v5 main_v6 (fun l r => Host.dotGeneral dot_S50000x96_S96x96_S50000x96_1_0_0_1_n_n none l r),
    unary main_arg7 main_v7 (broadcastInDim S1x96 ![1] bcast_S96_S1x96_1),
    unary main_v7 main_v8 (broadcastInDim S50000x96 ![0, 1] bcast_S1x96_S50000x96_0_1),
    binary main_v6 main_v8 main_v9 addf,
    unary main_arg10 main_v10 (transpose S96x96 [1, 0] · transposes_S96x96_S96x96_1_0),
    binary main_arg0 main_v10 main_v11 (fun l r => Host.dotGeneral dot_S50000x96_S96x96_S50000x96_1_0_0_1_n_n none l r),
    unary main_arg11 main_v12 (broadcastInDim S1x96 ![1] bcast_S96_S1x96_1),
    unary main_v12 main_v13 (broadcastInDim S50000x96 ![0, 1] bcast_S1x96_S50000x96_0_1),
    binary main_v11 main_v13 main_v14 addf,
    unary main_arg12 main_v15 (transpose S96x96 [1, 0] · transposes_S96x96_S96x96_1_0),
    binary main_arg0 main_v15 main_v16 (fun l r => Host.dotGeneral dot_S50000x96_S96x96_S50000x96_1_0_0_1_n_n none l r),
    unary main_arg13 main_v17 (broadcastInDim S1x96 ![1] bcast_S96_S1x96_1),
    unary main_v17 main_v18 (broadcastInDim S50000x96 ![0, 1] bcast_S1x96_S50000x96_0_1),
    binary main_v16 main_v18 main_v19 addf,
    unary main_arg8 main_v20 (transpose S96x96 [1, 0] · transposes_S96x96_S96x96_1_0),
    binary main_arg1 main_v20 main_v21 (fun l r => Host.dotGeneral dot_S800000x96_S96x96_S800000x96_1_0_0_1_n_n none l r),
    unary main_arg9 main_v22 (broadcastInDim S1x96 ![1] bcast_S96_S1x96_1),
    unary main_v22 main_v23 (broadcastInDim S800000x96 ![0, 1] bcast_S1x96_S800000x96_0_1),
    binary main_v21 main_v23 main_v24 addf ]

/-- The edge pre-activation: the source indices moved up by the table length where negative, as a column, the rows
    of the fourth affine map fetched there; the same with the destination indices and the fifth; the two sums. -/
abbrev sEn : List (HloOp τ sig (Elt F)) :=
  [ nullary main_c (constantI S_ 32 0#32),
    unary main_c main_v25 (broadcastInDim S800000 ![] bcast_S_S800000),
    binary main_arg2 main_v25 main_v26 (cmpi .slt),
    nullary main_c_0 (constantI S_ 32 50000#32),
    unary main_c_0 main_v27 (broadcastInDim S800000 ![] bcast_S_S800000),
    binary main_arg2 main_v27 main_v28 addi,
    ternary main_v26 main_v28 main_arg2 main_v29 select,
    unary main_v29 main_v30 (broadcastInDim S800000x1 ![0] bcast_S800000_S800000x1_0),
    binary main_v14 main_v30 main_v31 (fun x i => Host.gather gather_S50000x96_S800000x1_S800000x96_1_0_n_n_0_1_196 x i),
    nullary main_c_1 (constantI S_ 32 0#32),
    unary main_c_1 main_v32 (broadcastInDim S800000 ![] bcast_S_S800000),
    binary main_arg3 main_v32 main_v33 (cmpi .slt),
    nullary main_c_2 (constantI S_ 32 50000#32),
    unary main_c_2 main_v34 (broadcastInDim S800000 ![] bcast_S_S800000),
    binary main_arg3 main_v34 main_v35 addi,
    ternary main_v33 main_v35 main_arg3 main_v36 select,
    unary main_v36 main_v37 (broadcastInDim S800000x1 ![0] bcast_S800000_S800000x1_0),
    binary main_v19 main_v37 main_v38 (fun x i => Host.gather gather_S50000x96_S800000x1_S800000x96_1_0_n_n_0_1_196 x i),
    binary main_v31 main_v38 main_v39 addf,
    binary main_v39 main_v24 main_v40 addf ]

/-- The gate 1 / (1 + exp (−x)) of the edge pre-activation, each one its own constant. -/
abbrev sGate : List (HloOp τ sig (Elt F)) :=
  [ unary main_v40 main_v41 Host.negf,
    unary main_v41 main_v42 Host.exp,
    nullary main_cst (constant S_ .f32 0x3F800000#32),
    unary main_cst main_v43 (broadcastInDim S800000x96 ![] bcast_S_S800000x96),
    binary main_v43 main_v42 main_v44 addf,
    nullary main_cst_3 (constant S_ .f32 0x3F800000#32),
    unary main_cst_3 main_v45 (broadcastInDim S800000x96 ![] bcast_S_S800000x96),
    binary main_v45 main_v44 main_v46 Host.divf ]

/-- The source indices wrapped once more, for the rows of the second affine map. -/
abbrev sSrcB : List (HloOp τ sig (Elt F)) :=
  [ nullary main_c_4 (constantI S_ 32 0#32),
    unary main_c_4 main_v47 (broadcastInDim S800000 ![] bcast_S_S800000),
    binary main_arg2 main_v47 main_v48 (cmpi .slt),
    nullary main_c_5 (constantI S_ 32 50000#32),
    unary main_c_5 main_v49 (broadcastInDim S800000 ![] bcast_S_S800000),
    binary main_arg2 main_v49 main_v50 addi,
    ternary main_v48 main_v50 main_arg2 main_v51 select ]

/-- The program's first sixty statements. -/
abbrev ops0 : List (HloOp τ sig (Elt F)) := sLin ++ (sEn ++ (sGate ++ sSrcB))

/-- The two sums over the destination, from zero, of the gated source rows and of the gate; the node update
    Ah + (sum of gated rows) / (sum of gates + ε). -/
abbrev sAgg : List (HloOp τ sig (Elt F)) :=
  [ unary main_v51 main_v52 (broadcastInDim S800000x1 ![0] bcast_S800000_S800000x1_0),
    binary main_v9 main_v52 main_v53 (fun x i => Host.gather gather_S50000x96_S800000x1_S800000x96_1_0_n_n_0_1_196 x i),
    binary main_v53 main_v46 main_v54 mulf,
    nullary main_cst_6 (constant S_ .f32 0x00000000#32),
    unary main_cst_6 main_v55 (broadcastInDim S50000x96 ![] bcast_S_S50000x96),
    unary main_arg3 main_v56 (broadcastInDim S800000x1 ![0] bcast_S800000_S800000x1_0),
    ternary main_v55 main_v56 main_v54 main_v57 (fun x i u => Host.scatterAdd scatter_S50000x96_S800000x1_S800000x96_1_0_0_1 x i u),
    nullary main_cst_7 (constant S_ .f32 0x00000000#32),
    unary main_cst_7 main_v58 (broadcastInDim S50000x96 ![] bcast_S_S50000x96),
    unary main_arg3 main_v59 (broadcastInDim S800000x1 ![0] bcast_S800000_S800000x1_0),
    ternary main_v58 main_v59 main_v46 main_v60 (fun x i u => Host.scatterAdd scatter_S50000x96_S800000x1_S800000x96_1_0_0_1 x i u),
    nullary main_cst_8 (constant S_ .f32 0x358637BD#32),
    unary main_cst_8 main_v61 (broadcastInDim S50000x96 ![] bcast_S_S50000x96),
    binary main_v60 main_v61 main_v62 addf,
    binary main_v57 main_v62 main_v63 Host.divf,
    binary main_v4 main_v63 main_v64 addf ]

/-- The column means of the node update, and the integer zero the variance is called with. -/
abbrev sMeanN : List (HloOp τ sig (Elt F)) :=
  [ nullary main_cst_9 (constant S_ .f32 0x00000000#32),
    binary main_v64 main_cst_9 main_v65 (fun x v => Host.reduceAdd x v reducesTo_S50000x96_S96_d0 h_S_),
    nullary main_cst_10 (constant S_ .f32 0x47435000#32),
    unary main_cst_10 main_v66 (broadcastInDim S96 ![] bcast_S_S96),
    binary main_v65 main_v66 main_v67 Host.divf,
    nullary main_c_11 (constantI S_ 32 0#32) ]

/-- The variance of the node update, the callee's operations over the call's own buffers: the column sums and the
    means on a one-row array, the squared deviations, their column sums over the count N − 0, and the select that
    keeps the quotient where N − 0 > 0 (the callee's own three operations). -/
abbrev sVarN : List (HloOp τ sig (Elt F)) :=
  [ TRef.nullary main_call0.cst (constant S_ .f32 0x00000000#32),
    TRef.binary (.of main_v64 : TRef sig ⟨S50000x96, .f32⟩) main_call0.cst main_call0.v0 (fun x v => Host.reduceAdd x v reducesTo_S50000x96_S96_d0 h_S_),
    TRef.unary main_call0.v0 main_call0.v1 (broadcastInDim S1x96 ![1] bcast_S96_S1x96_1),
    TRef.nullary main_call0.cst_0 (constant S_ .f32 0x47435000#32),
    TRef.unary main_call0.cst_0 main_call0.v2 (broadcastInDim S1x96 ![] bcast_S_S1x96),
    TRef.binary main_call0.v1 main_call0.v2 main_call0.v3 Host.divf,
    TRef.unary main_call0.v3 main_call0.v4 (broadcastInDim S50000x96 ![0, 1] bcast_S1x96_S50000x96_0_1),
    TRef.binary (.of main_v64 : TRef sig ⟨S50000x96, .f32⟩) main_call0.v4 main_call0.v5 subf,
    TRef.binary main_call0.v5 main_call0.v5 main_call0.v6 mulf,
    TRef.unary (.of main_c_11 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x96_S96_d0 h_S_),
    TRef.unary main_call0.v8 main_call0.v10 (broadcastInDim S96 ![] bcast_S_S96),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S96 ![] bcast_S_S96),
    TRef.ternary main_call0.v12 main_call0.v11 main_call0.call0.v1 main_call0.call0.v2 (fun p a b => select (broadcastInDim S96 ![] bcast_S_S96 p) a b) ]

/-- Over the nodes: scale times deviation from the mean, times the reciprocal root of variance + ε, plus the shift;
    then the rectifier, the callee's three operations over the call's own buffers. -/
abbrev sNormN : List (HloOp τ sig (Elt F)) :=
  [ unary main_v67 main_v69 (broadcastInDim S1x96 ![1] bcast_S96_S1x96_1),
    unary main_v69 main_v70 (broadcastInDim S50000x96 ![0, 1] bcast_S1x96_S50000x96_0_1),
    binary main_v64 main_v70 main_v71 subf,
    unary main_arg14 main_v72 (broadcastInDim S1x96 ![1] bcast_S96_S1x96_1),
    unary main_v72 main_v73 (broadcastInDim S50000x96 ![0, 1] bcast_S1x96_S50000x96_0_1),
    binary main_v73 main_v71 main_v74 mulf,
    nullary main_cst_12 (constant S_ .f32 0x3727C5AC#32),
    unary main_cst_12 main_v75 (broadcastInDim S96 ![] bcast_S_S96),
    binary main_v68 main_v75 main_v76 addf,
    unary main_v76 main_v77 Host.rsqrt,
    unary main_v77 main_v78 (broadcastInDim S1x96 ![1] bcast_S96_S1x96_1),
    unary main_v78 main_v79 (broadcastInDim S50000x96 ![0, 1] bcast_S1x96_S50000x96_0_1),
    binary main_v74 main_v79 main_v80 mulf,
    unary main_arg15 main_v81 (broadcastInDim S1x96 ![1] bcast_S96_S1x96_1),
    unary main_v81 main_v82 (broadcastInDim S50000x96 ![0, 1] bcast_S1x96_S50000x96_0_1),
    binary main_v80 main_v82 main_v83 addf,
    TRef.nullary main_call1.cst (constant S_ .f32 0x00000000#32),
    TRef.unary main_call1.cst main_call1.v0 (broadcastInDim S50000x96 ![] bcast_S_S50000x96),
    TRef.binary (.of main_v83 : TRef sig ⟨S50000x96, .f32⟩) main_call1.v0 main_call1.v1 maximumf ]

/-- The column means of the edge pre-activation, and the integer zero the variance is called with. -/
abbrev sMeanE : List (HloOp τ sig (Elt F)) :=
  [ nullary main_cst_13 (constant S_ .f32 0x00000000#32),
    binary main_v40 main_cst_13 main_v85 (fun x v => Host.reduceAdd x v reducesTo_S800000x96_S96_d0 h_S_),
    nullary main_cst_14 (constant S_ .f32 0x49435000#32),
    unary main_cst_14 main_v86 (broadcastInDim S96 ![] bcast_S_S96),
    binary main_v85 main_v86 main_v87 Host.divf,
    nullary main_c_15 (constantI S_ 32 0#32) ]

/-- The variance of the edge pre-activation, the callee's operations over the call's own buffers, as over the
    nodes with the count E − 0. -/
abbrev sVarE : List (HloOp τ sig (Elt F)) :=
  [ TRef.nullary main_call2.cst (constant S_ .f32 0x00000000#32),
    TRef.binary (.of main_v40 : TRef sig ⟨S800000x96, .f32⟩) main_call2.cst main_call2.v0 (fun x v => Host.reduceAdd x v reducesTo_S800000x96_S96_d0 h_S_),
    TRef.unary main_call2.v0 main_call2.v1 (broadcastInDim S1x96 ![1] bcast_S96_S1x96_1),
    TRef.nullary main_call2.cst_0 (constant S_ .f32 0x49435000#32),
    TRef.unary main_call2.cst_0 main_call2.v2 (broadcastInDim S1x96 ![] bcast_S_S1x96),
    TRef.binary main_call2.v1 main_call2.v2 main_call2.v3 Host.divf,
    TRef.unary main_call2.v3 main_call2.v4 (broadcastInDim S800000x96 ![0, 1] bcast_S1x96_S800000x96_0_1),
    TRef.binary (.of main_v40 : TRef sig ⟨S800000x96, .f32⟩) main_call2.v4 main_call2.v5 subf,
    TRef.binary main_call2.v5 main_call2.v5 main_call2.v6 mulf,
    TRef.unary (.of main_c_15 : TRef sig ⟨S_, .i32⟩) main_call2.v7 (sitofp .f32),
    TRef.nullary main_call2.cst_1 (constant S_ .f32 0x49435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S800000x96_S96_d0 h_S_),
    TRef.unary main_call2.v8 main_call2.v10 (broadcastInDim S96 ![] bcast_S_S96),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S96 ![] bcast_S_S96),
    TRef.ternary main_call2.v12 main_call2.v11 main_call2.call0.v1 main_call2.call0.v2 (fun p a b => select (broadcastInDim S96 ![] bcast_S_S96 p) a b) ]

/-- Over the edges, up to the product with the reciprocal root: scale times deviation from the mean, times the
    reciprocal root of variance + ε. -/
abbrev sNormE₁ : List (HloOp τ sig (Elt F)) :=
  [ unary main_v87 main_v89 (broadcastInDim S1x96 ![1] bcast_S96_S1x96_1),
    unary main_v89 main_v90 (broadcastInDim S800000x96 ![0, 1] bcast_S1x96_S800000x96_0_1),
    binary main_v40 main_v90 main_v91 subf,
    unary main_arg16 main_v92 (broadcastInDim S1x96 ![1] bcast_S96_S1x96_1),
    unary main_v92 main_v93 (broadcastInDim S800000x96 ![0, 1] bcast_S1x96_S800000x96_0_1),
    binary main_v93 main_v91 main_v94 mulf,
    nullary main_cst_16 (constant S_ .f32 0x3727C5AC#32),
    unary main_cst_16 main_v95 (broadcastInDim S96 ![] bcast_S_S96),
    binary main_v88 main_v95 main_v96 addf,
    unary main_v96 main_v97 Host.rsqrt,
    unary main_v97 main_v98 (broadcastInDim S1x96 ![1] bcast_S96_S1x96_1),
    unary main_v98 main_v99 (broadcastInDim S800000x96 ![0, 1] bcast_S1x96_S800000x96_0_1),
    binary main_v94 main_v99 main_v100 mulf ]

/-- Over the edges, the rest: plus the shift, then the rectifier, the callee's three operations over the call's
    own buffers. -/
abbrev sNormE₂ : List (HloOp τ sig (Elt F)) :=
  [ unary main_arg17 main_v101 (broadcastInDim S1x96 ![1] bcast_S96_S1x96_1),
    unary main_v101 main_v102 (broadcastInDim S800000x96 ![0, 1] bcast_S1x96_S800000x96_0_1),
    binary main_v100 main_v102 main_v103 addf,
    TRef.nullary main_call3.cst (constant S_ .f32 0x00000000#32),
    TRef.unary main_call3.cst main_call3.v0 (broadcastInDim S800000x96 ![] bcast_S_S800000x96),
    TRef.binary (.of main_v103 : TRef sig ⟨S800000x96, .f32⟩) main_call3.v0 main_call3.v1 maximumf ]

/-- The two residual sums: the results. -/
abbrev sOut : List (HloOp τ sig (Elt F)) :=
  [ binary main_arg0 main_v84 main_v105 addf,
    binary main_arg1 main_v104 main_v106 addf ]

/-- The program's statements 61 to 120, the three calls among them read inline. -/
abbrev ops1 : List (HloOp τ sig (Elt F)) :=
  sAgg ++ (sMeanN ++ (sVarN ++ (sNormN ++ (sMeanE ++ (sVarE ++ sNormE₁)))))

/-- The program's last statements, the fourth call read inline. -/
abbrev ops2 : List (HloOp τ sig (Elt F)) := sNormE₂ ++ sOut

/-- The whole line. -/
abbrev ops : List (HloOp τ sig (Elt F)) := ops0 ++ (ops1 ++ ops2)

/-! ## The program is that line -/

set_option maxRecDepth 8192 in
set_option maxHeartbeats 4000000 in
theorem main_part0_eq (c : Dev nD) : main_part0 (F := F) c = seq ops0 := rfl

set_option maxRecDepth 8192 in
set_option maxHeartbeats 4000000 in
/-- With the callees' bodies unfolded at their calls and sequencing reassociated, the window is one chain of steps. -/
theorem main_part1_eq (c : Dev nD) : main_part1 (F := F) c = seq ops1 := by
  simp only [main_part1, fn_var.body, fn_where.body, fn_relu.body, fn_var_0.body, bind_assoc, pure_bind]
  rfl

set_option maxRecDepth 8192 in
set_option maxHeartbeats 4000000 in
theorem main_part2_eq (c : Dev nD) : main_part2 (F := F) c = seq ops2 := by
  simp only [main_part2, fn_relu_1.body, bind_assoc, pure_bind]
  rfl

/-- The three windows in order are the whole line. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## What a stage touches, allocates and writes -/

/-- Two lines run one after the other leave what the second leaves from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every operation of two lines is one of every operation of their concatenation. -/
theorem forall_append {α : Type} {p : α → Prop} {l₁ l₂ : List α} (h₁ : l₁.Forall p) (h₂ : l₂.Forall p) :
    (l₁ ++ l₂).Forall p := by
  rw [List.forall_iff_forall_mem] at *
  intro x hx
  rcases List.mem_append.mp hx with h | h
  exacts [h₁ x h, h₂ x h]

/-- An operation touches TensorCore references only, allocates nothing, and writes only references of `W`. -/
def Ok (W : List (Ref sig .tc)) (op : HloOp τ sig (Elt F)) : Prop :=
  op.bufs ⊆ tcRefs τ sig ∧ op.fresh = ∅ ∧ op.writes ⊆ (W.map (Proc.devRef (τ := τ) .tc)).toFinset

/-- Operation by operation: what it touches by the builders' facts, what it allocates by computation, and its one
    written reference found in the list. -/
local macro "stage_ok" : tactic => `(tactic| (
  simp only [List.Forall, Ok]
  repeat' apply And.intro
  all_goals first
    | (simp only [nullary_bufs_sub, unary_bufs_sub, binary_bufs_sub, ternary_bufs_sub])
    | (simp only [nullary_writes, unary_writes, binary_writes, ternary_writes, Finset.singleton_subset_iff,
        List.mem_toFinset]; exact List.mem_map_of_mem (by decide))
    | rfl))

/-- What the five affine maps write. -/
abbrev wLin : List (Ref sig .tc) :=
  [main_v0, main_v1, main_v2, main_v3, main_v4, main_v5, main_v6, main_v7, main_v8, main_v9, main_v10, main_v11,
   main_v12, main_v13, main_v14, main_v15, main_v16, main_v17, main_v18, main_v19, main_v20, main_v21, main_v22,
   main_v23, main_v24]
theorem okLin : (sLin : List (HloOp τ sig (Elt F))).Forall (Ok wLin) := by stage_ok

/-- What the edge pre-activation writes. -/
abbrev wEn : List (Ref sig .tc) :=
  [main_c, main_v25, main_v26, main_c_0, main_v27, main_v28, main_v29, main_v30, main_v31, main_c_1, main_v32,
   main_v33, main_c_2, main_v34, main_v35, main_v36, main_v37, main_v38, main_v39, main_v40]
theorem okEn : (sEn : List (HloOp τ sig (Elt F))).Forall (Ok wEn) := by stage_ok

/-- What the gate writes. -/
abbrev wGate : List (Ref sig .tc) :=
  [main_v41, main_v42, main_cst, main_v43, main_v44, main_cst_3, main_v45, main_v46]
theorem okGate : (sGate : List (HloOp τ sig (Elt F))).Forall (Ok wGate) := by stage_ok

/-- What the second wrapping of the source indices writes. -/
abbrev wSrcB : List (Ref sig .tc) :=
  [main_c_4, main_v47, main_v48, main_c_5, main_v49, main_v50, main_v51]
theorem okSrcB : (sSrcB : List (HloOp τ sig (Elt F))).Forall (Ok wSrcB) := by stage_ok

/-- What the sums over the destination and the node update write. -/
abbrev wAgg : List (Ref sig .tc) :=
  [main_v52, main_v53, main_v54, main_cst_6, main_v55, main_v56, main_v57, main_cst_7, main_v58, main_v59, main_v60,
   main_cst_8, main_v61, main_v62, main_v63, main_v64]
theorem okAgg : (sAgg : List (HloOp τ sig (Elt F))).Forall (Ok wAgg) := by stage_ok

/-- What the node mean writes. -/
abbrev wMeanN : List (Ref sig .tc) :=
  [main_cst_9, main_v65, main_cst_10, main_v66, main_v67, main_c_11]
theorem okMeanN : (sMeanN : List (HloOp τ sig (Elt F))).Forall (Ok wMeanN) := by stage_ok

/-- What the node variance writes: the call's own buffers, the last of them the call's result. -/
abbrev wVarN : List (Ref sig .tc) :=
  [main_call0_cst, main_call0_v0, main_call0_v1, main_call0_cst_0, main_call0_v2, main_call0_v3, main_call0_v4,
   main_call0_v5, main_call0_v6, main_call0_v7, main_call0_cst_1, main_call0_v8, main_call0_cst_2, main_call0_v9,
   main_call0_v10, main_call0_v11, main_call0_cst_3, main_call0_v12, main_call0_cst_4, main_call0_call0_v0,
   main_call0_call0_v1, main_v68]
theorem okVarN : (sVarN : List (HloOp τ sig (Elt F))).Forall (Ok wVarN) := by stage_ok

/-- What the node normalisation and rectifier write. -/
abbrev wNormN : List (Ref sig .tc) :=
  [main_v69, main_v70, main_v71, main_v72, main_v73, main_v74, main_cst_12, main_v75, main_v76, main_v77, main_v78,
   main_v79, main_v80, main_v81, main_v82, main_v83, main_call1_cst, main_call1_v0, main_v84]
theorem okNormN : (sNormN : List (HloOp τ sig (Elt F))).Forall (Ok wNormN) := by stage_ok

/-- What the edge mean writes. -/
abbrev wMeanE : List (Ref sig .tc) :=
  [main_cst_13, main_v85, main_cst_14, main_v86, main_v87, main_c_15]
theorem okMeanE : (sMeanE : List (HloOp τ sig (Elt F))).Forall (Ok wMeanE) := by stage_ok

/-- What the edge variance writes: the call's own buffers, the last of them the call's result. -/
abbrev wVarE : List (Ref sig .tc) :=
  [main_call2_cst, main_call2_v0, main_call2_v1, main_call2_cst_0, main_call2_v2, main_call2_v3, main_call2_v4,
   main_call2_v5, main_call2_v6, main_call2_v7, main_call2_cst_1, main_call2_v8, main_call2_cst_2, main_call2_v9,
   main_call2_v10, main_call2_v11, main_call2_cst_3, main_call2_v12, main_call2_cst_4, main_call2_call0_v0,
   main_call2_call0_v1, main_v88]
theorem okVarE : (sVarE : List (HloOp τ sig (Elt F))).Forall (Ok wVarE) := by stage_ok

/-- What the first part of the edge normalisation writes. -/
abbrev wNormE₁ : List (Ref sig .tc) :=
  [main_v89, main_v90, main_v91, main_v92, main_v93, main_v94, main_cst_16, main_v95, main_v96, main_v97, main_v98,
   main_v99, main_v100]
theorem okNormE₁ : (sNormE₁ : List (HloOp τ sig (Elt F))).Forall (Ok wNormE₁) := by stage_ok

/-- What the rest of the edge normalisation and the rectifier write. -/
abbrev wNormE₂ : List (Ref sig .tc) :=
  [main_v101, main_v102, main_v103, main_call3_cst, main_call3_v0, main_v104]
theorem okNormE₂ : (sNormE₂ : List (HloOp τ sig (Elt F))).Forall (Ok wNormE₂) := by stage_ok

/-- What the residual sums write: the two results. -/
abbrev wOut : List (Ref sig .tc) := [main_v105, main_v106]
theorem okOut : (sOut : List (HloOp τ sig (Elt F))).Forall (Ok wOut) := by stage_ok

/-! ## A reference a stage does not write passes through it -/

local macro "dr(" r:term ")" : term => `(Proc.devRef (τ := τ) .tc $r)

theorem Ok.base {W : List (Ref sig .tc)} {op : HloOp τ sig (Elt F)} (h : Ok W op) :
    op.bufs ⊆ tcRefs τ sig ∧ op.fresh = ∅ := ⟨h.1, h.2.1⟩

theorem keep_of {W : List (Ref sig .tc)} {l : List (HloOp τ sig (Elt F))} (hl : l.Forall (Ok W))
    {r : Ref sig .tc} (h : r ∉ W) (V : Valuation τ sig (Elt F)) : after l V dr(r) = V dr(r) :=
  after_of_writes_sub l V (hl.imp fun _ h => h.2.2) h

section Keep
variable {r : Ref sig .tc} (V : Valuation τ sig (Elt F))
theorem keepLin (h : r ∉ wLin) : after sLin V (no_index dr(r)) = V dr(r) := keep_of okLin h V
theorem keepEn (h : r ∉ wEn) : after sEn V (no_index dr(r)) = V dr(r) := keep_of okEn h V
theorem keepGate (h : r ∉ wGate) : after sGate V (no_index dr(r)) = V dr(r) := keep_of okGate h V
theorem keepSrcB (h : r ∉ wSrcB) : after sSrcB V (no_index dr(r)) = V dr(r) := keep_of okSrcB h V
theorem keepAgg (h : r ∉ wAgg) : after sAgg V (no_index dr(r)) = V dr(r) := keep_of okAgg h V
theorem keepMeanN (h : r ∉ wMeanN) : after sMeanN V (no_index dr(r)) = V dr(r) := keep_of okMeanN h V
theorem keepVarN (h : r ∉ wVarN) : after sVarN V (no_index dr(r)) = V dr(r) := keep_of okVarN h V
theorem keepNormN (h : r ∉ wNormN) : after sNormN V (no_index dr(r)) = V dr(r) := keep_of okNormN h V
theorem keepMeanE (h : r ∉ wMeanE) : after sMeanE V (no_index dr(r)) = V dr(r) := keep_of okMeanE h V
theorem keepVarE (h : r ∉ wVarE) : after sVarE V (no_index dr(r)) = V dr(r) := keep_of okVarE h V
theorem keepNormE₁ (h : r ∉ wNormE₁) : after sNormE₁ V (no_index dr(r)) = V dr(r) := keep_of okNormE₁ h V
theorem keepNormE₂ (h : r ∉ wNormE₂) : after sNormE₂ V (no_index dr(r)) = V dr(r) := keep_of okNormE₂ h V
theorem keepOut (h : r ∉ wOut) : after sOut V (no_index dr(r)) = V dr(r) := keep_of okOut h V
end Keep

/-- Every operation of the whole line touches TensorCore references only and allocates nothing. -/
theorem ops_base : (ops : List (HloOp τ sig (Elt F))).Forall fun op => op.bufs ⊆ tcRefs τ sig ∧ op.fresh = ∅ :=
  forall_append
    (forall_append (okLin.imp fun _ => Ok.base) (forall_append (okEn.imp fun _ => Ok.base)
      (forall_append (okGate.imp fun _ => Ok.base) (okSrcB.imp fun _ => Ok.base))))
    (forall_append
      (forall_append (okAgg.imp fun _ => Ok.base) (forall_append (okMeanN.imp fun _ => Ok.base)
        (forall_append (okVarN.imp fun _ => Ok.base) (forall_append (okNormN.imp fun _ => Ok.base)
          (forall_append (okMeanE.imp fun _ => Ok.base) (forall_append (okVarE.imp fun _ => Ok.base)
            (okNormE₁.imp fun _ => Ok.base)))))))
      (forall_append (okNormE₂.imp fun _ => Ok.base) (okOut.imp fun _ => Ok.base)))

/-! ## What each stage leaves, as the fixed term's stage of what it reads -/

section Values
variable (V : Valuation τ sig (Elt F))

theorem valAh : after sLin V (no_index dr(main_v4))
    = Cert.RefTerm.linN (V dr(main_arg0)) (V dr(main_arg4)) (V dr(main_arg5)) := by
  after_results_simp <;> rfl
theorem valBh : after sLin V (no_index dr(main_v9))
    = Cert.RefTerm.linN (V dr(main_arg0)) (V dr(main_arg6)) (V dr(main_arg7)) := by
  after_results_simp <;> rfl
theorem valDh : after sLin V (no_index dr(main_v14))
    = Cert.RefTerm.linN (V dr(main_arg0)) (V dr(main_arg10)) (V dr(main_arg11)) := by
  after_results_simp <;> rfl
theorem valEh : after sLin V (no_index dr(main_v19))
    = Cert.RefTerm.linN (V dr(main_arg0)) (V dr(main_arg12)) (V dr(main_arg13)) := by
  after_results_simp <;> rfl
theorem valCe : after sLin V (no_index dr(main_v24))
    = Cert.RefTerm.linE (V dr(main_arg1)) (V dr(main_arg8)) (V dr(main_arg9)) := by
  after_results_simp <;> rfl

theorem valEn : after sEn V (no_index dr(main_v40))
    = Cert.RefTerm.enewT (V dr(main_v14)) (V dr(main_v19)) (V dr(main_v24)) (V dr(main_arg2)) (V dr(main_arg3)) := by
  after_results_simp <;> rfl

theorem valGate : after sGate V (no_index dr(main_v46)) = Cert.RefTerm.gateT (V dr(main_v40)) := by
  after_results_simp <;> rfl

theorem valSrcB : after sSrcB V (no_index dr(main_v51)) = Cert.RefTerm.wrap (V dr(main_arg2)) := by
  after_results_simp <;> rfl

theorem valAgg : after sAgg V (no_index dr(main_v64))
    = Cert.RefTerm.hnewT (V dr(main_v4))
        (Cert.RefTerm.segT (V dr(main_arg3))
          (mulf (Host.gather gather_S50000x96_S800000x1_S800000x96_1_0_n_n_0_1_196 (V dr(main_v9))
            (Cert.RefTerm.asCol (V dr(main_v51)))) (V dr(main_v46))))
        (Cert.RefTerm.segT (V dr(main_arg3)) (V dr(main_v46))) := by
  after_results_simp <;> rfl
end Values

section Values₂
variable (V : Valuation τ sig (Elt F))

set_option maxHeartbeats 4000000 in
/-- Mean, variance and normalisation over the nodes, read together: the variance's count N − 0 takes its integer
    zero from the mean's stage. -/
theorem valBnN : after sNormN (after sVarN (after sMeanN V)) (no_index dr(main_v84))
    = Cert.RefTerm.bnReluN (V dr(main_v64)) (V dr(main_arg14)) (V dr(main_arg15)) := by
  after_results_simp <;> rfl

set_option maxHeartbeats 4000000 in
/-- Mean, variance and normalisation over the edges, read together. -/
theorem valBnE : after sNormE₂ (after sNormE₁ (after sVarE (after sMeanE V))) (no_index dr(main_v104))
    = Cert.RefTerm.bnReluE (V dr(main_v40)) (V dr(main_arg16)) (V dr(main_arg17)) := by
  after_results_simp <;> rfl

theorem valOutH : after sOut V (no_index dr(main_v105)) = addf (V dr(main_arg0)) (V dr(main_v84)) := by
  after_results_simp <;> rfl
theorem valOutE : after sOut V (no_index dr(main_v106)) = addf (V dr(main_arg1)) (V dr(main_v104)) := by
  after_results_simp <;> rfl
end Values₂

/-! ## The whole line -/

/-- Read the whole line stage by stage: a stage's own result by its lemma, any other reference passed through. -/
local macro "through_stages" : tactic => `(tactic| (
  simp (disch := decide) only [ops, ops0, ops1, ops2, after_append,
    valOutH, valOutE, valBnE, valBnN, valAgg, valSrcB, valGate, valEn, valAh, valBh, valDh, valEh, valCe,
    keepOut, keepNormE₂, keepNormE₁, keepVarE, keepMeanE, keepNormN, keepVarN, keepMeanN, keepAgg, keepSrcB, keepGate,
    keepEn, keepLin]))

set_option maxHeartbeats 4000000 in
/-- The first result is the fixed term of the arguments. -/
theorem outH_eq (V : Valuation τ sig (Elt F)) : after ops V dr(main_v105)
    = Cert.RefTerm.outH (V dr(main_arg0)) (V dr(main_arg1)) (V dr(main_arg2)) (V dr(main_arg3)) (V dr(main_arg4))
        (V dr(main_arg5)) (V dr(main_arg6)) (V dr(main_arg7)) (V dr(main_arg8)) (V dr(main_arg9)) (V dr(main_arg10))
        (V dr(main_arg11)) (V dr(main_arg12)) (V dr(main_arg13)) (V dr(main_arg14)) (V dr(main_arg15)) := by
  through_stages <;> rfl

set_option maxHeartbeats 4000000 in
/-- The second result is the fixed term of the arguments. -/
theorem outE_eq (V : Valuation τ sig (Elt F)) : after ops V dr(main_v106)
    = Cert.RefTerm.outE (V dr(main_arg0)) (V dr(main_arg1)) (V dr(main_arg2)) (V dr(main_arg3)) (V dr(main_arg8))
        (V dr(main_arg9)) (V dr(main_arg10)) (V dr(main_arg11)) (V dr(main_arg12)) (V dr(main_arg13))
        (V dr(main_arg16)) (V dr(main_arg17)) := by
  through_stages <;> rfl

set_option maxHeartbeats 4000000 in
/-- No stage writes an argument. -/
theorem args_eq (V : Valuation τ sig (Elt F)) :
    after ops V dr(main_arg0) = V dr(main_arg0) ∧ after ops V dr(main_arg1) = V dr(main_arg1)
    ∧ after ops V dr(main_arg2) = V dr(main_arg2) ∧ after ops V dr(main_arg3) = V dr(main_arg3)
    ∧ after ops V dr(main_arg4) = V dr(main_arg4) ∧ after ops V dr(main_arg5) = V dr(main_arg5)
    ∧ after ops V dr(main_arg6) = V dr(main_arg6) ∧ after ops V dr(main_arg7) = V dr(main_arg7)
    ∧ after ops V dr(main_arg8) = V dr(main_arg8) ∧ after ops V dr(main_arg9) = V dr(main_arg9)
    ∧ after ops V dr(main_arg10) = V dr(main_arg10) ∧ after ops V dr(main_arg11) = V dr(main_arg11)
    ∧ after ops V dr(main_arg12) = V dr(main_arg12) ∧ after ops V dr(main_arg13) = V dr(main_arg13)
    ∧ after ops V dr(main_arg14) = V dr(main_arg14) ∧ after ops V dr(main_arg15) = V dr(main_arg15)
    ∧ after ops V dr(main_arg16) = V dr(main_arg16) ∧ after ops V dr(main_arg17) = V dr(main_arg17) := by
  refine ⟨?_, ?_, ?_, ?_, ?_, ?_, ?_, ?_, ?_, ?_, ?_, ?_, ?_, ?_, ?_, ?_, ?_, ?_⟩ <;> through_stages

/-! ## The run -/

/-- On every device, for any float values, from any memory with zero counters: every weakly fair execution of the
    program terminates with the two results at the fixed term of the arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105)
          = Cert.RefTerm.outH (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10)) (m ((c.tc : Thread nD τ).loc main_arg11))
              (m ((c.tc : Thread nD τ).loc main_arg12)) (m ((c.tc : Thread nD τ).loc main_arg13))
              (m ((c.tc : Thread nD τ).loc main_arg14)) (m ((c.tc : Thread nD τ).loc main_arg15))
      ∧ r.2.mem ((c.tc : Thread nD τ).loc main_v106)
          = Cert.RefTerm.outE (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg8)) (m ((c.tc : Thread nD τ).loc main_arg9))
              (m ((c.tc : Thread nD τ).loc main_arg10)) (m ((c.tc : Thread nD τ).loc main_arg11))
              (m ((c.tc : Thread nD τ).loc main_arg12)) (m ((c.tc : Thread nD τ).loc main_arg13))
              (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => by
      obtain ⟨a0, a1, a2, a3, a4, a5, a6, a7, a8, a9, a10, a11, a12, a13, a14, a15, a16, a17⟩ :=
        args_eq (F := F) (launchContents m c)
      exact ⟨(h c main_v105).trans (outH_eq _), (h c main_v106).trans (outE_eq _),
        (h c main_arg0).trans a0, (h c main_arg1).trans a1, (h c main_arg2).trans a2, (h c main_arg3).trans a3,
        (h c main_arg4).trans a4, (h c main_arg5).trans a5, (h c main_arg6).trans a6, (h c main_arg7).trans a7,
        (h c main_arg8).trans a8, (h c main_arg9).trans a9, (h c main_arg10).trans a10, (h c main_arg11).trans a11,
        (h c main_arg12).trans a12, (h c main_arg13).trans a13, (h c main_arg14).trans a14,
        (h c main_arg15).trans a15, (h c main_arg16).trans a16, (h c main_arg17).trans a17⟩)
    (run_seq scopedRefs_eq scopedSems_eq defs main (fun _ => ops) main_eq
      (fun _ => ops_base.imp fun _ h => h.1) m ρ
      (fun _ op hop => (List.forall_iff_forall_mem.mp ops_base op hop).2))

end Cert.RefRun

end
-- ==== Proof.RefStages.lean ====
/-
  The reference's stages read at an index, at the exact instance: each stage of the reference's result term, taken as
  a matrix of extended reals, is the matching stage of the layer's specification over the argument matrices.

  One lemma per kind of operation, each stated at an explicit pair of coordinates:
    * a row of 96 laid along a [1, 96] array and repeated down the rows reads the row's entry in that column;
    * the transposed weight read at (k, j) is the weight at (j, k);
    * a product with one contracted axis is Σ_k l(i, k) · r(k, j);
    * an index entry that holds a node number in [0, 50000) is not negative, so wrapping by the table length leaves
      it alone, and fetching the table's row there (clamped at 49999) reads the row of that node;
    * 1 / (1 + exp (−x)) is the logistic function;
    * the scatter-sum from zero at node p is zero plus the sum over the edges whose destination is p.
  The four statements at the end put them together.
-/
import proofs.«422570_j39187281608763_2_alg».proof.Proof.RefTerm
import proofs.«422570_j39187281608763_2_alg».proof.Proof.Conv
import proofs.«422570_j39187281608763_2_alg».proof.Proof.LibScatterGather
import proofs.«422570_j39187281608763_2_alg».proof.Proof.Gen.ReferenceIdeal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.Lib.StackMember
import Idealize.ShloMosaic.Lib.Affine

noncomputable section

open scoped BigOperators

namespace Cert.RefStages

open Cert.ReferenceIdeal Cert.ReferenceIdeal.Facts₀ Cert.ReferenceIdeal.Facts
open Idealize.ShloMosaic Idealize.ShloMosaic.ValueIdx Cert.Conv

/-! ### Rows laid out and repeated -/

/-- A row of 96 laid along the second axis of a [1, 96] array reads, in column j, the row's entry j. -/
theorem asRow_apply (r : FVec Ideal S96 .f32) (j : Fin 96) :
    Cert.RefTerm.asRow (F := Ideal) r (ix2 (0 : Fin 1) j) = r (ix1 j) := by
  unfold Cert.RefTerm.asRow
  refine broadcastInDim_apply _ _ r (ix2 (0 : Fin 1) j) (ix1 j) ?_
  intro a
  match a with
  | ⟨0, _⟩ => rfl

/-- A row of 96 repeated down the 50000 node rows reads, at (i, j), the row's entry j. -/
theorem downN_apply (r : FVec Ideal S96 .f32) (i : Fin 50000) (j : Fin 96) :
    Cert.RefTerm.downN (F := Ideal) r (ix2 i j) = r (ix1 j) := by
  unfold Cert.RefTerm.downN
  exact (broadcastInDim_oneRow_apply _ _ i j).trans (asRow_apply r j)

/-- A row of 96 repeated down the 800000 edge rows reads, at (i, j), the row's entry j. -/
theorem downE_apply (r : FVec Ideal S96 .f32) (i : Fin 800000) (j : Fin 96) :
    Cert.RefTerm.downE (F := Ideal) r (ix2 i j) = r (ix1 j) := by
  unfold Cert.RefTerm.downE
  exact (broadcastInDim_oneRow_apply _ _ i j).trans (asRow_apply r j)

/-! ### The affine maps -/

/-- The transposed weight at (k, j) is the weight at (j, k). -/
theorem transposeW_apply (w : FVec Ideal S96x96 .f32) (k j : Fin 96) :
    transpose S96x96 [1, 0] w transposes_S96x96_S96x96_1_0 (ix2 k j) = w (ix2 j k) :=
  transpose_ix2_apply w transposes_S96x96_S96x96_1_0 k j

/-- The node-side product with one contracted axis, at (i, j), is Σ_k l(i, k) · r(k, j). -/
theorem dotN_apply (l : FVec Ideal S50000x96 .f32) (r : FVec Ideal S96x96 .f32) (i : Fin 50000) (j : Fin 96) :
    Host.dotGeneral (F := Ideal) dot_S50000x96_S96x96_S50000x96_1_0_0_1_n_n none l r (ix2 i j)
      = ∑ k : Fin 96, l (ix2 i k) * r (ix2 k j) :=
  StackMember.dotGeneral_plain_apply (m := 50000) (n := 96) (k := 96) none l r i j

/-- The edge-side product with one contracted axis, at (i, j), is Σ_k l(i, k) · r(k, j). -/
theorem dotE_apply (l : FVec Ideal S800000x96 .f32) (r : FVec Ideal S96x96 .f32) (i : Fin 800000) (j : Fin 96) :
    Host.dotGeneral (F := Ideal) dot_S800000x96_S96x96_S800000x96_1_0_0_1_n_n none l r (ix2 i j)
      = ∑ k : Fin 96, l (ix2 i k) * r (ix2 k j) :=
  StackMember.dotGeneral_plain_apply (m := 800000) (n := 96) (k := 96) none l r i j

/-- x·wᵀ + b over the nodes is the specification's affine map of the three matrices. -/
theorem linN_eq (x : FVec Ideal S50000x96 .f32) (w : FVec Ideal S96x96 .f32) (b : FVec Ideal S96 .f32) :
    toMat (Cert.RefTerm.linN (F := Ideal) x w b) = Cert.Spec.lin (toMat x) (toMat w) (toRow b) := by
  funext i j
  show Cert.RefTerm.linN (F := Ideal) x w b (ix2 i j) = (∑ k : Fin 96, x (ix2 i k) * w (ix2 j k)) + b (ix1 j)
  unfold Cert.RefTerm.linN
  rw [addf_apply, dotN_apply, downN_apply]
  congr 1
  exact Finset.sum_congr rfl fun k _ => by rw [transposeW_apply]

/-- x·wᵀ + b over the edges is the specification's affine map of the three matrices. -/
theorem linE_eq (x : FVec Ideal S800000x96 .f32) (w : FVec Ideal S96x96 .f32) (b : FVec Ideal S96 .f32) :
    toMat (Cert.RefTerm.linE (F := Ideal) x w b) = Cert.Spec.lin (toMat x) (toMat w) (toRow b) := by
  funext i j
  show Cert.RefTerm.linE (F := Ideal) x w b (ix2 i j) = (∑ k : Fin 96, x (ix2 i k) * w (ix2 j k)) + b (ix1 j)
  unfold Cert.RefTerm.linE
  rw [addf_apply, dotE_apply, downE_apply]
  congr 1
  exact Finset.sum_congr rfl fun k _ => by rw [transposeW_apply]

/-! ### Fetching rows at the endpoints -/

/-- An index entry that holds a node number is not negative, so wrapping by the table length leaves it alone. -/
theorem wrap_apply (v : IVec S800000 32) (f : Fin 800000 → Fin 50000) (hv : Holds v f) (k : Fin 800000) :
    Cert.RefTerm.wrap v (ix1 k) = v (ix1 k) := by
  unfold Cert.RefTerm.wrap
  rw [select_apply]
  have hc : cmpi .slt v (broadcastInDim S800000 ![] bcast_S_S800000 (constantI S_ 32 0#32)) (ix1 k) = 0#1 := by
    apply eq_zero_of_ne_one
    intro h1
    have hlt : (v (ix1 k)).toInt < (0#32 : BitVec 32).toInt := IntOp.cmpi_slt.mp h1
    rw [hv k] at hlt
    have h0 : (0#32 : BitVec 32).toInt = 0 := rfl
    rw [h0] at hlt
    omega
  rw [hc, select_zero]

/-- An index vector as an [800000, 1] column reads, in row k, the vector's entry k. -/
theorem asCol_apply (v : IVec S800000 32) (k : Fin 800000) :
    Cert.RefTerm.asCol v (ix2 k (0 : Fin 1)) = v (ix1 k) := by
  unfold Cert.RefTerm.asCol
  refine broadcastInDim_apply _ _ v (ix2 k (0 : Fin 1)) (ix1 k) ?_
  intro a
  match a with
  | ⟨0, _⟩ => rfl

/-- The table's row fetched at an entry that holds a node number is the row of that node. -/
theorem rowsAt_apply (tbl : FVec Ideal S50000x96 .f32) (v : IVec S800000 32) (f : Fin 800000 → Fin 50000)
    (hv : Holds v f) (k : Fin 800000) (j : Fin 96) :
    Cert.RefTerm.rowsAt (F := Ideal) tbl v (ix2 k j) = tbl (ix2 (f k) j) := by
  unfold Cert.RefTerm.rowsAt
  refine (ScatterGather.gather_rows _ rfl rfl rfl rfl rfl tbl _ k j (by decide)).trans ?_
  refine congrArg tbl (congrArg (fun p => ix2 p j) (Fin.ext ?_))
  show min (Cert.RefTerm.asCol (Cert.RefTerm.wrap v) (ix2 k (0 : Fin 1))).toInt.toNat (50000 - 1) = (f k).val
  rw [asCol_apply, wrap_apply v f hv, hv k, Int.toNat_natCast]
  have := (f k).isLt
  omega

/-! ### The gate -/

/-- 1 / (1 + exp (−x)) is the logistic function. -/
theorem gateT_apply (x : FVec Ideal S800000x96 .f32) (k : Fin 800000) (j : Fin 96) :
    Cert.RefTerm.gateT (F := Ideal) x (ix2 k j) = Ideal.logistic (x (ix2 k j)) := by
  show Ideal.div (Ideal.ofBits .f32 0x3F800000#32)
      (Ideal.ofBits .f32 0x3F800000#32 + Ideal.exp (-(x (ix2 k j)))) = _
  rw [Ideal.ofBits_one_f32]
  rfl

/-! ### The scatter-sum and the node update -/

/-- The scatter-sum from zero at node p is the float zero plus the sum over the edges whose destination is p. -/
theorem segT_apply (dst : IVec S800000 32) (g : Fin 800000 → Fin 50000) (hd : Holds dst g)
    (u : FVec Ideal S800000x96 .f32) (p : Fin 50000) (q : Fin 96) :
    Cert.RefTerm.segT (F := Ideal) dst u (ix2 p q)
      = Cert.Spec.z32 + ∑ k ∈ Finset.univ.filter (fun k => g k = p), u (ix2 k q) := by
  unfold Cert.RefTerm.segT
  refine (ScatterGather.scatterAdd_rows _ rfl rfl rfl rfl _ _ u p q).trans ?_
  have hf : (Finset.univ.filter fun e : Fin 800000 =>
        (Cert.RefTerm.asCol dst (ix2 e (0 : Fin 1))).toInt = (p.val : ℤ))
      = Finset.univ.filter (fun k => g k = p) := by
    refine Finset.filter_congr fun e _ => ?_
    rw [asCol_apply, hd e]
    constructor
    · intro h; exact Fin.ext (Int.ofNat_inj.mp h)
    · intro h; rw [h]
  rw [hf]
  rfl

/-- The node update at (p, q). -/
theorem hnewT_apply (Ah ssh ss : FVec Ideal S50000x96 .f32) (p : Fin 50000) (q : Fin 96) :
    Cert.RefTerm.hnewT (F := Ideal) Ah ssh ss (ix2 p q)
      = Ah (ix2 p q) + Ideal.div (ssh (ix2 p q)) (ss (ix2 p q) + Cert.Spec.epsDeg) := rfl

/-! ### The whole layer -/

/-- The reference's edge pre-activation is the specification's. -/
theorem enAll_eq (h : FVec Ideal S50000x96 .f32) (e : FVec Ideal S800000x96 .f32) (src dst : IVec S800000 32)
    (Aw : FVec Ideal S96x96 .f32) (Ab : FVec Ideal S96 .f32) (Bw : FVec Ideal S96x96 .f32) (Bb : FVec Ideal S96 .f32)
    (Cw : FVec Ideal S96x96 .f32) (Cb : FVec Ideal S96 .f32) (Dw : FVec Ideal S96x96 .f32) (Db : FVec Ideal S96 .f32)
    (Ew : FVec Ideal S96x96 .f32) (Eb : FVec Ideal S96 .f32) (srcN dstN : Fin 800000 → Fin 50000)
    (hs : Holds src srcN) (hd : Holds dst dstN) :
    toMat (Cert.RefTerm.enAll (F := Ideal) h e src dst Cw Cb Dw Db Ew Eb)
      = (Cert.Spec.stages (toMat h) (toMat e) srcN dstN (toMat Aw) (toRow Ab) (toMat Bw) (toRow Bb)
          (toMat Cw) (toRow Cb) (toMat Dw) (toRow Db) (toMat Ew) (toRow Eb)).en := by
  funext k j
  show Cert.RefTerm.enAll (F := Ideal) h e src dst Cw Cb Dw Db Ew Eb (ix2 k j)
    = Cert.Spec.lin (toMat h) (toMat Dw) (toRow Db) (srcN k) j
      + Cert.Spec.lin (toMat h) (toMat Ew) (toRow Eb) (dstN k) j
      + Cert.Spec.lin (toMat e) (toMat Cw) (toRow Cb) k j
  unfold Cert.RefTerm.enAll Cert.RefTerm.enewT
  rw [addf_apply, addf_apply, rowsAt_apply _ src srcN hs, rowsAt_apply _ dst dstN hd,
    ← linN_eq, ← linN_eq, ← linE_eq]
  rfl

/-- The reference's node update is the specification's. -/
theorem hnAll_eq (h : FVec Ideal S50000x96 .f32) (e : FVec Ideal S800000x96 .f32) (src dst : IVec S800000 32)
    (Aw : FVec Ideal S96x96 .f32) (Ab : FVec Ideal S96 .f32) (Bw : FVec Ideal S96x96 .f32) (Bb : FVec Ideal S96 .f32)
    (Cw : FVec Ideal S96x96 .f32) (Cb : FVec Ideal S96 .f32) (Dw : FVec Ideal S96x96 .f32) (Db : FVec Ideal S96 .f32)
    (Ew : FVec Ideal S96x96 .f32) (Eb : FVec Ideal S96 .f32) (srcN dstN : Fin 800000 → Fin 50000)
    (hs : Holds src srcN) (hd : Holds dst dstN) :
    toMat (Cert.RefTerm.hnAll (F := Ideal) h e src dst Aw Ab Bw Bb Cw Cb Dw Db Ew Eb)
      = (Cert.Spec.stages (toMat h) (toMat e) srcN dstN (toMat Aw) (toRow Ab) (toMat Bw) (toRow Bb)
          (toMat Cw) (toRow Cb) (toMat Dw) (toRow Db) (toMat Ew) (toRow Eb)).hn := by
  -- the edge pre-activation, entry by entry
  have hen : ∀ k j, Cert.RefTerm.enAll (F := Ideal) h e src dst Cw Cb Dw Db Ew Eb (ix2 k j)
      = (Cert.Spec.stages (toMat h) (toMat e) srcN dstN (toMat Aw) (toRow Ab) (toMat Bw) (toRow Bb)
          (toMat Cw) (toRow Cb) (toMat Dw) (toRow Db) (toMat Ew) (toRow Eb)).en k j :=
    fun k j => congrFun (congrFun (enAll_eq h e src dst Aw Ab Bw Bb Cw Cb Dw Db Ew Eb srcN dstN hs hd) k) j
  -- the gate, entry by entry
  have hg : ∀ k j, Cert.RefTerm.gateT (F := Ideal) (Cert.RefTerm.enAll (F := Ideal) h e src dst Cw Cb Dw Db Ew Eb) (ix2 k j)
      = (Cert.Spec.stages (toMat h) (toMat e) srcN dstN (toMat Aw) (toRow Ab) (toMat Bw) (toRow Bb)
          (toMat Cw) (toRow Cb) (toMat Dw) (toRow Db) (toMat Ew) (toRow Eb)).sg k j := by
    intro k j
    rw [gateT_apply, hen]
    rfl
  -- the gated message, entry by entry
  have hm : ∀ k j, mulf (Cert.RefTerm.rowsAt (F := Ideal) (Cert.RefTerm.linN (F := Ideal) h Bw Bb) src)
        (Cert.RefTerm.gateT (F := Ideal) (Cert.RefTerm.enAll (F := Ideal) h e src dst Cw Cb Dw Db Ew Eb)) (ix2 k j)
      = Cert.Spec.gatedMsg (Cert.Spec.lin (toMat h) (toMat Bw) (toRow Bb))
          (Cert.Spec.stages (toMat h) (toMat e) srcN dstN (toMat Aw) (toRow Ab) (toMat Bw) (toRow Bb)
            (toMat Cw) (toRow Cb) (toMat Dw) (toRow Db) (toMat Ew) (toRow Eb)).sg srcN k j := by
    intro k j
    rw [mulf_apply, rowsAt_apply _ src srcN hs, hg, ← linN_eq]
    rfl
  funext p q
  show Cert.RefTerm.hnAll (F := Ideal) h e src dst Aw Ab Bw Bb Cw Cb Dw Db Ew Eb (ix2 p q)
    = Cert.Spec.lin (toMat h) (toMat Aw) (toRow Ab) p q
      + Ideal.div
          (Cert.Spec.z32 + ∑ k ∈ Finset.univ.filter (fun k => dstN k = p),
            Cert.Spec.gatedMsg (Cert.Spec.lin (toMat h) (toMat Bw) (toRow Bb))
              (Cert.Spec.stages (toMat h) (toMat e) srcN dstN (toMat Aw) (toRow Ab) (toMat Bw) (toRow Bb)
                (toMat Cw) (toRow Cb) (toMat Dw) (toRow Db) (toMat Ew) (toRow Eb)).sg srcN k q)
          ((Cert.Spec.z32 + ∑ k ∈ Finset.univ.filter (fun k => dstN k = p),
            (Cert.Spec.stages (toMat h) (toMat e) srcN dstN (toMat Aw) (toRow Ab) (toMat Bw) (toRow Bb)
              (toMat Cw) (toRow Cb) (toMat Dw) (toRow Db) (toMat Ew) (toRow Eb)).sg k q) + Cert.Spec.epsDeg)
  unfold Cert.RefTerm.hnAll
  rw [hnewT_apply, segT_apply dst dstN hd, segT_apply dst dstN hd, ← linN_eq]
  simp only [hm, hg]
  rfl

end Cert.RefStages

end
-- ==== Proof.Consts.lean ====
/-
  The float constants of the layer as real numbers.

  A 32-bit pattern with sign bit 0, exponent field E (neither 0 nor 255) and fraction field T denotes the real
  (2^23 + T) · 2^(E − 150). So
    0x00000000 is 0,
    0x3F800000 (E = 127, T = 0) is 2^23 · 2^(−23) = 1,
    0x47435000 (E = 142, T = 4411392) is 12800000 · 2^(−8) = 50000,
    0x49435000 (E = 146, T = 4411392) is 12800000 · 2^(−4) = 800000,
    0x358637BD (E = 107, T = 407485) is 8796093 · 2^(−43) > 0,
    0x3727C5AC (E = 110, T = 2606508) is 10995116 · 2^(−40) > 0.
  The two regularisers are only needed as positive reals, so their exact values are not exported.
-/
import proofs.«422570_j39187281608763_2_alg».proof.Proof.Spec
import Idealize.ShloMosaic.PureOps.Ideal
import Idealize.ShloMosaic.PureOps.Ideal.Laws

noncomputable section

namespace Cert.Consts

open Idealize.ShloMosaic

/-- The float zero is the real 0. -/
theorem z32_eq : Cert.Spec.z32 = 0 := by
  unfold Cert.Spec.z32
  exact Ideal.ofBits_zero_f32

/-- The float one is the real 1. -/
theorem one32_eq : Cert.Spec.one32 = ((1 : ℝ) : EReal) := by
  unfold Cert.Spec.one32
  simp [Ideal.ofBits, Ideal.ieee, -EReal.coe_mul]; norm_num

/-- The node count: 12800000 · 2^(−8) = 50000. -/
theorem cN_eq : Cert.Spec.cN = ((50000 : ℝ) : EReal) := by
  unfold Cert.Spec.cN
  simp [Ideal.ofBits, Ideal.ieee, -EReal.coe_mul]; norm_num

/-- The edge count: 12800000 · 2^(−4) = 800000. -/
theorem cE_eq : Cert.Spec.cE = ((800000 : ℝ) : EReal) := by
  unfold Cert.Spec.cE
  simp [Ideal.ofBits, Ideal.ieee, -EReal.coe_mul]; norm_num

/-- The degree regulariser is a positive real: 8796093 · 2^(−43). -/
theorem epsDeg_pos : ∃ r : ℝ, 0 < r ∧ Cert.Spec.epsDeg = (r : EReal) := by
  refine ⟨(8796093 : ℝ) * (2 : ℝ) ^ (-43 : Int), by positivity, ?_⟩
  unfold Cert.Spec.epsDeg
  simp [Ideal.ofBits, Ideal.ieee, -EReal.coe_mul]

/-- The batch-norm regulariser is a positive real: 10995116 · 2^(−40). -/
theorem epsBn_pos : ∃ r : ℝ, 0 < r ∧ Cert.Spec.epsBn = (r : EReal) := by
  refine ⟨(10995116 : ℝ) * (2 : ℝ) ^ (-40 : Int), by positivity, ?_⟩
  unfold Cert.Spec.epsBn
  simp [Ideal.ofBits, Ideal.ieee, -EReal.coe_mul]

end Cert.Consts

end
-- ==== Proof.RefBn.lean ====
/-
  The reference's batch normalisation with rectifier and residual, read at an index, for the nodes and for the edges.

  Down the rows of an [n, 96] array x the reference forms, column by column,
    the sum        s(j) = 0 + Σ_i x(i,j),
    the mean       m(j) = s(j) / n,
    the deviations d(i,j) = x(i,j) − m(j), the mean formed a second time on a [1, 96] array,
    the count      n − 0, and the variance v(j) = (0 + Σ_i d(i,j)·d(i,j)) / (n − 0) where n − 0 > 0, and a fixed
                   not-a-number value where it is not,
  and returns x_in(i,j) + max (γ(j)·(x(i,j) − m(j))·rsqrt (v(j) + ε) + β(j), 0).
  The count n − 0 is n, because the integer zero converts to the real zero; and n > 0 for n = 50000 and for
  n = 800000, so the guard always takes the quotient. Every other step is one operation read entry by entry: a
  constant repeated over an array reads the constant, a row laid along a [1, 96] array and that array repeated down
  n rows read the row, and a host sum down the rows reads the initial value plus the sum of the column.
-/
import proofs.«422570_j39187281608763_2_alg».proof.Proof.RefTerm
import proofs.«422570_j39187281608763_2_alg».proof.Proof.Conv
import proofs.«422570_j39187281608763_2_alg».proof.Proof.Consts
import proofs.«422570_j39187281608763_2_alg».proof.Proof.Gen.ReferenceIdeal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.RefBn

open Idealize.ShloMosaic Idealize.ShloMosaic.ValueIdx Cert.ReferenceIdeal Cert.Conv
open Cert.ReferenceIdeal.Facts₀ Cert.ReferenceIdeal.Facts

/-! ### Three readings that do not depend on the number of rows -/

/-- A host sum down the rows of an [n, 96] array, read at column j: the initial value plus the sum of column j. -/
theorem colsum_read {n : Nat} (h' : (⟨2, ![n, 96]⟩ : Shape).ReducesTo [0] ⟨1, ![96]⟩)
    (x : (⟨2, ![n, 96]⟩ : Shape).Idx → EReal) (init : EReal) (j : Fin 96) :
    Ideal.hostReduceAdd h' x init (ix1 j) = init + ∑ i : Fin n, x (ix2 i j) := by
  have h : (⟨2, ![n, 96]⟩ : Shape).Reduces [0] ⟨1, ![96]⟩ := ⟨h'.1, by decide, h'.2⟩
  rw [Ideal.hostReduceAdd_single h' h]
  refine congrArg (init + ·) (Finset.sum_congr rfl fun k _ => congrArg x ?_)
  funext c
  match c with
  | ⟨0, _⟩ => rfl
  | ⟨1, _⟩ => rfl

/-- A row of 96 laid along the second axis of a [1, 96] array reads the row. -/
theorem asRow_read (r : FVec Ideal S96 .f32) (j : Fin 96) :
    RefTerm.asRow (F := Ideal) r (ix2 0 j) = r (ix1 j) := by
  unfold RefTerm.asRow
  refine broadcastInDim_apply _ _ r (ix2 0 j) (ix1 j) ?_
  intro a
  match a with
  | ⟨0, _⟩ => rfl

/-- A [1, 96] array repeated down n rows reads its one row. -/
theorem down_read {n : Nat} (h : (⟨2, ![1, 96]⟩ : Shape).BroadcastsInDim ⟨2, ![n, 96]⟩ ![0, 1])
    (y : (⟨2, ![1, 96]⟩ : Shape).Idx → EReal) (i : Fin n) (j : Fin 96) :
    broadcastInDim ⟨2, ![n, 96]⟩ ![0, 1] h y (ix2 i j) = y (ix2 0 j) := by
  refine broadcastInDim_apply _ h y (ix2 i j) (ix2 0 j) ?_
  intro a
  match a with
  | ⟨0, _⟩ => rfl
  | ⟨1, _⟩ => rfl

/-- The integer zero converts to the real zero, so a count "n minus the converted zero" is n. -/
theorem sub_sitofp_zero (c : EReal) : c - (((0#32 : BitVec 32).toInt : ℝ) : EReal) = c := by
  simp

/-- A positive real is above the float zero: the comparison "greater than zero" answers yes. -/
theorem cmp_ogt_pos {c : EReal} {r : ℝ} (hc : c = (r : EReal)) (hr : 0 < r) : Ideal.cmp .ogt c Spec.z32 = 1#1 := by
  rw [hc, Consts.z32_eq]
  have h : (0 : EReal) < (r : EReal) := EReal.coe_pos.mpr hr
  simp [Ideal.cmp, h]

/-! ### Over the nodes -/

/-- A row of 96 repeated down the nodes reads the row. -/
theorem downN_read (r : FVec Ideal S96 .f32) (i : Fin 50000) (j : Fin 96) :
    RefTerm.downN (F := Ideal) r (ix2 i j) = r (ix1 j) := by
  unfold RefTerm.downN
  rw [down_read, asRow_read]

/-- The column sums over the nodes. -/
theorem sumN_read (x : FVec Ideal S50000x96 .f32) (j : Fin 96) :
    RefTerm.sumN (F := Ideal) x (ix1 j) = Spec.colSum (toMat x) j := by
  unfold RefTerm.sumN
  exact colsum_read _ x _ j

/-- The column means over the nodes. -/
theorem meanN_read (x : FVec Ideal S50000x96 .f32) (j : Fin 96) :
    RefTerm.meanN (F := Ideal) x (ix1 j) = Spec.meanOf Spec.cN (toMat x) j := by
  show Ideal.div (RefTerm.sumN (F := Ideal) x (ix1 j)) Spec.cN = Ideal.div (Spec.colSum (toMat x) j) Spec.cN
  rw [sumN_read]

/-- The row of column means over the nodes. -/
theorem toRow_meanN (x : FVec Ideal S50000x96 .f32) :
    toRow (RefTerm.meanN (F := Ideal) x) = Spec.meanOf Spec.cN (toMat x) :=
  funext fun j => meanN_read x j

/-- The deviations from the column means over the nodes: the mean formed on the [1, 96] array is the same mean. -/
theorem devN_read (x : FVec Ideal S50000x96 .f32) (i : Fin 50000) (j : Fin 96) :
    RefTerm.devN (F := Ideal) x (ix2 i j) = x (ix2 i j) - Spec.meanOf Spec.cN (toMat x) j := by
  unfold RefTerm.devN
  rw [subf_apply, down_read]
  show x (ix2 i j) - Ideal.div (RefTerm.asRow (F := Ideal) (RefTerm.sumN x) (ix2 0 j)) Spec.cN = _
  rw [asRow_read, sumN_read]
  rfl

/-- The count over the nodes is 50000. -/
theorem cntN_read (k : S_.Idx) : RefTerm.cntN (F := Ideal) k = Spec.cN :=
  sub_sitofp_zero Spec.cN

/-- The biased variance over the nodes: the count is positive, so the guard takes the quotient. -/
theorem varN_read (x : FVec Ideal S50000x96 .f32) (j : Fin 96) :
    RefTerm.varN (F := Ideal) x (ix1 j) = Spec.varTwoPass Spec.cN (toMat x) j := by
  unfold RefTerm.varN
  rw [select_apply]
  have hc : broadcastInDim S96 ![] bcast_S_S96 (cmpf .ogt (RefTerm.cntN (F := Ideal)) RefTerm.zero0) (ix1 j) = 1#1 := by
    show Ideal.cmp .ogt (RefTerm.cntN (F := Ideal) _) Spec.z32 = 1#1
    rw [cntN_read]
    exact cmp_ogt_pos Consts.cN_eq (by norm_num)
  rw [hc, select_one]
  show Ideal.div (Ideal.hostReduceAdd _ (mulf (RefTerm.devN (F := Ideal) x) (RefTerm.devN x)) Spec.z32 (ix1 j))
      (RefTerm.cntN (F := Ideal) _) = _
  rw [cntN_read, colsum_read]
  unfold Spec.varTwoPass
  refine congrArg (fun s => Ideal.div (Spec.z32 + s) Spec.cN) (Finset.sum_congr rfl fun i _ => ?_)
  rw [mulf_apply, devN_read]
  rfl

/-- The row of column variances over the nodes. -/
theorem toRow_varN (x : FVec Ideal S50000x96 .f32) :
    toRow (RefTerm.varN (F := Ideal) x) = Spec.varTwoPass Spec.cN (toMat x) :=
  funext fun j => varN_read x j

/-- The reference's batch normalisation with rectifier and residual over the nodes, as a matrix. -/
theorem bnN_eq (x xin : FVec Ideal S50000x96 .f32) (γ β : FVec Ideal S96 .f32) :
    toMat (addf xin (RefTerm.bnReluN (F := Ideal) x γ β))
      = Spec.bnTwoPass Spec.cN (toMat x) (toMat xin) (toRow γ) (toRow β) := by
  funext i j
  show xin (ix2 i j) + RefTerm.bnReluN (F := Ideal) x γ β (ix2 i j) = _
  unfold RefTerm.bnReluN
  rw [maximumf_apply, addf_apply, mulf_apply, mulf_apply, subf_apply, downN_read, downN_read, downN_read,
    downN_read, meanN_read]
  show xin (ix2 i j) + max (γ (ix1 j) * (x (ix2 i j) - Spec.meanOf Spec.cN (toMat x) j)
      * Ideal.rsqrt (RefTerm.varN (F := Ideal) x (ix1 j) + Spec.epsBn) + β (ix1 j)) Spec.z32 = _
  rw [varN_read]
  rfl

/-! ### Over the edges -/

/-- A row of 96 repeated down the edges reads the row. -/
theorem downE_read (r : FVec Ideal S96 .f32) (i : Fin 800000) (j : Fin 96) :
    RefTerm.downE (F := Ideal) r (ix2 i j) = r (ix1 j) := by
  unfold RefTerm.downE
  rw [down_read, asRow_read]

/-- The column sums over the edges. -/
theorem sumE_read (x : FVec Ideal S800000x96 .f32) (j : Fin 96) :
    RefTerm.sumE (F := Ideal) x (ix1 j) = Spec.colSum (toMat x) j := by
  unfold RefTerm.sumE
  exact colsum_read _ x _ j

/-- The column means over the edges. -/
theorem meanE_read (x : FVec Ideal S800000x96 .f32) (j : Fin 96) :
    RefTerm.meanE (F := Ideal) x (ix1 j) = Spec.meanOf Spec.cE (toMat x) j := by
  show Ideal.div (RefTerm.sumE (F := Ideal) x (ix1 j)) Spec.cE = Ideal.div (Spec.colSum (toMat x) j) Spec.cE
  rw [sumE_read]

/-- The row of column means over the edges. -/
theorem toRow_meanE (x : FVec Ideal S800000x96 .f32) :
    toRow (RefTerm.meanE (F := Ideal) x) = Spec.meanOf Spec.cE (toMat x) :=
  funext fun j => meanE_read x j

/-- The deviations from the column means over the edges: the mean formed on the [1, 96] array is the same mean. -/
theorem devE_read (x : FVec Ideal S800000x96 .f32) (i : Fin 800000) (j : Fin 96) :
    RefTerm.devE (F := Ideal) x (ix2 i j) = x (ix2 i j) - Spec.meanOf Spec.cE (toMat x) j := by
  unfold RefTerm.devE
  rw [subf_apply, down_read]
  show x (ix2 i j) - Ideal.div (RefTerm.asRow (F := Ideal) (RefTerm.sumE x) (ix2 0 j)) Spec.cE = _
  rw [asRow_read, sumE_read]
  rfl

/-- The count over the edges is 800000. -/
theorem cntE_read (k : S_.Idx) : RefTerm.cntE (F := Ideal) k = Spec.cE :=
  sub_sitofp_zero Spec.cE

/-- The biased variance over the edges: the count is positive, so the guard takes the quotient. -/
theorem varE_read (x : FVec Ideal S800000x96 .f32) (j : Fin 96) :
    RefTerm.varE (F := Ideal) x (ix1 j) = Spec.varTwoPass Spec.cE (toMat x) j := by
  unfold RefTerm.varE
  rw [select_apply]
  have hc : broadcastInDim S96 ![] bcast_S_S96 (cmpf .ogt (RefTerm.cntE (F := Ideal)) RefTerm.zero0) (ix1 j) = 1#1 := by
    show Ideal.cmp .ogt (RefTerm.cntE (F := Ideal) _) Spec.z32 = 1#1
    rw [cntE_read]
    exact cmp_ogt_pos Consts.cE_eq (by norm_num)
  rw [hc, select_one]
  show Ideal.div (Ideal.hostReduceAdd _ (mulf (RefTerm.devE (F := Ideal) x) (RefTerm.devE x)) Spec.z32 (ix1 j))
      (RefTerm.cntE (F := Ideal) _) = _
  rw [cntE_read, colsum_read]
  unfold Spec.varTwoPass
  refine congrArg (fun s => Ideal.div (Spec.z32 + s) Spec.cE) (Finset.sum_congr rfl fun i _ => ?_)
  rw [mulf_apply, devE_read]
  rfl

/-- The row of column variances over the edges. -/
theorem toRow_varE (x : FVec Ideal S800000x96 .f32) :
    toRow (RefTerm.varE (F := Ideal) x) = Spec.varTwoPass Spec.cE (toMat x) :=
  funext fun j => varE_read x j

/-- The reference's batch normalisation with rectifier and residual over the edges, as a matrix. -/
theorem bnE_eq (x xin : FVec Ideal S800000x96 .f32) (γ β : FVec Ideal S96 .f32) :
    toMat (addf xin (RefTerm.bnReluE (F := Ideal) x γ β))
      = Spec.bnTwoPass Spec.cE (toMat x) (toMat xin) (toRow γ) (toRow β) := by
  funext i j
  show xin (ix2 i j) + RefTerm.bnReluE (F := Ideal) x γ β (ix2 i j) = _
  unfold RefTerm.bnReluE
  rw [maximumf_apply, addf_apply, mulf_apply, mulf_apply, subf_apply, downE_read, downE_read, downE_read,
    downE_read, meanE_read]
  show xin (ix2 i j) + max (γ (ix1 j) * (x (ix2 i j) - Spec.meanOf Spec.cE (toMat x) j)
      * Ideal.rsqrt (RefTerm.varE (F := Ideal) x (ix1 j) + Spec.epsBn) + β (ix1 j)) Spec.z32 = _
  rw [varE_read]
  rfl

end Cert.RefBn

end
-- ==== Proof.PreFacts.lean ====
/-
  What the precondition says, decoded. The precondition is one bit: for each of the sixteen float arguments, "every
  entry has absolute value below +∞", and for each of the two index vectors, "every entry i has 0 ≤ i and i < 50000",
  all joined by "and". If that bit is one then every conjunct is one; a conjunction over all entries that is one is
  one at every entry; an extended real x with max x (-x) < ⊤ is neither ⊤ nor ⊥, so it is a real number; and a 32-bit
  word i with 0 ≤ i < 50000 read signed is the node number i. So every float argument is a matrix or row of real
  numbers, and each index vector holds a family of node numbers Fin 800000 → Fin 50000.
-/
import proofs.«422570_j39187281608763_2_alg».proof.Proof.Gen.Pre_finite_inputs
import proofs.«422570_j39187281608763_2_alg».proof.Proof.Conv
import Idealize.ShloMosaic.Lib.ReduceAll
import Idealize.ShloMosaic.Lib.StableHlo.Predicate
import Idealize.ShloMosaic.PureOps.Ideal

noncomputable section

namespace Cert.PreFacts

open Idealize.ShloMosaic Idealize.ShloMosaic.ValueIdx
open Cert.Conv Cert.Spec Cert.Pre_finite_inputs

/-- The shape of a scalar has exactly one index. -/
instance : Subsingleton S_.Idx := ⟨fun a b => funext fun d => d.elim0⟩

/-- The pattern 0x7F800000 is +∞, and an extended real whose absolute value max x (-x) is below +∞ is a real number:
    at ⊤ the maximum is ⊤, at ⊥ it is -⊥ = ⊤, and ⊤ < ⊤ is false. -/
theorem isReal_of_abs_lt_top (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  simp only [Ideal.cmp, StableHlo.Predicate.ofBool_eq_one_iff, decide_eq_true_eq] at h
  induction x using EReal.rec with
  | bot => simp at h
  | top => simp at h
  | coe r => exact ⟨r, rfl⟩

/-- One float conjunct, at any shape: if "all entries have absolute value below +∞" is one, every entry is real. -/
theorem all_real {s : Shape} {axes : List (Fin s.rank)}
    (hb : S_.BroadcastsInDim s (![] : Fin 0 → Fin s.rank)) (hr : s.ReducesTo axes S_) (h0 : 0 < S_.numel)
    (x : FVec Ideal s .f32)
    (h : Host.reduce IntOp.andi
        (cmpf .olt (Host.absf x) (broadcastInDim s ![] hb (constant (F := Ideal) S_ .f32 0x7F800000#32)))
        (constantI S_ 1 1#1) hr h0 ix0 = 1#1) (i : s.Idx) : IsReal (x i) :=
  isReal_of_abs_lt_top (x i) (Host.reduce_andi_all _ _ hr h0 ix0 h i)

/-- A 32-bit word that is at least 0 and below 50000, both compared signed, reads signed as an integer in [0, 50000). -/
theorem in_range (w : BitVec 32) (h0 : IntOp.cmpi .sge w 0#32 = 1#1) (h1 : IntOp.cmpi .slt w 50000#32 = 1#1) :
    0 ≤ w.toInt ∧ w.toInt < 50000 := by
  unfold IntOp.cmpi at h0 h1
  rw [StableHlo.Predicate.ofBool_eq_one_iff] at h0 h1
  simp only [BitVec.slt, BitVec.sle, decide_eq_true_eq] at h0 h1
  have z : (0#32 : BitVec 32).toInt = 0 := by decide
  have c : (50000#32 : BitVec 32).toInt = 50000 := by decide
  rw [z] at h0
  rw [c] at h1
  exact ⟨h0, h1⟩

/-- One index conjunct: if "all entries i have 0 ≤ i and i < 50000" is one, the vector holds the node numbers
    k ↦ (entry k read signed), each of which is below 50000. -/
theorem all_in_range (hb : S_.BroadcastsInDim S800000 (![] : Fin 0 → Fin S800000.rank))
    (hr : S800000.ReducesTo [0] S_) (h0 : 0 < S_.numel) (v : IVec S800000 32)
    (h : Host.reduce IntOp.andi
        (andi (cmpi .sge v (broadcastInDim S800000 ![] hb (constantI S_ 32 0#32)))
              (cmpi .slt v (broadcastInDim S800000 ![] hb (constantI S_ 32 50000#32))))
        (constantI S_ 1 1#1) hr h0 ix0 = 1#1) : ∃ f : Fin 800000 → Fin 50000, Holds v f := by
  have key : ∀ k : Fin 800000, 0 ≤ (v (ix1 k)).toInt ∧ (v (ix1 k)).toInt < 50000 := fun k => by
    have e := Host.reduce_andi_all _ _ hr h0 ix0 h (ix1 k)
    obtain ⟨e0, e1⟩ := IntOp.andi_eq_one.1 e
    exact in_range _ e0 e1
  refine ⟨fun k => ⟨(v (ix1 k)).toInt.toNat, by have := key k; omega⟩, fun k => ?_⟩
  have := key k
  show (v (ix1 k)).toInt = (((v (ix1 k)).toInt.toNat : ℕ) : ℤ)
  omega

/-- A conjunction of two scalar bits is one exactly when both are. -/
theorem andi_ix0 (a b : IVec S_ 1) : andi a b ix0 = 1#1 ↔ a ix0 = 1#1 ∧ b ix0 = 1#1 := IntOp.andi_eq_one

/-- The precondition's content: every float argument is real-valued, and the two index vectors hold node numbers. -/
structure Decoded (a0 : FVec Ideal S50000x96 .f32) (a1 : FVec Ideal S800000x96 .f32) (a2 a3 : IVec S800000 32)
    (a4 : FVec Ideal S96x96 .f32) (a5 : FVec Ideal S96 .f32) (a6 : FVec Ideal S96x96 .f32) (a7 : FVec Ideal S96 .f32)
    (a8 : FVec Ideal S96x96 .f32) (a9 : FVec Ideal S96 .f32) (a10 : FVec Ideal S96x96 .f32) (a11 : FVec Ideal S96 .f32)
    (a12 : FVec Ideal S96x96 .f32) (a13 a14 a15 a16 a17 : FVec Ideal S96 .f32) : Prop where
  r0 : RealMat (toMat a0)
  r1 : RealMat (toMat a1)
  src : ∃ f : Fin 800000 → Fin 50000, Holds a2 f
  dst : ∃ f : Fin 800000 → Fin 50000, Holds a3 f
  r4 : RealMat (toMat a4)
  r5 : RealRow (toRow a5)
  r6 : RealMat (toMat a6)
  r7 : RealRow (toRow a7)
  r8 : RealMat (toMat a8)
  r9 : RealRow (toRow a9)
  r10 : RealMat (toMat a10)
  r11 : RealRow (toRow a11)
  r12 : RealMat (toMat a12)
  r13 : RealRow (toRow a13)
  r14 : RealRow (toRow a14)
  r15 : RealRow (toRow a15)
  r16 : RealRow (toRow a16)
  r17 : RealRow (toRow a17)

/-- From "the precondition is all ones" to its content. The printed predicate is a left-nested conjunction of
    eighteen bits, in the order h, e, A_w, A_b, B_w, B_b, C_w, C_b, Dl_w, Dl_b, El_w, El_b, γ_h, β_h, γ_e, β_e, src,
    dst; each bit is decoded by the conjunct lemma of its kind, read at the entry (i, j) of a matrix or j of a row. -/
theorem of_pre (a0 : FVec Ideal S50000x96 .f32) (a1 : FVec Ideal S800000x96 .f32) (a2 a3 : IVec S800000 32)
    (a4 : FVec Ideal S96x96 .f32) (a5 : FVec Ideal S96 .f32) (a6 : FVec Ideal S96x96 .f32) (a7 : FVec Ideal S96 .f32)
    (a8 : FVec Ideal S96x96 .f32) (a9 : FVec Ideal S96 .f32) (a10 : FVec Ideal S96x96 .f32) (a11 : FVec Ideal S96 .f32)
    (a12 : FVec Ideal S96x96 .f32) (a13 a14 a15 a16 a17 : FVec Ideal S96 .f32)
    (hp : Cert.Pre_finite_inputs.fn (F := Ideal) a0 a1 a2 a3 a4 a5 a6 a7 a8 a9 a10 a11 a12 a13 a14 a15 a16 a17 = fun _ => 1#1) :
    Decoded a0 a1 a2 a3 a4 a5 a6 a7 a8 a9 a10 a11 a12 a13 a14 a15 a16 a17 := by
  have e := congrFun hp ix0
  dsimp only [fn, fn_part1, fn_part2, fn_part3, fn_part4, fn_part5] at e
  simp only [andi_ix0] at e
  obtain ⟨⟨⟨⟨⟨⟨⟨⟨⟨⟨⟨⟨⟨⟨⟨⟨⟨h0, h1⟩, h4⟩, h5⟩, h6⟩, h7⟩, h8⟩, h9⟩, h10⟩, h11⟩, h12⟩, h13⟩, h14⟩, h15⟩, h16⟩, h17⟩, h2⟩, h3⟩ := e
  exact
    { r0 := fun i j => all_real _ _ _ a0 h0 (ix2 i j)
      r1 := fun i j => all_real _ _ _ a1 h1 (ix2 i j)
      src := all_in_range _ _ _ a2 h2
      dst := all_in_range _ _ _ a3 h3
      r4 := fun i j => all_real _ _ _ a4 h4 (ix2 i j)
      r5 := fun j => all_real _ _ _ a5 h5 (ix1 j)
      r6 := fun i j => all_real _ _ _ a6 h6 (ix2 i j)
      r7 := fun j => all_real _ _ _ a7 h7 (ix1 j)
      r8 := fun i j => all_real _ _ _ a8 h8 (ix2 i j)
      r9 := fun j => all_real _ _ _ a9 h9 (ix1 j)
      r10 := fun i j => all_real _ _ _ a10 h10 (ix2 i j)
      r11 := fun j => all_real _ _ _ a11 h11 (ix1 j)
      r12 := fun i j => all_real _ _ _ a12 h12 (ix2 i j)
      r13 := fun j => all_real _ _ _ a13 h13 (ix1 j)
      r14 := fun j => all_real _ _ _ a14 h14 (ix1 j)
      r15 := fun j => all_real _ _ _ a15 h15 (ix1 j)
      r16 := fun j => all_real _ _ _ a16 h16 (ix1 j)
      r17 := fun j => all_real _ _ _ a17 h17 (ix1 j) }

end Cert.PreFacts

end
-- ==== Proof.MathVar.lean ====
/-
  The one-pass variance is the two-pass variance on real data, so the two batch normalisations agree.

  Fix a column j of a matrix x with n > 0 rows, all of whose entries are real numbers, and write
    S = Σ_i x(i,j),   Q = Σ_i x(i,j)²,   m = S / n.
  Then
    Σ_i (x(i,j) − m)² = Q − 2·m·S + n·m²,
  and dividing by n, with S / n = m,
    (Σ_i (x(i,j) − m)²) / n = Q / n − m².
  The left side is a sum of squares over a positive number, so it is ≥ 0, and clamping the right side at zero
  (once or twice) changes nothing. Both column sums start from the float zero, which is the real 0, and a finite
  sum of real numbers read in the extended reals is the real sum; division of an extended real by the nonzero
  real n is multiplication by the real 1/n. The mean row is the same expression on both sides, and the residual
  input, the scale and the shift enter both sides in the same way, so they may be any extended reals.
-/
import proofs.«422570_j39187281608763_2_alg».proof.Proof.Spec
import proofs.«422570_j39187281608763_2_alg».proof.Proof.Consts

noncomputable section

open scoped BigOperators

namespace Cert.MathVar

open Idealize.ShloMosaic
open Cert.Spec

/-- The node count as the cast of a natural number. -/
theorem cN_nat : Cert.Spec.cN = (((50000 : ℕ) : ℝ) : EReal) := by
  rw [Cert.Consts.cN_eq]; norm_num

/-- The edge count as the cast of a natural number. -/
theorem cE_nat : Cert.Spec.cE = (((800000 : ℕ) : ℝ) : EReal) := by
  rw [Cert.Consts.cE_eq]; norm_num

/-- A finite sum of real numbers read in the extended reals is the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The variance identity over the reals: the mean of the squared deviations from the mean is the mean of the
    squares minus the square of the mean. -/
theorem real_var {n : Nat} (hn : 0 < n) (a : Fin n → ℝ) :
    (∑ i, (a i - (∑ i, a i) * (1 / (n : ℝ))) * (a i - (∑ i, a i) * (1 / (n : ℝ)))) * (1 / (n : ℝ))
      = (∑ i, a i * a i) * (1 / (n : ℝ))
        - ((∑ i, a i) * (1 / (n : ℝ))) * ((∑ i, a i) * (1 / (n : ℝ))) := by
  have hN : (n : ℝ) ≠ 0 := by exact_mod_cast hn.ne'
  generalize hS : (∑ i, a i) = S
  generalize hQ : (∑ i, a i * a i) = Q
  -- Σ (aᵢ − m)² = Q − 2·m·S + n·m² for every m
  have h1 : ∀ m : ℝ, ∑ i, (a i - m) * (a i - m) = Q - 2 * m * S + (n : ℝ) * (m * m) := by
    intro m
    have : ∀ i, (a i - m) * (a i - m) = a i * a i - 2 * m * a i + m * m := fun i => by ring
    simp only [this]
    rw [Finset.sum_add_distrib, Finset.sum_sub_distrib, ← Finset.mul_sum, Finset.sum_const, Finset.card_univ,
      Fintype.card_fin, nsmul_eq_mul, hS, hQ]
  rw [h1]
  field_simp
  ring

/-- Column by column: on real data the doubly clamped one-pass variance is the two-pass variance. -/
theorem var_eq {n : Nat} (hn : 0 < n) (cn : EReal) (hcn : cn = (((n : ℕ) : ℝ) : EReal))
    (x : Mat n 96) (hx : RealMat x) (j : Fin 96) :
    max (varOnePass cn (colSum x) (colSum (fun i j => x i j * x i j)) j) z32 = varTwoPass cn x j := by
  choose r hr using hx
  have hN : ((n : ℕ) : ℝ) ≠ 0 := by exact_mod_cast hn.ne'
  have hNpos : (0 : ℝ) < ((n : ℕ) : ℝ) := by exact_mod_cast hn
  -- the two column sums and the mean are real
  have hs : colSum x j = ((∑ i, r i j : ℝ) : EReal) := by
    show z32 + ∑ i : Fin n, x i j = _
    rw [Cert.Consts.z32_eq, zero_add, ← coe_sum]
    exact Finset.sum_congr rfl fun i _ => hr i j
  have hq : colSum (fun i j => x i j * x i j) j = ((∑ i, r i j * r i j : ℝ) : EReal) := by
    show z32 + ∑ i : Fin n, x i j * x i j = _
    rw [Cert.Consts.z32_eq, zero_add, ← coe_sum]
    exact Finset.sum_congr rfl fun i _ => by rw [hr i j, EReal.coe_mul]
  have hmean : meanOf cn x j = (((∑ i, r i j) * (1 / ((n : ℕ) : ℝ)) : ℝ) : EReal) := by
    show Ideal.div (colSum x j) cn = _
    rw [hs, hcn, Ideal.div_coe hN, ← EReal.coe_mul]
  -- the two-pass variance is a real number ≥ 0
  have hv2 : varTwoPass cn x j
      = (((∑ i, (r i j - (∑ i, r i j) * (1 / ((n : ℕ) : ℝ))) * (r i j - (∑ i, r i j) * (1 / ((n : ℕ) : ℝ))))
            * (1 / ((n : ℕ) : ℝ)) : ℝ) : EReal) := by
    show Ideal.div (z32 + ∑ i : Fin n, (x i j - meanOf cn x j) * (x i j - meanOf cn x j)) cn = _
    have hsum : (∑ i : Fin n, (x i j - meanOf cn x j) * (x i j - meanOf cn x j))
        = ((∑ i, (r i j - (∑ i, r i j) * (1 / ((n : ℕ) : ℝ))) * (r i j - (∑ i, r i j) * (1 / ((n : ℕ) : ℝ))) : ℝ)
            : EReal) := by
      rw [← coe_sum]
      exact Finset.sum_congr rfl fun i _ => by rw [hmean, hr i j, ← EReal.coe_sub, ← EReal.coe_mul]
    rw [hsum, Cert.Consts.z32_eq, zero_add, hcn, Ideal.div_coe hN, ← EReal.coe_mul]
  have hnonneg : (0 : ℝ) ≤ (∑ i, (r i j - (∑ i, r i j) * (1 / ((n : ℕ) : ℝ)))
      * (r i j - (∑ i, r i j) * (1 / ((n : ℕ) : ℝ)))) * (1 / ((n : ℕ) : ℝ)) :=
    mul_nonneg (Finset.sum_nonneg fun i _ => mul_self_nonneg _) (by positivity)
  -- the one-pass variance is the clamp of the same real number
  have hv1 : varOnePass cn (colSum x) (colSum (fun i j => x i j * x i j)) j
      = max (((∑ i, r i j * r i j) * (1 / ((n : ℕ) : ℝ))
          - ((∑ i, r i j) * (1 / ((n : ℕ) : ℝ))) * ((∑ i, r i j) * (1 / ((n : ℕ) : ℝ))) : ℝ) : EReal) 0 := by
    show max (Ideal.div (colSum (fun i j => x i j * x i j) j) cn
      - Ideal.div (colSum x j) cn * Ideal.div (colSum x j) cn) z32 = _
    rw [hs, hq, hcn, Ideal.div_coe hN, Ideal.div_coe hN, Cert.Consts.z32_eq, ← EReal.coe_mul, ← EReal.coe_mul,
      ← EReal.coe_mul, ← EReal.coe_sub]
  rw [hv1, hv2, Cert.Consts.z32_eq, ← real_var hn (fun i => r i j)]
  have h0 : (0 : EReal) ≤ (((∑ i, (r i j - (∑ i, r i j) * (1 / ((n : ℕ) : ℝ)))
      * (r i j - (∑ i, r i j) * (1 / ((n : ℕ) : ℝ)))) * (1 / ((n : ℕ) : ℝ)) : ℝ) : EReal) :=
    EReal.coe_nonneg.mpr hnonneg
  rw [max_eq_left h0, max_eq_left h0]

/-- On real data with the true row count, the batch normalisation from handed-in column sums (one-pass variance,
    clamped twice) is the reference's two-pass batch normalisation. -/
theorem bnOnePass_eq_bnTwoPass {n : Nat} (hn : 0 < n) (cn : EReal) (hcn : cn = (((n : ℕ) : ℝ) : EReal))
    (x xin : Cert.Spec.Mat n 96) (γ β : Cert.Spec.Row 96) (hx : Cert.Spec.RealMat x) :
    Cert.Spec.bnOnePass cn (Cert.Spec.colSum x) (Cert.Spec.colSum (fun i j => x i j * x i j)) x xin γ β
      = Cert.Spec.bnTwoPass cn x xin γ β := by
  have hvar : (fun j => max (varOnePass cn (colSum x) (colSum (fun i j => x i j * x i j)) j) z32)
      = varTwoPass cn x := funext fun j => var_eq hn cn hcn x hx j
  show normRelu x xin (fun j => Ideal.div (colSum x j) cn)
      (fun j => max (varOnePass cn (colSum x) (colSum (fun i j => x i j * x i j)) j) z32) γ β
    = normRelu x xin (meanOf cn x) (varTwoPass cn x) γ β
  rw [hvar]
  rfl

end Cert.MathVar

end
-- ==== Proof.MathRegroup.lean ====
/-
  The column total formed core by core and tile by tile is the plain column sum.

  The kernel adds the rows of a column in a fixed grouping: inside a tile the R rows are added onto the float
  zero; on a core the T tile sums are added one after another onto the float zero; and the two cores' totals
  are added onto the float zero. The float zero is the real 0, and addition on the extended reals is
  commutative and associative, so every leading zero drops out and only the grouping of the rows is left:
    Σ_{c < 2} Σ_{t < T} Σ_{r < R} f(c·(T·R) + t·R + r) = Σ_{i < 2·(T·R)} f(i).
  That identity is the division of the index range [0, m·n) into m consecutive blocks of length n, used twice
  (2 blocks of length T·R, then T blocks of length R). To keep every index a plain natural number, f is
  extended by 0 beyond its domain; sums over Fin k then become sums over the range [0, k).

  T, R and n stay variables throughout.
-/
import proofs.«422570_j39187281608763_2_alg».proof.Proof.Spec
import proofs.«422570_j39187281608763_2_alg».proof.Proof.Consts
import Mathlib.Data.EReal.Basic
import Mathlib.Algebra.BigOperators.Group.Finset.Basic
import Mathlib.Data.Fintype.BigOperators

noncomputable section

open scoped BigOperators

namespace Cert.MathRegroup

open Cert.Spec

/-- With the float zero equal to 0, a tile's sum is the plain sum of its rows. -/
theorem tileSum_eq (hz : z32 = 0) {R : Nat} (f : Fin R → EReal) : tileSum f = ∑ r : Fin R, f r := by
  unfold tileSum
  rw [hz, zero_add]

/-- With the float zero equal to 0, a core's running sum after tiles 0 … t is the double sum over those tiles
    and their rows: by induction on t, each step adding one more tile. -/
theorem accUpTo_eq (hz : z32 = 0) {R : Nat} (f : Nat → Fin R → EReal) (t : Nat) :
    accUpTo f t = ∑ s ∈ Finset.range (t + 1), ∑ r : Fin R, f s r := by
  induction t with
  | zero => rw [accUpTo, tileSum_eq hz, hz, zero_add, Finset.sum_range_one]
  | succ t ih => rw [accUpTo, ih, tileSum_eq hz, Finset.sum_range_succ _ (t + 1)]

/-- The range [0, m·n) is m consecutive blocks of length n: index k = a·n + b with a < m, b < n. By induction
    on m, splitting off the last block [m·n, m·n + n). -/
theorem sum_range_mul (g : Nat → EReal) (m n : Nat) :
    ∑ k ∈ Finset.range (m * n), g k = ∑ a ∈ Finset.range m, ∑ b ∈ Finset.range n, g (a * n + b) := by
  induction m with
  | zero => simp
  | succ m ih => rw [Nat.succ_mul, Finset.sum_range_add, ih, Finset.sum_range_succ]

/-- The regrouping for any value of the float zero that is 0. -/
theorem twoCoreSum_eq_of (hz : z32 = 0) (T R : Nat) {n : Nat} (hn : n = 2 * (T * R)) (hT : 0 < T)
    (f : Fin n → EReal) : twoCoreSum T R hn hT f = z32 + ∑ i : Fin n, f i := by
  subst hn
  unfold twoCoreSum
  congr 1
  -- f extended by 0 to all natural numbers: g k = f k for k inside the domain.
  obtain ⟨g, hfg⟩ : ∃ g : Nat → EReal, ∀ (k : Nat) (h : k < 2 * (T * R)), f ⟨k, h⟩ = g k :=
    ⟨fun k => if h : k < 2 * (T * R) then f ⟨k, h⟩ else 0, fun k h => by simp [h]⟩
  -- The plain sum, over the range [0, 2·(T·R)).
  have hR : ∑ i : Fin (2 * (T * R)), f i = ∑ k ∈ Finset.range (2 * (T * R)), g k := by
    rw [← Fin.sum_univ_eq_sum_range]
    exact Finset.sum_congr rfl (fun i _ => hfg i.val i.isLt)
  -- Two blocks of length T·R, one per core.
  rw [hR, sum_range_mul g 2 (T * R),
    ← Fin.sum_univ_eq_sum_range (fun c => ∑ b ∈ Finset.range (T * R), g (c * (T * R) + b)) 2]
  refine Finset.sum_congr rfl (fun c _ => ?_)
  -- On core c: the running sum after the last tile T − 1, against T blocks of length R.
  rw [accUpTo_eq hz, Nat.sub_add_cancel hT, sum_range_mul (fun b => g (c.val * (T * R) + b)) T R]
  refine Finset.sum_congr rfl (fun s hs => ?_)
  have hs' : s < T := Finset.mem_range.mp hs
  -- In tile s: the R rows.
  rw [← Fin.sum_univ_eq_sum_range (fun b => g (c.val * (T * R) + (s * R + b))) R]
  refine Finset.sum_congr rfl (fun r _ => ?_)
  rw [dif_pos hs', hfg, Nat.add_assoc]

/-- The column total formed core by core and tile by tile is the float zero plus the plain sum. -/
theorem twoCoreSum_eq (T R : Nat) {n : Nat} (hn : n = 2 * (T * R)) (hT : 0 < T) (f : Fin n → EReal) :
    Cert.Spec.twoCoreSum T R hn hT f = Cert.Spec.z32 + ∑ i : Fin n, f i :=
  twoCoreSum_eq_of Cert.Consts.z32_eq T R hn hT f

/-- Column by column, the two-core total of a matrix is its column sum. -/
theorem twoCoreSum_col (T R : Nat) {n : Nat} (hn : n = 2 * (T * R)) (hT : 0 < T) (x : Cert.Spec.Mat n 96) :
    (fun j => Cert.Spec.twoCoreSum T R hn hT (fun i => x i j)) = Cert.Spec.colSum x := by
  funext j
  rw [twoCoreSum_eq]
  rfl

end Cert.MathRegroup

end
-- ==== Proof.Bridge.lean ====
/-
  The kernel's batch normalisation is the reference's on real data: the column sums formed core by core and tile by
  tile are the plain column sums (only the grouping of a commutative, associative sum changes), and with those the
  one-pass variance clamped at zero is the two-pass variance (the mean of the squares minus the squared mean is the
  mean of the squared deviations, which is never negative).
-/
import proofs.«422570_j39187281608763_2_alg».proof.Proof.MathVar
import proofs.«422570_j39187281608763_2_alg».proof.Proof.MathRegroup

noncomputable section

namespace Cert.Bridge

open Cert.Spec

theorem bn_eq {n : Nat} (T R : Nat) (hn : n = 2 * (T * R)) (hT : 0 < T) (hn0 : 0 < n) (cn : EReal)
    (hcn : cn = (((n : ℕ) : ℝ) : EReal)) (x xin : Mat n 96) (γ β : Row 96) (hx : RealMat x) :
    bnOnePass cn (fun j => twoCoreSum T R hn hT (fun i => x i j))
        (fun j => twoCoreSum T R hn hT (fun i => x i j * x i j)) x xin γ β
      = bnTwoPass cn x xin γ β := by
  rw [Cert.MathRegroup.twoCoreSum_col T R hn hT x,
    show (fun j => twoCoreSum T R hn hT (fun i => x i j * x i j)) = colSum (fun i j => x i j * x i j) from
      Cert.MathRegroup.twoCoreSum_col T R hn hT (fun i j => x i j * x i j)]
  exact Cert.MathVar.bnOnePass_eq_bnTwoPass hn0 cn hcn x xin γ β hx

end Cert.Bridge

end
-- ==== Proof.MathFinite.lean ====
/-
  On real inputs every stage of the layer is a real number.

  The extended reals carry the reals as a subring on which sums and products are computed as in ℝ, so a finite sum
  of products of reals is a real; that settles the five affine maps and the edge pre-activation. The gate
  1 / (1 + exp (−r)) of a real r is the real (1 + exp (−r))⁻¹, which is positive. A segment sum of reals is a real,
  and a segment sum of positive reals is a real that is not negative; adding ε_deg > 0 to it gives a positive real,
  and the quotient of an extended real by a nonzero real y is its product with the real 1 / y. Hence the node update
  is real as well.
-/
import proofs.«422570_j39187281608763_2_alg».proof.Proof.Spec
import proofs.«422570_j39187281608763_2_alg».proof.Proof.Consts

open scoped BigOperators

namespace Cert.MathFinite

open Idealize.ShloMosaic Cert.Spec

/-! ### Closure of the reals inside the extended reals -/

theorem isReal_coe (r : ℝ) : IsReal (r : EReal) := ⟨r, rfl⟩

theorem isReal_zero : IsReal (0 : EReal) := ⟨0, EReal.coe_zero.symm⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is a real: by induction on the index set, the coercion commuting with each addition. -/
theorem isReal_sum {ι : Type} (s : Finset ι) (f : ι → EReal) (hf : ∀ i ∈ s, IsReal (f i)) :
    IsReal (∑ i ∈ s, f i) := by
  classical
  refine Finset.induction_on (motive := fun t => (∀ i ∈ t, IsReal (f i)) → IsReal (∑ i ∈ t, f i)) s ?_ ?_ hf
  · intro _
    rw [Finset.sum_empty]
    exact isReal_zero
  · intro a t ha ih h
    rw [Finset.sum_insert ha]
    exact isReal_add (h a (Finset.mem_insert_self a t)) (ih fun i hi => h i (Finset.mem_insert_of_mem hi))

/-- An extended real that is a real number and not negative. -/
def IsNonnegReal (x : EReal) : Prop := ∃ r : ℝ, 0 ≤ r ∧ x = (r : EReal)

/-- An extended real that is a positive real number. -/
def IsPosReal (x : EReal) : Prop := ∃ r : ℝ, 0 < r ∧ x = (r : EReal)

theorem IsPosReal.nonneg {x : EReal} (h : IsPosReal x) : IsNonnegReal x := by
  obtain ⟨r, hr, rfl⟩ := h
  exact ⟨r, hr.le, rfl⟩

theorem IsPosReal.isReal {x : EReal} (h : IsPosReal x) : IsReal x := by
  obtain ⟨r, _, rfl⟩ := h
  exact ⟨r, rfl⟩

theorem IsNonnegReal.isReal {x : EReal} (h : IsNonnegReal x) : IsReal x := by
  obtain ⟨r, _, rfl⟩ := h
  exact ⟨r, rfl⟩

theorem isNonnegReal_add {x y : EReal} (hx : IsNonnegReal x) (hy : IsNonnegReal y) : IsNonnegReal (x + y) := by
  obtain ⟨a, ha, rfl⟩ := hx
  obtain ⟨b, hb, rfl⟩ := hy
  exact ⟨a + b, add_nonneg ha hb, (EReal.coe_add a b).symm⟩

/-- A finite sum of reals none of which is negative is again such a real. -/
theorem isNonnegReal_sum {ι : Type} (s : Finset ι) (f : ι → EReal) (hf : ∀ i ∈ s, IsNonnegReal (f i)) :
    IsNonnegReal (∑ i ∈ s, f i) := by
  classical
  refine Finset.induction_on
    (motive := fun t => (∀ i ∈ t, IsNonnegReal (f i)) → IsNonnegReal (∑ i ∈ t, f i)) s ?_ ?_ hf
  · intro _
    rw [Finset.sum_empty]
    exact ⟨0, le_refl 0, EReal.coe_zero.symm⟩
  · intro a t ha ih h
    rw [Finset.sum_insert ha]
    exact isNonnegReal_add (h a (Finset.mem_insert_self a t)) (ih fun i hi => h i (Finset.mem_insert_of_mem hi))

/-- A real that is not negative plus a positive real is a positive real. -/
theorem isPosReal_add {x y : EReal} (hx : IsNonnegReal x) (hy : IsPosReal y) : IsPosReal (x + y) := by
  obtain ⟨a, ha, rfl⟩ := hx
  obtain ⟨b, hb, rfl⟩ := hy
  exact ⟨a + b, add_pos_of_nonneg_of_pos ha hb, (EReal.coe_add a b).symm⟩

/-- The gate of a real r is the positive real (1 + exp (−r))⁻¹. -/
theorem isPosReal_logistic {x : EReal} (hx : IsReal x) : IsPosReal (Ideal.logistic x) := by
  obtain ⟨r, rfl⟩ := hx
  refine ⟨(1 + Real.exp (-r))⁻¹, ?_, Ideal.logistic_coe r⟩
  exact inv_pos.mpr (add_pos_of_pos_of_nonneg one_pos (Real.exp_pos (-r)).le)

/-- The quotient of a real by a positive real is a real: it is the product with the reciprocal. -/
theorem isReal_div {x y : EReal} (hx : IsReal x) (hy : IsPosReal y) : IsReal (Ideal.div x y) := by
  obtain ⟨b, hb, rfl⟩ := hy
  rw [Ideal.div_coe hb.ne' x]
  exact isReal_mul hx (isReal_coe (1 / b))

/-! ### The stages -/

/-- The float zero is the real zero. -/
theorem isNonnegReal_z32 : IsNonnegReal z32 := ⟨0, le_refl 0, by rw [Cert.Consts.z32_eq, EReal.coe_zero]⟩

theorem isPosReal_epsDeg : IsPosReal epsDeg := Cert.Consts.epsDeg_pos

theorem lin_real {n : Nat} {x : Mat n 96} {w : Mat 96 96} {b : Row 96}
    (hx : RealMat x) (hw : RealMat w) (hb : RealRow b) : RealMat (lin x w b) := by
  intro i j
  exact isReal_add (isReal_sum _ _ fun k _ => isReal_mul (hx i k) (hw j k)) (hb j)

theorem enew_real {Dh Eh : Mat 50000 96} {Ce : Mat 800000 96} (src dst : Fin 800000 → Fin 50000)
    (hD : RealMat Dh) (hE : RealMat Eh) (hC : RealMat Ce) : RealMat (enew Dh Eh Ce src dst) := by
  intro k j
  exact isReal_add (isReal_add (hD (src k) j) (hE (dst k) j)) (hC k j)

/-- Every entry of the gate of a real matrix is a positive real. -/
theorem gate_pos {n : Nat} {x : Mat n 96} (hx : RealMat x) (k : Fin n) (j : Fin 96) : IsPosReal (gate x k j) :=
  isPosReal_logistic (hx k j)

theorem gatedMsg_real {Bh : Mat 50000 96} {sg : Mat 800000 96} (src : Fin 800000 → Fin 50000)
    (hB : RealMat Bh) (hs : RealMat sg) : RealMat (gatedMsg Bh sg src) := by
  intro k j
  exact isReal_mul (hB (src k) j) (hs k j)

theorem segSum_real (dst : Fin 800000 → Fin 50000) {u : Mat 800000 96} (hu : RealMat u) :
    RealMat (segSum dst u) := by
  intro p q
  exact isReal_add isNonnegReal_z32.isReal (isReal_sum _ _ fun k _ => hu k q)

theorem segSum_nonneg (dst : Fin 800000 → Fin 50000) {u : Mat 800000 96} (hu : ∀ k j, IsNonnegReal (u k j))
    (p : Fin 50000) (q : Fin 96) : IsNonnegReal (segSum dst u p q) :=
  isNonnegReal_add isNonnegReal_z32 (isNonnegReal_sum _ _ fun k _ => hu k q)

/-- The node update is real when the aggregate is real and the gate total is not negative: the divisor is then the
    positive real (gate total) + ε_deg. -/
theorem hnew_real {Ah ssh ss : Mat 50000 96} (hA : RealMat Ah) (hssh : RealMat ssh)
    (hss : ∀ p q, IsNonnegReal (ss p q)) : RealMat (hnew Ah ssh ss) := by
  intro p q
  exact isReal_add (hA p q) (isReal_div (hssh p q) (isPosReal_add (hss p q) isPosReal_epsDeg))

section Stages

variable (h : Mat 50000 96) (e : Mat 800000 96) (src dst : Fin 800000 → Fin 50000)
  (Aw : Mat 96 96) (Ab : Row 96) (Bw : Mat 96 96) (Bb : Row 96) (Cw : Mat 96 96) (Cb : Row 96)
  (Dw : Mat 96 96) (Db : Row 96) (Ew : Mat 96 96) (Eb : Row 96)

theorem stages_en_real (hh : RealMat h) (he : RealMat e) (hAw : RealMat Aw) (hAb : RealRow Ab)
    (hBw : RealMat Bw) (hBb : RealRow Bb) (hCw : RealMat Cw) (hCb : RealRow Cb)
    (hDw : RealMat Dw) (hDb : RealRow Db) (hEw : RealMat Ew) (hEb : RealRow Eb) :
    RealMat (stages h e src dst Aw Ab Bw Bb Cw Cb Dw Db Ew Eb).en :=
  enew_real src dst (lin_real hh hDw hDb) (lin_real hh hEw hEb) (lin_real he hCw hCb)

theorem stages_hn_real (hh : RealMat h) (he : RealMat e) (hAw : RealMat Aw) (hAb : RealRow Ab)
    (hBw : RealMat Bw) (hBb : RealRow Bb) (hCw : RealMat Cw) (hCb : RealRow Cb)
    (hDw : RealMat Dw) (hDb : RealRow Db) (hEw : RealMat Ew) (hEb : RealRow Eb) :
    RealMat (stages h e src dst Aw Ab Bw Bb Cw Cb Dw Db Ew Eb).hn := by
  have hen := stages_en_real h e src dst Aw Ab Bw Bb Cw Cb Dw Db Ew Eb hh he hAw hAb hBw hBb hCw hCb hDw hDb hEw hEb
  have hsg : ∀ k j, IsPosReal ((stages h e src dst Aw Ab Bw Bb Cw Cb Dw Db Ew Eb).sg k j) := gate_pos hen
  exact hnew_real (lin_real hh hAw hAb)
    (segSum_real dst (gatedMsg_real src (lin_real hh hBw hBb) fun k j => (hsg k j).isReal))
    (segSum_nonneg dst fun k j => (hsg k j).nonneg)

end Stages

end Cert.MathFinite
-- ==== Proof.Claims.lean ====
/-
  The five claims. The two kernel frames are the generated frame certificates and the ledger of rewrites is empty.
  The reference's frame is its run with the results dropped. For the equivalence: under the precondition every float
  argument is real-valued and the two index vectors hold node numbers in range; the idealized kernel's run ends with
  its results at the final boundary's contents, which read back, stage by stage, as the one-pass batch normalisation
  of the layer's node update and edge pre-activation; the reference's run ends at the two-pass batch normalisation of
  the same stages; and on real data the two normalisations are one function.
-/
import proofs.«422570_j39187281608763_2_alg».proof.Defs
import proofs.«422570_j39187281608763_2_alg».proof.Proof.Gen.Kernel.Frame
import proofs.«422570_j39187281608763_2_alg».proof.Proof.Gen.Pre_finite_inputs
import proofs.«422570_j39187281608763_2_alg».proof.Proof.KernelRun
import proofs.«422570_j39187281608763_2_alg».proof.Proof.KChain
import proofs.«422570_j39187281608763_2_alg».proof.Proof.RefRun
import proofs.«422570_j39187281608763_2_alg».proof.Proof.RefStages
import proofs.«422570_j39187281608763_2_alg».proof.Proof.RefBn
import proofs.«422570_j39187281608763_2_alg».proof.Proof.PreFacts
import proofs.«422570_j39187281608763_2_alg».proof.Proof.Bridge
import proofs.«422570_j39187281608763_2_alg».proof.Proof.MathFinite

noncomputable section

namespace Cert.Proof.Claims

open Idealize.ShloMosaic Idealize.ShloMosaic.TcCoe Idealize.SL.Sem Cert.Conv

/-! ## The reference's two results as functions of the layer's stages -/

section Reference

open Cert.ReferenceIdeal

variable (h : FVec Ideal S50000x96 .f32) (e : FVec Ideal S800000x96 .f32) (src dst : IVec S800000 32)
  (Aw : FVec Ideal S96x96 .f32) (Ab : FVec Ideal S96 .f32) (Bw : FVec Ideal S96x96 .f32) (Bb : FVec Ideal S96 .f32)
  (Cw : FVec Ideal S96x96 .f32) (Cb : FVec Ideal S96 .f32) (Dw : FVec Ideal S96x96 .f32) (Db : FVec Ideal S96 .f32)
  (Ew : FVec Ideal S96x96 .f32) (Eb : FVec Ideal S96 .f32) (γh βh γe βe : FVec Ideal S96 .f32)
  (srcN dstN : Fin 800000 → Fin 50000)

/-- The reference's first result is the two-pass batch normalisation of the node update. -/
theorem outH_eq (hs : Holds src srcN) (hd : Holds dst dstN) :
    toMat (Cert.RefTerm.outH (F := Ideal) h e src dst Aw Ab Bw Bb Cw Cb Dw Db Ew Eb γh βh)
      = Cert.Spec.bnTwoPass Cert.Spec.cN (Cert.Spec.stages (toMat h) (toMat e) srcN dstN (toMat Aw) (toRow Ab) (toMat Bw) (toRow Bb) (toMat Cw) (toRow Cb) (toMat Dw) (toRow Db) (toMat Ew) (toRow Eb)).hn (toMat h) (toRow γh) (toRow βh) := by
  unfold Cert.RefTerm.outH
  rw [Cert.RefBn.bnN_eq, Cert.RefStages.hnAll_eq h e src dst Aw Ab Bw Bb Cw Cb Dw Db Ew Eb srcN dstN hs hd]

/-- The reference's second result is the two-pass batch normalisation of the edge pre-activation. -/
theorem outE_eq (hs : Holds src srcN) (hd : Holds dst dstN) :
    toMat (Cert.RefTerm.outE (F := Ideal) h e src dst Cw Cb Dw Db Ew Eb γe βe)
      = Cert.Spec.bnTwoPass Cert.Spec.cE (Cert.Spec.stages (toMat h) (toMat e) srcN dstN (toMat Aw) (toRow Ab) (toMat Bw) (toRow Bb) (toMat Cw) (toRow Cb) (toMat Dw) (toRow Db) (toMat Ew) (toRow Eb)).en (toMat e) (toRow γe) (toRow βe) := by
  unfold Cert.RefTerm.outE
  rw [Cert.RefBn.bnE_eq, Cert.RefStages.enAll_eq h e src dst Aw Ab Bw Bb Cw Cb Dw Db Ew Eb srcN dstN hs hd]

/-- The result term depends on its arguments only. -/
theorem outH_congr {h₁ h₂ : FVec Ideal S50000x96 .f32} {e₁ e₂ : FVec Ideal S800000x96 .f32} {src₁ src₂ : IVec S800000 32} {dst₁ dst₂ : IVec S800000 32} {Aw₁ Aw₂ : FVec Ideal S96x96 .f32} {Ab₁ Ab₂ : FVec Ideal S96 .f32} {Bw₁ Bw₂ : FVec Ideal S96x96 .f32} {Bb₁ Bb₂ : FVec Ideal S96 .f32} {Cw₁ Cw₂ : FVec Ideal S96x96 .f32} {Cb₁ Cb₂ : FVec Ideal S96 .f32} {Dw₁ Dw₂ : FVec Ideal S96x96 .f32} {Db₁ Db₂ : FVec Ideal S96 .f32} {Ew₁ Ew₂ : FVec Ideal S96x96 .f32} {Eb₁ Eb₂ : FVec Ideal S96 .f32} {γh₁ γh₂ : FVec Ideal S96 .f32} {βh₁ βh₂ : FVec Ideal S96 .f32}
    (q0 : h₁ = h₂) (q1 : e₁ = e₂) (q2 : src₁ = src₂) (q3 : dst₁ = dst₂) (q4 : Aw₁ = Aw₂) (q5 : Ab₁ = Ab₂) (q6 : Bw₁ = Bw₂) (q7 : Bb₁ = Bb₂) (q8 : Cw₁ = Cw₂) (q9 : Cb₁ = Cb₂) (q10 : Dw₁ = Dw₂) (q11 : Db₁ = Db₂) (q12 : Ew₁ = Ew₂) (q13 : Eb₁ = Eb₂) (q14 : γh₁ = γh₂) (q15 : βh₁ = βh₂) :
    Cert.RefTerm.outH (F := Ideal) h₁ e₁ src₁ dst₁ Aw₁ Ab₁ Bw₁ Bb₁ Cw₁ Cb₁ Dw₁ Db₁ Ew₁ Eb₁ γh₁ βh₁ = Cert.RefTerm.outH (F := Ideal) h₂ e₂ src₂ dst₂ Aw₂ Ab₂ Bw₂ Bb₂ Cw₂ Cb₂ Dw₂ Db₂ Ew₂ Eb₂ γh₂ βh₂ := by
  subst q0; subst q1; subst q2; subst q3; subst q4; subst q5; subst q6; subst q7; subst q8; subst q9; subst q10; subst q11; subst q12; subst q13; subst q14; subst q15
  rfl

/-- The result term depends on its arguments only. -/
theorem outE_congr {h₁ h₂ : FVec Ideal S50000x96 .f32} {e₁ e₂ : FVec Ideal S800000x96 .f32} {src₁ src₂ : IVec S800000 32} {dst₁ dst₂ : IVec S800000 32} {Cw₁ Cw₂ : FVec Ideal S96x96 .f32} {Cb₁ Cb₂ : FVec Ideal S96 .f32} {Dw₁ Dw₂ : FVec Ideal S96x96 .f32} {Db₁ Db₂ : FVec Ideal S96 .f32} {Ew₁ Ew₂ : FVec Ideal S96x96 .f32} {Eb₁ Eb₂ : FVec Ideal S96 .f32} {γe₁ γe₂ : FVec Ideal S96 .f32} {βe₁ βe₂ : FVec Ideal S96 .f32}
    (q0 : h₁ = h₂) (q1 : e₁ = e₂) (q2 : src₁ = src₂) (q3 : dst₁ = dst₂) (q4 : Cw₁ = Cw₂) (q5 : Cb₁ = Cb₂) (q6 : Dw₁ = Dw₂) (q7 : Db₁ = Db₂) (q8 : Ew₁ = Ew₂) (q9 : Eb₁ = Eb₂) (q10 : γe₁ = γe₂) (q11 : βe₁ = βe₂) :
    Cert.RefTerm.outE (F := Ideal) h₁ e₁ src₁ dst₁ Cw₁ Cb₁ Dw₁ Db₁ Ew₁ Eb₁ γe₁ βe₁ = Cert.RefTerm.outE (F := Ideal) h₂ e₂ src₂ dst₂ Cw₂ Cb₂ Dw₂ Db₂ Ew₂ Eb₂ γe₂ βe₂ := by
  subst q0; subst q1; subst q2; subst q3; subst q4; subst q5; subst q6; subst q7; subst q8; subst q9; subst q10; subst q11
  rfl

end Reference

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.RefRun.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.W11 m ρ c (Proc.devRef .tc Cert.KernelIdeal.main_v45),
    fun c => Cert.KernelIdeal.Gen.W11 m ρ c (Proc.devRef .tc Cert.KernelIdeal.main_v46),
    Cert.KernelIdeal.Run.run_results m ρ, ?_⟩
  refine (θ_run Cert.ReferenceIdeal.defs _ _).mono (fun r hr c => ?_) (Cert.RefRun.run (F := Ideal) m' ρ')
  obtain ⟨h105, h106, hargs⟩ := hr c
  obtain ⟨e0, e1, e2, e3, e4, e5, e6, e7, e8, e9, e10, e11, e12, e13, e14, e15, e16, e17⟩ := hagree c
  have D := Cert.PreFacts.of_pre _ _ _ _ _ _ _ _ _ _ _ _ _ _ _ _ _ _ (hpre c)
  obtain ⟨srcN, hs⟩ := D.src
  obtain ⟨dstN, hd⟩ := D.dst
  have hhn := Cert.MathFinite.stages_hn_real _ _ srcN dstN _ _ _ _ _ _ _ _ _ _
    D.r0 D.r1 D.r4 D.r5 D.r6 D.r7 D.r8 D.r9 D.r10 D.r11 D.r12 D.r13
  have hen := Cert.MathFinite.stages_en_real _ _ srcN dstN _ _ _ _ _ _ _ _ _ _
    D.r0 D.r1 D.r4 D.r5 D.r6 D.r7 D.r8 D.r9 D.r10 D.r11 D.r12 D.r13
  -- the reference's terms at its own memory are its terms at the kernel's memory: the arguments agree
  have hH := outH_congr e0 e1 e2 e3 e4 e5 e6 e7 e8 e9 e10 e11 e12 e13 e14 e15
  have hE := outE_congr e0 e1 e2 e3 e8 e9 e10 e11 e12 e13 e16 e17
  refine ⟨h105.trans (hH.trans ?_), h106.trans (hE.trans ?_), hargs⟩
  · refine Cert.Conv.toMat_inj (n := 50000) (c := 96) ?_
    refine (outH_eq _ _ _ _ _ _ _ _ _ _ _ _ _ _ _ _ srcN dstN hs hd).trans ?_
    refine Eq.trans ?_ (Cert.KChain.kernel_h m ρ c srcN dstN hs hd).symm
    exact (Cert.Bridge.bn_eq 25 1000 _ _ (by norm_num) _ Cert.MathVar.cN_nat _ _ _ _ hhn).symm
  · refine Cert.Conv.toMat_inj (n := 800000) (c := 96) ?_
    refine (outE_eq _ _ _ _ (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) _ _ _ _ _ _ _ _ srcN dstN hs hd).trans ?_
    refine Eq.trans ?_ (Cert.KChain.kernel_e m ρ c srcN dstN hs hd).symm
    exact (Cert.Bridge.bn_eq 50 8000 _ _ (by norm_num) _ Cert.MathVar.cE_nat _ _ _ _ hen).symm

end Cert.Proof.Claims

end
-- ==== Proof.lean ====
/-
  The certificate's claim: the two kernel frames, the reference's frame, the (empty) ledger of rewrites, and the
  equivalence of the idealized kernel and the idealized reference over the extended reals, under the precondition
  that every float argument is finite and both index vectors hold node numbers in range. Each conjunct is proved in
  Proof/Claims.lean; the witnesses of the programs' stated side conditions are the generated instances.
-/
import proofs.«422570_j39187281608763_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
